-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg20 : FVec F S128 .f32) (main_arg21 : FVec F S128x128 .f32) (main_arg22 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg16 : FVec F S128 .f32) (main_arg17 : FVec F S128x128 .f32) (main_arg18 : FVec F S128 .f32) (main_arg19 : FVec F S128 .f32) (main_arg20 : FVec F S128 .f32) (main_arg21 : FVec F S128x128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S128x128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S128x128 .f32) (main_arg22 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S128x128 .f32) (main_arg22 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S128x128 .f32) (main_arg22 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S2000x64 : Shape := ⟨2, ![2000, 64]⟩
abbrev S2000x128 : Shape := ⟨2, ![2000, 128]⟩
abbrev S1x128 : Shape := ⟨2, ![1, 128]⟩
abbrev S1600000x128 : Shape := ⟨2, ![1600000, 128]⟩
abbrev S100000x1 : Shape := ⟨2, ![100000, 1]⟩
abbrev S256x128 : Shape := ⟨2, ![256, 128]⟩
abbrev S256 : Shape := ⟨1, ![256]⟩
abbrev S2000x1 : Shape := ⟨2, ![2000, 1]⟩
abbrev S2000x256 : Shape := ⟨2, ![2000, 256]⟩
abbrev S256x1 : Shape := ⟨2, ![256, 1]⟩

abbrev nBuf : Space → Nat
  | .hbm => 115
  | .vmem => 66
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x128, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x128, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S100000x128, .f32⟩
  | .hbm, ⟨102, _⟩ => ⟨S100000x1, .i32⟩
  | .hbm, ⟨103, _⟩ => ⟨S256x128, .f32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x128, .f32⟩
  | .hbm, ⟨110, _⟩ => ⟨S256x128, .f32⟩
  | .hbm, ⟨111, _⟩ => ⟨S256x128, .f32⟩
  | .hbm, ⟨112, _⟩ => ⟨S1x128, .f32⟩
  | .hbm, ⟨113, _⟩ => ⟨S256x128, .f32⟩
  | .hbm, ⟨114, _⟩ => ⟨S256x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S128, .f32⟩
  | .local _ .vmem, ⟨31, _⟩ => ⟨S128, .f32⟩
  | .local _ .vmem, ⟨32, _⟩ => ⟨S2000x128, .f32⟩
  | .local _ .vmem, ⟨33, _⟩ => ⟨S2000x128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S128, .f32⟩
  | .local _ .vmem, ⟨46, _⟩ => ⟨S128x128, .f32⟩
  | .local _ .vmem, ⟨47, _⟩ => ⟨S128, .f32⟩
  | .local _ .vmem, ⟨48, _⟩ => ⟨S2000x128, .f32⟩
  | .local _ .vmem, ⟨49, _⟩ => ⟨S2000x128, .f32⟩
  | .local _ .vmem, ⟨50, _⟩ => ⟨S128, .f32⟩
  | .local _ .vmem, ⟨51, _⟩ => ⟨S128, .f32⟩
  | .local _ .vmem, ⟨52, _⟩ => ⟨S2000x128, .f32⟩
  | .local _ .vmem, ⟨53, _⟩ => ⟨S2000x128, .f32⟩
  | .local _ .vmem, ⟨54, _⟩ => ⟨S128, .f32⟩
  | .local _ .vmem, ⟨55, _⟩ => ⟨S128, .f32⟩
  | .local _ .vmem, ⟨56, _⟩ => ⟨S128, .f32⟩
  | .local _ .vmem, ⟨57, _⟩ => ⟨S128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x1, .i32⟩
  | .local _ .vmem, ⟨63, _⟩ => ⟨S2000x1, .i32⟩
  | .local _ .vmem, ⟨64, _⟩ => ⟨S256x128, .f32⟩
  | .local _ .vmem, ⟨65, _⟩ => ⟨S256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14_0 : Ref sig .tc := ⟨.hbm, 40, rfl⟩
abbrev main_v14_1 : Ref sig .tc := ⟨.hbm, 41, rfl⟩
abbrev main_v14_2 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32_0 : Ref sig .tc := ⟨.hbm, 65, rfl⟩
abbrev main_v32_1 : Ref sig .tc := ⟨.hbm, 66, rfl⟩
abbrev main_v32_2 : Ref sig .tc := ⟨.hbm, 67, rfl⟩
abbrev main_cst_6 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_8 : Ref sig .tc := ⟨.hbm, 77, rfl⟩
abbrev main_v40 : Ref sig .tc := ⟨.hbm, 78, rfl⟩
abbrev main_v41 : Ref sig .tc := ⟨.hbm, 79, rfl⟩
abbrev main_c_9 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_10 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50_0 : Ref sig .tc := ⟨.hbm, 90, rfl⟩
abbrev main_v50_1 : Ref sig .tc := ⟨.hbm, 91, rfl⟩
abbrev main_v50_2 : Ref sig .tc := ⟨.hbm, 92, rfl⟩
abbrev main_cst_11 : Ref sig .tc := ⟨.hbm, 93, rfl⟩
abbrev main_v51 : Ref sig .tc := ⟨.hbm, 94, rfl⟩
abbrev main_v52 : Ref sig .tc := ⟨.hbm, 95, rfl⟩
abbrev main_cst_12 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59_0 : Ref sig .tc := ⟨.hbm, 103, rfl⟩
abbrev main_v59_1 : Ref sig .tc := ⟨.hbm, 104, rfl⟩
abbrev main_cst_13 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S128_S128_0 : ∀ a, (![0] : Fin 1 → Nat) a + S128.size a ≤ S128.size a
  h_S128 : 0 < S128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S128_S128 : S128.ShapeCasts S128
  reduces_S2000x128_S128 : S2000x128.Reduces [0] S128
  bcast_S_S128 : S_.BroadcastsInDim S128 (![] : Fin 0 → Fin S128.rank)
  shapeCasts_S2000x128_S2000x128 : S2000x128.ShapeCasts S2000x128
  bcast_S_S100000x128 : S_.BroadcastsInDim S100000x128 (![] : Fin 0 → Fin S100000x128.rank)
  shapeCasts_S100000_S100000x1 : S100000.ShapeCasts S100000x1
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  iota_S2000x256_d1_w32 : S2000x256.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  natLt_1_32 : 1 < 32
  shapeCasts_S256x128_S256x128 : S256x128.ShapeCasts S256x128
  shapeCasts_S256_S256 : S256.ShapeCasts S256
  reduces_S2000x256_S256 : S2000x256.Reduces [0] S256
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x256_S2000x128_S256x128_0_0_1_1_n_n_wf : DotDims.WF S2000x256 S2000x128 S256x128 [0] [0] [1] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128.size a ≤ S128.size a
  hwx4_7 : ∀ i : grid4.Coords, EltTy.bits .f32 = 32 ∨ (Rect.block (s := S128) S128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256.size a ≤ S256.size a
  hwx6_3 : ∀ i : grid6.Coords, EltTy.bits .f32 = 32 ∨ (Rect.block (s := S256) S256.size (cc6_transform_3 i) (hinb6_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14_2) S128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v14_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v32_1) S128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v32_2) S128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v32_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v39) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg18) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v50_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v50_1) S128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v50_2) S128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v50_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg19) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg20) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v57) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v57) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v59_0) S256x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v59_1) S256.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S256x128 : Shape := ⟨2, ![256, 128]⟩
abbrev S100000x1 : Shape := ⟨2, ![100000, 1]⟩
abbrev S256x1 : Shape := ⟨2, ![256, 1]⟩

abbrev nBuf : Space → Nat
  | .hbm => 262
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128, .f32⟩
  | 20 => ⟨S128, .f32⟩
  | 21 => ⟨S128x128, .f32⟩
  | 22 => ⟨S128, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S100000x64, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S100000x128, .f32⟩
  | 65 => ⟨S100000x128, .f32⟩
  | 66 => ⟨S100000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S128, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x64, .f32⟩

abbrev hbmTy0_1 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S100000x128, .f32⟩
  | 9 => ⟨S100000x128, .f32⟩
  | 10 => ⟨S100000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S100000x128, .f32⟩
  | 81 => ⟨S100000x128, .f32⟩
  | 82 => ⟨S100000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S_, .f32⟩
  | 100 => ⟨S128, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S_, .f32⟩
  | 116 => ⟨S256x128, .f32⟩
  | 117 => ⟨S100000x1, .i32⟩
  | 118 => ⟨S256x128, .f32⟩
  | 119 => ⟨S_, .f32⟩
  | 120 => ⟨S100000x1, .f32⟩
  | 121 => ⟨S_, .f32⟩
  | 122 => ⟨S256x1, .f32⟩
  | 123 => ⟨S100000x1, .i32⟩
  | 124 => ⟨S256x1, .f32⟩
  | 125 => ⟨S_, .f32⟩
  | 126 => ⟨S256x1, .f32⟩
  | 127 => ⟨S256x1, .f32⟩
  | _ => ⟨S100000x64, .f32⟩

abbrev hbmTy0_2 (i : Nat) : BufTy := match i % 128 with
  | 0 => ⟨S256x128, .f32⟩
  | 1 => ⟨S256x128, .f32⟩
  | 2 => ⟨S256x128, .f32⟩
  | 3 => ⟨S1x128, .f32⟩
  | 4 => ⟨S256x128, .f32⟩
  | 5 => ⟨S256x128, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_1 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_c_3 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_cst_1 : Ref sig .tc := ⟨.hbm, 68, rfl⟩
abbrev main_call1_v8 : Ref sig .tc := ⟨.hbm, 69, rfl⟩
abbrev main_call1_cst_2 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_cst_3 : Ref sig .tc := ⟨.hbm, 74, rfl⟩
abbrev main_call1_v12 : Ref sig .tc := ⟨.hbm, 75, rfl⟩
abbrev main_call1_cst_4 : Ref sig .tc := ⟨.hbm, 76, rfl⟩
abbrev main_call1_call0_v0 : Ref sig .tc := ⟨.hbm, 77, rfl⟩
abbrev main_call1_call0_v1 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_4 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_call2_cst : Ref sig .tc := ⟨.hbm, 96, rfl⟩
abbrev main_call2_v0 : Ref sig .tc := ⟨.hbm, 97, rfl⟩
abbrev main_v43 : Ref sig .tc := ⟨.hbm, 98, rfl⟩
abbrev main_c_5 : Ref sig .tc := ⟨.hbm, 99, rfl⟩
abbrev main_v44 : Ref sig .tc := ⟨.hbm, 100, rfl⟩
abbrev main_v45 : Ref sig .tc := ⟨.hbm, 101, rfl⟩
abbrev main_c_6 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_7 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_call3_cst : Ref sig .tc := ⟨.hbm, 117, rfl⟩
abbrev main_call3_v0 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_8 : Ref sig .tc := ⟨.hbm, 124, rfl⟩
abbrev main_v64 : Ref sig .tc := ⟨.hbm, 125, rfl⟩
abbrev main_cst_9 : Ref sig .tc := ⟨.hbm, 126, rfl⟩
abbrev main_v65 : Ref sig .tc := ⟨.hbm, 127, rfl⟩
abbrev main_v66 : Ref sig .tc := ⟨.hbm, 128, rfl⟩
abbrev main_c_10 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_v6 : Ref sig .tc := ⟨.hbm, 138, rfl⟩
abbrev main_call4_v7 : Ref sig .tc := ⟨.hbm, 139, rfl⟩
abbrev main_call4_cst_1 : Ref sig .tc := ⟨.hbm, 140, rfl⟩
abbrev main_call4_v8 : Ref sig .tc := ⟨.hbm, 141, rfl⟩
abbrev main_call4_cst_2 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_cst_3 : Ref sig .tc := ⟨.hbm, 146, rfl⟩
abbrev main_call4_v12 : Ref sig .tc := ⟨.hbm, 147, rfl⟩
abbrev main_call4_cst_4 : Ref sig .tc := ⟨.hbm, 148, rfl⟩
abbrev main_call4_call0_v0 : Ref sig .tc := ⟨.hbm, 149, rfl⟩
abbrev main_call4_call0_v1 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_cst_11 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_call5_cst : Ref sig .tc := ⟨.hbm, 168, rfl⟩
abbrev main_call5_v0 : Ref sig .tc := ⟨.hbm, 169, rfl⟩
abbrev main_v83 : Ref sig .tc := ⟨.hbm, 170, rfl⟩
abbrev main_c_12 : Ref sig .tc := ⟨.hbm, 171, rfl⟩
abbrev main_v84 : Ref sig .tc := ⟨.hbm, 172, rfl⟩
abbrev main_v85 : Ref sig .tc := ⟨.hbm, 173, rfl⟩
abbrev main_c_13 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_cst_14 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_call6_cst : Ref sig .tc := ⟨.hbm, 189, rfl⟩
abbrev main_call6_v0 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_cst_15 : Ref sig .tc := ⟨.hbm, 196, rfl⟩
abbrev main_v104 : Ref sig .tc := ⟨.hbm, 197, rfl⟩
abbrev main_cst_16 : Ref sig .tc := ⟨.hbm, 198, rfl⟩
abbrev main_v105 : Ref sig .tc := ⟨.hbm, 199, rfl⟩
abbrev main_v106 : Ref sig .tc := ⟨.hbm, 200, rfl⟩
abbrev main_c_17 : Ref sig .tc := ⟨.hbm, 201, rfl⟩
abbrev main_call7_cst : Ref sig .tc := ⟨.hbm, 202, rfl⟩
abbrev main_call7_v0 : Ref sig .tc := ⟨.hbm, 203, rfl⟩
abbrev main_call7_v1 : Ref sig .tc := ⟨.hbm, 204, rfl⟩
abbrev main_call7_cst_0 : Ref sig .tc := ⟨.hbm, 205, rfl⟩
abbrev main_call7_v2 : Ref sig .tc := ⟨.hbm, 206, rfl⟩
abbrev main_call7_v3 : Ref sig .tc := ⟨.hbm, 207, rfl⟩
abbrev main_call7_v4 : Ref sig .tc := ⟨.hbm, 208, rfl⟩
abbrev main_call7_v5 : Ref sig .tc := ⟨.hbm, 209, rfl⟩
abbrev main_call7_v6 : Ref sig .tc := ⟨.hbm, 210, rfl⟩
abbrev main_call7_v7 : Ref sig .tc := ⟨.hbm, 211, rfl⟩
abbrev main_call7_cst_1 : Ref sig .tc := ⟨.hbm, 212, rfl⟩
abbrev main_call7_v8 : Ref sig .tc := ⟨.hbm, 213, rfl⟩
abbrev main_call7_cst_2 : Ref sig .tc := ⟨.hbm, 214, rfl⟩
abbrev main_call7_v9 : Ref sig .tc := ⟨.hbm, 215, rfl⟩
abbrev main_call7_v10 : Ref sig .tc := ⟨.hbm, 216, rfl⟩
abbrev main_call7_v11 : Ref sig .tc := ⟨.hbm, 217, rfl⟩
abbrev main_call7_cst_3 : Ref sig .tc := ⟨.hbm, 218, rfl⟩
abbrev main_call7_v12 : Ref sig .tc := ⟨.hbm, 219, rfl⟩
abbrev main_call7_cst_4 : Ref sig .tc := ⟨.hbm, 220, rfl⟩
abbrev main_call7_call0_v0 : Ref sig .tc := ⟨.hbm, 221, rfl⟩
abbrev main_call7_call0_v1 : Ref sig .tc := ⟨.hbm, 222, rfl⟩
abbrev main_v107 : Ref sig .tc := ⟨.hbm, 223, rfl⟩
abbrev main_v108 : Ref sig .tc := ⟨.hbm, 224, rfl⟩
abbrev main_v109 : Ref sig .tc := ⟨.hbm, 225, rfl⟩
abbrev main_v110 : Ref sig .tc := ⟨.hbm, 226, rfl⟩
abbrev main_cst_18 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_call8_cst : Ref sig .tc := ⟨.hbm, 240, rfl⟩
abbrev main_call8_v0 : Ref sig .tc := ⟨.hbm, 241, rfl⟩
abbrev main_v123 : Ref sig .tc := ⟨.hbm, 242, rfl⟩
abbrev main_cst_19 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_cst_20 : Ref sig .tc := ⟨.hbm, 247, rfl⟩
abbrev main_v127 : Ref sig .tc := ⟨.hbm, 248, rfl⟩
abbrev main_cst_21 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_cst_22 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256x1_S100000x1_S100000x1_1_0_0_1_wf : ScatterDims.WF S256x1 S100000x1 S100000x1 [1] [0] [0] 1
  dot_S256x128_S128x128_S256x128_1_0_0_1_n_n_wf : DotDims.WF S256x128 S128x128 S256x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

class Facts : Prop extends Facts₀ where

variable [Facts]
-- ==== Proof.Spec.lean ====
/-
  One layer of the graph network and its mean pooling, entry by entry on the extended reals.

  A layer takes the node features h : [N, D] and their neighbourhood sums a : [N, D], forms u = h + a, sends every
  row through two affine maps with a clamp at zero between them (z = max(u·W₁ + b₁, 0)·W₂ + b₂), and normalizes each
  column of z by its mean and variance over the N rows before a last clamp at zero. The variance of a column can be
  written two ways: the mean of the squares less the square of the mean, or the mean of the squared deviations from the
  mean. Over the reals the two agree; over the extended reals they agree as soon as every entry of z is a real number,
  and that is what this file is about. Pooling sums the rows of the last layer by graph number, divides by the
  number of rows of each graph (at least one), and applies a last affine map.
-/
import Idealize.ShloMosaic.Lib.ValueIdx

noncomputable section

open scoped BigOperators

namespace Gin

open Idealize.ShloMosaic Idealize.ShloMosaic.ValueIdx

/-- A matrix of extended reals with literal extents. -/
abbrev Mat (r c : Nat) := (⟨2, ![r, c]⟩ : Shape).Idx → EReal
/-- A vector of extended reals with a literal extent. -/
abbrev Vc (c : Nat) := (⟨1, ![c]⟩ : Shape).Idx → EReal
/-- A vector of 32-bit words with a literal extent. -/
abbrev Wd (c : Nat) := (⟨1, ![c]⟩ : Shape).Idx → BitVec 32

/-- The number of nodes. -/
abbrev NN : Nat := 100000

/-- The divisor of a column's mean, as the word both programs spell: the float 100000. -/
def cN : EReal := Ideal.ofBits .f32 0x47C35000#32
/-- The variance's guard, as the word both programs spell. -/
def cEps : EReal := Ideal.ofBits .f32 0x3727C5AC#32

/-! ## A row through the two affine maps -/

/-- Entry (n, c) of z = max(u·W₁ + b₁, 0)·W₂ + b₂. -/
def mlpAt {D : Nat} (u : Mat NN D) (w1 : Mat D 128) (b1 : Vc 128) (w2 : Mat 128 128) (b2 : Vc 128)
    (n : Fin NN) (c : Fin 128) : EReal :=
  (∑ k : Fin 128, max ((∑ j : Fin D, u (ix2 n j) * w1 (ix2 j k)) + b1 (ix1 k)) 0 * w2 (ix2 k c)) + b2 (ix1 c)

def mlp {D : Nat} (u : Mat NN D) (w1 : Mat D 128) (b1 : Vc 128) (w2 : Mat 128 128) (b2 : Vc 128) : Mat NN 128 :=
  fun i => mlpAt u w1 b1 w2 b2 (i 0) (i 1)

theorem mlp_apply {D : Nat} (u : Mat NN D) (w1 : Mat D 128) (b1 : Vc 128) (w2 : Mat 128 128) (b2 : Vc 128)
    (n : Fin NN) (c : Fin 128) : mlp u w1 b1 w2 b2 (ix2 n c) = mlpAt u w1 b1 w2 b2 n c := rfl

/-! ## A column's sums, its mean and the two forms of its variance -/

/-- The sum of the entries of column c in the rows below m: what an accumulator over row blocks holds on the way. -/
def prefixSum (f : Fin NN → EReal) (m : Nat) : EReal := ∑ n : Fin NN, if n.val < m then f n else 0

def colSum (z : Mat NN 128) : Vc 128 := fun i => ∑ n : Fin NN, z (ix2 n (i 0))
def colSumSq (z : Mat NN 128) : Vc 128 := fun i => ∑ n : Fin NN, z (ix2 n (i 0)) * z (ix2 n (i 0))
/-- The mean of a column from its sum. -/
def meanOf (s : Vc 128) : Vc 128 := fun i => Ideal.div (s i) cN
/-- The variance as the mean of the squares less the square of the mean, from the two sums. -/
def varOfSums (s q : Vc 128) : Vc 128 := fun i => Ideal.div (q i) cN - meanOf s i * meanOf s i
def varK (z : Mat NN 128) : Vc 128 := varOfSums (colSum z) (colSumSq z)
/-- The variance as the mean of the squared deviations. -/
def varR (z : Mat NN 128) : Vc 128 := fun i =>
  Ideal.div (∑ n : Fin NN, (z (ix2 n (i 0)) - meanOf (colSum z) i) * (z (ix2 n (i 0)) - meanOf (colSum z) i)) cN

/-- Entry (n, c) of the normalized, scaled, shifted and clamped z. -/
def bnReluAt (z : Mat NN 128) (mu v g b : Vc 128) (n : Fin NN) (c : Fin 128) : EReal :=
  max ((((z (ix2 n c) - mu (ix1 c)) * Ideal.rsqrt (v (ix1 c) + cEps)) * g (ix1 c)) + b (ix1 c)) 0

def bnRelu (z : Mat NN 128) (mu v g b : Vc 128) : Mat NN 128 := fun i => bnReluAt z mu v g b (i 0) (i 1)

theorem bnRelu_apply (z : Mat NN 128) (mu v g b : Vc 128) (n : Fin NN) (c : Fin 128) :
    bnRelu z mu v g b (ix2 n c) = bnReluAt z mu v g b n c := rfl

/-! ## A layer, with either form of the variance -/

def layerWith (var : Mat NN 128 → Vc 128) {D : Nat} (h a : Mat NN D) (w1 : Mat D 128) (b1 : Vc 128) (w2 : Mat 128 128)
    (b2 g b : Vc 128) : Mat NN 128 :=
  bnRelu (mlp (fun i => h i + a i) w1 b1 w2 b2) (meanOf (colSum (mlp (fun i => h i + a i) w1 b1 w2 b2)))
    (var (mlp (fun i => h i + a i) w1 b1 w2 b2)) g b

/-! ## Pooling by graph number, and the last affine map -/

/-- The sum of the rows whose graph number, read signed, is g. A number outside [0, 256) names no graph. -/
def poolSum (h : Mat NN 128) (bt : Wd NN) : Mat 256 128 := fun i =>
  ∑ n : Fin NN, if (bt (ix1 n)).toInt = ((i 0).val : Int) then h (ix2 n (i 1)) else 0
/-- How many rows carry graph number g. -/
def poolCnt (bt : Wd NN) : Vc 256 := fun i =>
  ∑ n : Fin NN, if (bt (ix1 n)).toInt = ((i 0).val : Int) then (1 : EReal) else 0
/-- Entry (g, c) of (s / max(cnt, 1))·P + p. -/
def headAt (s : Mat 256 128) (cnt : Vc 256) (pw : Mat 128 128) (pb : Vc 128) (g : Fin 256) (c : Fin 128) : EReal :=
  (∑ k : Fin 128, Ideal.div (s (ix2 g k)) (max (cnt (ix1 g)) 1) * pw (ix2 k c)) + pb (ix1 c)
def head (s : Mat 256 128) (cnt : Vc 256) (pw : Mat 128 128) (pb : Vc 128) : Mat 256 128 :=
  fun i => headAt s cnt pw pb (i 0) (i 1)

/-! ## The network -/

/-- The three layers, the pooling and the last map; A64 and A128 are the neighbourhood sums of a feature matrix. -/
def net (var : Mat NN 128 → Vc 128) (A64 : Mat NN 64 → Mat NN 64) (A128 : Mat NN 128 → Mat NN 128)
    (x : Mat NN 64) (bt : Wd NN)
    (w10 : Mat 64 128) (b10 : Vc 128) (w20 : Mat 128 128) (b20 g0 be0 : Vc 128)
    (w11 : Mat 128 128) (b11 : Vc 128) (w21 : Mat 128 128) (b21 g1 be1 : Vc 128)
    (w12 : Mat 128 128) (b12 : Vc 128) (w22 : Mat 128 128) (b22 g2 be2 : Vc 128)
    (pw : Mat 128 128) (pb : Vc 128) : Mat 256 128 :=
  let h1 := layerWith var x (A64 x) w10 b10 w20 b20 g0 be0
  let h2 := layerWith var h1 (A128 h1) w11 b11 w21 b21 g1 be1
  let h3 := layerWith var h2 (A128 h2) w12 b12 w22 b22 g2 be2
  head (poolSum h3 bt) (poolCnt bt) pw pb

/-- Every entry is a real number. -/
def AllReal {s : Shape} (x : s.Idx → EReal) : Prop := ∀ i, ∃ r : ℝ, x i = (r : EReal)

end Gin

end
-- ==== Proof.Math.lean ====
/-
  The two forms of a column's variance agree when every entry is a real number, and with them the two networks; the
  sum of a column taken block of rows by block of rows is the sum of the column.
-/
import proofs.«423186_j27333171871744_1_alg».proof.Proof.Spec

noncomputable section

open scoped BigOperators

namespace Gin

open Idealize.ShloMosaic Idealize.ShloMosaic.ValueIdx

/-! ## The words the programs spell -/

/-- The divisor is the real number 100000. -/
theorem cN_eq : cN = ((100000 : ℝ) : EReal) := by
  simp [cN, Ideal.ofBits, Ideal.ieee, -EReal.coe_mul]; norm_num
/-- The guard is a positive real number. -/
theorem cEps_pos : ∃ r : ℝ, 0 < r ∧ cEps = (r : EReal) := by
  refine ⟨((2 ^ 23 + 0x27C5AC : ℕ) : ℝ) * (2 : ℝ) ^ (-40 : ℤ), by positivity, ?_⟩
  simp [cEps, Ideal.ofBits, Ideal.ieee, -EReal.coe_mul]
/-- The float word of 1.0 is the number one, and the zero word the number zero. -/
theorem ofBits_one : Ideal.ofBits .f32 0x3F800000#32 = (1 : EReal) := by
  simp [Ideal.ofBits, Ideal.ieee, -EReal.coe_mul]; norm_num

/-! ## A column summed block of rows by block of rows -/

theorem prefixSum_zero (f : Fin NN → EReal) : prefixSum f 0 = 0 := by
  simp [prefixSum]
/-- The rows below 2000·(t+1) are the rows below 2000·t and the 2000 rows of block t. -/
theorem prefixSum_block (f : Fin NN → EReal) (t : Nat) (ht : t < 50) :
    prefixSum f (2000 * (t + 1))
      = prefixSum f (2000 * t) + ∑ r : Fin 2000, f ⟨2000 * t + r.val, by have := r.isLt; show _ < 100000; omega⟩ := by
  -- a row below 2000·(t+1) is either below 2000·t or in block t
  have hsplit : ∀ n : Fin NN, (if n.val < 2000 * (t + 1) then f n else 0)
      = (if n.val < 2000 * t then f n else 0) + (if 2000 * t ≤ n.val ∧ n.val < 2000 * (t + 1) then f n else 0) := by
    intro n
    by_cases h1 : n.val < 2000 * t
    · have h2 : n.val < 2000 * (t + 1) := by omega
      have h3 : ¬ (2000 * t ≤ n.val ∧ n.val < 2000 * (t + 1)) := by omega
      rw [if_pos h1, if_pos h2, if_neg h3, add_zero]
    · by_cases h2 : n.val < 2000 * (t + 1)
      · have h3 : 2000 * t ≤ n.val ∧ n.val < 2000 * (t + 1) := by omega
        rw [if_neg h1, if_pos h2, if_pos h3, zero_add]
      · have h3 : ¬ (2000 * t ≤ n.val ∧ n.val < 2000 * (t + 1)) := by omega
        rw [if_neg h1, if_neg h2, if_neg h3, add_zero]
  -- the rows of block t are the image of the 2000 offsets
  have hblock : (∑ r : Fin 2000, f ⟨2000 * t + r.val, by have := r.isLt; show _ < 100000; omega⟩)
      = ∑ n : Fin NN, if 2000 * t ≤ n.val ∧ n.val < 2000 * (t + 1) then f n else 0 := by
    refine Fintype.sum_of_injective
      (fun r : Fin 2000 => (⟨2000 * t + r.val, by have := r.isLt; show _ < 100000; omega⟩ : Fin NN)) ?_ _ _ ?_ ?_
    · intro r s hrs
      have := congrArg Fin.val hrs
      exact Fin.ext (by simpa using this)
    · intro n hn
      by_cases h3 : 2000 * t ≤ n.val ∧ n.val < 2000 * (t + 1)
      · exact absurd ⟨⟨n.val - 2000 * t, by omega⟩, Fin.ext (by show 2000 * t + (n.val - 2000 * t) = n.val; omega)⟩ hn
      · rw [if_neg h3]
    · intro r
      have hr := r.isLt
      have h3 : 2000 * t ≤ 2000 * t + r.val ∧ 2000 * t + r.val < 2000 * (t + 1) := by omega
      exact (if_pos h3).symm
  unfold prefixSum
  rw [Finset.sum_congr rfl (fun n _ => hsplit n), Finset.sum_add_distrib, hblock]
theorem prefixSum_full (f : Fin NN → EReal) : prefixSum f (2000 * 50) = ∑ n : Fin NN, f n := by
  unfold prefixSum
  refine Finset.sum_congr rfl (fun n _ => ?_)
  rw [if_pos (by have := n.isLt; omega)]

/-! ## Real entries stay real -/

/-- A finite sum of real numbers taken in the extended reals is their real sum. -/
theorem coe_sum {ι : Type*} (s : Finset ι) (g : ι → ℝ) :
    ∑ i ∈ s, ((g i : ℝ) : EReal) = ((∑ i ∈ s, g i : ℝ) : EReal) := by
  classical
  refine Finset.induction_on s (by simp) ?_
  intro a s ha ih
  rw [Finset.sum_insert ha, Finset.sum_insert ha, ih, EReal.coe_add]

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩
/-- The clamp at zero of a real number is the larger of it and zero, a real number. -/
theorem real_max_zero {x : EReal} (hx : ∃ r : ℝ, x = (r : EReal)) : ∃ r : ℝ, max x 0 = (r : EReal) := by
  obtain ⟨a, rfl⟩ := hx
  rcases le_total a 0 with h | h
  · exact ⟨0, by rw [max_eq_right (by exact_mod_cast h)]; rfl⟩
  · exact ⟨a, max_eq_left (by exact_mod_cast h)⟩
theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [← coe_sum]; exact Finset.sum_congr rfl (fun i _ => hg i)⟩

theorem AllReal.add {s : Shape} {x y : s.Idx → EReal} (hx : AllReal x) (hy : AllReal y) :
    AllReal (fun i => x i + y i) := by
  intro i
  exact real_add (hx i) (hy i)
theorem mlp_real {D : Nat} (u : Mat NN D) (w1 : Mat D 128) (b1 : Vc 128) (w2 : Mat 128 128) (b2 : Vc 128)
    (hu : AllReal u) (hw1 : AllReal w1) (hb1 : AllReal b1) (hw2 : AllReal w2) (hb2 : AllReal b2) :
    AllReal (mlp u w1 b1 w2 b2) := by
  intro i
  unfold mlp mlpAt
  exact real_add (real_sum _ _ fun k => real_mul (real_max_zero (real_add (real_sum _ _ fun j =>
    real_mul (hu _) (hw1 _)) (hb1 _))) (hw2 _)) (hb2 _)

/-! ## The variance, two ways -/

/-- Over the reals, with N the number of rows: expanding the square, the sum of the squared deviations from the
    mean m = S/N is Q − 2·m·S + N·m², and dividing by N gives Q/N − m². -/
theorem var_two_ways {ι : Type*} [Fintype ι] (a : ι → ℝ) (N : ℝ) (hcard : (Fintype.card ι : ℝ) = N) (hN : N ≠ 0) :
    (∑ n, a n * a n) / N - (∑ n, a n) / N * ((∑ n, a n) / N)
      = (∑ n, (a n - (∑ m, a m) / N) * (a n - (∑ m, a m) / N)) / N := by
  have hexp : ∀ n, (a n - (∑ m, a m) / N) * (a n - (∑ m, a m) / N)
      = a n * a n - 2 * ((∑ m, a m) / N) * a n + (∑ m, a m) / N * ((∑ m, a m) / N) := fun n => by ring
  have hsum : ∑ n, (a n - (∑ m, a m) / N) * (a n - (∑ m, a m) / N)
      = (∑ n, a n * a n) - 2 * ((∑ m, a m) / N) * (∑ n, a n) + N * ((∑ m, a m) / N * ((∑ m, a m) / N)) := by
    rw [Finset.sum_congr rfl (fun n _ => hexp n), Finset.sum_add_distrib, Finset.sum_sub_distrib, ← Finset.mul_sum,
      Finset.sum_const, Finset.card_univ, nsmul_eq_mul, hcard]
  rw [hsum]
  field_simp
  ring

/-- A real number divided by the row count, in the extended reals, is the real quotient. -/
theorem div_cN (x : ℝ) : Ideal.div (x : EReal) cN = ((x / 100000 : ℝ) : EReal) := by
  have h0 : cN ≠ 0 := by rw [cN_eq]; exact EReal.coe_ne_zero.2 (by norm_num)
  rw [Ideal.div, if_neg h0, cN_eq, ← EReal.coe_inv, ← EReal.coe_mul, div_eq_mul_inv]

/-- The sum of a column of real numbers. -/
theorem colSum_coe (z : Mat NN 128) (zr : (⟨2, ![NN, 128]⟩ : Shape).Idx → ℝ) (hzr : ∀ i, z i = (zr i : EReal))
    (c : Fin 128) : colSum z (ix1 c) = ((∑ n : Fin NN, zr (ix2 n c) : ℝ) : EReal) := by
  rw [← coe_sum]
  exact Finset.sum_congr rfl (fun n _ => hzr (ix2 n c))
/-- The sum of the squares of a column of real numbers. -/
theorem colSumSq_coe (z : Mat NN 128) (zr : (⟨2, ![NN, 128]⟩ : Shape).Idx → ℝ) (hzr : ∀ i, z i = (zr i : EReal))
    (c : Fin 128) : colSumSq z (ix1 c) = ((∑ n : Fin NN, zr (ix2 n c) * zr (ix2 n c) : ℝ) : EReal) := by
  rw [← coe_sum]
  refine Finset.sum_congr rfl (fun n _ => ?_)
  rw [EReal.coe_mul, ← hzr (ix2 n c)]
/-- The mean of a column of real numbers. -/
theorem meanOf_colSum_coe (z : Mat NN 128) (zr : (⟨2, ![NN, 128]⟩ : Shape).Idx → ℝ) (hzr : ∀ i, z i = (zr i : EReal))
    (c : Fin 128) : meanOf (colSum z) (ix1 c) = (((∑ n : Fin NN, zr (ix2 n c)) / 100000 : ℝ) : EReal) := by
  show Ideal.div (colSum z (ix1 c)) cN = _
  rw [colSum_coe z zr hzr c, div_cN]
/-- The mean of the squares less the square of the mean, for a column of real numbers. -/
theorem varK_coe (z : Mat NN 128) (zr : (⟨2, ![NN, 128]⟩ : Shape).Idx → ℝ) (hzr : ∀ i, z i = (zr i : EReal))
    (c : Fin 128) : varK z (ix1 c)
      = (((∑ n : Fin NN, zr (ix2 n c) * zr (ix2 n c)) / 100000
          - (∑ n : Fin NN, zr (ix2 n c)) / 100000 * ((∑ n : Fin NN, zr (ix2 n c)) / 100000) : ℝ) : EReal) := by
  show Ideal.div (colSumSq z (ix1 c)) cN - meanOf (colSum z) (ix1 c) * meanOf (colSum z) (ix1 c) = _
  rw [colSumSq_coe z zr hzr c, div_cN, meanOf_colSum_coe z zr hzr c, ← EReal.coe_mul, ← EReal.coe_sub]
/-- The mean of the squared deviations, for a column of real numbers. -/
theorem varR_coe (z : Mat NN 128) (zr : (⟨2, ![NN, 128]⟩ : Shape).Idx → ℝ) (hzr : ∀ i, z i = (zr i : EReal))
    (c : Fin 128) : varR z (ix1 c)
      = (((∑ n : Fin NN, (zr (ix2 n c) - (∑ m : Fin NN, zr (ix2 m c)) / 100000)
            * (zr (ix2 n c) - (∑ m : Fin NN, zr (ix2 m c)) / 100000)) / 100000 : ℝ) : EReal) := by
  show Ideal.div (∑ n : Fin NN, (z (ix2 n c) - meanOf (colSum z) (ix1 c)) * (z (ix2 n c) - meanOf (colSum z) (ix1 c))) cN = _
  have hsum : (∑ n : Fin NN, (z (ix2 n c) - meanOf (colSum z) (ix1 c)) * (z (ix2 n c) - meanOf (colSum z) (ix1 c)))
      = ((∑ n : Fin NN, (zr (ix2 n c) - (∑ m : Fin NN, zr (ix2 m c)) / 100000)
            * (zr (ix2 n c) - (∑ m : Fin NN, zr (ix2 m c)) / 100000) : ℝ) : EReal) := by
    rw [meanOf_colSum_coe z zr hzr c, ← coe_sum]
    refine Finset.sum_congr rfl (fun n _ => ?_)
    rw [hzr (ix2 n c), ← EReal.coe_sub, ← EReal.coe_mul]
  rw [hsum, div_cN]

/-- For a matrix of real numbers the mean of the squares less the square of the mean is the mean of the squared
    deviations: expand the square, and the middle term is twice the square of the mean because the divisor is the
    number of rows. -/
theorem varK_eq_varR (z : Mat NN 128) (hz : AllReal z) : varK z = varR z := by
  choose zr hzr using hz
  funext i
  obtain ⟨c, rfl⟩ : ∃ c : Fin 128, i = ix1 c := ⟨i 0, eq_ix1 i⟩
  rw [varK_coe z zr hzr c, varR_coe z zr hzr c]
  refine congrArg _ (var_two_ways (fun n : Fin NN => zr (ix2 n c)) 100000 ?_ (by norm_num))
  rw [Fintype.card_fin]; norm_num

/-- The reciprocal square root of a real number that is not negative plus the guard is a real number. -/
theorem rsqrt_guard_real {v : EReal} (hv : ∃ r : ℝ, 0 ≤ r ∧ v = (r : EReal)) :
    ∃ r : ℝ, Ideal.rsqrt (v + cEps) = (r : EReal) := by
  obtain ⟨r, hr, rfl⟩ := hv
  obtain ⟨e, he, hc⟩ := cEps_pos
  rw [hc, ← EReal.coe_add]
  have hpos : 0 < r + e := by linarith
  exact ⟨(Real.sqrt (r + e))⁻¹, by rw [Ideal.rsqrt_coe, if_neg (not_lt.2 hpos.le), if_neg hpos.ne']⟩

/-- Normalizing, scaling, shifting and clamping real numbers with a variance that is not negative gives real numbers. -/
theorem bnRelu_real (z : Mat NN 128) (mu v g b : Vc 128) (hz : AllReal z) (hmu : AllReal mu)
    (hv : ∀ c : Fin 128, ∃ r : ℝ, 0 ≤ r ∧ v (ix1 c) = (r : EReal)) (hg : AllReal g) (hb : AllReal b) :
    AllReal (bnRelu z mu v g b) := by
  intro i
  unfold bnRelu bnReluAt
  exact real_max_zero (real_add (real_mul (real_mul (real_sub (hz _) (hmu _)) (rsqrt_guard_real (hv _))) (hg _)) (hb _))

/-- A layer of real inputs has real outputs: the variance is a mean of squares, so it is not negative, the guard is
    positive, and the reciprocal square root of a positive real is a real. -/
theorem layerR_real {D : Nat} (h a : Mat NN D) (w1 : Mat D 128) (b1 : Vc 128) (w2 : Mat 128 128) (b2 g b : Vc 128)
    (hh : AllReal h) (ha : AllReal a) (hw1 : AllReal w1) (hb1 : AllReal b1) (hw2 : AllReal w2) (hb2 : AllReal b2)
    (hg : AllReal g) (hb : AllReal b) : AllReal (layerWith varR h a w1 b1 w2 b2 g b) := by
  have hzz : AllReal (mlp (fun i => h i + a i) w1 b1 w2 b2) :=
    mlp_real _ _ _ _ _ (AllReal.add hh ha) hw1 hb1 hw2 hb2
  obtain ⟨zr, hzr⟩ : ∃ zr : (⟨2, ![NN, 128]⟩ : Shape).Idx → ℝ, ∀ i, mlp (fun i => h i + a i) w1 b1 w2 b2 i = (zr i : EReal) :=
    ⟨fun i => (hzz i).choose, fun i => (hzz i).choose_spec⟩
  unfold layerWith
  refine bnRelu_real _ _ _ _ _ hzz ?_ ?_ hg hb
  · intro i
    obtain ⟨c, rfl⟩ : ∃ c : Fin 128, i = ix1 c := ⟨i 0, eq_ix1 i⟩
    exact ⟨_, meanOf_colSum_coe _ zr hzr c⟩
  · intro c
    exact ⟨_, div_nonneg (Finset.sum_nonneg (fun n _ => mul_self_nonneg _)) (by norm_num), varR_coe _ zr hzr c⟩

theorem layer_var_eq {D : Nat} (h a : Mat NN D) (w1 : Mat D 128) (b1 : Vc 128) (w2 : Mat 128 128) (b2 g b : Vc 128)
    (hh : AllReal h) (ha : AllReal a) (hw1 : AllReal w1) (hb1 : AllReal b1) (hw2 : AllReal w2) (hb2 : AllReal b2) :
    layerWith varK h a w1 b1 w2 b2 g b = layerWith varR h a w1 b1 w2 b2 g b := by
  unfold layerWith
  rw [varK_eq_varR _ (mlp_real _ _ _ _ _ (AllReal.add hh ha) hw1 hb1 hw2 hb2)]

/-- THE LAW: with real inputs, and neighbourhood sums that keep real matrices real, the network with the variance as
    mean of squares less squared mean is the network with the variance as mean of squared deviations. -/
theorem net_var_eq (A64 : Mat NN 64 → Mat NN 64) (A128 : Mat NN 128 → Mat NN 128)
    (hA64 : ∀ h, AllReal h → AllReal (A64 h)) (hA128 : ∀ h, AllReal h → AllReal (A128 h))
    (x : Mat NN 64) (bt : Wd NN)
    (w10 : Mat 64 128) (b10 : Vc 128) (w20 : Mat 128 128) (b20 g0 be0 : Vc 128)
    (w11 : Mat 128 128) (b11 : Vc 128) (w21 : Mat 128 128) (b21 g1 be1 : Vc 128)
    (w12 : Mat 128 128) (b12 : Vc 128) (w22 : Mat 128 128) (b22 g2 be2 : Vc 128)
    (pw : Mat 128 128) (pb : Vc 128)
    (hx : AllReal x)
    (hw10 : AllReal w10) (hb10 : AllReal b10) (hw20 : AllReal w20) (hb20 : AllReal b20) (hg0 : AllReal g0) (hbe0 : AllReal be0)
    (hw11 : AllReal w11) (hb11 : AllReal b11) (hw21 : AllReal w21) (hb21 : AllReal b21) (hg1 : AllReal g1) (hbe1 : AllReal be1)
    (hw12 : AllReal w12) (hb12 : AllReal b12) (hw22 : AllReal w22) (hb22 : AllReal b22) :
    net varK A64 A128 x bt w10 b10 w20 b20 g0 be0 w11 b11 w21 b21 g1 be1 w12 b12 w22 b22 g2 be2 pw pb
      = net varR A64 A128 x bt w10 b10 w20 b20 g0 be0 w11 b11 w21 b21 g1 be1 w12 b12 w22 b22 g2 be2 pw pb := by
  have r1 := layerR_real x (A64 x) w10 b10 w20 b20 g0 be0 hx (hA64 x hx) hw10 hb10 hw20 hb20 hg0 hbe0
  have e1 := layer_var_eq x (A64 x) w10 b10 w20 b20 g0 be0 hx (hA64 x hx) hw10 hb10 hw20 hb20
  have r2 := layerR_real _ (A128 _) w11 b11 w21 b21 g1 be1 r1 (hA128 _ r1) hw11 hb11 hw21 hb21 hg1 hbe1
  have e2 := layer_var_eq _ (A128 _) w11 b11 w21 b21 g1 be1 r1 (hA128 _ r1) hw11 hb11 hw21 hb21
  have e3 := layer_var_eq _ (A128 _) w12 b12 w22 b22 g2 be2 r2 (hA128 _ r2) hw12 hb12 hw22 hb22
  dsimp only [net]
  rw [e1, e2, e3]

end Gin

end
-- ==== Proof.KRegIface.lean ====
/-
  What the seven kernel regions leave in their arrays, as one proposition: the fold through @main is read back under
  it, and the region modules prove it.
-/
import proofs.«423186_j27333171871744_1_alg».proof.Proof.Gen.KernelIdeal.Frame
import proofs.«423186_j27333171871744_1_alg».proof.Proof.Spec
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KVal

open Cert.KernelIdeal Cert.KernelIdeal.Gen

/-- The contents of a core's buffers at some boundary of @main. -/
abbrev Contents := (c : Dev nD) → (b : Ref sig .tc) → Buf (Elt Ideal) ((c : Thread nD τ).loc b)

/-- The perceptron's input u = h + a of the first layer (64 columns) and of the other two (128), read off the buffers. -/
abbrev inU0 (V : Contents) (c : Dev nD) : Gin.Mat Gin.NN 64 :=
  fun i => (show Gin.Mat Gin.NN 64 from V c main_arg0) i + (show Gin.Mat Gin.NN 64 from V c main_v13) i
abbrev inU2 (V : Contents) (c : Dev nD) : Gin.Mat Gin.NN 128 :=
  fun i => (show Gin.Mat Gin.NN 128 from V c main_v21) i + (show Gin.Mat Gin.NN 128 from V c main_v31) i
abbrev inU4 (V : Contents) (c : Dev nD) : Gin.Mat Gin.NN 128 :=
  fun i => (show Gin.Mat Gin.NN 128 from V c main_v39) i + (show Gin.Mat Gin.NN 128 from V c main_v49) i
/-- The rows' graph numbers, read off the [N, 1] column the pooling region is given. -/
abbrev gNo (V : Contents) (c : Dev nD) : Gin.Wd Gin.NN := fun i => V c main_v58 (ix2 (i 0) (0 : Fin 1))

/-- Every region's arrays after it, whatever the contents it is entered with: the perceptron regions leave z and the
    column sums of z and of z², the normalization regions the normalized and clamped z, the pooling region the sums
    and the counts by graph number. -/
structure RegionValues : Prop where
  z0 : ∀ (V : Contents) (c : Dev nD), (dat0 (F := Ideal) V c).arrAt 6 cfg0.N
      = Gin.mlp (inU0 V c) (V c main_arg3) (V c main_arg4) (V c main_arg5) (V c main_arg6)
  sum0 : ∀ (V : Contents) (c : Dev nD), (dat0 (F := Ideal) V c).arrAt 7 cfg0.N
      = Gin.colSum (Gin.mlp (inU0 V c) (V c main_arg3) (V c main_arg4) (V c main_arg5) (V c main_arg6))
  sq0 : ∀ (V : Contents) (c : Dev nD), (dat0 (F := Ideal) V c).arrAt 8 cfg0.N
      = Gin.colSumSq (Gin.mlp (inU0 V c) (V c main_arg3) (V c main_arg4) (V c main_arg5) (V c main_arg6))
  out1 : ∀ (V : Contents) (c : Dev nD), (dat1 (F := Ideal) V c).arrAt 5 cfg1.N
      = Gin.bnRelu (V c main_v14_0) (V c main_v16) (V c main_v20) (V c main_arg7) (V c main_arg8)
  z2 : ∀ (V : Contents) (c : Dev nD), (dat2 (F := Ideal) V c).arrAt 6 cfg2.N
      = Gin.mlp (inU2 V c) (V c main_arg9) (V c main_arg10) (V c main_arg11) (V c main_arg12)
  sum2 : ∀ (V : Contents) (c : Dev nD), (dat2 (F := Ideal) V c).arrAt 7 cfg2.N
      = Gin.colSum (Gin.mlp (inU2 V c) (V c main_arg9) (V c main_arg10) (V c main_arg11) (V c main_arg12))
  sq2 : ∀ (V : Contents) (c : Dev nD), (dat2 (F := Ideal) V c).arrAt 8 cfg2.N
      = Gin.colSumSq (Gin.mlp (inU2 V c) (V c main_arg9) (V c main_arg10) (V c main_arg11) (V c main_arg12))
  out3 : ∀ (V : Contents) (c : Dev nD), (dat3 (F := Ideal) V c).arrAt 5 cfg3.N
      = Gin.bnRelu (V c main_v32_0) (V c main_v34) (V c main_v38) (V c main_arg13) (V c main_arg14)
  z4 : ∀ (V : Contents) (c : Dev nD), (dat4 (F := Ideal) V c).arrAt 6 cfg4.N
      = Gin.mlp (inU4 V c) (V c main_arg15) (V c main_arg16) (V c main_arg17) (V c main_arg18)
  sum4 : ∀ (V : Contents) (c : Dev nD), (dat4 (F := Ideal) V c).arrAt 7 cfg4.N
      = Gin.colSum (Gin.mlp (inU4 V c) (V c main_arg15) (V c main_arg16) (V c main_arg17) (V c main_arg18))
  sq4 : ∀ (V : Contents) (c : Dev nD), (dat4 (F := Ideal) V c).arrAt 8 cfg4.N
      = Gin.colSumSq (Gin.mlp (inU4 V c) (V c main_arg15) (V c main_arg16) (V c main_arg17) (V c main_arg18))
  out5 : ∀ (V : Contents) (c : Dev nD), (dat5 (F := Ideal) V c).arrAt 5 cfg5.N
      = Gin.bnRelu (V c main_v50_0) (V c main_v52) (V c main_v56) (V c main_arg19) (V c main_arg20)
  sum6 : ∀ (V : Contents) (c : Dev nD), (dat6 (F := Ideal) V c).arrAt 2 cfg6.N = Gin.poolSum (V c main_v57) (gNo V c)
  cnt6 : ∀ (V : Contents) (c : Dev nD), (dat6 (F := Ideal) V c).arrAt 3 cfg6.N = Gin.poolCnt (gNo V c)

end Cert.KernelIdeal.KVal

end
-- ==== Proof.KReg0.lean ====
/-
  The first perceptron region, read as values. Its grid walks the 50 blocks of 2000 rows. At block t the body forms
  u = h + a on the block's rows, z = max(u·W₁ + b₁, 0)·W₂ + b₂, writes z's block back, and adds z's column sums and
  the column sums of z² to two accumulators that are cleared at block 0 and written back after block 49. So the z
  array ends as the perceptron of every row, and the two accumulators as the column sums over all 100000 rows.
-/
import proofs.«423186_j27333171871744_1_alg».proof.Proof.Gen.KernelIdeal.Frame
import proofs.«423186_j27333171871744_1_alg».proof.Proof.Spec
import proofs.«423186_j27333171871744_1_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.KVal.Reg0

open Cert.KernelIdeal Cert.KernelIdeal.Gen

/-! ## Zero offsets, however they are spelt -/

theorem hz1 : (![0] : Fin 1 → Nat) = fun _ => 0 := funext fun a => by fin_cases a; rfl
theorem hz2 : (![0, 0] : Fin 2 → Nat) = fun _ => 0 := funext fun a => by fin_cases a <;> rfl

/-! ## What each case of the body leaves in each output's block

  The z block is stored once, whole, in both cases: the two-layer perceptron of the loaded blocks. Each accumulator's
  block is, at the first grid point, cleared and then overwritten by (what was just stored, read back) + the block's
  column sums; at every other point it is overwritten by (what it held) + the block's column sums. -/

theorem out_A_6 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : cond0_0 i) (x0 : Vec Ideal S2000x64 .f32) (x1 : Vec Ideal S2000x64 .f32) (x2 : Vec Ideal S64x128 .f32) (x3 : Vec Ideal S128 .f32) (x4 : Vec Ideal S128x128 .f32) (x5 : Vec Ideal S128 .f32) :
    out0_A_6 (F := Ideal) c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h6.read_unread, View.ld_unit_zero (S := S2000x64) hz2, View.ld_unit_zero (S := S64x128) hz2, View.ld_unit_zero (S := S128x128) hz2, View.ld_unit_zero (S := S128) hz1]

theorem out_B_6 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : ¬cond0_0 i) (x0 : Vec Ideal S2000x64 .f32) (x1 : Vec Ideal S2000x64 .f32) (x2 : Vec Ideal S64x128 .f32) (x3 : Vec Ideal S128 .f32) (x4 : Vec Ideal S128x128 .f32) (x5 : Vec Ideal S128 .f32) (xo7 xo8 : Vec Ideal S128 .f32) :
    out0_B_6 (F := Ideal) c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz2]
  simp only [View.readAt_eq_ld, h1.read_unread, h2.read_unread, h3.read_unread, h4.read_unread, h5.read_unread, h6.read_unread, View.ld_unit_zero (S := S2000x64) hz2, View.ld_unit_zero (S := S64x128) hz2, View.ld_unit_zero (S := S128x128) hz2, View.ld_unit_zero (S := S128) hz1]

theorem out_A_7 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : cond0_0 i) (x0 : Vec Ideal S2000x64 .f32) (x1 : Vec Ideal S2000x64 .f32) (x2 : Vec Ideal S64x128 .f32) (x3 : Vec Ideal S128 .f32) (x4 : Vec Ideal S128x128 .f32) (x5 : Vec Ideal S128 .f32) :
    out0_A_7 (F := Ideal) c i a1 h1 a2 h2 a3 h3 a4 h4 a5 h5 a6 h6 a7 h7 a8 h8 a9 h9 hc x0 x1 x2 x3 x4 x5 = k0_pay5 x0 x1 x2 x3 x4 x5 (k0_pay2 (F := Ideal)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h6.read_unread, View.ld_unit_zero (S := S2000x64) hz2, View.ld_unit_zero (S := S64x128) hz2, View.ld_unit_zero (S := S128x128) hz2, View.ld_unit_zero (S := S128) hz1]

theorem out_B_7 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : ¬cond0_0 i) (x0 : Vec Ideal S2000x64 .f32) (x1 : Vec Ideal S2000x64 .f32) (x2 : Vec Ideal S64x128 .f32) (x3 : Vec Ideal S128 .f32) (x4 : Vec Ideal S128x128 .f32) (x5 : Vec Ideal S128 .f32) (xo7 xo8 : Vec Ideal S128 .f32) :
    out0_B_7 (F := Ideal) c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz1]
  simp only [View.readAt_eq_ld, h1.read_unread, h2.read_unread, h3.read_unread, h4.read_unread, h5.read_unread, h6.read_unread, h8.read_unread, h9.read_unread, View.ld_unit_zero (S := S2000x64) hz2, View.ld_unit_zero (S := S64x128) hz2, View.ld_unit_zero (S := S128x128) hz2, View.ld_unit_zero (S := S128) hz1]

theorem out_A_8 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : cond0_0 i) (x0 : Vec Ideal S2000x64 .f32) (x1 : Vec Ideal S2000x64 .f32) (x2 : Vec Ideal S64x128 .f32) (x3 : Vec Ideal S128 .f32) (x4 : Vec Ideal S128x128 .f32) (x5 : Vec Ideal S128 .f32) :
    out0_A_8 (F := Ideal) c i a1 h1 a2 h2 a3 h3 a4 h4 a5 h5 a6 h6 a7 h7 a8 h8 a9 h9 hc x0 x1 x2 x3 x4 x5
      = k0_pay1 (k0_pay6 (k0_pay3 (F := Ideal))) (k0_pay7 x0 x1 x2 x3 x4 x5) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h6.read_unread, View.ld_unit_zero (S := S2000x64) hz2, View.ld_unit_zero (S := S64x128) hz2, View.ld_unit_zero (S := S128x128) hz2, View.ld_unit_zero (S := S128) hz1]

theorem out_B_8 (c : Dev nD) (i : grid0.Coords) (a1 : Memref sig .tc .vmem S2000x64 .f32) (h1 : a1.IsWhole) (a2 : Memref sig .tc .vmem S2000x64 .f32) (h2 : a2.IsWhole) (a3 : Memref sig .tc .vmem S64x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : ¬cond0_0 i) (x0 : Vec Ideal S2000x64 .f32) (x1 : Vec Ideal S2000x64 .f32) (x2 : Vec Ideal S64x128 .f32) (x3 : Vec Ideal S128 .f32) (x4 : Vec Ideal S128x128 .f32) (x5 : Vec Ideal S128 .f32) (xo7 xo8 : Vec Ideal S128 .f32) :
    out0_B_8 (F := Ideal) c i a1 h1 a2 h2 a3 h3 a4 h4 a5 h5 a6 h6 a7 h7 a8 h8 a9 h9 hc x0 x1 x2 x3 x4 x5 xo7 xo8
      = k0_pay1 (k0_pay6 xo8) (k0_pay7 x0 x1 x2 x3 x4 x5) := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz1]
  simp only [View.readAt_eq_ld, h1.read_unread, h2.read_unread, h3.read_unread, h4.read_unread, h5.read_unread, h6.read_unread, h8.read_unread, h9.read_unread, View.ld_unit_zero (S := S2000x64) hz2, View.ld_unit_zero (S := S64x128) hz2, View.ld_unit_zero (S := S128x128) hz2, View.ld_unit_zero (S := S128) hz1]

/-! ## The body's operations read at an index

  Both products go into a zero accumulator, so each is the plain sum over the contracted axis; a format change is the
  identity on the extended reals; a bias is one row broadcast over the block's rows; a reduction over the rows is the
  sum over the block's rows. -/

/-- The float word zero is the number zero. -/
theorem scalar_zero : (Scalar.ofBits .f32 0x00000000#32 : Ideal .f32) = 0 := Ideal.ofBits_zero_f32

/-- A bias vector laid out as one row and broadcast over the rows reads, at (p, q), its entry q. -/
theorem rowBcast_apply (v : FVec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ broadcasts_S1x128_S2000x128 p q).trans
    (shapeCast_a_1a_apply v shapeCasts_S128_S1x128 (0 : Fin 1) q)

/-- The sum over the rows of a block, at column q. -/
theorem colsum_apply (src : FVec Ideal S2000x128 .f32) (q : Fin 128) :
    multiReduction (F := Ideal) .add [0] S128 src 0x00000000#32 reduces_S2000x128_S128 (.inl rfl) rfl (ix1 q)
      = ∑ p : Fin 2000, src (ix2 p q) := by
  refine (Ideal.multiReduction_add_single src 0x00000000#32 reduces_S2000x128_S128 (.inl rfl) rfl (ix1 q)).trans ?_
  refine Finset.sum_congr rfl fun p _ => congrArg src ?_
  funext a
  match a with
  | ⟨0, _⟩ => rfl
  | ⟨1, _⟩ => rfl

/-! ### The second product: [2000, 128] by [128, 128] -/

theorem lhs_second_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
theorem lhs_second_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
theorem rhs_second_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
theorem rhs_second_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- The second product into the zero block, at (p, q): the sum over the 128 contracted coordinates. -/
theorem mm_second_apply {φ₁ φ₂ : FTy} (a : FVec Ideal S2000x128 φ₁) (b : FVec Ideal S128x128 φ₂) (p : Fin 2000) (q : Fin 128) :
    matmul (F := Ideal) dot_S2000x128_S128x128_S2000x128_1_0_0_1_n_n none a b (constant S2000x128 .f32 0x00000000#32) (ix2 p q)
      = ∑ k : Fin 128, a (ix2 p k) * b (ix2 k q) := by
  show FloatOps.matmul _ none a b (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => exact lhs_second_0 _ _
    | ⟨1, _⟩ => exact (lhs_second_1 _ _).trans ck
  have er : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ => exact (rhs_second_0 _ _).trans ck
    | ⟨1, _⟩ => exact rhs_second_1 _ _
  rw [el, er]

/-! ### The first product: [2000, 64] by [64, 128] -/

theorem reg0_lhs_first_0 (j : S2000x128.Idx) (k : dot_S2000x64_S64x128_S2000x128_1_0_0_1_n_n.contr.Idx) :
    (dot_S2000x64_S64x128_S2000x128_1_0_0_1_n_n.lhsIdx j k 0 : ℕ) = j 0 := by
  simp [DotDims.lhsIdx, dot_S2000x64_S64x128_S2000x128_1_0_0_1_n_n]; rfl
theorem reg0_lhs_first_1 (j : S2000x128.Idx) (k : dot_S2000x64_S64x128_S2000x128_1_0_0_1_n_n.contr.Idx) :
    (dot_S2000x64_S64x128_S2000x128_1_0_0_1_n_n.lhsIdx j k 1 : ℕ) = k ⟨0, by decide⟩ := by
  simp [DotDims.lhsIdx, dot_S2000x64_S64x128_S2000x128_1_0_0_1_n_n]; rfl
theorem reg0_rhs_first_0 (j : S2000x128.Idx) (k : dot_S2000x64_S64x128_S2000x128_1_0_0_1_n_n.contr.Idx) :
    (dot_S2000x64_S64x128_S2000x128_1_0_0_1_n_n.rhsIdx j k 0 : ℕ) = k ⟨0, by decide⟩ := by
  simp [DotDims.rhsIdx, dot_S2000x64_S64x128_S2000x128_1_0_0_1_n_n]; rfl
theorem reg0_rhs_first_1 (j : S2000x128.Idx) (k : dot_S2000x64_S64x128_S2000x128_1_0_0_1_n_n.contr.Idx) :
    (dot_S2000x64_S64x128_S2000x128_1_0_0_1_n_n.rhsIdx j k 1 : ℕ) = j 1 := by
  simp [DotDims.rhsIdx, dot_S2000x64_S64x128_S2000x128_1_0_0_1_n_n]; rfl

/-- The first product into the zero block, at (p, q): the sum over the 64 contracted coordinates. -/
theorem reg0_mm_first_apply {φ₁ φ₂ : FTy} (a : FVec Ideal S2000x64 φ₁) (b : FVec Ideal S64x128 φ₂) (p : Fin 2000) (q : Fin 128) :
    matmul (F := Ideal) dot_S2000x64_S64x128_S2000x128_1_0_0_1_n_n none a b (constant S2000x128 .f32 0x00000000#32) (ix2 p q)
      = ∑ k : Fin 64, a (ix2 p k) * b (ix2 k q) := by
  show FloatOps.matmul _ none a b (constant S2000x128 .f32 0x00000000#32) (ix2 p q) = _
  rw [Ideal.matmul_constant_zero_apply,
    ← Equiv.sum_comp (contrEquiv1 dot_S2000x64_S64x128_S2000x128_1_0_0_1_n_n 64 rfl rfl).symm]
  refine Finset.sum_congr rfl fun k _ => ?_
  have ck := contrEquiv1_symm_val dot_S2000x64_S64x128_S2000x128_1_0_0_1_n_n 64 rfl rfl k
  have el : dot_S2000x64_S64x128_S2000x128_1_0_0_1_n_n.lhsIdx (ix2 p q)
      ((contrEquiv1 dot_S2000x64_S64x128_S2000x128_1_0_0_1_n_n 64 rfl rfl).symm k) = ix2 p k := by
    funext ax; apply Fin.ext
    match ax with
    | ⟨0, _⟩ => exact reg0_lhs_first_0 _ _
    | ⟨1, _⟩ => exact (reg0_lhs_first_1 _ _).trans ck
  have er : dot_S2000x64_S64x128_S2000x128_1_0_0_1_n_n.rhsIdx (ix2 p q)
      ((contrEquiv1 dot_S2000x64_S64x128_S2000x128_1_0_0_1_n_n 64 rfl rfl).symm k) = ix2 k q := by
    funext ax; apply Fin.ext
    match ax with
    | ⟨0, _⟩ => exact (reg0_rhs_first_0 _ _).trans ck
    | ⟨1, _⟩ => exact reg0_rhs_first_1 _ _
  rw [el, er]

/-! ## The body's payloads, entry by entry -/

/-- The z block at (p, q): row p of u = h + a through the two affine maps, column q. -/
theorem reg0_pay4_apply (x0 x1 : Vec Ideal S2000x64 .f32) (x2 : Vec Ideal S64x128 .f32) (x3 : Vec Ideal S128 .f32)
    (x4 : Vec Ideal S128x128 .f32) (x5 : Vec Ideal S128 .f32) (p : Fin 2000) (q : Fin 128) :
    k0_pay4 x0 x1 x2 x3 x4 x5 (ix2 p q)
      = (∑ k : Fin 128, max ((∑ j : Fin 64, (x0 (ix2 p j) + x1 (ix2 p j)) * x2 (ix2 j k)) + x3 (ix1 k)) 0 * x4 (ix2 k q))
        + x5 (ix1 q) := by
  unfold k0_pay4
  simp only [addf_apply, mm_second_apply, rowBcast_apply, truncf_apply, maximumf_apply, reg0_mm_first_apply,
    broadcast_apply, shapeCast_self, scalar_zero]

/-- The first accumulator's new block at q: what it held plus the z block's column sum. -/
theorem reg0_pay5_apply (x0 x1 : Vec Ideal S2000x64 .f32) (x2 : Vec Ideal S64x128 .f32) (x3 : Vec Ideal S128 .f32)
    (x4 : Vec Ideal S128x128 .f32) (x5 : Vec Ideal S128 .f32) (acc : Vec Ideal S128 .f32) (q : Fin 128) :
    k0_pay5 x0 x1 x2 x3 x4 x5 acc (ix1 q) = acc (ix1 q) + ∑ p : Fin 2000, k0_pay4 x0 x1 x2 x3 x4 x5 (ix2 p q) := by
  unfold k0_pay5
  simp only [addf_apply, shapeCast_self]
  rw [colsum_apply (k0_pay4 x0 x1 x2 x3 x4 x5) q]

/-- The second accumulator's new block at q: what it held plus the column sum of the z block's squares. -/
theorem reg0_pay1_apply (x0 x1 : Vec Ideal S2000x64 .f32) (x2 : Vec Ideal S64x128 .f32) (x3 : Vec Ideal S128 .f32)
    (x4 : Vec Ideal S128x128 .f32) (x5 : Vec Ideal S128 .f32) (acc : Vec Ideal S128 .f32) (q : Fin 128) :
    k0_pay1 (k0_pay6 acc) (k0_pay7 x0 x1 x2 x3 x4 x5) (ix1 q)
      = acc (ix1 q) + ∑ p : Fin 2000, k0_pay4 x0 x1 x2 x3 x4 x5 (ix2 p q) * k0_pay4 x0 x1 x2 x3 x4 x5 (ix2 p q) := by
  unfold k0_pay1 k0_pay6 k0_pay7
  simp only [addf_apply, shapeCast_self]
  rw [colsum_apply (mulf (k0_pay4 x0 x1 x2 x3 x4 x5) (k0_pay4 x0 x1 x2 x3 x4 x5)) q]
  simp only [mulf_apply]

/-- The block an accumulator is cleared to is zero everywhere. -/
theorem reg0_pay2_apply (q : Fin 128) : k0_pay2 (F := Ideal) (ix1 q) = 0 := by
  unfold k0_pay2
  simp only [broadcast_apply, scalar_zero]
theorem reg0_pay3_apply (q : Fin 128) : k0_pay3 (F := Ideal) (ix1 q) = 0 := by
  unfold k0_pay3
  simp only [broadcast_apply, scalar_zero]

-- the contents of the core's buffers when the region is entered
variable (V : (c : Dev nD) → (b : Ref sig .tc) → Buf (Elt Ideal) ((c : Thread nD τ).loc b))

/-- The node features the region is given, as a matrix of extended reals. -/
abbrev feat (c : Dev nD) : Gin.Mat Gin.NN 64 := V c main_arg0
/-- Their neighbourhood sums. -/
abbrev nbr (c : Dev nD) : Gin.Mat Gin.NN 64 := V c main_v13
/-- The perceptron's input u = h + a. -/
abbrev uIn (c : Dev nD) : Gin.Mat Gin.NN 64 := fun i => feat V c i + nbr V c i

/-! ## The windows' blocks, read off the arrays

  At grid point t the two row windows hold rows 2000·t … 2000·t + 1999 of their arrays; the four parameter windows hold
  their whole arrays; the z window's block is rows 2000·t … of z, and each accumulator's one block is its whole array. -/

/-- Each window's block index at every grid point, decided once over the grid. -/
theorem reg0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 1) = 0
    ∧ win0_8.index t (0 : Fin 1) = 0 :=
  (by decide +kernel : ∀ t : Fin grid0.N, _)

/-- Row p of the block at grid point t is row 2000·t + p of the array. -/
def reg0_row (t : Fin cfg0.N) (p : Fin 2000) : Fin Gin.NN :=
  ⟨2000 * t.val + p.val, by
    have hN : cfg0.N = 50 := N_0
    have ht := t.isLt
    have hp := p.isLt
    show _ < 100000
    omega⟩

/-- The six input blocks at a grid point, each at its literal shape. -/
abbrev reg0_blk0 (c : Dev nD) (t : Fin cfg0.N) : Vec Ideal S2000x64 .f32 := iblk0 V c 0 t
abbrev reg0_blk1 (c : Dev nD) (t : Fin cfg0.N) : Vec Ideal S2000x64 .f32 := iblk0 V c 1 t
abbrev reg0_blk2 (c : Dev nD) (t : Fin cfg0.N) : Vec Ideal S64x128 .f32 := iblk0 V c 2 t
abbrev reg0_blk3 (c : Dev nD) (t : Fin cfg0.N) : Vec Ideal S128 .f32 := iblk0 V c 3 t
abbrev reg0_blk4 (c : Dev nD) (t : Fin cfg0.N) : Vec Ideal S128x128 .f32 := iblk0 V c 4 t
abbrev reg0_blk5 (c : Dev nD) (t : Fin cfg0.N) : Vec Ideal S128 .f32 := iblk0 V c 5 t

theorem reg0_blk0_apply (c : Dev nD) (t : Fin cfg0.N) (p : Fin 2000) (j : Fin 64) :
    reg0_blk0 V c t (ix2 p j) = feat V c (ix2 (reg0_row t p) j) := by
  show iblk0 V c 0 t (ix2 p j) = _
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * p.val = 2000 * t.val + p.val; rw [(reg0_idx t).1]; omega
  | ⟨1, _⟩ => show win0_0.index t (1 : Fin 2) * 64 + 1 * j.val = j.val; rw [(reg0_idx t).2.1]; omega

theorem reg0_blk1_apply (c : Dev nD) (t : Fin cfg0.N) (p : Fin 2000) (j : Fin 64) :
    reg0_blk1 V c t (ix2 p j) = nbr V c (ix2 (reg0_row t p) j) := by
  show iblk0 V c 1 t (ix2 p j) = _
  unfold iblk0
  rw [View.read_apply]
  show V c main_v13 _ = V c main_v13 _
  refine congrArg (V c main_v13) ?_
  funext a
  apply Fin.ext
  match a with
  | ⟨0, _⟩ => show win0_1.index t (0 : Fin 2) * 2000 + 1 * p.val = 2000 * t.val + p.val; rw [(reg0_idx t).2.2.1]; omega
  | ⟨1, _⟩ => show win0_1.index t (1 : Fin 2) * 64 + 1 * j.val = j.val; rw [(reg0_idx t).2.2.2.1]; omega

theorem reg0_blk2_apply (c : Dev nD) (t : Fin cfg0.N) (j : Fin 64) (k : Fin 128) :
    reg0_blk2 V c t (ix2 j k) = (V c main_arg3 : Gin.Mat 64 128) (ix2 j k) := by
  show iblk0 V c 2 t (ix2 j k) = _
  unfold iblk0
  rw [View.read_apply]
  show V c main_arg3 _ = V c main_arg3 _
  refine congrArg (V c main_arg3) ?_
  funext a
  apply Fin.ext
  match a with
  | ⟨0, _⟩ => show win0_2.index t (0 : Fin 2) * 64 + 1 * j.val = j.val; rw [(reg0_idx t).2.2.2.2.1]; omega
  | ⟨1, _⟩ => show win0_2.index t (1 : Fin 2) * 128 + 1 * k.val = k.val; rw [(reg0_idx t).2.2.2.2.2.1]; omega

theorem reg0_blk3_apply (c : Dev nD) (t : Fin cfg0.N) (k : Fin 128) :
    reg0_blk3 V c t (ix1 k) = (V c main_arg4 : Gin.Vc 128) (ix1 k) := by
  show iblk0 V c 3 t (ix1 k) = _
  unfold iblk0
  rw [View.read_apply]
  show V c main_arg4 _ = V c main_arg4 _
  refine congrArg (V c main_arg4) ?_
  funext a
  apply Fin.ext
  match a with
  | ⟨0, _⟩ => show win0_3.index t (0 : Fin 1) * 128 + 1 * k.val = k.val; rw [(reg0_idx t).2.2.2.2.2.2.1]; omega

theorem reg0_blk4_apply (c : Dev nD) (t : Fin cfg0.N) (k : Fin 128) (q : Fin 128) :
    reg0_blk4 V c t (ix2 k q) = (V c main_arg5 : Gin.Mat 128 128) (ix2 k q) := by
  show iblk0 V c 4 t (ix2 k q) = _
  unfold iblk0
  rw [View.read_apply]
  show V c main_arg5 _ = V c main_arg5 _
  refine congrArg (V c main_arg5) ?_
  funext a
  apply Fin.ext
  match a with
  | ⟨0, _⟩ => show win0_4.index t (0 : Fin 2) * 128 + 1 * k.val = k.val; rw [(reg0_idx t).2.2.2.2.2.2.2.1]; omega
  | ⟨1, _⟩ => show win0_4.index t (1 : Fin 2) * 128 + 1 * q.val = q.val; rw [(reg0_idx t).2.2.2.2.2.2.2.2.1]; omega

theorem reg0_blk5_apply (c : Dev nD) (t : Fin cfg0.N) (q : Fin 128) :
    reg0_blk5 V c t (ix1 q) = (V c main_arg6 : Gin.Vc 128) (ix1 q) := by
  show iblk0 V c 5 t (ix1 q) = _
  unfold iblk0
  rw [View.read_apply]
  show V c main_arg6 _ = V c main_arg6 _
  refine congrArg (V c main_arg6) ?_
  funext a
  apply Fin.ext
  match a with
  | ⟨0, _⟩ => show win0_5.index t (0 : Fin 1) * 128 + 1 * q.val = q.val; rw [(reg0_idx t).2.2.2.2.2.2.2.2.2.1]; omega

/-! ## The z block is the perceptron of the block's rows -/

/-- The z array the region computes: every row of u through the two affine maps. -/
abbrev reg0_zfun (c : Dev nD) : Gin.Mat Gin.NN 128 :=
  Gin.mlp (uIn V c) (V c main_arg3) (V c main_arg4) (V c main_arg5) (V c main_arg6)

/-- Entry (p, q) of the z block at grid point t is entry (2000·t + p, q) of z. -/
theorem reg0_zblk_apply (c : Dev nD) (t : Fin cfg0.N) (p : Fin 2000) (q : Fin 128) :
    k0_pay4 (reg0_blk0 V c t) (reg0_blk1 V c t) (reg0_blk2 V c t) (reg0_blk3 V c t) (reg0_blk4 V c t) (reg0_blk5 V c t) (ix2 p q) = reg0_zfun V c (ix2 (reg0_row t p) q) := by
  refine (reg0_pay4_apply (reg0_blk0 V c t) (reg0_blk1 V c t) (reg0_blk2 V c t) (reg0_blk3 V c t) (reg0_blk4 V c t) (reg0_blk5 V c t) p q).trans ?_
  show _ = Gin.mlpAt (uIn V c) (V c main_arg3) (V c main_arg4) (V c main_arg5) (V c main_arg6) (reg0_row t p) q
  unfold Gin.mlpAt
  refine congrArg₂ (· + ·) (Finset.sum_congr rfl fun k _ => congrArg₂ (· * ·) (congrArg (max · 0)
    (congrArg₂ (· + ·) (Finset.sum_congr rfl fun j _ => congrArg₂ (· * ·)
      (congrArg₂ (· + ·) (reg0_blk0_apply V c t p j) (reg0_blk1_apply V c t p j)) (reg0_blk2_apply V c t j k))
      (reg0_blk3_apply V c t k))) (reg0_blk4_apply V c t k q)) (reg0_blk5_apply V c t q)

/-! ## What the three outputs' blocks hold after each grid point -/

/-- After any point the z window's block is the z block of that point's rows. -/
theorem reg0_outs6 (c : Dev nD) (t : Fin cfg0.N) :
    (outsAt0 V c t.val t.isLt).1 = k0_pay4 (reg0_blk0 V c t) (reg0_blk1 V c t) (reg0_blk2 V c t) (reg0_blk3 V c t) (reg0_blk4 V c t) (reg0_blk5 V c t) := by
  by_cases h0 : t.val % 50 = 0
  · rw [outsAt0_A V c t h0]
    dsimp only
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- At the first point the first accumulator's block, just cleared, ends as the z block's column sums. -/
theorem reg0_outs7_A (c : Dev nD) (t : Fin cfg0.N) (h0 : t.val % 50 = 0) (q : Fin 128) :
    (outsAt0 V c t.val t.isLt).2.1 (ix1 q) = 0 + ∑ p : Fin 2000, k0_pay4 (reg0_blk0 V c t) (reg0_blk1 V c t) (reg0_blk2 V c t) (reg0_blk3 V c t) (reg0_blk4 V c t) (reg0_blk5 V c t) (ix2 p q) := by
  rw [outsAt0_A V c t h0]
  dsimp only
  refine (congrFun (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) (ix1 q)).trans ?_
  refine (reg0_pay5_apply (reg0_blk0 V c t) (reg0_blk1 V c t) (reg0_blk2 V c t) (reg0_blk3 V c t) (reg0_blk4 V c t) (reg0_blk5 V c t) (k0_pay2 (F := Ideal)) q).trans ?_
  rw [reg0_pay2_apply]

/-- At every other point it ends as what the point before left plus the z block's column sums. -/
theorem reg0_outs7_B (c : Dev nD) (t : Fin cfg0.N) (h0 : ¬t.val % 50 = 0) (q : Fin 128) :
    (outsAt0 V c t.val t.isLt).2.1 (ix1 q)
      = (outsAt0 V c (t.val - 1) (Nat.lt_of_le_of_lt (Nat.sub_le _ _) t.isLt)).2.1 (ix1 q)
        + ∑ p : Fin 2000, k0_pay4 (reg0_blk0 V c t) (reg0_blk1 V c t) (reg0_blk2 V c t) (reg0_blk3 V c t) (reg0_blk4 V c t) (reg0_blk5 V c t) (ix2 p q) := by
  rw [outsAt0_B V c t h0]
  dsimp only
  refine (congrFun (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) (ix1 q)).trans ?_
  exact reg0_pay5_apply (reg0_blk0 V c t) (reg0_blk1 V c t) (reg0_blk2 V c t) (reg0_blk3 V c t) (reg0_blk4 V c t) (reg0_blk5 V c t) (outsAt0 V c (t.val - 1) (Nat.lt_of_le_of_lt (Nat.sub_le _ _) t.isLt)).2.1 q

/-- The second accumulator likewise, with the squares of the z block's entries. -/
theorem reg0_outs8_A (c : Dev nD) (t : Fin cfg0.N) (h0 : t.val % 50 = 0) (q : Fin 128) :
    (outsAt0 V c t.val t.isLt).2.2 (ix1 q)
      = 0 + ∑ p : Fin 2000, k0_pay4 (reg0_blk0 V c t) (reg0_blk1 V c t) (reg0_blk2 V c t) (reg0_blk3 V c t) (reg0_blk4 V c t) (reg0_blk5 V c t) (ix2 p q) * k0_pay4 (reg0_blk0 V c t) (reg0_blk1 V c t) (reg0_blk2 V c t) (reg0_blk3 V c t) (reg0_blk4 V c t) (reg0_blk5 V c t) (ix2 p q) := by
  rw [outsAt0_A V c t h0]
  dsimp only
  refine (congrFun (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) (ix1 q)).trans ?_
  refine (reg0_pay1_apply (reg0_blk0 V c t) (reg0_blk1 V c t) (reg0_blk2 V c t) (reg0_blk3 V c t) (reg0_blk4 V c t) (reg0_blk5 V c t) (k0_pay3 (F := Ideal)) q).trans ?_
  rw [reg0_pay3_apply]

theorem reg0_outs8_B (c : Dev nD) (t : Fin cfg0.N) (h0 : ¬t.val % 50 = 0) (q : Fin 128) :
    (outsAt0 V c t.val t.isLt).2.2 (ix1 q)
      = (outsAt0 V c (t.val - 1) (Nat.lt_of_le_of_lt (Nat.sub_le _ _) t.isLt)).2.2 (ix1 q)
        + ∑ p : Fin 2000, k0_pay4 (reg0_blk0 V c t) (reg0_blk1 V c t) (reg0_blk2 V c t) (reg0_blk3 V c t) (reg0_blk4 V c t) (reg0_blk5 V c t) (ix2 p q) * k0_pay4 (reg0_blk0 V c t) (reg0_blk1 V c t) (reg0_blk2 V c t) (reg0_blk3 V c t) (reg0_blk4 V c t) (reg0_blk5 V c t) (ix2 p q) := by
  rw [outsAt0_B V c t h0]
  dsimp only
  refine (congrFun (out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) (ix1 q)).trans ?_
  exact reg0_pay1_apply (reg0_blk0 V c t) (reg0_blk1 V c t) (reg0_blk2 V c t) (reg0_blk3 V c t) (reg0_blk4 V c t) (reg0_blk5 V c t) (outsAt0 V c (t.val - 1) (Nat.lt_of_le_of_lt (Nat.sub_le _ _) t.isLt)).2.2 q

/-! ## The accumulators are the column sums over the rows seen so far

  By induction on the grid point: after point n the first accumulator holds, at column q, the sum of z's column q over
  the rows below 2000·(n + 1), and the second the sum of its squares. The first point starts from the cleared block
  (0 + x = x); every later point adds its block's 2000 rows to what the point before left. -/

theorem reg0_acc7 (c : Dev nD) : ∀ (n : ℕ) (hn : n < cfg0.N) (q : Fin 128),
    (outsAt0 V c n hn).2.1 (ix1 q) = Gin.prefixSum (fun r => reg0_zfun V c (ix2 r q)) (2000 * (n + 1))
  | 0, hn, q => by
    refine (reg0_outs7_A V c ⟨0, hn⟩ (Nat.zero_mod 50) q).trans ?_
    rw [Gin.prefixSum_block _ 0 (by decide)]
    refine congrArg₂ (· + ·) (Gin.prefixSum_zero _).symm (Finset.sum_congr rfl fun p _ => ?_)
    exact reg0_zblk_apply V c ⟨0, hn⟩ p q
  | n + 1, hn, q => by
    have hN : cfg0.N = 50 := N_0
    have hB : ¬(⟨n + 1, hn⟩ : Fin cfg0.N).val % 50 = 0 := by dsimp only; omega
    refine (reg0_outs7_B V c ⟨n + 1, hn⟩ hB q).trans ?_
    show (outsAt0 V c n _).2.1 (ix1 q) + _ = _
    rw [reg0_acc7 c n _ q, Gin.prefixSum_block _ (n + 1) (by omega)]
    refine congrArg (_ + ·) (Finset.sum_congr rfl fun p _ => ?_)
    exact reg0_zblk_apply V c ⟨n + 1, hn⟩ p q

theorem reg0_acc8 (c : Dev nD) : ∀ (n : ℕ) (hn : n < cfg0.N) (q : Fin 128),
    (outsAt0 V c n hn).2.2 (ix1 q)
      = Gin.prefixSum (fun r => reg0_zfun V c (ix2 r q) * reg0_zfun V c (ix2 r q)) (2000 * (n + 1))
  | 0, hn, q => by
    refine (reg0_outs8_A V c ⟨0, hn⟩ (Nat.zero_mod 50) q).trans ?_
    rw [Gin.prefixSum_block _ 0 (by decide)]
    refine congrArg₂ (· + ·) (Gin.prefixSum_zero _).symm (Finset.sum_congr rfl fun p _ => ?_)
    rw [reg0_zblk_apply V c ⟨0, hn⟩ p q]
    rfl
  | n + 1, hn, q => by
    have hN : cfg0.N = 50 := N_0
    have hB : ¬(⟨n + 1, hn⟩ : Fin cfg0.N).val % 50 = 0 := by dsimp only; omega
    refine (reg0_outs8_B V c ⟨n + 1, hn⟩ hB q).trans ?_
    show (outsAt0 V c n _).2.2 (ix1 q) + _ = _
    rw [reg0_acc8 c n _ q, Gin.prefixSum_block _ (n + 1) (by omega)]
    refine congrArg (_ + ·) (Finset.sum_congr rfl fun p _ => ?_)
    rw [reg0_zblk_apply V c ⟨n + 1, hn⟩ p q]
    rfl

/-! ## From blocks to the arrays

  The z window is written back after every grid point, and row r of z lies in the block of point r / 2000. Each
  accumulator's one block is its whole array and is written back once, after the last point, when it holds the sums over
  all 2000·50 rows. -/

/-- The z block at a grid point, as a function of the block's index. -/
theorem reg0_zblk_eq (c : Dev nD) (t : Fin cfg0.N) :
    k0_pay4 (reg0_blk0 V c t) (reg0_blk1 V c t) (reg0_blk2 V c t) (reg0_blk3 V c t) (reg0_blk4 V c t) (reg0_blk5 V c t)
      = fun y : S2000x128.Idx => reg0_zfun V c (ix2 (reg0_row t (y 0)) (y 1)) := by
  funext y
  obtain ⟨p, q, rfl⟩ : ∃ (p : Fin 2000) (q : Fin 128), y = ix2 p q := ⟨y 0, y 1, eq_ix2 y⟩
  exact reg0_zblk_apply V c t p q

/-- What grid point t writes back to the z array is block t of z. -/
theorem reg0_flushed6 (c : Dev nD) (t : Fin cfg0.N) :
    (dat0 (F := Ideal) V c).flushed 6 t = ((cfg0.win 6).blk t).view.read (Elt Ideal) (reg0_zfun V c) := by
  show (cfg0.win 6).cut (grid0.coords t) ((dat0 (F := Ideal) V c).after 6 t) = _
  rw [after0_6, reg0_outs6, reg0_zblk_eq]
  funext y
  show reg0_zfun V c (ix2 (reg0_row t (y 0)) (y 1)) = reg0_zfun V c (((cfg0.win 6).blk t).view.emb y)
  refine congrArg (reg0_zfun V c) ?_
  funext a
  apply Fin.ext
  match a with
  | ⟨0, _⟩ =>
    show 2000 * t.val + (y 0).val = win0_6.index t (0 : Fin 2) * 2000 + 1 * (y 0).val
    rw [(reg0_idx t).2.2.2.2.2.2.2.2.2.2.1]; omega
  | ⟨1, _⟩ =>
    show (y 1).val = win0_6.index t (1 : Fin 2) * 128 + 1 * (y 1).val
    rw [(reg0_idx t).2.2.2.2.2.2.2.2.2.2.2.1]; omega

/-- An index of the z array is in point t's block iff each coordinate is in the block's range on its axis. -/
theorem reg0_mem6 (t : Fin cfg0.N) (i : S100000x128.Idx) :
    i ∈ ((cfg0.win 6).blk t).view.set
      ↔ ∀ a : Fin 2, win0_6.index t a * S2000x128.size a ≤ (i a).val
          ∧ (i a).val < win0_6.index t a * S2000x128.size a + S2000x128.size a := by
  show i ∈ ((View.whole main_v14_0).slice (win0_6.rect t)).set ↔ _
  rw [View.set_slice_whole, Rect.mem_set_unit]
  exact Iff.rfl

/-- Row r of the z array is in the block of grid point r / 2000, which is written back. -/
theorem reg0_cover6 (i : S100000x128.Idx) :
    ∃ t : Fin cfg0.N, (cfg0.win 6).flush t = true ∧ i ∈ ((cfg0.win 6).blk t).view.set := by
  have hN : cfg0.N = 50 := N_0
  have hi0 : (i 0).val < 100000 := idx2_lt0 i
  have hi1 : (i 1).val < 128 := idx2_lt1 i
  obtain ⟨t, ht⟩ : ∃ t : Fin cfg0.N, t.val = (i 0).val / 2000 := ⟨⟨(i 0).val / 2000, by omega⟩, rfl⟩
  refine ⟨t, flush0_6 t, ?_⟩
  rw [reg0_mem6]
  intro a
  match a with
  | ⟨0, _⟩ =>
    show win0_6.index t (0 : Fin 2) * 2000 ≤ (i 0).val ∧ (i 0).val < win0_6.index t (0 : Fin 2) * 2000 + 2000
    rw [(reg0_idx t).2.2.2.2.2.2.2.2.2.2.1]; omega
  | ⟨1, _⟩ =>
    show win0_6.index t (1 : Fin 2) * 128 ≤ (i 1).val ∧ (i 1).val < win0_6.index t (1 : Fin 2) * 128 + 128
    rw [(reg0_idx t).2.2.2.2.2.2.2.2.2.2.2.1]; omega

/-- The z array after the region: every row through the two affine maps. -/
theorem reg0_z (c : Dev nD) :
    (dat0 (F := Ideal) V c).arrAt 6 cfg0.N
      = Gin.mlp (uIn V c) (V c main_arg3) (V c main_arg4) (V c main_arg5) (V c main_arg6) :=
  (dat0 (F := Ideal) V c).arrAt_eq_of_cover 6 (reg0_zfun V c) (fun t _ => reg0_flushed6 V c t) fun i => reg0_cover6 i

/-- After the last grid point the first accumulator's block is z's column sums: the rows below 2000·50 are all the rows. -/
theorem reg0_acc7_last (c : Dev nD) (t : Fin cfg0.N) (hlast : 2000 * (t.val + 1) = 2000 * 50) :
    (outsAt0 V c t.val t.isLt).2.1 = Gin.colSum (reg0_zfun V c) := by
  funext y
  obtain ⟨q, rfl⟩ : ∃ q : Fin 128, y = ix1 q := ⟨y 0, eq_ix1 y⟩
  rw [reg0_acc7 V c t.val t.isLt q, hlast, Gin.prefixSum_full]
  unfold Gin.colSum
  rfl

/-- The accumulator's one block is its whole array: read through the block at any grid point, an array is itself. -/
theorem reg0_whole7 (t : Fin cfg0.N) (G : Gin.Vc 128) :
    (cfg0.win 7).cut (grid0.coords t) G = ((cfg0.win 7).blk t).view.read (Elt Ideal) G := by
  funext y
  rw [View.read_apply]
  show G y = G (((cfg0.win 7).blk t).view.emb y)
  refine congrArg G ?_
  funext a
  apply Fin.ext
  match a with
  | ⟨0, _⟩ =>
    show (y 0).val = win0_7.index t (0 : Fin 1) * 128 + 1 * (y 0).val
    rw [(reg0_idx t).2.2.2.2.2.2.2.2.2.2.2.2.1]; omega

/-- The one write-back of the first accumulator, after the last point, writes z's column sums. -/
theorem reg0_flushed7 (c : Dev nD) (t : Fin cfg0.N) (hf : (cfg0.win 7).flush t = true) :
    (dat0 (F := Ideal) V c).flushed 7 t
      = ((cfg0.win 7).blk t).view.read (Elt Ideal) (Gin.colSum (reg0_zfun V c)) := by
  have hN : cfg0.N = 50 := N_0
  have hlast : 2000 * (t.val + 1) = 2000 * 50 := by
    have h49 := (flush0_7 t).mp hf
    have ht := t.isLt
    omega
  show (cfg0.win 7).cut (grid0.coords t) ((dat0 (F := Ideal) V c).after 7 t) = _
  rw [after0_7, reg0_acc7_last V c t hlast]
  exact reg0_whole7 t (Gin.colSum (reg0_zfun V c))

theorem reg0_mem7 (t : Fin cfg0.N) (i : S128.Idx) :
    i ∈ ((cfg0.win 7).blk t).view.set
      ↔ ∀ a : Fin 1, win0_7.index t a * S128.size a ≤ (i a).val ∧ (i a).val < win0_7.index t a * S128.size a + S128.size a := by
  show i ∈ ((View.whole main_v14_1).slice (win0_7.rect t)).set ↔ _
  rw [View.set_slice_whole, Rect.mem_set_unit]
  exact Iff.rfl

/-- The last grid point's block covers the whole accumulator, and is written back. -/
theorem reg0_cover7 (i : S128.Idx) :
    ∃ t : Fin cfg0.N, (cfg0.win 7).flush t = true ∧ i ∈ ((cfg0.win 7).blk t).view.set := by
  have hN : cfg0.N = 50 := N_0
  have hi0 : (i 0).val < 128 := (i 0).isLt
  obtain ⟨t, ht⟩ : ∃ t : Fin cfg0.N, t.val = 49 := ⟨⟨49, by omega⟩, rfl⟩
  refine ⟨t, (flush0_7 t).mpr (by omega), ?_⟩
  rw [reg0_mem7]
  intro a
  match a with
  | ⟨0, _⟩ =>
    show win0_7.index t (0 : Fin 1) * 128 ≤ (i 0).val ∧ (i 0).val < win0_7.index t (0 : Fin 1) * 128 + 128
    rw [(reg0_idx t).2.2.2.2.2.2.2.2.2.2.2.2.1]; omega

/-- The first accumulator after the region: z's column sums. -/
theorem reg0_sum (c : Dev nD) :
    (dat0 (F := Ideal) V c).arrAt 7 cfg0.N
      = Gin.colSum (Gin.mlp (uIn V c) (V c main_arg3) (V c main_arg4) (V c main_arg5) (V c main_arg6)) :=
  (dat0 (F := Ideal) V c).arrAt_eq_of_cover 7 (Gin.colSum (reg0_zfun V c)) (reg0_flushed7 V c) fun i => reg0_cover7 i

/-- After the last grid point the second accumulator's block is the column sums of z²: the rows below 2000·50 are all the rows. -/
theorem reg0_acc8_last (c : Dev nD) (t : Fin cfg0.N) (hlast : 2000 * (t.val + 1) = 2000 * 50) :
    (outsAt0 V c t.val t.isLt).2.2 = Gin.colSumSq (reg0_zfun V c) := by
  funext y
  obtain ⟨q, rfl⟩ : ∃ q : Fin 128, y = ix1 q := ⟨y 0, eq_ix1 y⟩
  rw [reg0_acc8 V c t.val t.isLt q, hlast, Gin.prefixSum_full]
  unfold Gin.colSumSq
  rfl

/-- The accumulator's one block is its whole array: read through the block at any grid point, an array is itself. -/
theorem reg0_whole8 (t : Fin cfg0.N) (G : Gin.Vc 128) :
    (cfg0.win 8).cut (grid0.coords t) G = ((cfg0.win 8).blk t).view.read (Elt Ideal) G := by
  funext y
  rw [View.read_apply]
  show G y = G (((cfg0.win 8).blk t).view.emb y)
  refine congrArg G ?_
  funext a
  apply Fin.ext
  match a with
  | ⟨0, _⟩ =>
    show (y 0).val = win0_8.index t (0 : Fin 1) * 128 + 1 * (y 0).val
    rw [(reg0_idx t).2.2.2.2.2.2.2.2.2.2.2.2.2]; omega

/-- The one write-back of the second accumulator, after the last point, writes the column sums of z². -/
theorem reg0_flushed8 (c : Dev nD) (t : Fin cfg0.N) (hf : (cfg0.win 8).flush t = true) :
    (dat0 (F := Ideal) V c).flushed 8 t
      = ((cfg0.win 8).blk t).view.read (Elt Ideal) (Gin.colSumSq (reg0_zfun V c)) := by
  have hN : cfg0.N = 50 := N_0
  have hlast : 2000 * (t.val + 1) = 2000 * 50 := by
    have h49 := (flush0_8 t).mp hf
    have ht := t.isLt
    omega
  show (cfg0.win 8).cut (grid0.coords t) ((dat0 (F := Ideal) V c).after 8 t) = _
  rw [after0_8, reg0_acc8_last V c t hlast]
  exact reg0_whole8 t (Gin.colSumSq (reg0_zfun V c))

theorem reg0_mem8 (t : Fin cfg0.N) (i : S128.Idx) :
    i ∈ ((cfg0.win 8).blk t).view.set
      ↔ ∀ a : Fin 1, win0_8.index t a * S128.size a ≤ (i a).val ∧ (i a).val < win0_8.index t a * S128.size a + S128.size a := by
  show i ∈ ((View.whole main_v14_2).slice (win0_8.rect t)).set ↔ _
  rw [View.set_slice_whole, Rect.mem_set_unit]
  exact Iff.rfl

/-- The last grid point's block covers the whole accumulator, and is written back. -/
theorem reg0_cover8 (i : S128.Idx) :
    ∃ t : Fin cfg0.N, (cfg0.win 8).flush t = true ∧ i ∈ ((cfg0.win 8).blk t).view.set := by
  have hN : cfg0.N = 50 := N_0
  have hi0 : (i 0).val < 128 := (i 0).isLt
  obtain ⟨t, ht⟩ : ∃ t : Fin cfg0.N, t.val = 49 := ⟨⟨49, by omega⟩, rfl⟩
  refine ⟨t, (flush0_8 t).mpr (by omega), ?_⟩
  rw [reg0_mem8]
  intro a
  match a with
  | ⟨0, _⟩ =>
    show win0_8.index t (0 : Fin 1) * 128 ≤ (i 0).val ∧ (i 0).val < win0_8.index t (0 : Fin 1) * 128 + 128
    rw [(reg0_idx t).2.2.2.2.2.2.2.2.2.2.2.2.2]; omega

/-- The second accumulator after the region: the column sums of z². -/
theorem reg0_sumsq (c : Dev nD) :
    (dat0 (F := Ideal) V c).arrAt 8 cfg0.N
      = Gin.colSumSq (Gin.mlp (uIn V c) (V c main_arg3) (V c main_arg4) (V c main_arg5) (V c main_arg6)) :=
  (dat0 (F := Ideal) V c).arrAt_eq_of_cover 8 (Gin.colSumSq (reg0_zfun V c)) (reg0_flushed8 V c) fun i => reg0_cover8 i

end Cert.KernelIdeal.KVal.Reg0

end
-- ==== Proof.KReg1.lean ====
/-
  The first normalization region, read as values. Every block of 2000 rows of z is sent, entry by entry, through
  max(((z − μ)·rsqrt(v + ε))·γ + β, 0) with the column's μ, v, γ, β; the blocks tile the array, so the result array
  is that function of the whole of z.
-/
import proofs.«423186_j27333171871744_1_alg».proof.Proof.Gen.KernelIdeal.Frame
import proofs.«423186_j27333171871744_1_alg».proof.Proof.Spec
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KVal.Reg1

open Cert.KernelIdeal Cert.KernelIdeal.Gen

-- the contents of the core's buffers when the region is entered
variable (V : (c : Dev nD) → (b : Ref sig .tc) → Buf (Elt Ideal) ((c : Thread nD τ).loc b))

/-! ## Where a block sits in its array -/

/-- The zero offset of a vector's whole-block access, however the zero is spelt. -/
theorem hzV : (![0] : Fin 1 → Nat) = fun _ => 0 := funext fun a => by
  match a with
  | ⟨0, _⟩ => rfl

/-- The zero offsets of a matrix block's whole-block access. -/
theorem hzM : (![0, 0] : Fin 2 → Nat) = fun _ => 0 := funext fun a => by
  match a with
  | ⟨0, _⟩ => rfl
  | ⟨1, _⟩ => rfl

/-- The block indices over the grid: at point t the blocks of z and of the result are block row t, all their
    columns; the four column vectors are fetched whole at every point. -/
theorem idx1_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

/-- Entry (p, q) of the block of z at point t is entry (2000·t + p, q) of z. -/
theorem iblk1_0_apply (c : Dev nD) (t : Fin cfg1.N) (p : Fin 2000) (q : Fin 128) (n : Fin Gin.NN)
    (hn : n.val = t.val * 2000 + p.val) :
    (iblk1 (F := Ideal) V c 0 t : Vec Ideal S2000x128 .f32) (ix2 p q) = (V c main_v14_0 : Gin.Mat Gin.NN 128) (ix2 n q) := by
  obtain ⟨e0, e1, -⟩ := idx1_facts t
  unfold iblk1
  rw [View.read_apply]
  show V c main_v14_0 _ = V c main_v14_0 _
  congr 1
  funext a
  apply Fin.ext
  match a with
  | ⟨0, _⟩ => show win1_0.index t (0 : Fin 2) * 2000 + 1 * p.val = n.val; rw [e0, hn]; omega
  | ⟨1, _⟩ => show win1_0.index t (1 : Fin 2) * 128 + 1 * q.val = q.val; rw [e1]; omega

/-- Entry q of the block of the means at any point is entry q of the means: the vector is fetched whole. -/
theorem iblk1_1_apply (c : Dev nD) (t : Fin cfg1.N) (q : Fin 128) :
    (iblk1 (F := Ideal) V c 1 t : Vec Ideal S128 .f32) (ix1 q) = (V c main_v16 : Gin.Vc 128) (ix1 q) := by
  obtain ⟨-, -, -, -, e1, e2, e3, e4⟩ := idx1_facts t
  unfold iblk1
  rw [View.read_apply]
  show V c main_v16 _ = V c main_v16 _
  congr 1
  funext a
  apply Fin.ext
  match a with
  | ⟨0, _⟩ => show win1_1.index t (0 : Fin 1) * 128 + 1 * q.val = q.val; rw [e1]; omega

/-- Entry q of the block of the variances at any point is entry q of the variances: the vector is fetched whole. -/
theorem iblk1_2_apply (c : Dev nD) (t : Fin cfg1.N) (q : Fin 128) :
    (iblk1 (F := Ideal) V c 2 t : Vec Ideal S128 .f32) (ix1 q) = (V c main_v20 : Gin.Vc 128) (ix1 q) := by
  obtain ⟨-, -, -, -, e1, e2, e3, e4⟩ := idx1_facts t
  unfold iblk1
  rw [View.read_apply]
  show V c main_v20 _ = V c main_v20 _
  congr 1
  funext a
  apply Fin.ext
  match a with
  | ⟨0, _⟩ => show win1_2.index t (0 : Fin 1) * 128 + 1 * q.val = q.val; rw [e2]; omega

/-- Entry q of the block of the scales at any point is entry q of the scales: the vector is fetched whole. -/
theorem iblk1_3_apply (c : Dev nD) (t : Fin cfg1.N) (q : Fin 128) :
    (iblk1 (F := Ideal) V c 3 t : Vec Ideal S128 .f32) (ix1 q) = (V c main_arg7 : Gin.Vc 128) (ix1 q) := by
  obtain ⟨-, -, -, -, e1, e2, e3, e4⟩ := idx1_facts t
  unfold iblk1
  rw [View.read_apply]
  show V c main_arg7 _ = V c main_arg7 _
  congr 1
  funext a
  apply Fin.ext
  match a with
  | ⟨0, _⟩ => show win1_3.index t (0 : Fin 1) * 128 + 1 * q.val = q.val; rw [e3]; omega

/-- Entry q of the block of the shifts at any point is entry q of the shifts: the vector is fetched whole. -/
theorem iblk1_4_apply (c : Dev nD) (t : Fin cfg1.N) (q : Fin 128) :
    (iblk1 (F := Ideal) V c 4 t : Vec Ideal S128 .f32) (ix1 q) = (V c main_arg8 : Gin.Vc 128) (ix1 q) := by
  obtain ⟨-, -, -, -, e1, e2, e3, e4⟩ := idx1_facts t
  unfold iblk1
  rw [View.read_apply]
  show V c main_arg8 _ = V c main_arg8 _
  congr 1
  funext a
  apply Fin.ext
  match a with
  | ⟨0, _⟩ => show win1_4.index t (0 : Fin 1) * 128 + 1 * q.val = q.val; rw [e4]; omega

/-! ## The body's result at an entry of a block -/

/-- A vector of 128 entries cast to one row and laid along every row of a block reads, at (p, q), its entry q. -/
theorem row1_apply (x : Vec Ideal S128 .f32) (h1 : S128.ShapeCasts S1x128) (hb : S1x128.Broadcasts S2000x128)
    (p : Fin 2000) (q : Fin 128) :
    broadcastTo S2000x128 (shapeCast S1x128 x h1) hb (ix2 p q) = x (ix1 q) := by
  rw [broadcastTo_1b_ab_apply, shapeCast_a_1a_apply]

/-- Entry (p, q) of what the body stores: the block's entry less the column's mean, times the reciprocal root of the
    column's guarded variance, times the column's scale, plus its shift, clamped at zero. -/
theorem pay1_apply (xv : Vec Ideal S128 .f32) (xz : Vec Ideal S2000x128 .f32) (xm xg xb : Vec Ideal S128 .f32)
    (p : Fin 2000) (q : Fin 128) :
    k1_pay1 (F := Ideal) xv xz xm xg xb (ix2 p q)
      = max ((((xz (ix2 p q) - xm (ix1 q)) * Ideal.rsqrt (xv (ix1 q) + Gin.cEps)) * xg (ix1 q)) + xb (ix1 q)) 0 := by
  unfold k1_pay1
  rw [maximumf_apply, addf_apply, mulf_apply, mulf_apply, subf_apply, broadcast_apply, row1_apply, row1_apply,
    row1_apply, row1_apply, shapeCast_self, shapeCast_self, shapeCast_self]
  show max ((xz (ix2 p q) - xm (ix1 q)) * Ideal.rsqrt (xv (ix1 q) + Gin.cEps) * xg (ix1 q) + xb (ix1 q))
      (Ideal.ofBits .f32 0x00000000#32) = _
  rw [Ideal.ofBits_zero_f32]

/-! ## From the blocks to the array -/

/-- What point t writes back is block t of the normalized, scaled, shifted and clamped z. -/
theorem flushed1_eq (c : Dev nD) (t : Fin cfg1.N) :
    (dat1 (F := Ideal) V c).flushed 5 t
      = ((cfg1.win 5).blk t).view.read (Elt Ideal)
          (Gin.bnRelu (V c main_v14_0) (V c main_v16) (V c main_v20) (V c main_arg7) (V c main_arg8)) := by
  show (cfg1.win 5).cut (grid1.coords t) ((dat1 V c).after 5 t) = _
  rw [after1_5]
  unfold out1_5
  rw [View.canon_unit_zero hzM]
  simp only [View.ld_unit_zero (S := S2000x128) hzM, View.ld_unit_zero (S := S128) hzV]
  funext j
  obtain ⟨p, q, rfl⟩ : ∃ (p : Fin 2000) (q : Fin 128), j = ix2 p q := ⟨j 0, j 1, eq_ix2 (n0 := 2000) (n1 := 128) j⟩
  obtain ⟨-, -, e0, e1, -⟩ := idx1_facts t
  have ht : t.val < 50 := Nat.lt_of_lt_of_eq t.isLt (show cfg1.N = 50 from N_1)
  have hlt : t.val * 2000 + p.val < Gin.NN := by have := p.isLt; show _ < 100000; omega
  -- the row of z, and of the result, that entry (p, q) of block t is
  have hemb : ((cfg1.win 5).blk t).view.emb (ix2 p q) = ix2 (⟨t.val * 2000 + p.val, hlt⟩ : Fin Gin.NN) q := by
    funext a
    apply Fin.ext
    match a with
    | ⟨0, _⟩ => show win1_5.index t (0 : Fin 2) * 2000 + 1 * p.val = t.val * 2000 + p.val; rw [e0]; omega
    | ⟨1, _⟩ => show win1_5.index t (1 : Fin 2) * 128 + 1 * q.val = q.val; rw [e1]; omega
  refine (pay1_apply (iblk1 V c 2 t) (iblk1 V c 0 t) (iblk1 V c 1 t) (iblk1 V c 3 t) (iblk1 V c 4 t) p q).trans ?_
  rw [iblk1_0_apply V c t p q ⟨t.val * 2000 + p.val, hlt⟩ rfl, iblk1_1_apply V c t q, iblk1_2_apply V c t q,
    iblk1_3_apply V c t q, iblk1_4_apply V c t q, View.read_apply]
  show _ = Gin.bnRelu (V c main_v14_0) (V c main_v16) (V c main_v20) (V c main_arg7) (V c main_arg8)
    (((cfg1.win 5).blk t).view.emb (ix2 p q))
  rw [hemb, Gin.bnRelu_apply]
  rfl

/-- An entry of the result array lies in point t's block when each of its coordinates is in the block's range. -/
theorem mem_blk1 (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v21).slice (win1_5.rect t)).set ↔ _
  rw [View.set_slice_whole, Rect.mem_set_unit]
  exact Iff.rfl

/-- The 50 blocks of 2000 rows tile the 100000 rows: row r is in the block of point r / 2000, which writes back. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, Nat.lt_of_lt_of_eq (by omega : (i 0).val / 2000 < 50) (show 50 = cfg1.N from N_1.symm)⟩, rfl⟩
  obtain ⟨-, -, e0, e1, -⟩ := idx1_facts t
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- The result array after the region. -/
theorem reg1_out (c : Dev nD) :
    (dat1 (F := Ideal) V c).arrAt 5 cfg1.N
      = Gin.bnRelu (V c main_v14_0) (V c main_v16) (V c main_v20) (V c main_arg7) (V c main_arg8) :=
  (dat1 (F := Ideal) V c).arrAt_eq_of_cover 5 _ (fun t _ => flushed1_eq V c t) cover1

end Cert.KernelIdeal.KVal.Reg1

end
-- ==== Proof.KReg2.lean ====
/-
  The second perceptron region, read as values. Its grid walks the 50 blocks of 2000 rows. At block t the body forms
  u = h + a on the block's rows, z = max(u·W₁ + b₁, 0)·W₂ + b₂, writes z's block back, and adds z's column sums and
  the column sums of z² to two accumulators that are cleared at block 0 and written back after block 49. So the z
  array ends as the perceptron of every row, and the two accumulators as the column sums over all 100000 rows.
-/
import proofs.«423186_j27333171871744_1_alg».proof.Proof.Gen.KernelIdeal.Frame
import proofs.«423186_j27333171871744_1_alg».proof.Proof.Spec
import proofs.«423186_j27333171871744_1_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.KVal.Reg2

open Cert.KernelIdeal Cert.KernelIdeal.Gen

/-! ## Zero offsets, however they are spelt -/

theorem hz1 : (![0] : Fin 1 → Nat) = fun _ => 0 := funext fun a => by fin_cases a; rfl
theorem hz2 : (![0, 0] : Fin 2 → Nat) = fun _ => 0 := funext fun a => by fin_cases a <;> rfl

/-! ## What each case of the body leaves in each output's block

  The z block is stored once, whole, in both cases: the two-layer perceptron of the loaded blocks. Each accumulator's
  block is, at the first grid point, cleared and then overwritten by (what was just stored, read back) + the block's
  column sums; at every other point it is overwritten by (what it held) + the block's column sums. -/

theorem out_A_6 (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : cond2_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) :
    out2_A_6 (F := Ideal) c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  sl_unfold_words
  rw [View.canon_unit_zero hz2]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S128x128) hz2, View.ld_unit_zero (S := S128) hz1]

theorem out_B_6 (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : ¬cond2_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) (xo7 xo8 : Vec Ideal S128 .f32) :
    out2_B_6 (F := Ideal) c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz2]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S128x128) hz2, View.ld_unit_zero (S := S128) hz1]

theorem out_A_7 (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : cond2_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) :
    out2_A_7 (F := Ideal) c i a1 h1 a2 h2 a3 h3 a4 h4 a5 h5 a6 h6 a7 h7 a8 h8 a9 h9 hc x0 x1 x2 x3 x4 x5 = k2_pay5 x0 x1 x2 x3 x4 x5 (k2_pay2 (F := Ideal)) := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S128x128) hz2, View.ld_unit_zero (S := S128) hz1]

theorem out_B_7 (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : ¬cond2_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) (xo7 xo8 : Vec Ideal S128 .f32) :
    out2_B_7 (F := Ideal) c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz1]
  simp only [View.readAt_eq_ld, h1.read_unread, h2.read_unread, h3.read_unread, h4.read_unread, h5.read_unread, h6.read_unread, h8.read_unread, h9.read_unread, View.ld_unit_zero (S := S2000x128) hz2, View.ld_unit_zero (S := S128x128) hz2, View.ld_unit_zero (S := S128x128) hz2, View.ld_unit_zero (S := S128) hz1]

theorem out_A_8 (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : cond2_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) :
    out2_A_8 (F := Ideal) c i a1 h1 a2 h2 a3 h3 a4 h4 a5 h5 a6 h6 a7 h7 a8 h8 a9 h9 hc x0 x1 x2 x3 x4 x5
      = k2_pay1 (k2_pay6 (k2_pay3 (F := Ideal))) (k2_pay7 x0 x1 x2 x3 x4 x5) := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S128x128) hz2, View.ld_unit_zero (S := S128) hz1]

theorem out_B_8 (c : Dev nD) (i : grid2.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : ¬cond2_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) (xo7 xo8 : Vec Ideal S128 .f32) :
    out2_B_8 (F := Ideal) c i a1 h1 a2 h2 a3 h3 a4 h4 a5 h5 a6 h6 a7 h7 a8 h8 a9 h9 hc x0 x1 x2 x3 x4 x5 xo7 xo8
      = k2_pay1 (k2_pay6 xo8) (k2_pay7 x0 x1 x2 x3 x4 x5) := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz1]
  simp only [View.readAt_eq_ld, h1.read_unread, h2.read_unread, h3.read_unread, h4.read_unread, h5.read_unread, h6.read_unread, h8.read_unread, h9.read_unread, View.ld_unit_zero (S := S2000x128) hz2, View.ld_unit_zero (S := S128x128) hz2, View.ld_unit_zero (S := S128x128) hz2, View.ld_unit_zero (S := S128) hz1]

/-! ## The body's operations read at an index

  Both products go into a zero accumulator, so each is the plain sum over the contracted axis; a format change is the
  identity on the extended reals; a bias is one row broadcast over the block's rows; a reduction over the rows is the
  sum over the block's rows. -/

/-- The float word zero is the number zero. -/
theorem scalar_zero : (Scalar.ofBits .f32 0x00000000#32 : Ideal .f32) = 0 := Ideal.ofBits_zero_f32

/-- A bias vector laid out as one row and broadcast over the rows reads, at (p, q), its entry q. -/
theorem rowBcast_apply (v : FVec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ broadcasts_S1x128_S2000x128 p q).trans
    (shapeCast_a_1a_apply v shapeCasts_S128_S1x128 (0 : Fin 1) q)

/-- The sum over the rows of a block, at column q. -/
theorem colsum_apply (src : FVec Ideal S2000x128 .f32) (q : Fin 128) :
    multiReduction (F := Ideal) .add [0] S128 src 0x00000000#32 reduces_S2000x128_S128 (.inl rfl) rfl (ix1 q)
      = ∑ p : Fin 2000, src (ix2 p q) := by
  refine (Ideal.multiReduction_add_single src 0x00000000#32 reduces_S2000x128_S128 (.inl rfl) rfl (ix1 q)).trans ?_
  refine Finset.sum_congr rfl fun p _ => congrArg src ?_
  funext a
  match a with
  | ⟨0, _⟩ => rfl
  | ⟨1, _⟩ => rfl

/-! ### The second product: [2000, 128] by [128, 128] -/

theorem lhs_second_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
theorem lhs_second_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
theorem rhs_second_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
theorem rhs_second_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- The second product into the zero block, at (p, q): the sum over the 128 contracted coordinates. -/
theorem mm_second_apply {φ₁ φ₂ : FTy} (a : FVec Ideal S2000x128 φ₁) (b : FVec Ideal S128x128 φ₂) (p : Fin 2000) (q : Fin 128) :
    matmul (F := Ideal) dot_S2000x128_S128x128_S2000x128_1_0_0_1_n_n none a b (constant S2000x128 .f32 0x00000000#32) (ix2 p q)
      = ∑ k : Fin 128, a (ix2 p k) * b (ix2 k q) := by
  show FloatOps.matmul _ none a b (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => exact lhs_second_0 _ _
    | ⟨1, _⟩ => exact (lhs_second_1 _ _).trans ck
  have er : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ => exact (rhs_second_0 _ _).trans ck
    | ⟨1, _⟩ => exact rhs_second_1 _ _
  rw [el, er]

/-! ### The first product: [2000, 128] by [128, 128] -/

theorem reg2_lhs_first_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
theorem reg2_lhs_first_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
theorem reg2_rhs_first_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
theorem reg2_rhs_first_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- The first product into the zero block, at (p, q): the sum over the 128 contracted coordinates. -/
theorem reg2_mm_first_apply {φ₁ φ₂ : FTy} (a : FVec Ideal S2000x128 φ₁) (b : FVec Ideal S128x128 φ₂) (p : Fin 2000) (q : Fin 128) :
    matmul (F := Ideal) dot_S2000x128_S128x128_S2000x128_1_0_0_1_n_n none a b (constant S2000x128 .f32 0x00000000#32) (ix2 p q)
      = ∑ k : Fin 128, a (ix2 p k) * b (ix2 k q) := by
  show FloatOps.matmul _ none a b (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => exact reg2_lhs_first_0 _ _
    | ⟨1, _⟩ => exact (reg2_lhs_first_1 _ _).trans ck
  have er : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ => exact (reg2_rhs_first_0 _ _).trans ck
    | ⟨1, _⟩ => exact reg2_rhs_first_1 _ _
  rw [el, er]

/-! ## The body's payloads, entry by entry -/

/-- The z block at (p, q): row p of u = h + a through the two affine maps, column q. -/
theorem reg2_pay4_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k2_pay4 x0 x1 x2 x3 x4 x5 (ix2 p q)
      = (∑ k : Fin 128, max ((∑ j : Fin 128, (x0 (ix2 p j) + x1 (ix2 p j)) * x2 (ix2 j k)) + x3 (ix1 k)) 0 * x4 (ix2 k q))
        + x5 (ix1 q) := by
  unfold k2_pay4
  simp only [addf_apply, mm_second_apply, rowBcast_apply, truncf_apply, maximumf_apply, reg2_mm_first_apply,
    broadcast_apply, shapeCast_self, scalar_zero]

/-- The first accumulator's new block at q: what it held plus the z block's column sum. -/
theorem reg2_pay5_apply (x0 x1 : Vec Ideal S2000x128 .f32) (x2 : Vec Ideal S128x128 .f32) (x3 : Vec Ideal S128 .f32)
    (x4 : Vec Ideal S128x128 .f32) (x5 : Vec Ideal S128 .f32) (acc : Vec Ideal S128 .f32) (q : Fin 128) :
    k2_pay5 x0 x1 x2 x3 x4 x5 acc (ix1 q) = acc (ix1 q) + ∑ p : Fin 2000, k2_pay4 x0 x1 x2 x3 x4 x5 (ix2 p q) := by
  unfold k2_pay5
  simp only [addf_apply, shapeCast_self]
  rw [colsum_apply (k2_pay4 x0 x1 x2 x3 x4 x5) q]

/-- The second accumulator's new block at q: what it held plus the column sum of the z block's squares. -/
theorem reg2_pay1_apply (x0 x1 : Vec Ideal S2000x128 .f32) (x2 : Vec Ideal S128x128 .f32) (x3 : Vec Ideal S128 .f32)
    (x4 : Vec Ideal S128x128 .f32) (x5 : Vec Ideal S128 .f32) (acc : Vec Ideal S128 .f32) (q : Fin 128) :
    k2_pay1 (k2_pay6 acc) (k2_pay7 x0 x1 x2 x3 x4 x5) (ix1 q)
      = acc (ix1 q) + ∑ p : Fin 2000, k2_pay4 x0 x1 x2 x3 x4 x5 (ix2 p q) * k2_pay4 x0 x1 x2 x3 x4 x5 (ix2 p q) := by
  unfold k2_pay1 k2_pay6 k2_pay7
  simp only [addf_apply, shapeCast_self]
  rw [colsum_apply (mulf (k2_pay4 x0 x1 x2 x3 x4 x5) (k2_pay4 x0 x1 x2 x3 x4 x5)) q]
  simp only [mulf_apply]

/-- The block an accumulator is cleared to is zero everywhere. -/
theorem reg2_pay2_apply (q : Fin 128) : k2_pay2 (F := Ideal) (ix1 q) = 0 := by
  unfold k2_pay2
  simp only [broadcast_apply, scalar_zero]
theorem reg2_pay3_apply (q : Fin 128) : k2_pay3 (F := Ideal) (ix1 q) = 0 := by
  unfold k2_pay3
  simp only [broadcast_apply, scalar_zero]

-- the contents of the core's buffers when the region is entered
variable (V : (c : Dev nD) → (b : Ref sig .tc) → Buf (Elt Ideal) ((c : Thread nD τ).loc b))

/-- The node features the region is given, as a matrix of extended reals. -/
abbrev feat2 (c : Dev nD) : Gin.Mat Gin.NN 128 := V c main_v21
/-- Their neighbourhood sums. -/
abbrev nbr2 (c : Dev nD) : Gin.Mat Gin.NN 128 := V c main_v31
/-- The perceptron's input u = h + a. -/
abbrev uIn2 (c : Dev nD) : Gin.Mat Gin.NN 128 := fun i => feat2 V c i + nbr2 V c i

/-! ## The windows' blocks, read off the arrays

  At grid point t the two row windows hold rows 2000·t … 2000·t + 1999 of their arrays; the four parameter windows hold
  their whole arrays; the z window's block is rows 2000·t … of z, and each accumulator's one block is its whole array. -/

/-- Each window's block index at every grid point, decided once over the grid. -/
theorem reg2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0
    ∧ win2_7.index t (0 : Fin 1) = 0
    ∧ win2_8.index t (0 : Fin 1) = 0 :=
  (by decide +kernel : ∀ t : Fin grid2.N, _)

/-- Row p of the block at grid point t is row 2000·t + p of the array. -/
def reg2_row (t : Fin cfg2.N) (p : Fin 2000) : Fin Gin.NN :=
  ⟨2000 * t.val + p.val, by
    have hN : cfg2.N = 50 := N_2
    have ht := t.isLt
    have hp := p.isLt
    show _ < 100000
    omega⟩

/-- The six input blocks at a grid point, each at its literal shape. -/
abbrev reg2_blk0 (c : Dev nD) (t : Fin cfg2.N) : Vec Ideal S2000x128 .f32 := iblk2 V c 0 t
abbrev reg2_blk1 (c : Dev nD) (t : Fin cfg2.N) : Vec Ideal S2000x128 .f32 := iblk2 V c 1 t
abbrev reg2_blk2 (c : Dev nD) (t : Fin cfg2.N) : Vec Ideal S128x128 .f32 := iblk2 V c 2 t
abbrev reg2_blk3 (c : Dev nD) (t : Fin cfg2.N) : Vec Ideal S128 .f32 := iblk2 V c 3 t
abbrev reg2_blk4 (c : Dev nD) (t : Fin cfg2.N) : Vec Ideal S128x128 .f32 := iblk2 V c 4 t
abbrev reg2_blk5 (c : Dev nD) (t : Fin cfg2.N) : Vec Ideal S128 .f32 := iblk2 V c 5 t

theorem reg2_blk0_apply (c : Dev nD) (t : Fin cfg2.N) (p : Fin 2000) (j : Fin 128) :
    reg2_blk0 V c t (ix2 p j) = feat2 V c (ix2 (reg2_row t p) j) := by
  show iblk2 V c 0 t (ix2 p j) = _
  unfold iblk2
  rw [View.read_apply]
  show V c main_v21 _ = V c main_v21 _
  refine congrArg (V c main_v21) ?_
  funext a
  apply Fin.ext
  match a with
  | ⟨0, _⟩ => show win2_0.index t (0 : Fin 2) * 2000 + 1 * p.val = 2000 * t.val + p.val; rw [(reg2_idx t).1]; omega
  | ⟨1, _⟩ => show win2_0.index t (1 : Fin 2) * 128 + 1 * j.val = j.val; rw [(reg2_idx t).2.1]; omega

theorem reg2_blk1_apply (c : Dev nD) (t : Fin cfg2.N) (p : Fin 2000) (j : Fin 128) :
    reg2_blk1 V c t (ix2 p j) = nbr2 V c (ix2 (reg2_row t p) j) := by
  show iblk2 V c 1 t (ix2 p j) = _
  unfold iblk2
  rw [View.read_apply]
  show V c main_v31 _ = V c main_v31 _
  refine congrArg (V c main_v31) ?_
  funext a
  apply Fin.ext
  match a with
  | ⟨0, _⟩ => show win2_1.index t (0 : Fin 2) * 2000 + 1 * p.val = 2000 * t.val + p.val; rw [(reg2_idx t).2.2.1]; omega
  | ⟨1, _⟩ => show win2_1.index t (1 : Fin 2) * 128 + 1 * j.val = j.val; rw [(reg2_idx t).2.2.2.1]; omega

theorem reg2_blk2_apply (c : Dev nD) (t : Fin cfg2.N) (j : Fin 128) (k : Fin 128) :
    reg2_blk2 V c t (ix2 j k) = (V c main_arg9 : Gin.Mat 128 128) (ix2 j k) := by
  show iblk2 V c 2 t (ix2 j k) = _
  unfold iblk2
  rw [View.read_apply]
  show V c main_arg9 _ = V c main_arg9 _
  refine congrArg (V c main_arg9) ?_
  funext a
  apply Fin.ext
  match a with
  | ⟨0, _⟩ => show win2_2.index t (0 : Fin 2) * 128 + 1 * j.val = j.val; rw [(reg2_idx t).2.2.2.2.1]; omega
  | ⟨1, _⟩ => show win2_2.index t (1 : Fin 2) * 128 + 1 * k.val = k.val; rw [(reg2_idx t).2.2.2.2.2.1]; omega

theorem reg2_blk3_apply (c : Dev nD) (t : Fin cfg2.N) (k : Fin 128) :
    reg2_blk3 V c t (ix1 k) = (V c main_arg10 : Gin.Vc 128) (ix1 k) := by
  show iblk2 V c 3 t (ix1 k) = _
  unfold iblk2
  rw [View.read_apply]
  show V c main_arg10 _ = V c main_arg10 _
  refine congrArg (V c main_arg10) ?_
  funext a
  apply Fin.ext
  match a with
  | ⟨0, _⟩ => show win2_3.index t (0 : Fin 1) * 128 + 1 * k.val = k.val; rw [(reg2_idx t).2.2.2.2.2.2.1]; omega

theorem reg2_blk4_apply (c : Dev nD) (t : Fin cfg2.N) (k : Fin 128) (q : Fin 128) :
    reg2_blk4 V c t (ix2 k q) = (V c main_arg11 : Gin.Mat 128 128) (ix2 k q) := by
  show iblk2 V c 4 t (ix2 k q) = _
  unfold iblk2
  rw [View.read_apply]
  show V c main_arg11 _ = V c main_arg11 _
  refine congrArg (V c main_arg11) ?_
  funext a
  apply Fin.ext
  match a with
  | ⟨0, _⟩ => show win2_4.index t (0 : Fin 2) * 128 + 1 * k.val = k.val; rw [(reg2_idx t).2.2.2.2.2.2.2.1]; omega
  | ⟨1, _⟩ => show win2_4.index t (1 : Fin 2) * 128 + 1 * q.val = q.val; rw [(reg2_idx t).2.2.2.2.2.2.2.2.1]; omega

theorem reg2_blk5_apply (c : Dev nD) (t : Fin cfg2.N) (q : Fin 128) :
    reg2_blk5 V c t (ix1 q) = (V c main_arg12 : Gin.Vc 128) (ix1 q) := by
  show iblk2 V c 5 t (ix1 q) = _
  unfold iblk2
  rw [View.read_apply]
  show V c main_arg12 _ = V c main_arg12 _
  refine congrArg (V c main_arg12) ?_
  funext a
  apply Fin.ext
  match a with
  | ⟨0, _⟩ => show win2_5.index t (0 : Fin 1) * 128 + 1 * q.val = q.val; rw [(reg2_idx t).2.2.2.2.2.2.2.2.2.1]; omega

/-! ## The z block is the perceptron of the block's rows -/

/-- The z array the region computes: every row of u through the two affine maps. -/
abbrev reg2_zfun (c : Dev nD) : Gin.Mat Gin.NN 128 :=
  Gin.mlp (uIn2 V c) (V c main_arg9) (V c main_arg10) (V c main_arg11) (V c main_arg12)

/-- Entry (p, q) of the z block at grid point t is entry (2000·t + p, q) of z. -/
theorem reg2_zblk_apply (c : Dev nD) (t : Fin cfg2.N) (p : Fin 2000) (q : Fin 128) :
    k2_pay4 (reg2_blk0 V c t) (reg2_blk1 V c t) (reg2_blk2 V c t) (reg2_blk3 V c t) (reg2_blk4 V c t) (reg2_blk5 V c t) (ix2 p q) = reg2_zfun V c (ix2 (reg2_row t p) q) := by
  refine (reg2_pay4_apply (reg2_blk0 V c t) (reg2_blk1 V c t) (reg2_blk2 V c t) (reg2_blk3 V c t) (reg2_blk4 V c t) (reg2_blk5 V c t) p q).trans ?_
  show _ = Gin.mlpAt (uIn2 V c) (V c main_arg9) (V c main_arg10) (V c main_arg11) (V c main_arg12) (reg2_row t p) q
  unfold Gin.mlpAt
  refine congrArg₂ (· + ·) (Finset.sum_congr rfl fun k _ => congrArg₂ (· * ·) (congrArg (max · 0)
    (congrArg₂ (· + ·) (Finset.sum_congr rfl fun j _ => congrArg₂ (· * ·)
      (congrArg₂ (· + ·) (reg2_blk0_apply V c t p j) (reg2_blk1_apply V c t p j)) (reg2_blk2_apply V c t j k))
      (reg2_blk3_apply V c t k))) (reg2_blk4_apply V c t k q)) (reg2_blk5_apply V c t q)

/-! ## What the three outputs' blocks hold after each grid point -/

/-- After any point the z window's block is the z block of that point's rows. -/
theorem reg2_outs6 (c : Dev nD) (t : Fin cfg2.N) :
    (outsAt2 V c t.val t.isLt).1 = k2_pay4 (reg2_blk0 V c t) (reg2_blk1 V c t) (reg2_blk2 V c t) (reg2_blk3 V c t) (reg2_blk4 V c t) (reg2_blk5 V c t) := by
  by_cases h0 : t.val % 50 = 0
  · rw [outsAt2_A V c t h0]
    dsimp only
    exact out_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
  · rw [outsAt2_B V c t h0]
    dsimp only
    exact out_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-- At the first point the first accumulator's block, just cleared, ends as the z block's column sums. -/
theorem reg2_outs7_A (c : Dev nD) (t : Fin cfg2.N) (h0 : t.val % 50 = 0) (q : Fin 128) :
    (outsAt2 V c t.val t.isLt).2.1 (ix1 q) = 0 + ∑ p : Fin 2000, k2_pay4 (reg2_blk0 V c t) (reg2_blk1 V c t) (reg2_blk2 V c t) (reg2_blk3 V c t) (reg2_blk4 V c t) (reg2_blk5 V c t) (ix2 p q) := by
  rw [outsAt2_A V c t h0]
  dsimp only
  refine (congrFun (out_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)) (ix1 q)).trans ?_
  refine (reg2_pay5_apply (reg2_blk0 V c t) (reg2_blk1 V c t) (reg2_blk2 V c t) (reg2_blk3 V c t) (reg2_blk4 V c t) (reg2_blk5 V c t) (k2_pay2 (F := Ideal)) q).trans ?_
  rw [reg2_pay2_apply]

/-- At every other point it ends as what the point before left plus the z block's column sums. -/
theorem reg2_outs7_B (c : Dev nD) (t : Fin cfg2.N) (h0 : ¬t.val % 50 = 0) (q : Fin 128) :
    (outsAt2 V c t.val t.isLt).2.1 (ix1 q)
      = (outsAt2 V c (t.val - 1) (Nat.lt_of_le_of_lt (Nat.sub_le _ _) t.isLt)).2.1 (ix1 q)
        + ∑ p : Fin 2000, k2_pay4 (reg2_blk0 V c t) (reg2_blk1 V c t) (reg2_blk2 V c t) (reg2_blk3 V c t) (reg2_blk4 V c t) (reg2_blk5 V c t) (ix2 p q) := by
  rw [outsAt2_B V c t h0]
  dsimp only
  refine (congrFun (out_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) (ix1 q)).trans ?_
  exact reg2_pay5_apply (reg2_blk0 V c t) (reg2_blk1 V c t) (reg2_blk2 V c t) (reg2_blk3 V c t) (reg2_blk4 V c t) (reg2_blk5 V c t) (outsAt2 V c (t.val - 1) (Nat.lt_of_le_of_lt (Nat.sub_le _ _) t.isLt)).2.1 q

/-- The second accumulator likewise, with the squares of the z block's entries. -/
theorem reg2_outs8_A (c : Dev nD) (t : Fin cfg2.N) (h0 : t.val % 50 = 0) (q : Fin 128) :
    (outsAt2 V c t.val t.isLt).2.2 (ix1 q)
      = 0 + ∑ p : Fin 2000, k2_pay4 (reg2_blk0 V c t) (reg2_blk1 V c t) (reg2_blk2 V c t) (reg2_blk3 V c t) (reg2_blk4 V c t) (reg2_blk5 V c t) (ix2 p q) * k2_pay4 (reg2_blk0 V c t) (reg2_blk1 V c t) (reg2_blk2 V c t) (reg2_blk3 V c t) (reg2_blk4 V c t) (reg2_blk5 V c t) (ix2 p q) := by
  rw [outsAt2_A V c t h0]
  dsimp only
  refine (congrFun (out_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)) (ix1 q)).trans ?_
  refine (reg2_pay1_apply (reg2_blk0 V c t) (reg2_blk1 V c t) (reg2_blk2 V c t) (reg2_blk3 V c t) (reg2_blk4 V c t) (reg2_blk5 V c t) (k2_pay3 (F := Ideal)) q).trans ?_
  rw [reg2_pay3_apply]

theorem reg2_outs8_B (c : Dev nD) (t : Fin cfg2.N) (h0 : ¬t.val % 50 = 0) (q : Fin 128) :
    (outsAt2 V c t.val t.isLt).2.2 (ix1 q)
      = (outsAt2 V c (t.val - 1) (Nat.lt_of_le_of_lt (Nat.sub_le _ _) t.isLt)).2.2 (ix1 q)
        + ∑ p : Fin 2000, k2_pay4 (reg2_blk0 V c t) (reg2_blk1 V c t) (reg2_blk2 V c t) (reg2_blk3 V c t) (reg2_blk4 V c t) (reg2_blk5 V c t) (ix2 p q) * k2_pay4 (reg2_blk0 V c t) (reg2_blk1 V c t) (reg2_blk2 V c t) (reg2_blk3 V c t) (reg2_blk4 V c t) (reg2_blk5 V c t) (ix2 p q) := by
  rw [outsAt2_B V c t h0]
  dsimp only
  refine (congrFun (out_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) (ix1 q)).trans ?_
  exact reg2_pay1_apply (reg2_blk0 V c t) (reg2_blk1 V c t) (reg2_blk2 V c t) (reg2_blk3 V c t) (reg2_blk4 V c t) (reg2_blk5 V c t) (outsAt2 V c (t.val - 1) (Nat.lt_of_le_of_lt (Nat.sub_le _ _) t.isLt)).2.2 q

/-! ## The accumulators are the column sums over the rows seen so far

  By induction on the grid point: after point n the first accumulator holds, at column q, the sum of z's column q over
  the rows below 2000·(n + 1), and the second the sum of its squares. The first point starts from the cleared block
  (0 + x = x); every later point adds its block's 2000 rows to what the point before left. -/

theorem reg2_acc7 (c : Dev nD) : ∀ (n : ℕ) (hn : n < cfg2.N) (q : Fin 128),
    (outsAt2 V c n hn).2.1 (ix1 q) = Gin.prefixSum (fun r => reg2_zfun V c (ix2 r q)) (2000 * (n + 1))
  | 0, hn, q => by
    refine (reg2_outs7_A V c ⟨0, hn⟩ (Nat.zero_mod 50) q).trans ?_
    rw [Gin.prefixSum_block _ 0 (by decide)]
    refine congrArg₂ (· + ·) (Gin.prefixSum_zero _).symm (Finset.sum_congr rfl fun p _ => ?_)
    exact reg2_zblk_apply V c ⟨0, hn⟩ p q
  | n + 1, hn, q => by
    have hN : cfg2.N = 50 := N_2
    have hB : ¬(⟨n + 1, hn⟩ : Fin cfg2.N).val % 50 = 0 := by dsimp only; omega
    refine (reg2_outs7_B V c ⟨n + 1, hn⟩ hB q).trans ?_
    show (outsAt2 V c n _).2.1 (ix1 q) + _ = _
    rw [reg2_acc7 c n _ q, Gin.prefixSum_block _ (n + 1) (by omega)]
    refine congrArg (_ + ·) (Finset.sum_congr rfl fun p _ => ?_)
    exact reg2_zblk_apply V c ⟨n + 1, hn⟩ p q

theorem reg2_acc8 (c : Dev nD) : ∀ (n : ℕ) (hn : n < cfg2.N) (q : Fin 128),
    (outsAt2 V c n hn).2.2 (ix1 q)
      = Gin.prefixSum (fun r => reg2_zfun V c (ix2 r q) * reg2_zfun V c (ix2 r q)) (2000 * (n + 1))
  | 0, hn, q => by
    refine (reg2_outs8_A V c ⟨0, hn⟩ (Nat.zero_mod 50) q).trans ?_
    rw [Gin.prefixSum_block _ 0 (by decide)]
    refine congrArg₂ (· + ·) (Gin.prefixSum_zero _).symm (Finset.sum_congr rfl fun p _ => ?_)
    rw [reg2_zblk_apply V c ⟨0, hn⟩ p q]
    rfl
  | n + 1, hn, q => by
    have hN : cfg2.N = 50 := N_2
    have hB : ¬(⟨n + 1, hn⟩ : Fin cfg2.N).val % 50 = 0 := by dsimp only; omega
    refine (reg2_outs8_B V c ⟨n + 1, hn⟩ hB q).trans ?_
    show (outsAt2 V c n _).2.2 (ix1 q) + _ = _
    rw [reg2_acc8 c n _ q, Gin.prefixSum_block _ (n + 1) (by omega)]
    refine congrArg (_ + ·) (Finset.sum_congr rfl fun p _ => ?_)
    rw [reg2_zblk_apply V c ⟨n + 1, hn⟩ p q]
    rfl

/-! ## From blocks to the arrays

  The z window is written back after every grid point, and row r of z lies in the block of point r / 2000. Each
  accumulator's one block is its whole array and is written back once, after the last point, when it holds the sums over
  all 2000·50 rows. -/

/-- The z block at a grid point, as a function of the block's index. -/
theorem reg2_zblk_eq (c : Dev nD) (t : Fin cfg2.N) :
    k2_pay4 (reg2_blk0 V c t) (reg2_blk1 V c t) (reg2_blk2 V c t) (reg2_blk3 V c t) (reg2_blk4 V c t) (reg2_blk5 V c t)
      = fun y : S2000x128.Idx => reg2_zfun V c (ix2 (reg2_row t (y 0)) (y 1)) := by
  funext y
  obtain ⟨p, q, rfl⟩ : ∃ (p : Fin 2000) (q : Fin 128), y = ix2 p q := ⟨y 0, y 1, eq_ix2 y⟩
  exact reg2_zblk_apply V c t p q

/-- What grid point t writes back to the z array is block t of z. -/
theorem reg2_flushed6 (c : Dev nD) (t : Fin cfg2.N) :
    (dat2 (F := Ideal) V c).flushed 6 t = ((cfg2.win 6).blk t).view.read (Elt Ideal) (reg2_zfun V c) := by
  show (cfg2.win 6).cut (grid2.coords t) ((dat2 (F := Ideal) V c).after 6 t) = _
  rw [after2_6, reg2_outs6, reg2_zblk_eq]
  funext y
  show reg2_zfun V c (ix2 (reg2_row t (y 0)) (y 1)) = reg2_zfun V c (((cfg2.win 6).blk t).view.emb y)
  refine congrArg (reg2_zfun V c) ?_
  funext a
  apply Fin.ext
  match a with
  | ⟨0, _⟩ =>
    show 2000 * t.val + (y 0).val = win2_6.index t (0 : Fin 2) * 2000 + 1 * (y 0).val
    rw [(reg2_idx t).2.2.2.2.2.2.2.2.2.2.1]; omega
  | ⟨1, _⟩ =>
    show (y 1).val = win2_6.index t (1 : Fin 2) * 128 + 1 * (y 1).val
    rw [(reg2_idx t).2.2.2.2.2.2.2.2.2.2.2.1]; omega

/-- An index of the z array is in point t's block iff each coordinate is in the block's range on its axis. -/
theorem reg2_mem6 (t : Fin cfg2.N) (i : S100000x128.Idx) :
    i ∈ ((cfg2.win 6).blk t).view.set
      ↔ ∀ a : Fin 2, win2_6.index t a * S2000x128.size a ≤ (i a).val
          ∧ (i a).val < win2_6.index t a * S2000x128.size a + S2000x128.size a := by
  show i ∈ ((View.whole main_v32_0).slice (win2_6.rect t)).set ↔ _
  rw [View.set_slice_whole, Rect.mem_set_unit]
  exact Iff.rfl

/-- Row r of the z array is in the block of grid point r / 2000, which is written back. -/
theorem reg2_cover6 (i : S100000x128.Idx) :
    ∃ t : Fin cfg2.N, (cfg2.win 6).flush t = true ∧ i ∈ ((cfg2.win 6).blk t).view.set := by
  have hN : cfg2.N = 50 := N_2
  have hi0 : (i 0).val < 100000 := idx2_lt0 i
  have hi1 : (i 1).val < 128 := idx2_lt1 i
  obtain ⟨t, ht⟩ : ∃ t : Fin cfg2.N, t.val = (i 0).val / 2000 := ⟨⟨(i 0).val / 2000, by omega⟩, rfl⟩
  refine ⟨t, flush2_6 t, ?_⟩
  rw [reg2_mem6]
  intro a
  match a with
  | ⟨0, _⟩ =>
    show win2_6.index t (0 : Fin 2) * 2000 ≤ (i 0).val ∧ (i 0).val < win2_6.index t (0 : Fin 2) * 2000 + 2000
    rw [(reg2_idx t).2.2.2.2.2.2.2.2.2.2.1]; omega
  | ⟨1, _⟩ =>
    show win2_6.index t (1 : Fin 2) * 128 ≤ (i 1).val ∧ (i 1).val < win2_6.index t (1 : Fin 2) * 128 + 128
    rw [(reg2_idx t).2.2.2.2.2.2.2.2.2.2.2.1]; omega

/-- The z array after the region: every row through the two affine maps. -/
theorem reg2_z (c : Dev nD) :
    (dat2 (F := Ideal) V c).arrAt 6 cfg2.N
      = Gin.mlp (uIn2 V c) (V c main_arg9) (V c main_arg10) (V c main_arg11) (V c main_arg12) :=
  (dat2 (F := Ideal) V c).arrAt_eq_of_cover 6 (reg2_zfun V c) (fun t _ => reg2_flushed6 V c t) fun i => reg2_cover6 i

/-- After the last grid point the first accumulator's block is z's column sums: the rows below 2000·50 are all the rows. -/
theorem reg2_acc7_last (c : Dev nD) (t : Fin cfg2.N) (hlast : 2000 * (t.val + 1) = 2000 * 50) :
    (outsAt2 V c t.val t.isLt).2.1 = Gin.colSum (reg2_zfun V c) := by
  funext y
  obtain ⟨q, rfl⟩ : ∃ q : Fin 128, y = ix1 q := ⟨y 0, eq_ix1 y⟩
  rw [reg2_acc7 V c t.val t.isLt q, hlast, Gin.prefixSum_full]
  unfold Gin.colSum
  rfl

/-- The accumulator's one block is its whole array: read through the block at any grid point, an array is itself. -/
theorem reg2_whole7 (t : Fin cfg2.N) (G : Gin.Vc 128) :
    (cfg2.win 7).cut (grid2.coords t) G = ((cfg2.win 7).blk t).view.read (Elt Ideal) G := by
  funext y
  rw [View.read_apply]
  show G y = G (((cfg2.win 7).blk t).view.emb y)
  refine congrArg G ?_
  funext a
  apply Fin.ext
  match a with
  | ⟨0, _⟩ =>
    show (y 0).val = win2_7.index t (0 : Fin 1) * 128 + 1 * (y 0).val
    rw [(reg2_idx t).2.2.2.2.2.2.2.2.2.2.2.2.1]; omega

/-- The one write-back of the first accumulator, after the last point, writes z's column sums. -/
theorem reg2_flushed7 (c : Dev nD) (t : Fin cfg2.N) (hf : (cfg2.win 7).flush t = true) :
    (dat2 (F := Ideal) V c).flushed 7 t
      = ((cfg2.win 7).blk t).view.read (Elt Ideal) (Gin.colSum (reg2_zfun V c)) := by
  have hN : cfg2.N = 50 := N_2
  have hlast : 2000 * (t.val + 1) = 2000 * 50 := by
    have h49 := (flush2_7 t).mp hf
    have ht := t.isLt
    omega
  show (cfg2.win 7).cut (grid2.coords t) ((dat2 (F := Ideal) V c).after 7 t) = _
  rw [after2_7, reg2_acc7_last V c t hlast]
  exact reg2_whole7 t (Gin.colSum (reg2_zfun V c))

theorem reg2_mem7 (t : Fin cfg2.N) (i : S128.Idx) :
    i ∈ ((cfg2.win 7).blk t).view.set
      ↔ ∀ a : Fin 1, win2_7.index t a * S128.size a ≤ (i a).val ∧ (i a).val < win2_7.index t a * S128.size a + S128.size a := by
  show i ∈ ((View.whole main_v32_1).slice (win2_7.rect t)).set ↔ _
  rw [View.set_slice_whole, Rect.mem_set_unit]
  exact Iff.rfl

/-- The last grid point's block covers the whole accumulator, and is written back. -/
theorem reg2_cover7 (i : S128.Idx) :
    ∃ t : Fin cfg2.N, (cfg2.win 7).flush t = true ∧ i ∈ ((cfg2.win 7).blk t).view.set := by
  have hN : cfg2.N = 50 := N_2
  have hi0 : (i 0).val < 128 := (i 0).isLt
  obtain ⟨t, ht⟩ : ∃ t : Fin cfg2.N, t.val = 49 := ⟨⟨49, by omega⟩, rfl⟩
  refine ⟨t, (flush2_7 t).mpr (by omega), ?_⟩
  rw [reg2_mem7]
  intro a
  match a with
  | ⟨0, _⟩ =>
    show win2_7.index t (0 : Fin 1) * 128 ≤ (i 0).val ∧ (i 0).val < win2_7.index t (0 : Fin 1) * 128 + 128
    rw [(reg2_idx t).2.2.2.2.2.2.2.2.2.2.2.2.1]; omega

/-- The first accumulator after the region: z's column sums. -/
theorem reg2_sum (c : Dev nD) :
    (dat2 (F := Ideal) V c).arrAt 7 cfg2.N
      = Gin.colSum (Gin.mlp (uIn2 V c) (V c main_arg9) (V c main_arg10) (V c main_arg11) (V c main_arg12)) :=
  (dat2 (F := Ideal) V c).arrAt_eq_of_cover 7 (Gin.colSum (reg2_zfun V c)) (reg2_flushed7 V c) fun i => reg2_cover7 i

/-- After the last grid point the second accumulator's block is the column sums of z²: the rows below 2000·50 are all the rows. -/
theorem reg2_acc8_last (c : Dev nD) (t : Fin cfg2.N) (hlast : 2000 * (t.val + 1) = 2000 * 50) :
    (outsAt2 V c t.val t.isLt).2.2 = Gin.colSumSq (reg2_zfun V c) := by
  funext y
  obtain ⟨q, rfl⟩ : ∃ q : Fin 128, y = ix1 q := ⟨y 0, eq_ix1 y⟩
  rw [reg2_acc8 V c t.val t.isLt q, hlast, Gin.prefixSum_full]
  unfold Gin.colSumSq
  rfl

/-- The accumulator's one block is its whole array: read through the block at any grid point, an array is itself. -/
theorem reg2_whole8 (t : Fin cfg2.N) (G : Gin.Vc 128) :
    (cfg2.win 8).cut (grid2.coords t) G = ((cfg2.win 8).blk t).view.read (Elt Ideal) G := by
  funext y
  rw [View.read_apply]
  show G y = G (((cfg2.win 8).blk t).view.emb y)
  refine congrArg G ?_
  funext a
  apply Fin.ext
  match a with
  | ⟨0, _⟩ =>
    show (y 0).val = win2_8.index t (0 : Fin 1) * 128 + 1 * (y 0).val
    rw [(reg2_idx t).2.2.2.2.2.2.2.2.2.2.2.2.2]; omega

/-- The one write-back of the second accumulator, after the last point, writes the column sums of z². -/
theorem reg2_flushed8 (c : Dev nD) (t : Fin cfg2.N) (hf : (cfg2.win 8).flush t = true) :
    (dat2 (F := Ideal) V c).flushed 8 t
      = ((cfg2.win 8).blk t).view.read (Elt Ideal) (Gin.colSumSq (reg2_zfun V c)) := by
  have hN : cfg2.N = 50 := N_2
  have hlast : 2000 * (t.val + 1) = 2000 * 50 := by
    have h49 := (flush2_8 t).mp hf
    have ht := t.isLt
    omega
  show (cfg2.win 8).cut (grid2.coords t) ((dat2 (F := Ideal) V c).after 8 t) = _
  rw [after2_8, reg2_acc8_last V c t hlast]
  exact reg2_whole8 t (Gin.colSumSq (reg2_zfun V c))

theorem reg2_mem8 (t : Fin cfg2.N) (i : S128.Idx) :
    i ∈ ((cfg2.win 8).blk t).view.set
      ↔ ∀ a : Fin 1, win2_8.index t a * S128.size a ≤ (i a).val ∧ (i a).val < win2_8.index t a * S128.size a + S128.size a := by
  show i ∈ ((View.whole main_v32_2).slice (win2_8.rect t)).set ↔ _
  rw [View.set_slice_whole, Rect.mem_set_unit]
  exact Iff.rfl

/-- The last grid point's block covers the whole accumulator, and is written back. -/
theorem reg2_cover8 (i : S128.Idx) :
    ∃ t : Fin cfg2.N, (cfg2.win 8).flush t = true ∧ i ∈ ((cfg2.win 8).blk t).view.set := by
  have hN : cfg2.N = 50 := N_2
  have hi0 : (i 0).val < 128 := (i 0).isLt
  obtain ⟨t, ht⟩ : ∃ t : Fin cfg2.N, t.val = 49 := ⟨⟨49, by omega⟩, rfl⟩
  refine ⟨t, (flush2_8 t).mpr (by omega), ?_⟩
  rw [reg2_mem8]
  intro a
  match a with
  | ⟨0, _⟩ =>
    show win2_8.index t (0 : Fin 1) * 128 ≤ (i 0).val ∧ (i 0).val < win2_8.index t (0 : Fin 1) * 128 + 128
    rw [(reg2_idx t).2.2.2.2.2.2.2.2.2.2.2.2.2]; omega

/-- The second accumulator after the region: the column sums of z². -/
theorem reg2_sumsq (c : Dev nD) :
    (dat2 (F := Ideal) V c).arrAt 8 cfg2.N
      = Gin.colSumSq (Gin.mlp (uIn2 V c) (V c main_arg9) (V c main_arg10) (V c main_arg11) (V c main_arg12)) :=
  (dat2 (F := Ideal) V c).arrAt_eq_of_cover 8 (Gin.colSumSq (reg2_zfun V c)) (reg2_flushed8 V c) fun i => reg2_cover8 i

end Cert.KernelIdeal.KVal.Reg2

end
-- ==== Proof.KReg3.lean ====
/-
  The second normalization region, read as values. Every block of 2000 rows of z is sent, entry by entry, through
  max(((z − μ)·rsqrt(v + ε))·γ + β, 0) with the column's μ, v, γ, β; the blocks tile the array, so the result array
  is that function of the whole of z.
-/
import proofs.«423186_j27333171871744_1_alg».proof.Proof.Gen.KernelIdeal.Frame
import proofs.«423186_j27333171871744_1_alg».proof.Proof.Spec
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KVal.Reg3

open Cert.KernelIdeal Cert.KernelIdeal.Gen

-- the contents of the core's buffers when the region is entered
variable (V : (c : Dev nD) → (b : Ref sig .tc) → Buf (Elt Ideal) ((c : Thread nD τ).loc b))

/-! ## Where a block sits in its array -/

/-- The zero offset of a vector's whole-block access, however the zero is spelt. -/
theorem hzV : (![0] : Fin 1 → Nat) = fun _ => 0 := funext fun a => by
  match a with
  | ⟨0, _⟩ => rfl

/-- The zero offsets of a matrix block's whole-block access. -/
theorem hzM : (![0, 0] : Fin 2 → Nat) = fun _ => 0 := funext fun a => by
  match a with
  | ⟨0, _⟩ => rfl
  | ⟨1, _⟩ => rfl

/-- The block indices over the grid: at point t the blocks of z and of the result are block row t, all their
    columns; the four column vectors are fetched whole at every point. -/
theorem idx1_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 1) = 0 ∧ win3_2.index t (0 : Fin 1) = 0
    ∧ win3_3.index t (0 : Fin 1) = 0 ∧ win3_4.index t (0 : Fin 1) = 0 :=
  (by decide +kernel : ∀ t : Fin grid3.N, _)

/-- Entry (p, q) of the block of z at point t is entry (2000·t + p, q) of z. -/
theorem iblk1_0_apply (c : Dev nD) (t : Fin cfg3.N) (p : Fin 2000) (q : Fin 128) (n : Fin Gin.NN)
    (hn : n.val = t.val * 2000 + p.val) :
    (iblk3 (F := Ideal) V c 0 t : Vec Ideal S2000x128 .f32) (ix2 p q) = (V c main_v32_0 : Gin.Mat Gin.NN 128) (ix2 n q) := by
  obtain ⟨e0, e1, -⟩ := idx1_facts t
  unfold iblk3
  rw [View.read_apply]
  show V c main_v32_0 _ = V c main_v32_0 _
  congr 1
  funext a
  apply Fin.ext
  match a with
  | ⟨0, _⟩ => show win3_0.index t (0 : Fin 2) * 2000 + 1 * p.val = n.val; rw [e0, hn]; omega
  | ⟨1, _⟩ => show win3_0.index t (1 : Fin 2) * 128 + 1 * q.val = q.val; rw [e1]; omega

/-- Entry q of the block of the means at any point is entry q of the means: the vector is fetched whole. -/
theorem iblk1_1_apply (c : Dev nD) (t : Fin cfg3.N) (q : Fin 128) :
    (iblk3 (F := Ideal) V c 1 t : Vec Ideal S128 .f32) (ix1 q) = (V c main_v34 : Gin.Vc 128) (ix1 q) := by
  obtain ⟨-, -, -, -, e1, e2, e3, e4⟩ := idx1_facts t
  unfold iblk3
  rw [View.read_apply]
  show V c main_v34 _ = V c main_v34 _
  congr 1
  funext a
  apply Fin.ext
  match a with
  | ⟨0, _⟩ => show win3_1.index t (0 : Fin 1) * 128 + 1 * q.val = q.val; rw [e1]; omega

/-- Entry q of the block of the variances at any point is entry q of the variances: the vector is fetched whole. -/
theorem iblk1_2_apply (c : Dev nD) (t : Fin cfg3.N) (q : Fin 128) :
    (iblk3 (F := Ideal) V c 2 t : Vec Ideal S128 .f32) (ix1 q) = (V c main_v38 : Gin.Vc 128) (ix1 q) := by
  obtain ⟨-, -, -, -, e1, e2, e3, e4⟩ := idx1_facts t
  unfold iblk3
  rw [View.read_apply]
  show V c main_v38 _ = V c main_v38 _
  congr 1
  funext a
  apply Fin.ext
  match a with
  | ⟨0, _⟩ => show win3_2.index t (0 : Fin 1) * 128 + 1 * q.val = q.val; rw [e2]; omega

/-- Entry q of the block of the scales at any point is entry q of the scales: the vector is fetched whole. -/
theorem iblk1_3_apply (c : Dev nD) (t : Fin cfg3.N) (q : Fin 128) :
    (iblk3 (F := Ideal) V c 3 t : Vec Ideal S128 .f32) (ix1 q) = (V c main_arg13 : Gin.Vc 128) (ix1 q) := by
  obtain ⟨-, -, -, -, e1, e2, e3, e4⟩ := idx1_facts t
  unfold iblk3
  rw [View.read_apply]
  show V c main_arg13 _ = V c main_arg13 _
  congr 1
  funext a
  apply Fin.ext
  match a with
  | ⟨0, _⟩ => show win3_3.index t (0 : Fin 1) * 128 + 1 * q.val = q.val; rw [e3]; omega

/-- Entry q of the block of the shifts at any point is entry q of the shifts: the vector is fetched whole. -/
theorem iblk1_4_apply (c : Dev nD) (t : Fin cfg3.N) (q : Fin 128) :
    (iblk3 (F := Ideal) V c 4 t : Vec Ideal S128 .f32) (ix1 q) = (V c main_arg14 : Gin.Vc 128) (ix1 q) := by
  obtain ⟨-, -, -, -, e1, e2, e3, e4⟩ := idx1_facts t
  unfold iblk3
  rw [View.read_apply]
  show V c main_arg14 _ = V c main_arg14 _
  congr 1
  funext a
  apply Fin.ext
  match a with
  | ⟨0, _⟩ => show win3_4.index t (0 : Fin 1) * 128 + 1 * q.val = q.val; rw [e4]; omega

/-! ## The body's result at an entry of a block -/

/-- A vector of 128 entries cast to one row and laid along every row of a block reads, at (p, q), its entry q. -/
theorem row1_apply (x : Vec Ideal S128 .f32) (h1 : S128.ShapeCasts S1x128) (hb : S1x128.Broadcasts S2000x128)
    (p : Fin 2000) (q : Fin 128) :
    broadcastTo S2000x128 (shapeCast S1x128 x h1) hb (ix2 p q) = x (ix1 q) := by
  rw [broadcastTo_1b_ab_apply, shapeCast_a_1a_apply]

/-- Entry (p, q) of what the body stores: the block's entry less the column's mean, times the reciprocal root of the
    column's guarded variance, times the column's scale, plus its shift, clamped at zero. -/
theorem pay1_apply (xv : Vec Ideal S128 .f32) (xz : Vec Ideal S2000x128 .f32) (xm xg xb : Vec Ideal S128 .f32)
    (p : Fin 2000) (q : Fin 128) :
    k3_pay1 (F := Ideal) xv xz xm xg xb (ix2 p q)
      = max ((((xz (ix2 p q) - xm (ix1 q)) * Ideal.rsqrt (xv (ix1 q) + Gin.cEps)) * xg (ix1 q)) + xb (ix1 q)) 0 := by
  unfold k3_pay1
  rw [maximumf_apply, addf_apply, mulf_apply, mulf_apply, subf_apply, broadcast_apply, row1_apply, row1_apply,
    row1_apply, row1_apply, shapeCast_self, shapeCast_self, shapeCast_self]
  show max ((xz (ix2 p q) - xm (ix1 q)) * Ideal.rsqrt (xv (ix1 q) + Gin.cEps) * xg (ix1 q) + xb (ix1 q))
      (Ideal.ofBits .f32 0x00000000#32) = _
  rw [Ideal.ofBits_zero_f32]

/-! ## From the blocks to the array -/

/-- What point t writes back is block t of the normalized, scaled, shifted and clamped z. -/
theorem flushed1_eq (c : Dev nD) (t : Fin cfg3.N) :
    (dat3 (F := Ideal) V c).flushed 5 t
      = ((cfg3.win 5).blk t).view.read (Elt Ideal)
          (Gin.bnRelu (V c main_v32_0) (V c main_v34) (V c main_v38) (V c main_arg13) (V c main_arg14)) := by
  show (cfg3.win 5).cut (grid3.coords t) ((dat3 V c).after 5 t) = _
  rw [after3_5]
  unfold out3_5
  rw [View.canon_unit_zero hzM]
  simp only [View.ld_unit_zero (S := S2000x128) hzM, View.ld_unit_zero (S := S128) hzV]
  funext j
  obtain ⟨p, q, rfl⟩ : ∃ (p : Fin 2000) (q : Fin 128), j = ix2 p q := ⟨j 0, j 1, eq_ix2 (n0 := 2000) (n1 := 128) j⟩
  obtain ⟨-, -, e0, e1, -⟩ := idx1_facts t
  have ht : t.val < 50 := Nat.lt_of_lt_of_eq t.isLt (show cfg3.N = 50 from N_3)
  have hlt : t.val * 2000 + p.val < Gin.NN := by have := p.isLt; show _ < 100000; omega
  -- the row of z, and of the result, that entry (p, q) of block t is
  have hemb : ((cfg3.win 5).blk t).view.emb (ix2 p q) = ix2 (⟨t.val * 2000 + p.val, hlt⟩ : Fin Gin.NN) q := by
    funext a
    apply Fin.ext
    match a with
    | ⟨0, _⟩ => show win3_5.index t (0 : Fin 2) * 2000 + 1 * p.val = t.val * 2000 + p.val; rw [e0]; omega
    | ⟨1, _⟩ => show win3_5.index t (1 : Fin 2) * 128 + 1 * q.val = q.val; rw [e1]; omega
  refine (pay1_apply (iblk3 V c 2 t) (iblk3 V c 0 t) (iblk3 V c 1 t) (iblk3 V c 3 t) (iblk3 V c 4 t) p q).trans ?_
  rw [iblk1_0_apply V c t p q ⟨t.val * 2000 + p.val, hlt⟩ rfl, iblk1_1_apply V c t q, iblk1_2_apply V c t q,
    iblk1_3_apply V c t q, iblk1_4_apply V c t q, View.read_apply]
  show _ = Gin.bnRelu (V c main_v32_0) (V c main_v34) (V c main_v38) (V c main_arg13) (V c main_arg14)
    (((cfg3.win 5).blk t).view.emb (ix2 p q))
  rw [hemb, Gin.bnRelu_apply]
  rfl

/-- An entry of the result array lies in point t's block when each of its coordinates is in the block's range. -/
theorem mem_blk1 (t : Fin cfg3.N) (i : S100000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v39).slice (win3_5.rect t)).set ↔ _
  rw [View.set_slice_whole, Rect.mem_set_unit]
  exact Iff.rfl

/-- The 50 blocks of 2000 rows tile the 100000 rows: row r is in the block of point r / 2000, which writes back. -/
theorem cover1 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, Nat.lt_of_lt_of_eq (by omega : (i 0).val / 2000 < 50) (show 50 = cfg3.N from N_3.symm)⟩, rfl⟩
  obtain ⟨-, -, e0, e1, -⟩ := idx1_facts t
  refine ⟨t, flush3_5 t, ?_⟩
  rw [mem_blk1]
  intro a
  match a with
  | ⟨0, _⟩ =>
    show win3_5.index t (0 : Fin 2) * 2000 ≤ (i 0).val ∧ (i 0).val < win3_5.index t (0 : Fin 2) * 2000 + 2000
    rw [e0, ht]; omega
  | ⟨1, _⟩ =>
    show win3_5.index t (1 : Fin 2) * 128 ≤ (i 1).val ∧ (i 1).val < win3_5.index t (1 : Fin 2) * 128 + 128
    rw [e1]; omega

/-- The result array after the region. -/
theorem reg3_out (c : Dev nD) :
    (dat3 (F := Ideal) V c).arrAt 5 cfg3.N
      = Gin.bnRelu (V c main_v32_0) (V c main_v34) (V c main_v38) (V c main_arg13) (V c main_arg14) :=
  (dat3 (F := Ideal) V c).arrAt_eq_of_cover 5 _ (fun t _ => flushed1_eq V c t) cover1

end Cert.KernelIdeal.KVal.Reg3

end
-- ==== Proof.KReg4.lean ====
/-
  The third perceptron region, read as values. Its grid walks the 50 blocks of 2000 rows. At block t the body forms
  u = h + a on the block's rows, z = max(u·W₁ + b₁, 0)·W₂ + b₂, writes z's block back, and adds z's column sums and
  the column sums of z² to two accumulators that are cleared at block 0 and written back after block 49. So the z
  array ends as the perceptron of every row, and the two accumulators as the column sums over all 100000 rows.
-/
import proofs.«423186_j27333171871744_1_alg».proof.Proof.Gen.KernelIdeal.Frame
import proofs.«423186_j27333171871744_1_alg».proof.Proof.Spec
import proofs.«423186_j27333171871744_1_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.KVal.Reg4

open Cert.KernelIdeal Cert.KernelIdeal.Gen

/-! ## Zero offsets, however they are spelt -/

theorem hz1 : (![0] : Fin 1 → Nat) = fun _ => 0 := funext fun a => by fin_cases a; rfl
theorem hz2 : (![0, 0] : Fin 2 → Nat) = fun _ => 0 := funext fun a => by fin_cases a <;> rfl

/-! ## What each case of the body leaves in each output's block

  The z block is stored once, whole, in both cases: the two-layer perceptron of the loaded blocks. Each accumulator's
  block is, at the first grid point, cleared and then overwritten by (what was just stored, read back) + the block's
  column sums; at every other point it is overwritten by (what it held) + the block's column sums. -/

theorem out_A_6 (c : Dev nD) (i : grid4.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : cond4_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) :
    out4_A_6 (F := Ideal) c i a1 h1 a2 h2 a3 h3 a4 h4 a5 h5 a6 h6 a7 h7 a8 h8 a9 h9 hc x0 x1 x2 x3 x4 x5 = k4_pay4 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  sl_unfold_words
  rw [View.canon_unit_zero hz2]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S128x128) hz2, View.ld_unit_zero (S := S128) hz1]

theorem out_B_6 (c : Dev nD) (i : grid4.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : ¬cond4_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) (xo7 xo8 : Vec Ideal S128 .f32) :
    out4_B_6 (F := Ideal) c i a1 h1 a2 h2 a3 h3 a4 h4 a5 h5 a6 h6 a7 h7 a8 h8 a9 h9 hc x0 x1 x2 x3 x4 x5 xo7 xo8 = k4_pay4 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz2]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S128x128) hz2, View.ld_unit_zero (S := S128) hz1]

theorem out_A_7 (c : Dev nD) (i : grid4.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : cond4_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) :
    out4_A_7 (F := Ideal) c i a1 h1 a2 h2 a3 h3 a4 h4 a5 h5 a6 h6 a7 h7 a8 h8 a9 h9 hc x0 x1 x2 x3 x4 x5 = k4_pay5 x0 x1 x2 x3 x4 x5 (k4_pay2 (F := Ideal)) := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S128x128) hz2, View.ld_unit_zero (S := S128) hz1]

theorem out_B_7 (c : Dev nD) (i : grid4.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : ¬cond4_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) (xo7 xo8 : Vec Ideal S128 .f32) :
    out4_B_7 (F := Ideal) c i a1 h1 a2 h2 a3 h3 a4 h4 a5 h5 a6 h6 a7 h7 a8 h8 a9 h9 hc x0 x1 x2 x3 x4 x5 xo7 xo8 = k4_pay5 x0 x1 x2 x3 x4 x5 xo7 := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz1]
  simp only [View.readAt_eq_ld, h1.read_unread, h2.read_unread, h3.read_unread, h4.read_unread, h5.read_unread, h6.read_unread, h8.read_unread, h9.read_unread, View.ld_unit_zero (S := S2000x128) hz2, View.ld_unit_zero (S := S128x128) hz2, View.ld_unit_zero (S := S128x128) hz2, View.ld_unit_zero (S := S128) hz1]

theorem out_A_8 (c : Dev nD) (i : grid4.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : cond4_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) :
    out4_A_8 (F := Ideal) c i a1 h1 a2 h2 a3 h3 a4 h4 a5 h5 a6 h6 a7 h7 a8 h8 a9 h9 hc x0 x1 x2 x3 x4 x5
      = k4_pay1 (k4_pay6 (k4_pay3 (F := Ideal))) (k4_pay7 x0 x1 x2 x3 x4 x5) := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h6.read_unread, View.ld_unit_zero (S := S2000x128) hz2, View.ld_unit_zero (S := S128x128) hz2, View.ld_unit_zero (S := S128x128) hz2, View.ld_unit_zero (S := S128) hz1]

theorem out_B_8 (c : Dev nD) (i : grid4.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S128 .f32) (h6 : a6.IsWhole) (a7 : Memref sig .tc .vmem S2000x128 .f32) (h7 : a7.IsWhole) (a8 : Memref sig .tc .vmem S128 .f32) (h8 : a8.IsWhole) (a9 : Memref sig .tc .vmem S128 .f32) (h9 : a9.IsWhole) (hc : ¬cond4_0 i) (x0 : Vec Ideal S2000x128 .f32) (x1 : Vec Ideal S2000x128 .f32) (x2 : Vec Ideal S128x128 .f32) (x3 : Vec Ideal S128 .f32) (x4 : Vec Ideal S128x128 .f32) (x5 : Vec Ideal S128 .f32) (xo7 xo8 : Vec Ideal S128 .f32) :
    out4_B_8 (F := Ideal) c i a1 h1 a2 h2 a3 h3 a4 h4 a5 h5 a6 h6 a7 h7 a8 h8 a9 h9 hc x0 x1 x2 x3 x4 x5 xo7 xo8
      = k4_pay1 (k4_pay6 xo8) (k4_pay7 x0 x1 x2 x3 x4 x5) := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz1]
  simp only [View.readAt_eq_ld, h1.read_unread, h2.read_unread, h3.read_unread, h4.read_unread, h5.read_unread, h6.read_unread, h8.read_unread, h9.read_unread, View.ld_unit_zero (S := S2000x128) hz2, View.ld_unit_zero (S := S128x128) hz2, View.ld_unit_zero (S := S128x128) hz2, View.ld_unit_zero (S := S128) hz1]

/-! ## The body's operations read at an index

  Both products go into a zero accumulator, so each is the plain sum over the contracted axis; a format change is the
  identity on the extended reals; a bias is one row broadcast over the block's rows; a reduction over the rows is the
  sum over the block's rows. -/

/-- The float word zero is the number zero. -/
theorem scalar_zero : (Scalar.ofBits .f32 0x00000000#32 : Ideal .f32) = 0 := Ideal.ofBits_zero_f32

/-- A bias vector laid out as one row and broadcast over the rows reads, at (p, q), its entry q. -/
theorem rowBcast_apply (v : FVec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ broadcasts_S1x128_S2000x128 p q).trans
    (shapeCast_a_1a_apply v shapeCasts_S128_S1x128 (0 : Fin 1) q)

/-- The sum over the rows of a block, at column q. -/
theorem colsum_apply (src : FVec Ideal S2000x128 .f32) (q : Fin 128) :
    multiReduction (F := Ideal) .add [0] S128 src 0x00000000#32 reduces_S2000x128_S128 (.inl rfl) rfl (ix1 q)
      = ∑ p : Fin 2000, src (ix2 p q) := by
  refine (Ideal.multiReduction_add_single src 0x00000000#32 reduces_S2000x128_S128 (.inl rfl) rfl (ix1 q)).trans ?_
  refine Finset.sum_congr rfl fun p _ => congrArg src ?_
  funext a
  match a with
  | ⟨0, _⟩ => rfl
  | ⟨1, _⟩ => rfl

/-! ### The second product: [2000, 128] by [128, 128] -/

theorem lhs_second_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
theorem lhs_second_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
theorem rhs_second_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
theorem rhs_second_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- The second product into the zero block, at (p, q): the sum over the 128 contracted coordinates. -/
theorem mm_second_apply {φ₁ φ₂ : FTy} (a : FVec Ideal S2000x128 φ₁) (b : FVec Ideal S128x128 φ₂) (p : Fin 2000) (q : Fin 128) :
    matmul (F := Ideal) dot_S2000x128_S128x128_S2000x128_1_0_0_1_n_n none a b (constant S2000x128 .f32 0x00000000#32) (ix2 p q)
      = ∑ k : Fin 128, a (ix2 p k) * b (ix2 k q) := by
  show FloatOps.matmul _ none a b (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => exact lhs_second_0 _ _
    | ⟨1, _⟩ => exact (lhs_second_1 _ _).trans ck
  have er : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ => exact (rhs_second_0 _ _).trans ck
    | ⟨1, _⟩ => exact rhs_second_1 _ _
  rw [el, er]

/-! ### The first product: [2000, 128] by [128, 128] -/

theorem reg4_lhs_first_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
theorem reg4_lhs_first_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
theorem reg4_rhs_first_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
theorem reg4_rhs_first_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-- The first product into the zero block, at (p, q): the sum over the 128 contracted coordinates. -/
theorem reg4_mm_first_apply {φ₁ φ₂ : FTy} (a : FVec Ideal S2000x128 φ₁) (b : FVec Ideal S128x128 φ₂) (p : Fin 2000) (q : Fin 128) :
    matmul (F := Ideal) dot_S2000x128_S128x128_S2000x128_1_0_0_1_n_n none a b (constant S2000x128 .f32 0x00000000#32) (ix2 p q)
      = ∑ k : Fin 128, a (ix2 p k) * b (ix2 k q) := by
  show FloatOps.matmul _ none a b (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => exact reg4_lhs_first_0 _ _
    | ⟨1, _⟩ => exact (reg4_lhs_first_1 _ _).trans ck
  have er : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ => exact (reg4_rhs_first_0 _ _).trans ck
    | ⟨1, _⟩ => exact reg4_rhs_first_1 _ _
  rw [el, er]

/-! ## The body's payloads, entry by entry -/

/-- The z block at (p, q): row p of u = h + a through the two affine maps, column q. -/
theorem reg4_pay4_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k4_pay4 x0 x1 x2 x3 x4 x5 (ix2 p q)
      = (∑ k : Fin 128, max ((∑ j : Fin 128, (x0 (ix2 p j) + x1 (ix2 p j)) * x2 (ix2 j k)) + x3 (ix1 k)) 0 * x4 (ix2 k q))
        + x5 (ix1 q) := by
  unfold k4_pay4
  simp only [addf_apply, mm_second_apply, rowBcast_apply, truncf_apply, maximumf_apply, reg4_mm_first_apply,
    broadcast_apply, shapeCast_self, scalar_zero]

/-- The first accumulator's new block at q: what it held plus the z block's column sum. -/
theorem reg4_pay5_apply (x0 x1 : Vec Ideal S2000x128 .f32) (x2 : Vec Ideal S128x128 .f32) (x3 : Vec Ideal S128 .f32)
    (x4 : Vec Ideal S128x128 .f32) (x5 : Vec Ideal S128 .f32) (acc : Vec Ideal S128 .f32) (q : Fin 128) :
    k4_pay5 x0 x1 x2 x3 x4 x5 acc (ix1 q) = acc (ix1 q) + ∑ p : Fin 2000, k4_pay4 x0 x1 x2 x3 x4 x5 (ix2 p q) := by
  unfold k4_pay5
  simp only [addf_apply, shapeCast_self]
  rw [colsum_apply (k4_pay4 x0 x1 x2 x3 x4 x5) q]

/-- The second accumulator's new block at q: what it held plus the column sum of the z block's squares. -/
theorem reg4_pay1_apply (x0 x1 : Vec Ideal S2000x128 .f32) (x2 : Vec Ideal S128x128 .f32) (x3 : Vec Ideal S128 .f32)
    (x4 : Vec Ideal S128x128 .f32) (x5 : Vec Ideal S128 .f32) (acc : Vec Ideal S128 .f32) (q : Fin 128) :
    k4_pay1 (k4_pay6 acc) (k4_pay7 x0 x1 x2 x3 x4 x5) (ix1 q)
      = acc (ix1 q) + ∑ p : Fin 2000, k4_pay4 x0 x1 x2 x3 x4 x5 (ix2 p q) * k4_pay4 x0 x1 x2 x3 x4 x5 (ix2 p q) := by
  unfold k4_pay1 k4_pay6 k4_pay7
  simp only [addf_apply, shapeCast_self]
  rw [colsum_apply (mulf (k4_pay4 x0 x1 x2 x3 x4 x5) (k4_pay4 x0 x1 x2 x3 x4 x5)) q]
  simp only [mulf_apply]

/-- The block an accumulator is cleared to is zero everywhere. -/
theorem reg4_pay2_apply (q : Fin 128) : k4_pay2 (F := Ideal) (ix1 q) = 0 := by
  unfold k4_pay2
  simp only [broadcast_apply, scalar_zero]
theorem reg4_pay3_apply (q : Fin 128) : k4_pay3 (F := Ideal) (ix1 q) = 0 := by
  unfold k4_pay3
  simp only [broadcast_apply, scalar_zero]

-- the contents of the core's buffers when the region is entered
variable (V : (c : Dev nD) → (b : Ref sig .tc) → Buf (Elt Ideal) ((c : Thread nD τ).loc b))

/-- The node features the region is given, as a matrix of extended reals. -/
abbrev feat4 (c : Dev nD) : Gin.Mat Gin.NN 128 := V c main_v39
/-- Their neighbourhood sums. -/
abbrev nbr4 (c : Dev nD) : Gin.Mat Gin.NN 128 := V c main_v49
/-- The perceptron's input u = h + a. -/
abbrev uIn4 (c : Dev nD) : Gin.Mat Gin.NN 128 := fun i => feat4 V c i + nbr4 V c i

/-! ## The windows' blocks, read off the arrays

  At grid point t the two row windows hold rows 2000·t … 2000·t + 1999 of their arrays; the four parameter windows hold
  their whole arrays; the z window's block is rows 2000·t … of z, and each accumulator's one block is its whole array. -/

/-- Each window's block index at every grid point, decided once over the grid. -/
theorem reg4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0
    ∧ win4_7.index t (0 : Fin 1) = 0
    ∧ win4_8.index t (0 : Fin 1) = 0 :=
  (by decide +kernel : ∀ t : Fin grid4.N, _)

/-- Row p of the block at grid point t is row 2000·t + p of the array. -/
def reg4_row (t : Fin cfg4.N) (p : Fin 2000) : Fin Gin.NN :=
  ⟨2000 * t.val + p.val, by
    have hN : cfg4.N = 50 := N_4
    have ht := t.isLt
    have hp := p.isLt
    show _ < 100000
    omega⟩

/-- The six input blocks at a grid point, each at its literal shape. -/
abbrev reg4_blk0 (c : Dev nD) (t : Fin cfg4.N) : Vec Ideal S2000x128 .f32 := iblk4 V c 0 t
abbrev reg4_blk1 (c : Dev nD) (t : Fin cfg4.N) : Vec Ideal S2000x128 .f32 := iblk4 V c 1 t
abbrev reg4_blk2 (c : Dev nD) (t : Fin cfg4.N) : Vec Ideal S128x128 .f32 := iblk4 V c 2 t
abbrev reg4_blk3 (c : Dev nD) (t : Fin cfg4.N) : Vec Ideal S128 .f32 := iblk4 V c 3 t
abbrev reg4_blk4 (c : Dev nD) (t : Fin cfg4.N) : Vec Ideal S128x128 .f32 := iblk4 V c 4 t
abbrev reg4_blk5 (c : Dev nD) (t : Fin cfg4.N) : Vec Ideal S128 .f32 := iblk4 V c 5 t

theorem reg4_blk0_apply (c : Dev nD) (t : Fin cfg4.N) (p : Fin 2000) (j : Fin 128) :
    reg4_blk0 V c t (ix2 p j) = feat4 V c (ix2 (reg4_row t p) j) := by
  show iblk4 V c 0 t (ix2 p j) = _
  unfold iblk4
  rw [View.read_apply]
  show V c main_v39 _ = V c main_v39 _
  refine congrArg (V c main_v39) ?_
  funext a
  apply Fin.ext
  match a with
  | ⟨0, _⟩ => show win4_0.index t (0 : Fin 2) * 2000 + 1 * p.val = 2000 * t.val + p.val; rw [(reg4_idx t).1]; omega
  | ⟨1, _⟩ => show win4_0.index t (1 : Fin 2) * 128 + 1 * j.val = j.val; rw [(reg4_idx t).2.1]; omega

theorem reg4_blk1_apply (c : Dev nD) (t : Fin cfg4.N) (p : Fin 2000) (j : Fin 128) :
    reg4_blk1 V c t (ix2 p j) = nbr4 V c (ix2 (reg4_row t p) j) := by
  show iblk4 V c 1 t (ix2 p j) = _
  unfold iblk4
  rw [View.read_apply]
  show V c main_v49 _ = V c main_v49 _
  refine congrArg (V c main_v49) ?_
  funext a
  apply Fin.ext
  match a with
  | ⟨0, _⟩ => show win4_1.index t (0 : Fin 2) * 2000 + 1 * p.val = 2000 * t.val + p.val; rw [(reg4_idx t).2.2.1]; omega
  | ⟨1, _⟩ => show win4_1.index t (1 : Fin 2) * 128 + 1 * j.val = j.val; rw [(reg4_idx t).2.2.2.1]; omega

theorem reg4_blk2_apply (c : Dev nD) (t : Fin cfg4.N) (j : Fin 128) (k : Fin 128) :
    reg4_blk2 V c t (ix2 j k) = (V c main_arg15 : Gin.Mat 128 128) (ix2 j k) := by
  show iblk4 V c 2 t (ix2 j k) = _
  unfold iblk4
  rw [View.read_apply]
  show V c main_arg15 _ = V c main_arg15 _
  refine congrArg (V c main_arg15) ?_
  funext a
  apply Fin.ext
  match a with
  | ⟨0, _⟩ => show win4_2.index t (0 : Fin 2) * 128 + 1 * j.val = j.val; rw [(reg4_idx t).2.2.2.2.1]; omega
  | ⟨1, _⟩ => show win4_2.index t (1 : Fin 2) * 128 + 1 * k.val = k.val; rw [(reg4_idx t).2.2.2.2.2.1]; omega

theorem reg4_blk3_apply (c : Dev nD) (t : Fin cfg4.N) (k : Fin 128) :
    reg4_blk3 V c t (ix1 k) = (V c main_arg16 : Gin.Vc 128) (ix1 k) := by
  show iblk4 V c 3 t (ix1 k) = _
  unfold iblk4
  rw [View.read_apply]
  show V c main_arg16 _ = V c main_arg16 _
  refine congrArg (V c main_arg16) ?_
  funext a
  apply Fin.ext
  match a with
  | ⟨0, _⟩ => show win4_3.index t (0 : Fin 1) * 128 + 1 * k.val = k.val; rw [(reg4_idx t).2.2.2.2.2.2.1]; omega

theorem reg4_blk4_apply (c : Dev nD) (t : Fin cfg4.N) (k : Fin 128) (q : Fin 128) :
    reg4_blk4 V c t (ix2 k q) = (V c main_arg17 : Gin.Mat 128 128) (ix2 k q) := by
  show iblk4 V c 4 t (ix2 k q) = _
  unfold iblk4
  rw [View.read_apply]
  show V c main_arg17 _ = V c main_arg17 _
  refine congrArg (V c main_arg17) ?_
  funext a
  apply Fin.ext
  match a with
  | ⟨0, _⟩ => show win4_4.index t (0 : Fin 2) * 128 + 1 * k.val = k.val; rw [(reg4_idx t).2.2.2.2.2.2.2.1]; omega
  | ⟨1, _⟩ => show win4_4.index t (1 : Fin 2) * 128 + 1 * q.val = q.val; rw [(reg4_idx t).2.2.2.2.2.2.2.2.1]; omega

theorem reg4_blk5_apply (c : Dev nD) (t : Fin cfg4.N) (q : Fin 128) :
    reg4_blk5 V c t (ix1 q) = (V c main_arg18 : Gin.Vc 128) (ix1 q) := by
  show iblk4 V c 5 t (ix1 q) = _
  unfold iblk4
  rw [View.read_apply]
  show V c main_arg18 _ = V c main_arg18 _
  refine congrArg (V c main_arg18) ?_
  funext a
  apply Fin.ext
  match a with
  | ⟨0, _⟩ => show win4_5.index t (0 : Fin 1) * 128 + 1 * q.val = q.val; rw [(reg4_idx t).2.2.2.2.2.2.2.2.2.1]; omega

/-! ## The z block is the perceptron of the block's rows -/

/-- The z array the region computes: every row of u through the two affine maps. -/
abbrev reg4_zfun (c : Dev nD) : Gin.Mat Gin.NN 128 :=
  Gin.mlp (uIn4 V c) (V c main_arg15) (V c main_arg16) (V c main_arg17) (V c main_arg18)

/-- Entry (p, q) of the z block at grid point t is entry (2000·t + p, q) of z. -/
theorem reg4_zblk_apply (c : Dev nD) (t : Fin cfg4.N) (p : Fin 2000) (q : Fin 128) :
    k4_pay4 (reg4_blk0 V c t) (reg4_blk1 V c t) (reg4_blk2 V c t) (reg4_blk3 V c t) (reg4_blk4 V c t) (reg4_blk5 V c t) (ix2 p q) = reg4_zfun V c (ix2 (reg4_row t p) q) := by
  refine (reg4_pay4_apply (reg4_blk0 V c t) (reg4_blk1 V c t) (reg4_blk2 V c t) (reg4_blk3 V c t) (reg4_blk4 V c t) (reg4_blk5 V c t) p q).trans ?_
  show _ = Gin.mlpAt (uIn4 V c) (V c main_arg15) (V c main_arg16) (V c main_arg17) (V c main_arg18) (reg4_row t p) q
  unfold Gin.mlpAt
  refine congrArg₂ (· + ·) (Finset.sum_congr rfl fun k _ => congrArg₂ (· * ·) (congrArg (max · 0)
    (congrArg₂ (· + ·) (Finset.sum_congr rfl fun j _ => congrArg₂ (· * ·)
      (congrArg₂ (· + ·) (reg4_blk0_apply V c t p j) (reg4_blk1_apply V c t p j)) (reg4_blk2_apply V c t j k))
      (reg4_blk3_apply V c t k))) (reg4_blk4_apply V c t k q)) (reg4_blk5_apply V c t q)

/-! ## What the three outputs' blocks hold after each grid point -/

/-- After any point the z window's block is the z block of that point's rows. -/
theorem reg4_outs6 (c : Dev nD) (t : Fin cfg4.N) :
    (outsAt4 V c t.val t.isLt).1 = k4_pay4 (reg4_blk0 V c t) (reg4_blk1 V c t) (reg4_blk2 V c t) (reg4_blk3 V c t) (reg4_blk4 V c t) (reg4_blk5 V c t) := by
  by_cases h0 : t.val % 50 = 0
  · rw [outsAt4_A V c t h0]
    dsimp only
    exact out_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)
  · rw [outsAt4_B V c t h0]
    dsimp only
    exact out_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2

/-- At the first point the first accumulator's block, just cleared, ends as the z block's column sums. -/
theorem reg4_outs7_A (c : Dev nD) (t : Fin cfg4.N) (h0 : t.val % 50 = 0) (q : Fin 128) :
    (outsAt4 V c t.val t.isLt).2.1 (ix1 q) = 0 + ∑ p : Fin 2000, k4_pay4 (reg4_blk0 V c t) (reg4_blk1 V c t) (reg4_blk2 V c t) (reg4_blk3 V c t) (reg4_blk4 V c t) (reg4_blk5 V c t) (ix2 p q) := by
  rw [outsAt4_A V c t h0]
  dsimp only
  refine (congrFun (out_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)) (ix1 q)).trans ?_
  refine (reg4_pay5_apply (reg4_blk0 V c t) (reg4_blk1 V c t) (reg4_blk2 V c t) (reg4_blk3 V c t) (reg4_blk4 V c t) (reg4_blk5 V c t) (k4_pay2 (F := Ideal)) q).trans ?_
  rw [reg4_pay2_apply]

/-- At every other point it ends as what the point before left plus the z block's column sums. -/
theorem reg4_outs7_B (c : Dev nD) (t : Fin cfg4.N) (h0 : ¬t.val % 50 = 0) (q : Fin 128) :
    (outsAt4 V c t.val t.isLt).2.1 (ix1 q)
      = (outsAt4 V c (t.val - 1) (Nat.lt_of_le_of_lt (Nat.sub_le _ _) t.isLt)).2.1 (ix1 q)
        + ∑ p : Fin 2000, k4_pay4 (reg4_blk0 V c t) (reg4_blk1 V c t) (reg4_blk2 V c t) (reg4_blk3 V c t) (reg4_blk4 V c t) (reg4_blk5 V c t) (ix2 p q) := by
  rw [outsAt4_B V c t h0]
  dsimp only
  refine (congrFun (out_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) (ix1 q)).trans ?_
  exact reg4_pay5_apply (reg4_blk0 V c t) (reg4_blk1 V c t) (reg4_blk2 V c t) (reg4_blk3 V c t) (reg4_blk4 V c t) (reg4_blk5 V c t) (outsAt4 V c (t.val - 1) (Nat.lt_of_le_of_lt (Nat.sub_le _ _) t.isLt)).2.1 q

/-- The second accumulator likewise, with the squares of the z block's entries. -/
theorem reg4_outs8_A (c : Dev nD) (t : Fin cfg4.N) (h0 : t.val % 50 = 0) (q : Fin 128) :
    (outsAt4 V c t.val t.isLt).2.2 (ix1 q)
      = 0 + ∑ p : Fin 2000, k4_pay4 (reg4_blk0 V c t) (reg4_blk1 V c t) (reg4_blk2 V c t) (reg4_blk3 V c t) (reg4_blk4 V c t) (reg4_blk5 V c t) (ix2 p q) * k4_pay4 (reg4_blk0 V c t) (reg4_blk1 V c t) (reg4_blk2 V c t) (reg4_blk3 V c t) (reg4_blk4 V c t) (reg4_blk5 V c t) (ix2 p q) := by
  rw [outsAt4_A V c t h0]
  dsimp only
  refine (congrFun (out_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)) (ix1 q)).trans ?_
  refine (reg4_pay1_apply (reg4_blk0 V c t) (reg4_blk1 V c t) (reg4_blk2 V c t) (reg4_blk3 V c t) (reg4_blk4 V c t) (reg4_blk5 V c t) (k4_pay3 (F := Ideal)) q).trans ?_
  rw [reg4_pay3_apply]

theorem reg4_outs8_B (c : Dev nD) (t : Fin cfg4.N) (h0 : ¬t.val % 50 = 0) (q : Fin 128) :
    (outsAt4 V c t.val t.isLt).2.2 (ix1 q)
      = (outsAt4 V c (t.val - 1) (Nat.lt_of_le_of_lt (Nat.sub_le _ _) t.isLt)).2.2 (ix1 q)
        + ∑ p : Fin 2000, k4_pay4 (reg4_blk0 V c t) (reg4_blk1 V c t) (reg4_blk2 V c t) (reg4_blk3 V c t) (reg4_blk4 V c t) (reg4_blk5 V c t) (ix2 p q) * k4_pay4 (reg4_blk0 V c t) (reg4_blk1 V c t) (reg4_blk2 V c t) (reg4_blk3 V c t) (reg4_blk4 V c t) (reg4_blk5 V c t) (ix2 p q) := by
  rw [outsAt4_B V c t h0]
  dsimp only
  refine (congrFun (out_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) (ix1 q)).trans ?_
  exact reg4_pay1_apply (reg4_blk0 V c t) (reg4_blk1 V c t) (reg4_blk2 V c t) (reg4_blk3 V c t) (reg4_blk4 V c t) (reg4_blk5 V c t) (outsAt4 V c (t.val - 1) (Nat.lt_of_le_of_lt (Nat.sub_le _ _) t.isLt)).2.2 q

/-! ## The accumulators are the column sums over the rows seen so far

  By induction on the grid point: after point n the first accumulator holds, at column q, the sum of z's column q over
  the rows below 2000·(n + 1), and the second the sum of its squares. The first point starts from the cleared block
  (0 + x = x); every later point adds its block's 2000 rows to what the point before left. -/

theorem reg4_acc7 (c : Dev nD) : ∀ (n : ℕ) (hn : n < cfg4.N) (q : Fin 128),
    (outsAt4 V c n hn).2.1 (ix1 q) = Gin.prefixSum (fun r => reg4_zfun V c (ix2 r q)) (2000 * (n + 1))
  | 0, hn, q => by
    refine (reg4_outs7_A V c ⟨0, hn⟩ (Nat.zero_mod 50) q).trans ?_
    rw [Gin.prefixSum_block _ 0 (by decide)]
    refine congrArg₂ (· + ·) (Gin.prefixSum_zero _).symm (Finset.sum_congr rfl fun p _ => ?_)
    exact reg4_zblk_apply V c ⟨0, hn⟩ p q
  | n + 1, hn, q => by
    have hN : cfg4.N = 50 := N_4
    have hB : ¬(⟨n + 1, hn⟩ : Fin cfg4.N).val % 50 = 0 := by dsimp only; omega
    refine (reg4_outs7_B V c ⟨n + 1, hn⟩ hB q).trans ?_
    show (outsAt4 V c n _).2.1 (ix1 q) + _ = _
    rw [reg4_acc7 c n _ q, Gin.prefixSum_block _ (n + 1) (by omega)]
    refine congrArg (_ + ·) (Finset.sum_congr rfl fun p _ => ?_)
    exact reg4_zblk_apply V c ⟨n + 1, hn⟩ p q

theorem reg4_acc8 (c : Dev nD) : ∀ (n : ℕ) (hn : n < cfg4.N) (q : Fin 128),
    (outsAt4 V c n hn).2.2 (ix1 q)
      = Gin.prefixSum (fun r => reg4_zfun V c (ix2 r q) * reg4_zfun V c (ix2 r q)) (2000 * (n + 1))
  | 0, hn, q => by
    refine (reg4_outs8_A V c ⟨0, hn⟩ (Nat.zero_mod 50) q).trans ?_
    rw [Gin.prefixSum_block _ 0 (by decide)]
    refine congrArg₂ (· + ·) (Gin.prefixSum_zero _).symm (Finset.sum_congr rfl fun p _ => ?_)
    rw [reg4_zblk_apply V c ⟨0, hn⟩ p q]
    rfl
  | n + 1, hn, q => by
    have hN : cfg4.N = 50 := N_4
    have hB : ¬(⟨n + 1, hn⟩ : Fin cfg4.N).val % 50 = 0 := by dsimp only; omega
    refine (reg4_outs8_B V c ⟨n + 1, hn⟩ hB q).trans ?_
    show (outsAt4 V c n _).2.2 (ix1 q) + _ = _
    rw [reg4_acc8 c n _ q, Gin.prefixSum_block _ (n + 1) (by omega)]
    refine congrArg (_ + ·) (Finset.sum_congr rfl fun p _ => ?_)
    rw [reg4_zblk_apply V c ⟨n + 1, hn⟩ p q]
    rfl

/-! ## From blocks to the arrays

  The z window is written back after every grid point, and row r of z lies in the block of point r / 2000. Each
  accumulator's one block is its whole array and is written back once, after the last point, when it holds the sums over
  all 2000·50 rows. -/

/-- The z block at a grid point, as a function of the block's index. -/
theorem reg4_zblk_eq (c : Dev nD) (t : Fin cfg4.N) :
    k4_pay4 (reg4_blk0 V c t) (reg4_blk1 V c t) (reg4_blk2 V c t) (reg4_blk3 V c t) (reg4_blk4 V c t) (reg4_blk5 V c t)
      = fun y : S2000x128.Idx => reg4_zfun V c (ix2 (reg4_row t (y 0)) (y 1)) := by
  funext y
  obtain ⟨p, q, rfl⟩ : ∃ (p : Fin 2000) (q : Fin 128), y = ix2 p q := ⟨y 0, y 1, eq_ix2 y⟩
  exact reg4_zblk_apply V c t p q

/-- What grid point t writes back to the z array is block t of z. -/
theorem reg4_flushed6 (c : Dev nD) (t : Fin cfg4.N) :
    (dat4 (F := Ideal) V c).flushed 6 t = ((cfg4.win 6).blk t).view.read (Elt Ideal) (reg4_zfun V c) := by
  show (cfg4.win 6).cut (grid4.coords t) ((dat4 (F := Ideal) V c).after 6 t) = _
  rw [after4_6, reg4_outs6, reg4_zblk_eq]
  funext y
  show reg4_zfun V c (ix2 (reg4_row t (y 0)) (y 1)) = reg4_zfun V c (((cfg4.win 6).blk t).view.emb y)
  refine congrArg (reg4_zfun V c) ?_
  funext a
  apply Fin.ext
  match a with
  | ⟨0, _⟩ =>
    show 2000 * t.val + (y 0).val = win4_6.index t (0 : Fin 2) * 2000 + 1 * (y 0).val
    rw [(reg4_idx t).2.2.2.2.2.2.2.2.2.2.1]; omega
  | ⟨1, _⟩ =>
    show (y 1).val = win4_6.index t (1 : Fin 2) * 128 + 1 * (y 1).val
    rw [(reg4_idx t).2.2.2.2.2.2.2.2.2.2.2.1]; omega

/-- An index of the z array is in point t's block iff each coordinate is in the block's range on its axis. -/
theorem reg4_mem6 (t : Fin cfg4.N) (i : S100000x128.Idx) :
    i ∈ ((cfg4.win 6).blk t).view.set
      ↔ ∀ a : Fin 2, win4_6.index t a * S2000x128.size a ≤ (i a).val
          ∧ (i a).val < win4_6.index t a * S2000x128.size a + S2000x128.size a := by
  show i ∈ ((View.whole main_v50_0).slice (win4_6.rect t)).set ↔ _
  rw [View.set_slice_whole, Rect.mem_set_unit]
  exact Iff.rfl

/-- Row r of the z array is in the block of grid point r / 2000, which is written back. -/
theorem reg4_cover6 (i : S100000x128.Idx) :
    ∃ t : Fin cfg4.N, (cfg4.win 6).flush t = true ∧ i ∈ ((cfg4.win 6).blk t).view.set := by
  have hN : cfg4.N = 50 := N_4
  have hi0 : (i 0).val < 100000 := idx2_lt0 i
  have hi1 : (i 1).val < 128 := idx2_lt1 i
  obtain ⟨t, ht⟩ : ∃ t : Fin cfg4.N, t.val = (i 0).val / 2000 := ⟨⟨(i 0).val / 2000, by omega⟩, rfl⟩
  refine ⟨t, flush4_6 t, ?_⟩
  rw [reg4_mem6]
  intro a
  match a with
  | ⟨0, _⟩ =>
    show win4_6.index t (0 : Fin 2) * 2000 ≤ (i 0).val ∧ (i 0).val < win4_6.index t (0 : Fin 2) * 2000 + 2000
    rw [(reg4_idx t).2.2.2.2.2.2.2.2.2.2.1]; omega
  | ⟨1, _⟩ =>
    show win4_6.index t (1 : Fin 2) * 128 ≤ (i 1).val ∧ (i 1).val < win4_6.index t (1 : Fin 2) * 128 + 128
    rw [(reg4_idx t).2.2.2.2.2.2.2.2.2.2.2.1]; omega

/-- The z array after the region: every row through the two affine maps. -/
theorem reg4_z (c : Dev nD) :
    (dat4 (F := Ideal) V c).arrAt 6 cfg4.N
      = Gin.mlp (uIn4 V c) (V c main_arg15) (V c main_arg16) (V c main_arg17) (V c main_arg18) :=
  (dat4 (F := Ideal) V c).arrAt_eq_of_cover 6 (reg4_zfun V c) (fun t _ => reg4_flushed6 V c t) fun i => reg4_cover6 i

/-- After the last grid point the first accumulator's block is z's column sums: the rows below 2000·50 are all the rows. -/
theorem reg4_acc7_last (c : Dev nD) (t : Fin cfg4.N) (hlast : 2000 * (t.val + 1) = 2000 * 50) :
    (outsAt4 V c t.val t.isLt).2.1 = Gin.colSum (reg4_zfun V c) := by
  funext y
  obtain ⟨q, rfl⟩ : ∃ q : Fin 128, y = ix1 q := ⟨y 0, eq_ix1 y⟩
  rw [reg4_acc7 V c t.val t.isLt q, hlast, Gin.prefixSum_full]
  unfold Gin.colSum
  rfl

/-- The accumulator's one block is its whole array: read through the block at any grid point, an array is itself. -/
theorem reg4_whole7 (t : Fin cfg4.N) (G : Gin.Vc 128) :
    (cfg4.win 7).cut (grid4.coords t) G = ((cfg4.win 7).blk t).view.read (Elt Ideal) G := by
  funext y
  rw [View.read_apply]
  show G y = G (((cfg4.win 7).blk t).view.emb y)
  refine congrArg G ?_
  funext a
  apply Fin.ext
  match a with
  | ⟨0, _⟩ =>
    show (y 0).val = win4_7.index t (0 : Fin 1) * 128 + 1 * (y 0).val
    rw [(reg4_idx t).2.2.2.2.2.2.2.2.2.2.2.2.1]; omega

/-- The one write-back of the first accumulator, after the last point, writes z's column sums. -/
theorem reg4_flushed7 (c : Dev nD) (t : Fin cfg4.N) (hf : (cfg4.win 7).flush t = true) :
    (dat4 (F := Ideal) V c).flushed 7 t
      = ((cfg4.win 7).blk t).view.read (Elt Ideal) (Gin.colSum (reg4_zfun V c)) := by
  have hN : cfg4.N = 50 := N_4
  have hlast : 2000 * (t.val + 1) = 2000 * 50 := by
    have h49 := (flush4_7 t).mp hf
    have ht := t.isLt
    omega
  show (cfg4.win 7).cut (grid4.coords t) ((dat4 (F := Ideal) V c).after 7 t) = _
  rw [after4_7, reg4_acc7_last V c t hlast]
  exact reg4_whole7 t (Gin.colSum (reg4_zfun V c))

theorem reg4_mem7 (t : Fin cfg4.N) (i : S128.Idx) :
    i ∈ ((cfg4.win 7).blk t).view.set
      ↔ ∀ a : Fin 1, win4_7.index t a * S128.size a ≤ (i a).val ∧ (i a).val < win4_7.index t a * S128.size a + S128.size a := by
  show i ∈ ((View.whole main_v50_1).slice (win4_7.rect t)).set ↔ _
  rw [View.set_slice_whole, Rect.mem_set_unit]
  exact Iff.rfl

/-- The last grid point's block covers the whole accumulator, and is written back. -/
theorem reg4_cover7 (i : S128.Idx) :
    ∃ t : Fin cfg4.N, (cfg4.win 7).flush t = true ∧ i ∈ ((cfg4.win 7).blk t).view.set := by
  have hN : cfg4.N = 50 := N_4
  have hi0 : (i 0).val < 128 := (i 0).isLt
  obtain ⟨t, ht⟩ : ∃ t : Fin cfg4.N, t.val = 49 := ⟨⟨49, by omega⟩, rfl⟩
  refine ⟨t, (flush4_7 t).mpr (by omega), ?_⟩
  rw [reg4_mem7]
  intro a
  match a with
  | ⟨0, _⟩ =>
    show win4_7.index t (0 : Fin 1) * 128 ≤ (i 0).val ∧ (i 0).val < win4_7.index t (0 : Fin 1) * 128 + 128
    rw [(reg4_idx t).2.2.2.2.2.2.2.2.2.2.2.2.1]; omega

/-- The first accumulator after the region: z's column sums. -/
theorem reg4_sum (c : Dev nD) :
    (dat4 (F := Ideal) V c).arrAt 7 cfg4.N
      = Gin.colSum (Gin.mlp (uIn4 V c) (V c main_arg15) (V c main_arg16) (V c main_arg17) (V c main_arg18)) :=
  (dat4 (F := Ideal) V c).arrAt_eq_of_cover 7 (Gin.colSum (reg4_zfun V c)) (reg4_flushed7 V c) fun i => reg4_cover7 i

/-- After the last grid point the second accumulator's block is the column sums of z²: the rows below 2000·50 are all the rows. -/
theorem reg4_acc8_last (c : Dev nD) (t : Fin cfg4.N) (hlast : 2000 * (t.val + 1) = 2000 * 50) :
    (outsAt4 V c t.val t.isLt).2.2 = Gin.colSumSq (reg4_zfun V c) := by
  funext y
  obtain ⟨q, rfl⟩ : ∃ q : Fin 128, y = ix1 q := ⟨y 0, eq_ix1 y⟩
  rw [reg4_acc8 V c t.val t.isLt q, hlast, Gin.prefixSum_full]
  unfold Gin.colSumSq
  rfl

/-- The accumulator's one block is its whole array: read through the block at any grid point, an array is itself. -/
theorem reg4_whole8 (t : Fin cfg4.N) (G : Gin.Vc 128) :
    (cfg4.win 8).cut (grid4.coords t) G = ((cfg4.win 8).blk t).view.read (Elt Ideal) G := by
  funext y
  rw [View.read_apply]
  show G y = G (((cfg4.win 8).blk t).view.emb y)
  refine congrArg G ?_
  funext a
  apply Fin.ext
  match a with
  | ⟨0, _⟩ =>
    show (y 0).val = win4_8.index t (0 : Fin 1) * 128 + 1 * (y 0).val
    rw [(reg4_idx t).2.2.2.2.2.2.2.2.2.2.2.2.2]; omega

/-- The one write-back of the second accumulator, after the last point, writes the column sums of z². -/
theorem reg4_flushed8 (c : Dev nD) (t : Fin cfg4.N) (hf : (cfg4.win 8).flush t = true) :
    (dat4 (F := Ideal) V c).flushed 8 t
      = ((cfg4.win 8).blk t).view.read (Elt Ideal) (Gin.colSumSq (reg4_zfun V c)) := by
  have hN : cfg4.N = 50 := N_4
  have hlast : 2000 * (t.val + 1) = 2000 * 50 := by
    have h49 := (flush4_8 t).mp hf
    have ht := t.isLt
    omega
  show (cfg4.win 8).cut (grid4.coords t) ((dat4 (F := Ideal) V c).after 8 t) = _
  rw [after4_8, reg4_acc8_last V c t hlast]
  exact reg4_whole8 t (Gin.colSumSq (reg4_zfun V c))

theorem reg4_mem8 (t : Fin cfg4.N) (i : S128.Idx) :
    i ∈ ((cfg4.win 8).blk t).view.set
      ↔ ∀ a : Fin 1, win4_8.index t a * S128.size a ≤ (i a).val ∧ (i a).val < win4_8.index t a * S128.size a + S128.size a := by
  show i ∈ ((View.whole main_v50_2).slice (win4_8.rect t)).set ↔ _
  rw [View.set_slice_whole, Rect.mem_set_unit]
  exact Iff.rfl

/-- The last grid point's block covers the whole accumulator, and is written back. -/
theorem reg4_cover8 (i : S128.Idx) :
    ∃ t : Fin cfg4.N, (cfg4.win 8).flush t = true ∧ i ∈ ((cfg4.win 8).blk t).view.set := by
  have hN : cfg4.N = 50 := N_4
  have hi0 : (i 0).val < 128 := (i 0).isLt
  obtain ⟨t, ht⟩ : ∃ t : Fin cfg4.N, t.val = 49 := ⟨⟨49, by omega⟩, rfl⟩
  refine ⟨t, (flush4_8 t).mpr (by omega), ?_⟩
  rw [reg4_mem8]
  intro a
  match a with
  | ⟨0, _⟩ =>
    show win4_8.index t (0 : Fin 1) * 128 ≤ (i 0).val ∧ (i 0).val < win4_8.index t (0 : Fin 1) * 128 + 128
    rw [(reg4_idx t).2.2.2.2.2.2.2.2.2.2.2.2.2]; omega

/-- The second accumulator after the region: the column sums of z². -/
theorem reg4_sumsq (c : Dev nD) :
    (dat4 (F := Ideal) V c).arrAt 8 cfg4.N
      = Gin.colSumSq (Gin.mlp (uIn4 V c) (V c main_arg15) (V c main_arg16) (V c main_arg17) (V c main_arg18)) :=
  (dat4 (F := Ideal) V c).arrAt_eq_of_cover 8 (Gin.colSumSq (reg4_zfun V c)) (reg4_flushed8 V c) fun i => reg4_cover8 i

end Cert.KernelIdeal.KVal.Reg4

end
-- ==== Proof.KReg5.lean ====
/-
  The third normalization region, read as values. Every block of 2000 rows of z is sent, entry by entry, through
  max(((z − μ)·rsqrt(v + ε))·γ + β, 0) with the column's μ, v, γ, β; the blocks tile the array, so the result array
  is that function of the whole of z.
-/
import proofs.«423186_j27333171871744_1_alg».proof.Proof.Gen.KernelIdeal.Frame
import proofs.«423186_j27333171871744_1_alg».proof.Proof.Spec
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KVal.Reg5

open Cert.KernelIdeal Cert.KernelIdeal.Gen

-- the contents of the core's buffers when the region is entered
variable (V : (c : Dev nD) → (b : Ref sig .tc) → Buf (Elt Ideal) ((c : Thread nD τ).loc b))

/-! ## Where a block sits in its array -/

/-- The zero offset of a vector's whole-block access, however the zero is spelt. -/
theorem hzV : (![0] : Fin 1 → Nat) = fun _ => 0 := funext fun a => by
  match a with
  | ⟨0, _⟩ => rfl

/-- The zero offsets of a matrix block's whole-block access. -/
theorem hzM : (![0, 0] : Fin 2 → Nat) = fun _ => 0 := funext fun a => by
  match a with
  | ⟨0, _⟩ => rfl
  | ⟨1, _⟩ => rfl

/-- The block indices over the grid: at point t the blocks of z and of the result are block row t, all their
    columns; the four column vectors are fetched whole at every point. -/
theorem idx1_facts : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 1) = 0 ∧ win5_2.index t (0 : Fin 1) = 0
    ∧ win5_3.index t (0 : Fin 1) = 0 ∧ win5_4.index t (0 : Fin 1) = 0 :=
  (by decide +kernel : ∀ t : Fin grid5.N, _)

/-- Entry (p, q) of the block of z at point t is entry (2000·t + p, q) of z. -/
theorem iblk1_0_apply (c : Dev nD) (t : Fin cfg5.N) (p : Fin 2000) (q : Fin 128) (n : Fin Gin.NN)
    (hn : n.val = t.val * 2000 + p.val) :
    (iblk5 (F := Ideal) V c 0 t : Vec Ideal S2000x128 .f32) (ix2 p q) = (V c main_v50_0 : Gin.Mat Gin.NN 128) (ix2 n q) := by
  obtain ⟨e0, e1, -⟩ := idx1_facts t
  unfold iblk5
  rw [View.read_apply]
  show V c main_v50_0 _ = V c main_v50_0 _
  congr 1
  funext a
  apply Fin.ext
  match a with
  | ⟨0, _⟩ => show win5_0.index t (0 : Fin 2) * 2000 + 1 * p.val = n.val; rw [e0, hn]; omega
  | ⟨1, _⟩ => show win5_0.index t (1 : Fin 2) * 128 + 1 * q.val = q.val; rw [e1]; omega

/-- Entry q of the block of the means at any point is entry q of the means: the vector is fetched whole. -/
theorem iblk1_1_apply (c : Dev nD) (t : Fin cfg5.N) (q : Fin 128) :
    (iblk5 (F := Ideal) V c 1 t : Vec Ideal S128 .f32) (ix1 q) = (V c main_v52 : Gin.Vc 128) (ix1 q) := by
  obtain ⟨-, -, -, -, e1, e2, e3, e4⟩ := idx1_facts t
  unfold iblk5
  rw [View.read_apply]
  show V c main_v52 _ = V c main_v52 _
  congr 1
  funext a
  apply Fin.ext
  match a with
  | ⟨0, _⟩ => show win5_1.index t (0 : Fin 1) * 128 + 1 * q.val = q.val; rw [e1]; omega

/-- Entry q of the block of the variances at any point is entry q of the variances: the vector is fetched whole. -/
theorem iblk1_2_apply (c : Dev nD) (t : Fin cfg5.N) (q : Fin 128) :
    (iblk5 (F := Ideal) V c 2 t : Vec Ideal S128 .f32) (ix1 q) = (V c main_v56 : Gin.Vc 128) (ix1 q) := by
  obtain ⟨-, -, -, -, e1, e2, e3, e4⟩ := idx1_facts t
  unfold iblk5
  rw [View.read_apply]
  show V c main_v56 _ = V c main_v56 _
  congr 1
  funext a
  apply Fin.ext
  match a with
  | ⟨0, _⟩ => show win5_2.index t (0 : Fin 1) * 128 + 1 * q.val = q.val; rw [e2]; omega

/-- Entry q of the block of the scales at any point is entry q of the scales: the vector is fetched whole. -/
theorem iblk1_3_apply (c : Dev nD) (t : Fin cfg5.N) (q : Fin 128) :
    (iblk5 (F := Ideal) V c 3 t : Vec Ideal S128 .f32) (ix1 q) = (V c main_arg19 : Gin.Vc 128) (ix1 q) := by
  obtain ⟨-, -, -, -, e1, e2, e3, e4⟩ := idx1_facts t
  unfold iblk5
  rw [View.read_apply]
  show V c main_arg19 _ = V c main_arg19 _
  congr 1
  funext a
  apply Fin.ext
  match a with
  | ⟨0, _⟩ => show win5_3.index t (0 : Fin 1) * 128 + 1 * q.val = q.val; rw [e3]; omega

/-- Entry q of the block of the shifts at any point is entry q of the shifts: the vector is fetched whole. -/
theorem iblk1_4_apply (c : Dev nD) (t : Fin cfg5.N) (q : Fin 128) :
    (iblk5 (F := Ideal) V c 4 t : Vec Ideal S128 .f32) (ix1 q) = (V c main_arg20 : Gin.Vc 128) (ix1 q) := by
  obtain ⟨-, -, -, -, e1, e2, e3, e4⟩ := idx1_facts t
  unfold iblk5
  rw [View.read_apply]
  show V c main_arg20 _ = V c main_arg20 _
  congr 1
  funext a
  apply Fin.ext
  match a with
  | ⟨0, _⟩ => show win5_4.index t (0 : Fin 1) * 128 + 1 * q.val = q.val; rw [e4]; omega

/-! ## The body's result at an entry of a block -/

/-- A vector of 128 entries cast to one row and laid along every row of a block reads, at (p, q), its entry q. -/
theorem row1_apply (x : Vec Ideal S128 .f32) (h1 : S128.ShapeCasts S1x128) (hb : S1x128.Broadcasts S2000x128)
    (p : Fin 2000) (q : Fin 128) :
    broadcastTo S2000x128 (shapeCast S1x128 x h1) hb (ix2 p q) = x (ix1 q) := by
  rw [broadcastTo_1b_ab_apply, shapeCast_a_1a_apply]

/-- Entry (p, q) of what the body stores: the block's entry less the column's mean, times the reciprocal root of the
    column's guarded variance, times the column's scale, plus its shift, clamped at zero. -/
theorem pay1_apply (xv : Vec Ideal S128 .f32) (xz : Vec Ideal S2000x128 .f32) (xm xg xb : Vec Ideal S128 .f32)
    (p : Fin 2000) (q : Fin 128) :
    k5_pay1 (F := Ideal) xv xz xm xg xb (ix2 p q)
      = max ((((xz (ix2 p q) - xm (ix1 q)) * Ideal.rsqrt (xv (ix1 q) + Gin.cEps)) * xg (ix1 q)) + xb (ix1 q)) 0 := by
  unfold k5_pay1
  rw [maximumf_apply, addf_apply, mulf_apply, mulf_apply, subf_apply, broadcast_apply, row1_apply, row1_apply,
    row1_apply, row1_apply, shapeCast_self, shapeCast_self, shapeCast_self]
  show max ((xz (ix2 p q) - xm (ix1 q)) * Ideal.rsqrt (xv (ix1 q) + Gin.cEps) * xg (ix1 q) + xb (ix1 q))
      (Ideal.ofBits .f32 0x00000000#32) = _
  rw [Ideal.ofBits_zero_f32]

/-! ## From the blocks to the array -/

/-- What point t writes back is block t of the normalized, scaled, shifted and clamped z. -/
theorem flushed1_eq (c : Dev nD) (t : Fin cfg5.N) :
    (dat5 (F := Ideal) V c).flushed 5 t
      = ((cfg5.win 5).blk t).view.read (Elt Ideal)
          (Gin.bnRelu (V c main_v50_0) (V c main_v52) (V c main_v56) (V c main_arg19) (V c main_arg20)) := by
  show (cfg5.win 5).cut (grid5.coords t) ((dat5 V c).after 5 t) = _
  rw [after5_5]
  unfold out5_5
  rw [View.canon_unit_zero hzM]
  simp only [View.ld_unit_zero (S := S2000x128) hzM, View.ld_unit_zero (S := S128) hzV]
  funext j
  obtain ⟨p, q, rfl⟩ : ∃ (p : Fin 2000) (q : Fin 128), j = ix2 p q := ⟨j 0, j 1, eq_ix2 (n0 := 2000) (n1 := 128) j⟩
  obtain ⟨-, -, e0, e1, -⟩ := idx1_facts t
  have ht : t.val < 50 := Nat.lt_of_lt_of_eq t.isLt (show cfg5.N = 50 from N_5)
  have hlt : t.val * 2000 + p.val < Gin.NN := by have := p.isLt; show _ < 100000; omega
  -- the row of z, and of the result, that entry (p, q) of block t is
  have hemb : ((cfg5.win 5).blk t).view.emb (ix2 p q) = ix2 (⟨t.val * 2000 + p.val, hlt⟩ : Fin Gin.NN) q := by
    funext a
    apply Fin.ext
    match a with
    | ⟨0, _⟩ => show win5_5.index t (0 : Fin 2) * 2000 + 1 * p.val = t.val * 2000 + p.val; rw [e0]; omega
    | ⟨1, _⟩ => show win5_5.index t (1 : Fin 2) * 128 + 1 * q.val = q.val; rw [e1]; omega
  refine (pay1_apply (iblk5 V c 2 t) (iblk5 V c 0 t) (iblk5 V c 1 t) (iblk5 V c 3 t) (iblk5 V c 4 t) p q).trans ?_
  rw [iblk1_0_apply V c t p q ⟨t.val * 2000 + p.val, hlt⟩ rfl, iblk1_1_apply V c t q, iblk1_2_apply V c t q,
    iblk1_3_apply V c t q, iblk1_4_apply V c t q, View.read_apply]
  show _ = Gin.bnRelu (V c main_v50_0) (V c main_v52) (V c main_v56) (V c main_arg19) (V c main_arg20)
    (((cfg5.win 5).blk t).view.emb (ix2 p q))
  rw [hemb, Gin.bnRelu_apply]
  rfl

/-- An entry of the result array lies in point t's block when each of its coordinates is in the block's range. -/
theorem mem_blk1 (t : Fin cfg5.N) (i : S100000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole main_v57).slice (win5_5.rect t)).set ↔ _
  rw [View.set_slice_whole, Rect.mem_set_unit]
  exact Iff.rfl

/-- The 50 blocks of 2000 rows tile the 100000 rows: row r is in the block of point r / 2000, which writes back. -/
theorem cover1 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  obtain ⟨t, ht⟩ : ∃ t : Fin cfg5.N, t.val = (i 0).val / 2000 :=
    ⟨⟨(i 0).val / 2000, Nat.lt_of_lt_of_eq (by omega : (i 0).val / 2000 < 50) (show 50 = cfg5.N from N_5.symm)⟩, rfl⟩
  obtain ⟨-, -, e0, e1, -⟩ := idx1_facts t
  refine ⟨t, flush5_5 t, ?_⟩
  rw [mem_blk1]
  intro a
  match a with
  | ⟨0, _⟩ =>
    show win5_5.index t (0 : Fin 2) * 2000 ≤ (i 0).val ∧ (i 0).val < win5_5.index t (0 : Fin 2) * 2000 + 2000
    rw [e0, ht]; omega
  | ⟨1, _⟩ =>
    show win5_5.index t (1 : Fin 2) * 128 ≤ (i 1).val ∧ (i 1).val < win5_5.index t (1 : Fin 2) * 128 + 128
    rw [e1]; omega

/-- The result array after the region. -/
theorem reg5_out (c : Dev nD) :
    (dat5 (F := Ideal) V c).arrAt 5 cfg5.N
      = Gin.bnRelu (V c main_v50_0) (V c main_v52) (V c main_v56) (V c main_arg19) (V c main_arg20) :=
  (dat5 (F := Ideal) V c).arrAt_eq_of_cover 5 _ (fun t _ => flushed1_eq V c t) cover1

end Cert.KernelIdeal.KVal.Reg5

end
-- ==== Proof.KReg6.lean ====
/-
  The pooling region, read as values. At block t the body compares each row's graph number with 0 … 255, turns the
  comparison into 0.0 / 1.0, contracts it with the block's rows over the row axis, and adds the result (and the column
  counts of the comparison) to two accumulators cleared at block 0 and written back after block 49. A product with 0
  is 0 and with 1 the factor itself, at the infinities too, so the accumulators end as the sum of the rows of each
  graph number and the count of those rows; a graph number outside 0 … 255 equals no lane and adds nothing.
-/
import proofs.«423186_j27333171871744_1_alg».proof.Proof.Gen.KernelIdeal.Frame
import proofs.«423186_j27333171871744_1_alg».proof.Proof.Spec
import proofs.«423186_j27333171871744_1_alg».proof.Proof.Math
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KVal.Reg6

open Cert.KernelIdeal Cert.KernelIdeal.Gen

/-! ## What each case of the body leaves in the two buffers -/

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- At a later block the sums buffer is left at the body's sum payload over the two input blocks and what it held. -/
theorem out_B_2 (c : Dev nD) (i : grid6.Coords) (a1 : Memref sig .tc .vmem S2000x128 .f32) (h1 : a1.IsWhole)
    (a2 : Memref sig .tc .vmem S2000x1 .i32) (h2 : a2.IsWhole) (a3 : Memref sig .tc .vmem S256x128 .f32) (h3 : a3.IsWhole)
    (a4 : Memref sig .tc .vmem S256 .f32) (h4 : a4.IsWhole) (hc : ¬cond6_0 i)
    (x0 : Vec F S2000x128 .f32) (x1 : Vec F S2000x1 .i32) (xo2 : Vec F S256x128 .f32) (xo3 : Vec F S256 .f32) :
    out6_B_2 c i a1 h1 a2 h2 a3 h3 a4 h4 hc x0 x1 xo2 xo3 = k6_pay4 x1 x0 xo2 := by
  unfold out6_B_2
  rw [View.read_writes_eq_canon _ _ _ (cover6_B_2 c i a1 h1 a2 h2 a3 h3 a4 h4 hc x0 x1 xo2 xo3)]
  unfold kernelRun6_B
  dsimp only
  sl_unfold_words
  rw [View.canon_unit_zero hz2]
  simp only [View.readAt_eq_ld, h1.read_unread, h2.read_unread, h3.read_unread, View.ld_unit_zero (S := S2000x128) hz2,
    View.ld_unit_zero (S := S2000x1) hz2, View.ld_unit_zero (S := S256x128) hz2]

/-- At a later block the counts buffer is left at the body's count payload over the graph numbers and what it held. -/
theorem out_B_3 (c : Dev nD) (i : grid6.Coords) (a1 : Memref sig .tc .vmem S2000x128 .f32) (h1 : a1.IsWhole)
    (a2 : Memref sig .tc .vmem S2000x1 .i32) (h2 : a2.IsWhole) (a3 : Memref sig .tc .vmem S256x128 .f32) (h3 : a3.IsWhole)
    (a4 : Memref sig .tc .vmem S256 .f32) (h4 : a4.IsWhole) (hc : ¬cond6_0 i)
    (x0 : Vec F S2000x128 .f32) (x1 : Vec F S2000x1 .i32) (xo2 : Vec F S256x128 .f32) (xo3 : Vec F S256 .f32) :
    out6_B_3 c i a1 h1 a2 h2 a3 h3 a4 h4 hc x0 x1 xo2 xo3 = k6_pay5 x1 xo3 := by
  unfold out6_B_3
  rw [View.read_writes_eq_canon _ _ _ (cover6_B_3 c i a1 h1 a2 h2 a3 h3 a4 h4 hc x0 x1 xo2 xo3)]
  unfold kernelRun6_B
  dsimp only
  sl_unfold_words
  rw [View.canon_unit_zero hz1]
  simp only [View.readAt_eq_ld, h2.read_unread, h4.read_unread,
    View.ld_unit_zero (S := S2000x1) hz2, View.ld_unit_zero (S := S256) hz1]

/-- At the first block the sums buffer is cleared first, so it is left at the sum payload over the zero block. -/
theorem out_A_2 (c : Dev nD) (i : grid6.Coords) (a1 : Memref sig .tc .vmem S2000x128 .f32) (h1 : a1.IsWhole)
    (a2 : Memref sig .tc .vmem S2000x1 .i32) (h2 : a2.IsWhole) (a3 : Memref sig .tc .vmem S256x128 .f32) (h3 : a3.IsWhole)
    (a4 : Memref sig .tc .vmem S256 .f32) (h4 : a4.IsWhole) (hc : cond6_0 i)
    (x0 : Vec F S2000x128 .f32) (x1 : Vec F S2000x1 .i32) :
    out6_A_2 c i a1 h1 a2 h2 a3 h3 a4 h4 hc x0 x1 = k6_pay4 x1 x0 (k6_pay1 (F := F)) := by
  unfold out6_A_2
  rw [View.read_writes_eq_canon _ _ _ (cover6_A_2 c i a1 h1 a2 h2 a3 h3 a4 h4 hc x0 x1)]
  unfold kernelRun6_A
  dsimp only
  sl_unfold_words
  rw [View.canon_cons_unit_zero (S := S256x128) hz2]
  simp only [View.readAt_eq_ld, h1.read_unread, h2.read_unread, View.ld_unit_zero (S := S2000x128) hz2,
    View.ld_unit_zero (S := S2000x1) hz2, View.readCov_unit_zero (S := S256x128) _ hz2]

/-- At the first block the counts buffer is cleared first, so it is left at the count payload over the zero vector. -/
theorem out_A_3 (c : Dev nD) (i : grid6.Coords) (a1 : Memref sig .tc .vmem S2000x128 .f32) (h1 : a1.IsWhole)
    (a2 : Memref sig .tc .vmem S2000x1 .i32) (h2 : a2.IsWhole) (a3 : Memref sig .tc .vmem S256x128 .f32) (h3 : a3.IsWhole)
    (a4 : Memref sig .tc .vmem S256 .f32) (h4 : a4.IsWhole) (hc : cond6_0 i)
    (x0 : Vec F S2000x128 .f32) (x1 : Vec F S2000x1 .i32) :
    out6_A_3 c i a1 h1 a2 h2 a3 h3 a4 h4 hc x0 x1 = k6_pay5 x1 (k6_pay2 (F := F)) := by
  unfold out6_A_3
  rw [View.read_writes_eq_canon _ _ _ (cover6_A_3 c i a1 h1 a2 h2 a3 h3 a4 h4 hc x0 x1)]
  unfold kernelRun6_A
  dsimp only
  sl_unfold_words
  rw [View.canon_cons_unit_zero (S := S256) hz1]
  simp only [View.readAt_eq_ld, h2.read_unread,
    View.ld_unit_zero (S := S2000x1) hz2, View.readCov_unit_zero (S := S256) _ hz1]

end Pieces

/-! ## The two payloads, entry by entry -/

/-- A 32-bit word, read signed, is g (below 256) exactly when it is lane g's number. -/
theorem toInt_eq_iff (b : BitVec 32) (g : Fin 256) : b.toInt = (g.val : Int) ↔ b = BitVec.ofNat 32 g.val := by
  have hg : (BitVec.ofNat 32 g.val).toInt = (g.val : Int) := by
    have := g.isLt
    rw [BitVec.toInt_ofNat', Int.bmod_def]
    split <;> omega
  constructor
  · intro h; exact BitVec.eq_of_toInt_eq (h.trans hg.symm)
  · intro h; rw [h, hg]

/-- The comparison of two words, widened and converted, is 1 when they are equal and 0 otherwise. -/
theorem onehot_val (b w : BitVec 32) :
    FloatOps.sitofp (F := Ideal) .f32 ((IntOp.cmpi .eq b w).setWidth 32) = if b = w then (1 : EReal) else 0 := by
  show ((((IntOp.cmpi .eq b w).setWidth 32).toInt : ℝ) : EReal) = _
  by_cases h : b = w
  · rw [if_pos h]
    have e : IntOp.cmpi .eq b w = 1#1 := by subst h; simp [IntOp.cmpi]
    rw [e, show ((1#1 : BitVec 1).setWidth 32).toInt = 1 from by decide]
    norm_num
  · rw [if_neg h]
    have hb : (b == w) = false := beq_eq_false_iff_ne.mpr h
    have e : IntOp.cmpi .eq b w = 0#1 := by simp [IntOp.cmpi, hb]
    rw [e, show ((0#1 : BitVec 1).setWidth 32).toInt = 0 from by decide]
    norm_num

/-- Entry (r, g) of the comparison: row r's graph number against lane g's number. -/
theorem pay3_apply {F : FTy → Type} [FloatOps F] (v4 : Vec F S2000x1 .i32) (r : Fin 2000) (g : Fin 256) :
    k6_pay3 v4 (ix2 r g) = IntOp.cmpi .eq (v4 (ix2 r (0 : Fin 1))) (BitVec.ofNat 32 g.val) := by
  unfold k6_pay3
  dsimp only
  refine congrArg₂ (IntOp.cmpi .eq) ?_ ?_
  · refine (broadcastTo_apply _ _ (ix2 r g) (ix2 r (0 : Fin 1)) ?_).trans ?_
    · intro a
      match a with
      | ⟨0, _⟩ => rfl
      | ⟨1, _⟩ => rfl
    · rw [shapeCast_self]
  · exact iota_single_apply .tc S2000x256 32 1 iota_S2000x256_d1_w32 (ix2 r g)

/-- A product contracted over the rows of both factors, into the zero block: entry (g, q) is the sum over the rows. -/
theorem matmul_rows_apply (A : FVec Ideal S2000x256 .bf16) (B : FVec Ideal S2000x128 .bf16) (g : Fin 256) (q : Fin 128) :
    FloatOps.matmul dot_S2000x256_S2000x128_S256x128_0_0_1_1_n_n none A B (constant (F := Ideal) S256x128 .f32 0x00000000#32) (ix2 g q)
      = ∑ r : Fin 2000, A (ix2 r g) * B (ix2 r q) := by
  rw [Ideal.matmul_constant_zero_apply,
    ← Equiv.sum_comp (contrEquiv1 dot_S2000x256_S2000x128_S256x128_0_0_1_1_n_n 2000 rfl rfl).symm]
  refine Finset.sum_congr rfl fun r _ => ?_
  have c2 := contrEquiv1_symm_val dot_S2000x256_S2000x128_S256x128_0_0_1_1_n_n 2000 rfl rfl r
  have l2 : dot_S2000x256_S2000x128_S256x128_0_0_1_1_n_n.lhsIdx (ix2 g q) ((contrEquiv1 _ 2000 rfl rfl).symm r) = ix2 r g := by
    funext ax; apply Fin.ext
    match ax with
    | ⟨0, _⟩ => simp [DotDims.lhsIdx, dot_S2000x256_S2000x128_S256x128_0_0_1_1_n_n]; exact c2
    | ⟨1, _⟩ => simp [DotDims.lhsIdx, dot_S2000x256_S2000x128_S256x128_0_0_1_1_n_n]; rfl
  have r2 : dot_S2000x256_S2000x128_S256x128_0_0_1_1_n_n.rhsIdx (ix2 g q) ((contrEquiv1 _ 2000 rfl rfl).symm r) = ix2 r q := by
    funext ax; apply Fin.ext
    match ax with
    | ⟨0, _⟩ => simp [DotDims.rhsIdx, dot_S2000x256_S2000x128_S256x128_0_0_1_1_n_n]; exact c2
    | ⟨1, _⟩ => simp [DotDims.rhsIdx, dot_S2000x256_S2000x128_S256x128_0_0_1_1_n_n]; rfl
  rw [l2, r2]

/-- A sum over the row axis: entry g is the sum of column g. -/
theorem colsum_apply (src : FVec Ideal S2000x256 .f32) (g : Fin 256) :
    multiReduction (F := Ideal) .add [0] S256 src 0x00000000#32 reduces_S2000x256_S256 (.inl rfl) rfl (ix1 g)
      = ∑ r : Fin 2000, src (ix2 r g) := by
  refine (Ideal.multiReduction_add_single src 0x00000000#32 reduces_S2000x256_S256 (.inl rfl) rfl (ix1 g)).trans ?_
  refine Finset.sum_congr rfl fun r _ => congrArg src ?_
  funext ax; apply Fin.ext
  match ax with
  | ⟨0, _⟩ => rfl
  | ⟨1, _⟩ => rfl

/-- Entry (g, q) of the sums payload: what the buffer held plus the rows of the block whose graph number is g. -/
theorem pay4_apply (v4 : Vec Ideal S2000x1 .i32) (v11 : Vec Ideal S2000x128 .f32) (v15 : Vec Ideal S256x128 .f32)
    (g : Fin 256) (q : Fin 128) :
    k6_pay4 (F := Ideal) v4 v11 v15 (ix2 g q)
      = v15 (ix2 g q) + ∑ r : Fin 2000, if (v4 (ix2 r (0 : Fin 1))).toInt = (g.val : Int) then v11 (ix2 r q) else 0 := by
  unfold k6_pay4
  try dsimp only
  refine congrArg₂ (· + ·) ?_ ?_
  · rw [shapeCast_self]
  · refine (matmul_rows_apply _ _ g q).trans ?_
    refine Finset.sum_congr rfl fun r _ => ?_
    show FloatOps.sitofp (F := Ideal) .f32 ((k6_pay3 v4 (ix2 r g)).setWidth 32) * shapeCast S2000x128 v11 shapeCasts_S2000x128_S2000x128 (ix2 r q) = _
    rw [pay3_apply, onehot_val, shapeCast_self]
    by_cases h : v4 (ix2 r (0 : Fin 1)) = BitVec.ofNat 32 g.val
    · rw [if_pos h, if_pos ((toInt_eq_iff _ g).mpr h), one_mul]
    · rw [if_neg h, if_neg (fun h' => h ((toInt_eq_iff _ g).mp h')), zero_mul]

/-- Entry g of the counts payload: what the buffer held plus the number of rows of the block whose graph number is g. -/
theorem pay5_apply (v4 : Vec Ideal S2000x1 .i32) (v19 : Vec Ideal S256 .f32) (g : Fin 256) :
    k6_pay5 (F := Ideal) v4 v19 (ix1 g)
      = v19 (ix1 g) + ∑ r : Fin 2000, if (v4 (ix2 r (0 : Fin 1))).toInt = (g.val : Int) then (1 : EReal) else 0 := by
  unfold k6_pay5
  try dsimp only
  refine congrArg₂ (· + ·) ?_ ?_
  · rw [shapeCast_self]
  · refine (colsum_apply _ g).trans ?_
    refine Finset.sum_congr rfl fun r _ => ?_
    show FloatOps.sitofp (F := Ideal) .f32 ((k6_pay3 v4 (ix2 r g)).setWidth 32) = _
    rw [pay3_apply, onehot_val]
    by_cases h : v4 (ix2 r (0 : Fin 1)) = BitVec.ofNat 32 g.val
    · rw [if_pos h, if_pos ((toInt_eq_iff _ g).mpr h)]
    · rw [if_neg h, if_neg (fun h' => h ((toInt_eq_iff _ g).mp h'))]

/-- The cleared sums buffer is zero everywhere. -/
theorem pay1_apply (j : S256x128.Idx) : k6_pay1 (F := Ideal) j = 0 := by
  unfold k6_pay1
  exact Ideal.ofBits_zero_f32

/-- The cleared counts buffer is zero everywhere. -/
theorem pay2_apply (j : S256.Idx) : k6_pay2 (F := Ideal) j = 0 := by
  unfold k6_pay2
  exact Ideal.ofBits_zero_f32

-- the contents of the core's buffers when the region is entered
variable (V : (c : Dev nD) → (b : Ref sig .tc) → Buf (Elt Ideal) ((c : Thread nD τ).loc b))

/-- The rows' graph numbers, read off the [N, 1] column the region is given. -/
abbrev graphNo (c : Dev nD) : Gin.Wd Gin.NN := fun i => V c main_v58 (ix2 (i 0) (0 : Fin 1))

/-! ## The input blocks, the running sums, and the write-back -/

/-- The block of feature rows the body is given at point t, -/
abbrev hblk (c : Dev nD) (t : Fin cfg6.N) : Vec Ideal S2000x128 .f32 := iblk6 V c 0 t
/-- and the block of graph numbers. -/
abbrev gblk (c : Dev nD) (t : Fin cfg6.N) : Vec Ideal S2000x1 .i32 := iblk6 V c 1 t

/-- Where the two input blocks of point t sit: rows from 2000·t on, all columns. -/
theorem idx_in : ∀ t : Fin cfg6.N, (win6_0.index t 0 = t.val ∧ win6_0.index t 1 = 0) ∧ (win6_1.index t 0 = t.val ∧ win6_1.index t 1 = 0) :=
  (by decide +kernel : ∀ t : Fin grid6.N, (win6_0.index t 0 = t.val ∧ win6_0.index t 1 = 0) ∧ (win6_1.index t 0 = t.val ∧ win6_1.index t 1 = 0))

/-- Row r of the block at point t is row 2000·t + r of the array. -/
theorem row_lt (t : Fin cfg6.N) (r : Fin 2000) : 2000 * t.val + r.val < Gin.NN := by
  have hN : t.val < 50 := lt_of_lt_of_eq t.isLt (show cfg6.N = 50 from N_6)
  have := r.isLt
  show _ < 100000
  omega

theorem hblk_apply (c : Dev nD) (t : Fin cfg6.N) (r : Fin 2000) (q : Fin 128) :
    hblk V c t (ix2 r q) = V c main_v57 (ix2 (⟨2000 * t.val + r.val, row_lt t r⟩ : Fin Gin.NN) q) := by
  have hi := (idx_in t).1
  show iblk6 V c 0 t (ix2 r q) = _
  unfold iblk6
  rw [View.read_apply]
  show V c main_v57 _ = V c main_v57 _
  congr 1
  funext a
  apply Fin.ext
  match a with
  | ⟨0, _⟩ => show win6_0.index t 0 * 2000 + 1 * r.val = 2000 * t.val + r.val; rw [hi.1]; omega
  | ⟨1, _⟩ => show win6_0.index t 1 * 128 + 1 * q.val = q.val; rw [hi.2]; omega

theorem gblk_apply (c : Dev nD) (t : Fin cfg6.N) (r : Fin 2000) :
    gblk V c t (ix2 r (0 : Fin 1)) = V c main_v58 (ix2 (⟨2000 * t.val + r.val, row_lt t r⟩ : Fin Gin.NN) (0 : Fin 1)) := by
  have hi := (idx_in t).2
  show iblk6 V c 1 t (ix2 r (0 : Fin 1)) = _
  unfold iblk6
  rw [View.read_apply]
  show V c main_v58 _ = V c main_v58 _
  congr 1
  funext a
  apply Fin.ext
  match a with
  | ⟨0, _⟩ => show win6_1.index t 0 * 2000 + 1 * r.val = 2000 * t.val + r.val; rw [hi.1]; omega
  | ⟨1, _⟩ => show win6_1.index t 1 * 1 + 1 * (0 : Fin 1).val = (0 : Fin 1).val; rw [hi.2]; rfl

/-- Row r's share of graph g's sum in column q, -/
def sumRow (c : Dev nD) (g : Fin 256) (q : Fin 128) : Fin Gin.NN → EReal :=
  fun r => if (graphNo V c (ix1 r)).toInt = (g.val : Int) then V c main_v57 (ix2 r q) else 0
/-- and of graph g's count. -/
def cntRow (c : Dev nD) (g : Fin 256) : Fin Gin.NN → EReal :=
  fun r => if (graphNo V c (ix1 r)).toInt = (g.val : Int) then (1 : EReal) else 0

/-- The block's rows of graph g, summed, are the shares of rows 2000·t … 2000·t + 1999. -/
theorem blk_sum (c : Dev nD) (t : Fin cfg6.N) (g : Fin 256) (q : Fin 128) :
    (∑ r : Fin 2000, if (gblk V c t (ix2 r (0 : Fin 1))).toInt = (g.val : Int) then hblk V c t (ix2 r q) else 0)
      = ∑ r : Fin 2000, sumRow V c g q ⟨2000 * t.val + r.val, row_lt t r⟩ := by
  refine Finset.sum_congr rfl fun r _ => ?_
  rw [gblk_apply V c t r, hblk_apply V c t r q]
  rfl

theorem blk_cnt (c : Dev nD) (t : Fin cfg6.N) (g : Fin 256) :
    (∑ r : Fin 2000, if (gblk V c t (ix2 r (0 : Fin 1))).toInt = (g.val : Int) then (1 : EReal) else 0)
      = ∑ r : Fin 2000, cntRow V c g ⟨2000 * t.val + r.val, row_lt t r⟩ := by
  refine Finset.sum_congr rfl fun r _ => ?_
  rw [gblk_apply V c t r]
  rfl

/-- One block more: a buffer holding the shares of the rows below 2000·t is left holding those below 2000·(t + 1). -/
theorem step_sum (c : Dev nD) (t : Fin cfg6.N) (g : Fin 256) (q : Fin 128) (acc : Vec Ideal S256x128 .f32)
    (hacc : acc (ix2 g q) = Gin.prefixSum (sumRow V c g q) (2000 * t.val)) :
    k6_pay4 (F := Ideal) (gblk V c t) (hblk V c t) acc (ix2 g q) = Gin.prefixSum (sumRow V c g q) (2000 * (t.val + 1)) := by
  have hN : t.val < 50 := lt_of_lt_of_eq t.isLt (show cfg6.N = 50 from N_6)
  refine (pay4_apply (gblk V c t) (hblk V c t) acc g q).trans ?_
  rw [hacc, blk_sum V c t g q, Gin.prefixSum_block _ t.val hN]

theorem step_cnt (c : Dev nD) (t : Fin cfg6.N) (g : Fin 256) (acc : Vec Ideal S256 .f32)
    (hacc : acc (ix1 g) = Gin.prefixSum (cntRow V c g) (2000 * t.val)) :
    k6_pay5 (F := Ideal) (gblk V c t) acc (ix1 g) = Gin.prefixSum (cntRow V c g) (2000 * (t.val + 1)) := by
  have hN : t.val < 50 := lt_of_lt_of_eq t.isLt (show cfg6.N = 50 from N_6)
  refine (pay5_apply (gblk V c t) acc g).trans ?_
  rw [hacc, blk_cnt V c t g, Gin.prefixSum_block _ t.val hN]

/-- After point n the two buffers hold the shares of the rows below 2000·(n + 1): by induction on the point, the
    first clearing the buffers, every other adding to what the point before left. -/
theorem inv (c : Dev nD) : ∀ (n : ℕ) (hn : n < cfg6.N),
    (∀ (g : Fin 256) (q : Fin 128), (outsAt6 V c n hn).1 (ix2 g q) = Gin.prefixSum (sumRow V c g q) (2000 * (n + 1)))
    ∧ (∀ g : Fin 256, (outsAt6 V c n hn).2 (ix1 g) = Gin.prefixSum (cntRow V c g) (2000 * (n + 1)))
  | 0, hn => by
    rw [outsAt6_A V c ⟨0, hn⟩ rfl]
    dsimp only
    constructor
    · intro g q
      refine (congrFun (out_A_2 (F := Ideal) c (grid6.coords ⟨0, hn⟩) (ms6_0 ⟨0, hn⟩) (hs6_0 ⟨0, hn⟩) (ms6_1 ⟨0, hn⟩) (hs6_1 ⟨0, hn⟩)
        (ms6_2 ⟨0, hn⟩) (hs6_2 ⟨0, hn⟩) (ms6_3 ⟨0, hn⟩) (hs6_3 ⟨0, hn⟩) ((hcond6_0 ⟨0, hn⟩).mpr rfl)
        (iblk6 V c 0 ⟨0, hn⟩) (iblk6 V c 1 ⟨0, hn⟩)) (ix2 g q)).trans ?_
      exact step_sum V c ⟨0, hn⟩ g q (k6_pay1 (F := Ideal)) ((pay1_apply (ix2 g q)).trans (Gin.prefixSum_zero _).symm)
    · intro g
      refine (congrFun (out_A_3 (F := Ideal) c (grid6.coords ⟨0, hn⟩) (ms6_0 ⟨0, hn⟩) (hs6_0 ⟨0, hn⟩) (ms6_1 ⟨0, hn⟩) (hs6_1 ⟨0, hn⟩)
        (ms6_2 ⟨0, hn⟩) (hs6_2 ⟨0, hn⟩) (ms6_3 ⟨0, hn⟩) (hs6_3 ⟨0, hn⟩) ((hcond6_0 ⟨0, hn⟩).mpr rfl)
        (iblk6 V c 0 ⟨0, hn⟩) (iblk6 V c 1 ⟨0, hn⟩)) (ix1 g)).trans ?_
      exact step_cnt V c ⟨0, hn⟩ g (k6_pay2 (F := Ideal)) ((pay2_apply (ix1 g)).trans (Gin.prefixSum_zero _).symm)
  | n + 1, hn => by
    have hN : cfg6.N = 50 := N_6
    have hB : ¬(⟨n + 1, hn⟩ : Fin cfg6.N).val % 50 = 0 := by dsimp only; omega
    have ih := inv c n (Nat.lt_of_succ_lt hn)
    rw [outsAt6_B V c ⟨n + 1, hn⟩ hB]
    dsimp only
    constructor
    · intro g q
      refine (congrFun (out_B_2 (F := Ideal) c (grid6.coords ⟨n + 1, hn⟩) (ms6_0 ⟨n + 1, hn⟩) (hs6_0 ⟨n + 1, hn⟩) (ms6_1 ⟨n + 1, hn⟩) (hs6_1 ⟨n + 1, hn⟩)
        (ms6_2 ⟨n + 1, hn⟩) (hs6_2 ⟨n + 1, hn⟩) (ms6_3 ⟨n + 1, hn⟩) (hs6_3 ⟨n + 1, hn⟩) (fun h => hB ((hcond6_0 ⟨n + 1, hn⟩).mp h))
        (iblk6 V c 0 ⟨n + 1, hn⟩) (iblk6 V c 1 ⟨n + 1, hn⟩) (outsAt6 V c n (Nat.lt_of_succ_lt hn)).1 (outsAt6 V c n (Nat.lt_of_succ_lt hn)).2) (ix2 g q)).trans ?_
      exact step_sum V c ⟨n + 1, hn⟩ g q (outsAt6 V c n (Nat.lt_of_succ_lt hn)).1 (ih.1 g q)
    · intro g
      refine (congrFun (out_B_3 (F := Ideal) c (grid6.coords ⟨n + 1, hn⟩) (ms6_0 ⟨n + 1, hn⟩) (hs6_0 ⟨n + 1, hn⟩) (ms6_1 ⟨n + 1, hn⟩) (hs6_1 ⟨n + 1, hn⟩)
        (ms6_2 ⟨n + 1, hn⟩) (hs6_2 ⟨n + 1, hn⟩) (ms6_3 ⟨n + 1, hn⟩) (hs6_3 ⟨n + 1, hn⟩) (fun h => hB ((hcond6_0 ⟨n + 1, hn⟩).mp h))
        (iblk6 V c 0 ⟨n + 1, hn⟩) (iblk6 V c 1 ⟨n + 1, hn⟩) (outsAt6 V c n (Nat.lt_of_succ_lt hn)).1 (outsAt6 V c n (Nat.lt_of_succ_lt hn)).2) (ix1 g)).trans ?_
      exact step_cnt V c ⟨n + 1, hn⟩ g (outsAt6 V c n (Nat.lt_of_succ_lt hn)).2 (ih.2 g)

/-- The last point, the one after which the two buffers are written back. -/
theorem lt49 : 49 < cfg6.N := by rw [show cfg6.N = 50 from N_6]; decide
abbrev tLast : Fin cfg6.N := ⟨49, lt49⟩

/-- After the last point the sums buffer holds every graph's sum over all the rows, -/
theorem last_sum (c : Dev nD) : (outsAt6 V c 49 lt49).1 = Gin.poolSum (V c main_v57) (graphNo V c) := by
  funext j
  obtain ⟨g, q, rfl⟩ : ∃ (g : Fin 256) (q : Fin 128), j = ix2 g q := ⟨j 0, j 1, eq_ix2 j⟩
  rw [(inv V c 49 lt49).1 g q]
  show Gin.prefixSum (sumRow V c g q) (2000 * 50) = _
  rw [Gin.prefixSum_full]
  rfl

/-- and the counts buffer every graph's number of rows. -/
theorem last_cnt (c : Dev nD) : (outsAt6 V c 49 lt49).2 = Gin.poolCnt (graphNo V c) := by
  funext j
  obtain ⟨g, rfl⟩ : ∃ g : Fin 256, j = ix1 g := ⟨j 0, eq_ix1 j⟩
  rw [(inv V c 49 lt49).2 g]
  show Gin.prefixSum (cntRow V c g) (2000 * 50) = _
  rw [Gin.prefixSum_full]
  rfl

/-- Each accumulator's one block sits at the origin of its array: it is the array. -/
theorem origin2 : (fun a => win6_2.index tLast a * main_v59_0.ty.shape.size a) = fun _ => 0 :=
  funext fun a => by fin_cases a <;> decide +kernel
theorem origin3 : (fun a => win6_3.index tLast a * main_v59_1.ty.shape.size a) = fun _ => 0 :=
  funext fun a => by fin_cases a <;> decide +kernel

/-- The one write-back of the sums, after the last point, writes the sums of all the rows. -/
theorem flushed_sum (c : Dev nD) (t : Fin cfg6.N) (hf : (cfg6.win 2).flush t = true) :
    (dat6 V c).flushed 2 t = ((cfg6.win 2).blk t).view.read (Elt Ideal) (Gin.poolSum (V c main_v57) (graphNo V c)) := by
  have hN : cfg6.N = 50 := N_6
  have h49 : t.val = 49 := by have := (flush6_2 t).mp hf; have := t.isLt; omega
  obtain rfl : t = tLast := Fin.ext h49
  show (cfg6.win 2).cut (grid6.coords tLast) ((dat6 V c).after 2 tLast) = _
  rw [after6_2, last_sum]
  exact (Memref.read_access_unit_zero (Elt Ideal) main_v59_0 origin2 (fun a => by rw [congrFun origin2 a]; simp)
    (Gin.poolSum (V c main_v57) (graphNo V c))).symm

/-- The one write-back of the counts, after the last point, writes the counts over all the rows. -/
theorem flushed_cnt (c : Dev nD) (t : Fin cfg6.N) (hf : (cfg6.win 3).flush t = true) :
    (dat6 V c).flushed 3 t = ((cfg6.win 3).blk t).view.read (Elt Ideal) (Gin.poolCnt (graphNo V c)) := by
  have hN : cfg6.N = 50 := N_6
  have h49 : t.val = 49 := by have := (flush6_3 t).mp hf; have := t.isLt; omega
  obtain rfl : t = tLast := Fin.ext h49
  show (cfg6.win 3).cut (grid6.coords tLast) ((dat6 V c).after 3 tLast) = _
  rw [after6_3, last_cnt]
  exact (Memref.read_access_unit_zero (Elt Ideal) main_v59_1 origin3 (fun a => by rw [congrFun origin3 a]; simp)
    (Gin.poolCnt (graphNo V c))).symm

/-- The sums accumulator after the region. -/
theorem reg6_sum (c : Dev nD) :
    (dat6 (F := Ideal) V c).arrAt 2 cfg6.N = Gin.poolSum (V c main_v57) (graphNo V c) := by
  exact (dat6 V c).arrAt_eq_of_cover 2 (Gin.poolSum (V c main_v57) (graphNo V c)) (flushed_sum V c) fun i =>
    ⟨tLast, (flush6_2 tLast).mpr rfl, by
      show i ∈ ((View.whole main_v59_0).slice (win6_2.rect tLast)).set
      rw [View.set_slice_whole, Rect.mem_set_unit]
      intro a
      have h0 : (i 0 : Nat) < 256 := (i 0).isLt
      have h1 : (i 1 : Nat) < 128 := (i 1).isLt
      match a with
      | ⟨0, _⟩ =>
        show win6_2.index tLast 0 * win6_2.size 0 ≤ (i 0 : Nat)
          ∧ (i 0 : Nat) < win6_2.index tLast 0 * win6_2.size 0 + win6_2.xsize (grid6.coords tLast) 0
        rw [show win6_2.index tLast 0 * win6_2.size 0 = 0 from by decide +kernel,
          show win6_2.xsize (grid6.coords tLast) 0 = 256 from by decide +kernel]
        omega
      | ⟨1, _⟩ =>
        show win6_2.index tLast 1 * win6_2.size 1 ≤ (i 1 : Nat)
          ∧ (i 1 : Nat) < win6_2.index tLast 1 * win6_2.size 1 + win6_2.xsize (grid6.coords tLast) 1
        rw [show win6_2.index tLast 1 * win6_2.size 1 = 0 from by decide +kernel,
          show win6_2.xsize (grid6.coords tLast) 1 = 128 from by decide +kernel]
        omega⟩

/-- The counts accumulator after the region. -/
theorem reg6_cnt (c : Dev nD) :
    (dat6 (F := Ideal) V c).arrAt 3 cfg6.N = Gin.poolCnt (graphNo V c) := by
  exact (dat6 V c).arrAt_eq_of_cover 3 (Gin.poolCnt (graphNo V c)) (flushed_cnt V c) fun i =>
    ⟨tLast, (flush6_3 tLast).mpr rfl, by
      show i ∈ ((View.whole main_v59_1).slice (win6_3.rect tLast)).set
      rw [View.set_slice_whole, Rect.mem_set_unit]
      intro a
      have h0 : (i 0 : Nat) < 256 := (i 0).isLt
      match a with
      | ⟨0, _⟩ =>
        show win6_3.index tLast 0 * win6_3.size 0 ≤ (i 0 : Nat)
          ∧ (i 0 : Nat) < win6_3.index tLast 0 * win6_3.size 0 + win6_3.xsize (grid6.coords tLast) 0
        rw [show win6_3.index tLast 0 * win6_3.size 0 = 0 from by decide +kernel,
          show win6_3.xsize (grid6.coords tLast) 0 = 256 from by decide +kernel]
        omega⟩

end Cert.KernelIdeal.KVal.Reg6

end
-- ==== Proof.KAgg.lean ====
/-
  The neighbourhood sums of a feature matrix, as the program's own host operations compute them: the senders and the
  receivers of the edges are the two rows of the edge list; a negative sender is counted from the end; every edge
  takes its sender's row of the matrix (the row number clamped into range), and the rows taken are added up by
  receiver into a zero matrix, an edge whose receiver is no row adding nothing.
-/
import proofs.«423186_j27333171871744_1_alg».proof.KernelIdeal
import Idealize.ShloMosaic.PureOps.Ideal

noncomputable section

open Idealize.ShloMosaic

namespace Cert.KernelIdeal.KVal

open Cert.KernelIdeal

variable [Facts]
open Facts₀ Facts

/-- The senders: row 0 of the edge list, as a vector. -/
def aggKSrc (e : IVec S2x1600000 32) : IVec S1600000 32 :=
  shapeCast S1600000 (extractStridedSlice S1x1600000 ![0, 0] e slices_S2x1600000_S1x1600000_0_0) shapeCasts_S1x1600000_S1600000
/-- The receivers: row 1 of the edge list, as a vector. -/
def aggKDst (e : IVec S2x1600000 32) : IVec S1600000 32 :=
  shapeCast S1600000 (extractStridedSlice S1x1600000 ![1, 0] e slices_S2x1600000_S1x1600000_1_0) shapeCasts_S1x1600000_S1600000
/-- A negative row number is counted from the end: s + 100000 where s < 0, else s. -/
def aggKWrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The neighbourhood sums of a matrix of 64 columns. -/
def aggK64 (e : IVec S2x1600000 32) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (aggKDst e))
    (Host.gather gather_S100000x64_S1600000x1_S1600000x64_1_0_n_n_0_1_164 h
      (broadcastInDim S1600000x1 ![0] bcast_S1600000_S1600000x1_0 (aggKWrap (aggKSrc e))))

/-- The neighbourhood sums of a matrix of 128 columns. -/
def aggK128 (e : IVec S2x1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (aggKDst e))
    (Host.gather gather_S100000x128_S1600000x1_S1600000x128_1_0_n_n_0_1_1128 h
      (broadcastInDim S1600000x1 ![0] bcast_S1600000_S1600000x1_0 (aggKWrap (aggKSrc e))))

end Cert.KernelIdeal.KVal

end
-- ==== Proof.KFoldMean.lean ====
/-
  The host lines between a perceptron region and its normalization region, entry by entry: a column's mean is its sum
  over the word for 100000, its variance the mean of the squares less the square of the mean; and the graph numbers
  reshaped into a column, read back at column 0, are the graph numbers.
-/
import proofs.«423186_j27333171871744_1_alg».proof.Proof.Gen.KernelIdeal.Frame
import proofs.«423186_j27333171871744_1_alg».proof.Proof.Spec
import proofs.«423186_j27333171871744_1_alg».proof.Proof.Math
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.KVal

open Cert.KernelIdeal Cert.KernelIdeal.Gen

/-- The host's column mean: the sums divided by the broadcast word for 100000. -/
theorem hostMean_eq (s : Gin.Vc 128) :
    Host.divf (F := Ideal) (s : FVec Ideal S128 .f32)
        (broadcastInDim S128 ![] bcast_S_S128 (constant (F := Ideal) S_ .f32 0x47C35000#32))
      = Gin.meanOf s := by
  funext i
  rfl

/-- The host's column variance from the two sums. -/
theorem hostVar_eq (s q : Gin.Vc 128) :
    subf (F := Ideal)
        (Host.divf (F := Ideal) (q : FVec Ideal S128 .f32)
          (broadcastInDim S128 ![] bcast_S_S128 (constant (F := Ideal) S_ .f32 0x47C35000#32)))
        (mulf (F := Ideal)
          (Host.divf (F := Ideal) (s : FVec Ideal S128 .f32)
            (broadcastInDim S128 ![] bcast_S_S128 (constant (F := Ideal) S_ .f32 0x47C35000#32)))
          (Host.divf (F := Ideal) (s : FVec Ideal S128 .f32)
            (broadcastInDim S128 ![] bcast_S_S128 (constant (F := Ideal) S_ .f32 0x47C35000#32))))
      = Gin.varOfSums s q := by
  funext i
  rfl

/-- The graph numbers reshaped into a column and read back at column 0 are the graph numbers. -/
theorem graphCol_eq (bt : Gin.Wd Gin.NN) :
    (fun i : (⟨1, ![Gin.NN]⟩ : Shape).Idx =>
        (shapeCast S100000x1 (bt : IVec S100000 32) shapeCasts_S100000_S100000x1 : IVec S100000x1 32) (ix2 (i 0) (0 : Fin 1)))
      = bt := by
  funext i
  -- the entry (n, 0) of the column and the entry n of the vector sit at the same row-major position n·1 + 0
  refine shapeCast_apply (bt : IVec S100000 32) shapeCasts_S100000_S100000x1 (ix2 (i 0) (0 : Fin 1)) i ?_
  rw [Shape.rowMajor_val_one, Shape.rowMajor_val_two]
  show (i 0).val = (i 0).val * 1 + 0
  omega

end Cert.KernelIdeal.KVal

end
-- ==== Proof.LibMatMul.lean ====
/-
  A matrix product read at an entry, on the extended reals: entry (i, j) of A·B is the sum over k of A(i, k)·B(k, j),
  whether the product is the host's or the matrix unit's into a zero accumulator; and the product with the left
  operand's ROW axis contracted, entry (i, j) of Aᵀ·B, is the sum over k of A(k, i)·B(k, j).
-/
import Idealize.ShloMosaic.Lib.ValueIdx
import Idealize.ShloMosaic.PureOps.Ideal.Laws

noncomputable section

open scoped BigOperators

namespace Idealize.ShloMosaic.MatMul

open Idealize.ShloMosaic Idealize.ShloMosaic.ValueIdx

/-- The dimension numbers of a plain product [M, K]·[K, N]: the left operand's columns contracted with the right
    operand's rows, no batch axis. -/
abbrev mmDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The dimension numbers of the product with the left operand's rows contracted: [K, M]ᵀ·[K, N]. -/
abbrev tmDims (K M N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-! ## The operand indices of the plain product, axis by axis -/

section Plain
variable {M K N : Nat} (wf : DotDims.WF ⟨2, ![M, K]⟩ ⟨2, ![K, N]⟩ ⟨2, ![M, N]⟩ [1] [0] [0] [1] [] [])

/-- The left operand's row is the result's row … -/
theorem mm_lhs_0 (j : (⟨2, ![M, N]⟩ : Shape).Idx) (k : (mmDims M K N wf).contr.Idx) :
    ((mmDims M K N wf).lhsIdx j k 0).val = (j 0).val := by
  unfold DotDims.lhsIdx
  rw [dif_neg (show ¬ (0 : Fin 2) ∈ ([] : List (Fin 2)) from List.not_mem_nil),
    dif_pos (show (0 : Fin 2) ∈ ([0] : List (Fin 2)) from List.mem_singleton.mpr rfl)]
  rfl
/-- … and its column the contraction position. -/
theorem mm_lhs_1 (j : (⟨2, ![M, N]⟩ : Shape).Idx) (k : (mmDims M K N wf).contr.Idx) :
    ((mmDims M K N wf).lhsIdx j k 1).val = (k ⟨0, Nat.one_pos⟩).val :=
  (mmDims M K N wf).lhsIdx_val_of_single (cl := 1) rfl j k
/-- The right operand's row is the contraction position … -/
theorem mm_rhs_0 (j : (⟨2, ![M, N]⟩ : Shape).Idx) (k : (mmDims M K N wf).contr.Idx) :
    ((mmDims M K N wf).rhsIdx j k 0).val = (k ⟨0, Nat.one_pos⟩).val :=
  (mmDims M K N wf).rhsIdx_val_of_single (cr := 0) rfl j k
/-- … and its column the result's column. -/
theorem mm_rhs_1 (j : (⟨2, ![M, N]⟩ : Shape).Idx) (k : (mmDims M K N wf).contr.Idx) :
    ((mmDims M K N wf).rhsIdx j k 1).val = (j 1).val := by
  unfold DotDims.rhsIdx
  rw [dif_neg (show ¬ (1 : Fin 2) ∈ ([] : List (Fin 2)) from List.not_mem_nil),
    dif_pos (show (1 : Fin 2) ∈ ([1] : List (Fin 2)) from List.mem_singleton.mpr rfl)]
  rfl

/-- The contraction's sum of the plain product, over the contracted extent: term k is A(i, k)·B(k, j). -/
theorem mm_sum {φ₁ φ₂ : FTy} (l : FVec Ideal ⟨2, ![M, K]⟩ φ₁) (r : FVec Ideal ⟨2, ![K, N]⟩ φ₂) (i : Fin M) (j : Fin N) :
    (∑ q : (mmDims M K N wf).contr.Idx, l ((mmDims M K N wf).lhsIdx (ix2 i j) q) * r ((mmDims M K N wf).rhsIdx (ix2 i j) q))
      = ∑ k : Fin K, l (ix2 i k) * r (ix2 k j) := by
  refine (Equiv.sum_comp (contrEquiv1 (mmDims M K N wf) K rfl rfl).symm _).symm.trans ?_
  refine Finset.sum_congr rfl (fun k _ => ?_)
  have hk := contrEquiv1_symm_val (mmDims M K N wf) K rfl rfl k
  have hl : (mmDims M K N wf).lhsIdx (ix2 i j) ((contrEquiv1 (mmDims M K N wf) K rfl rfl).symm k) = ix2 i k := by
    funext a; refine Fin.ext ?_
    match a with
    | ⟨0, _⟩ => exact mm_lhs_0 wf _ _
    | ⟨1, _⟩ => exact (mm_lhs_1 wf _ _).trans hk
  have hr : (mmDims M K N wf).rhsIdx (ix2 i j) ((contrEquiv1 (mmDims M K N wf) K rfl rfl).symm k) = ix2 k j := by
    funext a; refine Fin.ext ?_
    match a with
    | ⟨0, _⟩ => exact (mm_rhs_0 wf _ _).trans hk
    | ⟨1, _⟩ => exact mm_rhs_1 wf _ _
  rw [hl, hr]

end Plain

/-! ## The operand indices of the product with the left operand's rows contracted, axis by axis -/

section LeftRows
variable {K M N : Nat} (wf : DotDims.WF ⟨2, ![K, M]⟩ ⟨2, ![K, N]⟩ ⟨2, ![M, N]⟩ [0] [0] [1] [1] [] [])

/-- The left operand's row is the contraction position … -/
theorem tm_lhs_0 (j : (⟨2, ![M, N]⟩ : Shape).Idx) (k : (tmDims K M N wf).contr.Idx) :
    ((tmDims K M N wf).lhsIdx j k 0).val = (k ⟨0, Nat.one_pos⟩).val :=
  (tmDims K M N wf).lhsIdx_val_of_single (cl := 0) rfl j k
/-- … and its column the result's row. -/
theorem tm_lhs_1 (j : (⟨2, ![M, N]⟩ : Shape).Idx) (k : (tmDims K M N wf).contr.Idx) :
    ((tmDims K M N wf).lhsIdx j k 1).val = (j 0).val := by
  unfold DotDims.lhsIdx
  rw [dif_neg (show ¬ (1 : Fin 2) ∈ ([] : List (Fin 2)) from List.not_mem_nil),
    dif_pos (show (1 : Fin 2) ∈ ([1] : List (Fin 2)) from List.mem_singleton.mpr rfl)]
  rfl
/-- The right operand's row is the contraction position … -/
theorem tm_rhs_0 (j : (⟨2, ![M, N]⟩ : Shape).Idx) (k : (tmDims K M N wf).contr.Idx) :
    ((tmDims K M N wf).rhsIdx j k 0).val = (k ⟨0, Nat.one_pos⟩).val :=
  (tmDims K M N wf).rhsIdx_val_of_single (cr := 0) rfl j k
/-- … and its column the result's column. -/
theorem tm_rhs_1 (j : (⟨2, ![M, N]⟩ : Shape).Idx) (k : (tmDims K M N wf).contr.Idx) :
    ((tmDims K M N wf).rhsIdx j k 1).val = (j 1).val := by
  unfold DotDims.rhsIdx
  rw [dif_neg (show ¬ (1 : Fin 2) ∈ ([] : List (Fin 2)) from List.not_mem_nil),
    dif_pos (show (1 : Fin 2) ∈ ([1] : List (Fin 2)) from List.mem_singleton.mpr rfl)]
  rfl

/-- The contraction's sum with the left operand's rows contracted: term k is A(k, i)·B(k, j). -/
theorem tm_sum {φ₁ φ₂ : FTy} (l : FVec Ideal ⟨2, ![K, M]⟩ φ₁) (r : FVec Ideal ⟨2, ![K, N]⟩ φ₂) (i : Fin M) (j : Fin N) :
    (∑ q : (tmDims K M N wf).contr.Idx, l ((tmDims K M N wf).lhsIdx (ix2 i j) q) * r ((tmDims K M N wf).rhsIdx (ix2 i j) q))
      = ∑ k : Fin K, l (ix2 k i) * r (ix2 k j) := by
  refine (Equiv.sum_comp (contrEquiv1 (tmDims K M N wf) K rfl rfl).symm _).symm.trans ?_
  refine Finset.sum_congr rfl (fun k _ => ?_)
  have hk := contrEquiv1_symm_val (tmDims K M N wf) K rfl rfl k
  have hl : (tmDims K M N wf).lhsIdx (ix2 i j) ((contrEquiv1 (tmDims K M N wf) K rfl rfl).symm k) = ix2 k i := by
    funext a; refine Fin.ext ?_
    match a with
    | ⟨0, _⟩ => exact (tm_lhs_0 wf _ _).trans hk
    | ⟨1, _⟩ => exact tm_lhs_1 wf _ _
  have hr : (tmDims K M N wf).rhsIdx (ix2 i j) ((contrEquiv1 (tmDims K M N wf) K rfl rfl).symm k) = ix2 k j := by
    funext a; refine Fin.ext ?_
    match a with
    | ⟨0, _⟩ => exact (tm_rhs_0 wf _ _).trans hk
    | ⟨1, _⟩ => exact tm_rhs_1 wf _ _
  rw [hl, hr]

end LeftRows

/-- The host's product at an entry. -/
theorem dotGeneral_mm_apply {M K N : Nat} (wf : DotDims.WF ⟨2, ![M, K]⟩ ⟨2, ![K, N]⟩ ⟨2, ![M, N]⟩ [1] [0] [0] [1] [] [])
    {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (mmDims M K N wf) prec sched l r (ix2 i j) = ∑ k : Fin K, l (ix2 i k) * r (ix2 k j) := by
  rw [Ideal.dotGeneral_apply]
  exact mm_sum wf l r i j

/-- The matrix unit's product into a zero accumulator, at an entry. -/
theorem matmul_zero_mm_apply {M K N : Nat} (wf : DotDims.WF ⟨2, ![M, K]⟩ ⟨2, ![K, N]⟩ ⟨2, ![M, N]⟩ [1] [0] [0] [1] [] [])
    {φ₁ φ₂ : FTy} (prec : Option ContractPrecision)
    (l : FVec Ideal ⟨2, ![M, K]⟩ φ₁) (r : FVec Ideal ⟨2, ![K, N]⟩ φ₂) (i : Fin M) (j : Fin N) :
    FloatOps.matmul (mmDims M K N wf) prec l r (constant ⟨2, ![M, N]⟩ .f32 0x00000000#32) (ix2 i j)
      = ∑ k : Fin K, l (ix2 i k) * r (ix2 k j) := by
  rw [Ideal.matmul_constant_zero_apply]
  exact mm_sum wf l r i j

/-- The matrix unit's product with the left operand's rows contracted, into a zero accumulator, at an entry. -/
theorem matmul_zero_tm_apply {K M N : Nat} (wf : DotDims.WF ⟨2, ![K, M]⟩ ⟨2, ![K, N]⟩ ⟨2, ![M, N]⟩ [0] [0] [1] [1] [] [])
    {φ₁ φ₂ : FTy} (prec : Option ContractPrecision)
    (l : FVec Ideal ⟨2, ![K, M]⟩ φ₁) (r : FVec Ideal ⟨2, ![K, N]⟩ φ₂) (i : Fin M) (j : Fin N) :
    FloatOps.matmul (tmDims K M N wf) prec l r (constant ⟨2, ![M, N]⟩ .f32 0x00000000#32) (ix2 i j)
      = ∑ k : Fin K, l (ix2 k i) * r (ix2 k j) := by
  rw [Ideal.matmul_constant_zero_apply]
  exact tm_sum wf l r i j

end Idealize.ShloMosaic.MatMul

end
-- ==== Proof.KFoldHead.lean ====
/-
  The host lines after the pooling region, entry by entry: the pooled sums over max(count, 1) laid along the rows,
  times the last matrix, plus the last vector.
-/
import proofs.«423186_j27333171871744_1_alg».proof.Proof.Gen.KernelIdeal.Frame
import proofs.«423186_j27333171871744_1_alg».proof.Proof.Spec
import proofs.«423186_j27333171871744_1_alg».proof.Proof.Math
import proofs.«423186_j27333171871744_1_alg».proof.Proof.LibMatMul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx Idealize.SL.Sem

namespace Cert.KernelIdeal.KVal

open Cert.KernelIdeal Cert.KernelIdeal.Gen

/-- A vector laid along the rows: entry (g, k) of its [256] → [256, 1] → [256, 128] broadcast is its entry g. -/
theorem rows_apply (v : FVec Ideal S256 .f32) (g : Fin 256) (k : Fin 128) :
    broadcastInDim S256x128 ![0, 1] bcast_S256x1_S256x128_0_1 (broadcastInDim S256x1 ![0] bcast_S256_S256x1_0 v) (ix2 g k)
      = v (ix1 g) := by
  refine (broadcastInDim_apply _ _ _ (ix2 g k) (ix2 g (0 : Fin 1)) ?_).trans ?_
  · intro a
    match a with
    | ⟨0, _⟩ => rfl
    | ⟨1, _⟩ => rfl
  · refine broadcastInDim_apply _ _ _ (ix2 g (0 : Fin 1)) (ix1 g) ?_
    intro a
    match a with
    | ⟨0, _⟩ => rfl

/-- A vector laid along the columns: entry (g, c) of its [128] → [1, 128] → [256, 128] broadcast is its entry c. -/
theorem cols_apply (v : FVec Ideal S128 .f32) (g : Fin 256) (c : Fin 128) :
    broadcastInDim S256x128 ![0, 1] bcast_S1x128_S256x128_0_1 (broadcastInDim S1x128 ![1] bcast_S128_S1x128_1 v) (ix2 g c)
      = v (ix1 c) := by
  refine (broadcastInDim_apply _ _ _ (ix2 g c) (ix2 (0 : Fin 1) c) ?_).trans ?_
  · intro a
    match a with
    | ⟨0, _⟩ => rfl
    | ⟨1, _⟩ => rfl
  · refine broadcastInDim_apply _ _ _ (ix2 (0 : Fin 1) c) (ix1 c) ?_
    intro a
    match a with
    | ⟨0, _⟩ => rfl

/-- The host tail: the sums divided by max(count, 1) along the rows, times the last matrix, plus the last vector. -/
theorem hostHead_eq (s : Gin.Mat 256 128) (cnt : Gin.Vc 256) (pw : Gin.Mat 128 128) (pb : Gin.Vc 128) :
    addf (F := Ideal)
        (Host.dotGeneral (F := Ideal) (φ₁ := .f32) (φ₂ := .f32) dot_S256x128_S128x128_S256x128_1_0_0_1_n_n none
          (Host.divf (F := Ideal) (s : FVec Ideal S256x128 .f32)
            (broadcastInDim S256x128 ![0, 1] bcast_S256x1_S256x128_0_1
              (broadcastInDim S256x1 ![0] bcast_S256_S256x1_0
                (maximumf (F := Ideal) (cnt : FVec Ideal S256 .f32)
                  (broadcastInDim S256 ![] bcast_S_S256 (constant (F := Ideal) S_ .f32 0x3F800000#32))))))
          (pw : FVec Ideal S128x128 .f32) : FVec Ideal S256x128 .f32)
        (broadcastInDim S256x128 ![0, 1] bcast_S1x128_S256x128_0_1
          (broadcastInDim S1x128 ![1] bcast_S128_S1x128_1 (pb : FVec Ideal S128 .f32)))
      = Gin.head s cnt pw pb := by
  funext i
  obtain ⟨g, c, rfl⟩ : ∃ (g : Fin 256) (c : Fin 128), i = ix2 g c := ⟨i 0, i 1, eq_ix2 i⟩
  refine (addf_apply _ _ (ix2 g c)).trans ?_
  show _ = Gin.headAt s cnt pw pb g c
  unfold Gin.headAt
  refine congrArg₂ (· + ·) ?_ (cols_apply pb g c)
  refine (MatMul.dotGeneral_mm_apply dot_S256x128_S128x128_S256x128_1_0_0_1_n_n_wf none .single _ _ g c).trans ?_
  refine Finset.sum_congr rfl fun k _ => congrArg (· * pw (ix2 k c)) ?_
  refine congrArg (Ideal.div (s (ix2 g k))) ?_
  refine (rows_apply _ g k).trans ?_
  refine (maximumf_apply _ _ (ix1 g)).trans ?_
  exact congrArg (max (cnt (ix1 g))) Gin.ofBits_one

end Cert.KernelIdeal.KVal

end
-- ==== Proof.KFold.lean ====
/-
  The idealized kernel's result as a function of its arguments: the fold through @main, read back. Every host stretch
  leaves each buffer at its operation's value of the buffers before it; every region leaves its arrays at what its
  write-backs put there (the regions' values, taken as given) and every other buffer alone. Read from the last
  boundary back to the launch, the result buffer holds the three layers, the pooling and the last affine map of the
  argument arrays, each column's variance taken as the mean of the squares less the square of the mean.
-/
import proofs.«423186_j27333171871744_1_alg».proof.Proof.Gen.KernelIdeal.Frame
import proofs.«423186_j27333171871744_1_alg».proof.Proof.Spec
import proofs.«423186_j27333171871744_1_alg».proof.Proof.KAgg
import proofs.«423186_j27333171871744_1_alg».proof.Proof.KRegIface
import proofs.«423186_j27333171871744_1_alg».proof.Proof.KFoldMean
import proofs.«423186_j27333171871744_1_alg».proof.Proof.KFoldHead
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem

namespace Cert.KernelIdeal.KVal

open Cert.KernelIdeal Cert.KernelIdeal.Gen

variable (m : (ℓ : Loc nD τ sig) → Buf (Elt Ideal) ℓ) (ρ : Dev nD → PrngReg)

/-! ## Which buffers a segment of the program leaves alone

`wrK` lists the results of host stretch K's operations, `arK` the arrays of region K (inputs and outputs alike: a
buffer is carried across a region only where it is none of them). -/

noncomputable def wr0 : List (Ref sig .tc) := [main_v0, main_v1, main_v2, main_v3, main_c, main_v4, main_v5, main_c_0, main_v6, main_v7,
  main_v8, main_v9, main_v10, main_cst, main_v11, main_v12, main_v13]
noncomputable def ar0 : List (Ref sig .tc) := [main_arg0, main_v13, main_arg3, main_arg4, main_arg5, main_arg6, main_v14_0, main_v14_1, main_v14_2]
noncomputable def wr1 : List (Ref sig .tc) := [main_cst_1, main_v15, main_v16, main_cst_2, main_v17, main_v18, main_v19, main_v20]
noncomputable def ar1 : List (Ref sig .tc) := [main_v14_0, main_v16, main_v20, main_arg7, main_arg8, main_v21]
noncomputable def wr2 : List (Ref sig .tc) := [main_c_3, main_v22, main_v23, main_c_4, main_v24, main_v25, main_v26, main_v27, main_v28,
  main_cst_5, main_v29, main_v30, main_v31]
noncomputable def ar2 : List (Ref sig .tc) := [main_v21, main_v31, main_arg9, main_arg10, main_arg11, main_arg12, main_v32_0, main_v32_1, main_v32_2]
noncomputable def wr3 : List (Ref sig .tc) := [main_cst_6, main_v33, main_v34, main_cst_7, main_v35, main_v36, main_v37, main_v38]
noncomputable def ar3 : List (Ref sig .tc) := [main_v32_0, main_v34, main_v38, main_arg13, main_arg14, main_v39]
noncomputable def wr4 : List (Ref sig .tc) := [main_c_8, main_v40, main_v41, main_c_9, main_v42, main_v43, main_v44, main_v45, main_v46,
  main_cst_10, main_v47, main_v48, main_v49]
noncomputable def ar4 : List (Ref sig .tc) := [main_v39, main_v49, main_arg15, main_arg16, main_arg17, main_arg18, main_v50_0, main_v50_1, main_v50_2]
noncomputable def wr5 : List (Ref sig .tc) := [main_cst_11, main_v51, main_v52, main_cst_12, main_v53, main_v54, main_v55, main_v56]
noncomputable def ar5 : List (Ref sig .tc) := [main_v50_0, main_v52, main_v56, main_arg19, main_arg20, main_v57]
noncomputable def wr6 : List (Ref sig .tc) := [main_v58]
noncomputable def ar6 : List (Ref sig .tc) := [main_v57, main_v58, main_v59_0, main_v59_1]

/-- A host stretch leaves alone every buffer that is not the result of one of its operations. -/
theorem hk0 (c : Dev nD) (b : Ref sig .tc) (hb : b ∉ wr0) :
    W1 (F := Ideal) m ρ c (Proc.devRef .tc b) = W0 m ρ c (Proc.devRef .tc b) :=
  StableHlo.after_of_writes_sub (W := wr0) hostOps0 _ (by
    simp only [hostOps0, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hb
theorem hk1 (c : Dev nD) (b : Ref sig .tc) (hb : b ∉ wr1) :
    W3 (F := Ideal) m ρ c (Proc.devRef .tc b) = W2 m ρ c (Proc.devRef .tc b) :=
  StableHlo.after_of_writes_sub (W := wr1) hostOps1 _ (by
    simp only [hostOps1, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hb
theorem hk2 (c : Dev nD) (b : Ref sig .tc) (hb : b ∉ wr2) :
    W5 (F := Ideal) m ρ c (Proc.devRef .tc b) = W4 m ρ c (Proc.devRef .tc b) :=
  StableHlo.after_of_writes_sub (W := wr2) hostOps2 _ (by
    simp only [hostOps2, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hb
theorem hk3 (c : Dev nD) (b : Ref sig .tc) (hb : b ∉ wr3) :
    W7 (F := Ideal) m ρ c (Proc.devRef .tc b) = W6 m ρ c (Proc.devRef .tc b) :=
  StableHlo.after_of_writes_sub (W := wr3) hostOps3 _ (by
    simp only [hostOps3, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hb
theorem hk4 (c : Dev nD) (b : Ref sig .tc) (hb : b ∉ wr4) :
    W9 (F := Ideal) m ρ c (Proc.devRef .tc b) = W8 m ρ c (Proc.devRef .tc b) :=
  StableHlo.after_of_writes_sub (W := wr4) hostOps4 _ (by
    simp only [hostOps4, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hb
theorem hk5 (c : Dev nD) (b : Ref sig .tc) (hb : b ∉ wr5) :
    W11 (F := Ideal) m ρ c (Proc.devRef .tc b) = W10 m ρ c (Proc.devRef .tc b) :=
  StableHlo.after_of_writes_sub (W := wr5) hostOps5 _ (by
    simp only [hostOps5, List.Forall, StableHlo.nullary_writes, StableHlo.unary_writes, StableHlo.binary_writes,
      StableHlo.ternary_writes, StableHlo.reshape_writes, Finset.singleton_subset_iff, List.mem_toFinset, List.mem_map]
    repeat' apply And.intro
    all_goals exact ⟨_, by decide, rfl⟩) hb
theorem hk6 (c : Dev nD) (b : Ref sig .tc) (hb : b ∉ wr6) :
    W13 (F := Ideal) m ρ c (Proc.devRef .tc b) = W12 m ρ c (Proc.devRef .tc b) :=
  StableHlo.after_of_writes_sub (W := wr6) hostOps6 _ (by
    simp only [hostOps6, List.Forall, StableHlo.nullary_writes, StableHlo.unary_writes, StableHlo.binary_writes,
      StableHlo.ternary_writes, StableHlo.reshape_writes, Finset.singleton_subset_iff, List.mem_toFinset, List.mem_map]
    exact ⟨_, by decide, rfl⟩) hb

/-- A region leaves alone every buffer that is not one of its arrays. -/
theorem rk0 (c : Dev nD) (b : Ref sig .tc) (hb : b ∉ ar0) :
    W2 (F := Ideal) m ρ c (Proc.devRef .tc b) = W1 m ρ c (Proc.devRef .tc b) :=
  W2_of_ne m ρ c b fun w e => hb (e ▸ (by decide : ∀ w, Pipeline.arrRef spec0 w ∈ ar0) w)
theorem rk1 (c : Dev nD) (b : Ref sig .tc) (hb : b ∉ ar1) :
    W4 (F := Ideal) m ρ c (Proc.devRef .tc b) = W3 m ρ c (Proc.devRef .tc b) :=
  W4_of_ne m ρ c b fun w e => hb (e ▸ (by decide : ∀ w, Pipeline.arrRef spec1 w ∈ ar1) w)
theorem rk2 (c : Dev nD) (b : Ref sig .tc) (hb : b ∉ ar2) :
    W6 (F := Ideal) m ρ c (Proc.devRef .tc b) = W5 m ρ c (Proc.devRef .tc b) :=
  W6_of_ne m ρ c b fun w e => hb (e ▸ (by decide : ∀ w, Pipeline.arrRef spec2 w ∈ ar2) w)
theorem rk3 (c : Dev nD) (b : Ref sig .tc) (hb : b ∉ ar3) :
    W8 (F := Ideal) m ρ c (Proc.devRef .tc b) = W7 m ρ c (Proc.devRef .tc b) :=
  W8_of_ne m ρ c b fun w e => hb (e ▸ (by decide : ∀ w, Pipeline.arrRef spec3 w ∈ ar3) w)
theorem rk4 (c : Dev nD) (b : Ref sig .tc) (hb : b ∉ ar4) :
    W10 (F := Ideal) m ρ c (Proc.devRef .tc b) = W9 m ρ c (Proc.devRef .tc b) :=
  W10_of_ne m ρ c b fun w e => hb (e ▸ (by decide : ∀ w, Pipeline.arrRef spec4 w ∈ ar4) w)
theorem rk5 (c : Dev nD) (b : Ref sig .tc) (hb : b ∉ ar5) :
    W12 (F := Ideal) m ρ c (Proc.devRef .tc b) = W11 m ρ c (Proc.devRef .tc b) :=
  W12_of_ne m ρ c b fun w e => hb (e ▸ (by decide : ∀ w, Pipeline.arrRef spec5 w ∈ ar5) w)
theorem rk6 (c : Dev nD) (b : Ref sig .tc) (hb : b ∉ ar6) :
    W14 (F := Ideal) m ρ c (Proc.devRef .tc b) = W13 m ρ c (Proc.devRef .tc b) :=
  W14_of_ne m ρ c b fun w e => hb (e ▸ (by decide : ∀ w, Pipeline.arrRef spec6 w ∈ ar6) w)

/-! ## A buffer nothing has written yet still holds its launch contents -/

noncomputable def up1 : List (Ref sig .tc) := wr0
noncomputable def up3 : List (Ref sig .tc) := up1 ++ (ar0 ++ wr1)
noncomputable def up5 : List (Ref sig .tc) := up3 ++ (ar1 ++ wr2)
noncomputable def up7 : List (Ref sig .tc) := up5 ++ (ar2 ++ wr3)
noncomputable def up9 : List (Ref sig .tc) := up7 ++ (ar3 ++ wr4)
noncomputable def up11 : List (Ref sig .tc) := up9 ++ (ar4 ++ wr5)
noncomputable def up13 : List (Ref sig .tc) := up11 ++ (ar5 ++ wr6)

theorem keep1 (c : Dev nD) (b : Ref sig .tc) (hb : b ∉ up1) :
    W1 (F := Ideal) m ρ c (Proc.devRef .tc b) = m ((c.tc : Thread nD τ).loc b) :=
  hk0 m ρ c b hb
theorem keep3 (c : Dev nD) (b : Ref sig .tc) (hb : b ∉ up1 ++ (ar0 ++ wr1)) :
    W3 (F := Ideal) m ρ c (Proc.devRef .tc b) = m ((c.tc : Thread nD τ).loc b) :=
  (hk1 m ρ c b fun h => hb (List.mem_append_right _ (List.mem_append_right _ h))).trans
    ((rk0 m ρ c b fun h => hb (List.mem_append_right _ (List.mem_append_left _ h))).trans
      (keep1 m ρ c b fun h => hb (List.mem_append_left _ h)))
theorem keep5 (c : Dev nD) (b : Ref sig .tc) (hb : b ∉ up3 ++ (ar1 ++ wr2)) :
    W5 (F := Ideal) m ρ c (Proc.devRef .tc b) = m ((c.tc : Thread nD τ).loc b) :=
  (hk2 m ρ c b fun h => hb (List.mem_append_right _ (List.mem_append_right _ h))).trans
    ((rk1 m ρ c b fun h => hb (List.mem_append_right _ (List.mem_append_left _ h))).trans
      (keep3 m ρ c b fun h => hb (List.mem_append_left _ h)))
theorem keep7 (c : Dev nD) (b : Ref sig .tc) (hb : b ∉ up5 ++ (ar2 ++ wr3)) :
    W7 (F := Ideal) m ρ c (Proc.devRef .tc b) = m ((c.tc : Thread nD τ).loc b) :=
  (hk3 m ρ c b fun h => hb (List.mem_append_right _ (List.mem_append_right _ h))).trans
    ((rk2 m ρ c b fun h => hb (List.mem_append_right _ (List.mem_append_left _ h))).trans
      (keep5 m ρ c b fun h => hb (List.mem_append_left _ h)))
theorem keep9 (c : Dev nD) (b : Ref sig .tc) (hb : b ∉ up7 ++ (ar3 ++ wr4)) :
    W9 (F := Ideal) m ρ c (Proc.devRef .tc b) = m ((c.tc : Thread nD τ).loc b) :=
  (hk4 m ρ c b fun h => hb (List.mem_append_right _ (List.mem_append_right _ h))).trans
    ((rk3 m ρ c b fun h => hb (List.mem_append_right _ (List.mem_append_left _ h))).trans
      (keep7 m ρ c b fun h => hb (List.mem_append_left _ h)))
theorem keep11 (c : Dev nD) (b : Ref sig .tc) (hb : b ∉ up9 ++ (ar4 ++ wr5)) :
    W11 (F := Ideal) m ρ c (Proc.devRef .tc b) = m ((c.tc : Thread nD τ).loc b) :=
  (hk5 m ρ c b fun h => hb (List.mem_append_right _ (List.mem_append_right _ h))).trans
    ((rk4 m ρ c b fun h => hb (List.mem_append_right _ (List.mem_append_left _ h))).trans
      (keep9 m ρ c b fun h => hb (List.mem_append_left _ h)))
theorem keep13 (c : Dev nD) (b : Ref sig .tc) (hb : b ∉ up11 ++ (ar5 ++ wr6)) :
    W13 (F := Ideal) m ρ c (Proc.devRef .tc b) = m ((c.tc : Thread nD τ).loc b) :=
  (hk6 m ρ c b fun h => hb (List.mem_append_right _ (List.mem_append_right _ h))).trans
    ((rk5 m ρ c b fun h => hb (List.mem_append_right _ (List.mem_append_left _ h))).trans
      (keep11 m ρ c b fun h => hb (List.mem_append_left _ h)))
theorem keep12 (c : Dev nD) (b : Ref sig .tc) (hb : b ∉ up11 ++ ar5) :
    W12 (F := Ideal) m ρ c (Proc.devRef .tc b) = m ((c.tc : Thread nD τ).loc b) :=
  (rk5 m ρ c b fun h => hb (List.mem_append_right _ h)).trans (keep11 m ρ c b fun h => hb (List.mem_append_left _ h))
theorem keep14 (c : Dev nD) (b : Ref sig .tc) (hb : b ∉ up13 ++ ar6) :
    W14 (F := Ideal) m ρ c (Proc.devRef .tc b) = m ((c.tc : Thread nD τ).loc b) :=
  (rk6 m ρ c b fun h => hb (List.mem_append_right _ h)).trans (keep13 m ρ c b fun h => hb (List.mem_append_left _ h))

/-- The senders and receivers, computed once by the first host stretch, are still there when the later layers
    gather and scatter through them. -/
theorem keep1_4 (c : Dev nD) (b : Ref sig .tc) (hb : b ∉ ar0 ++ (wr1 ++ ar1)) :
    W4 (F := Ideal) m ρ c (Proc.devRef .tc b) = W1 m ρ c (Proc.devRef .tc b) :=
  (rk1 m ρ c b fun h => hb (List.mem_append_right _ (List.mem_append_right _ h))).trans
    ((hk1 m ρ c b fun h => hb (List.mem_append_right _ (List.mem_append_left _ h))).trans
      (rk0 m ρ c b fun h => hb (List.mem_append_left _ h)))
theorem keep4_8 (c : Dev nD) (b : Ref sig .tc) (hb : b ∉ (wr2 ++ ar2) ++ (wr3 ++ ar3)) :
    W8 (F := Ideal) m ρ c (Proc.devRef .tc b) = W4 m ρ c (Proc.devRef .tc b) :=
  (rk3 m ρ c b fun h => hb (List.mem_append_right _ (List.mem_append_right _ h))).trans
    ((hk3 m ρ c b fun h => hb (List.mem_append_right _ (List.mem_append_left _ h))).trans
      ((rk2 m ρ c b fun h => hb (List.mem_append_left _ (List.mem_append_right _ h))).trans
        (hk2 m ρ c b fun h => hb (List.mem_append_left _ (List.mem_append_left _ h)))))

/-! ## The values along the way -/

/-- An argument's launch contents. -/
abbrev arg (c : Dev nD) (b : Ref sig .tc) : Buf (Elt Ideal) ((c.tc : Thread nD τ).loc b) := m ((c.tc : Thread nD τ).loc b)

/-- The edge list. -/
abbrev edges (c : Dev nD) : IVec S2x1600000 32 := arg m c main_arg1

/-- Layer 1 before normalization: the perceptron of x + A x. -/
noncomputable def z1 (c : Dev nD) : Gin.Mat Gin.NN 128 :=
  Gin.mlp (fun i => (show Gin.Mat Gin.NN 64 from arg m c main_arg0) i + aggK64 (edges m c) (arg m c main_arg0) i)
    (arg m c main_arg3) (arg m c main_arg4) (arg m c main_arg5) (arg m c main_arg6)
/-- Layer 1's output. -/
noncomputable def h1 (c : Dev nD) : Gin.Mat Gin.NN 128 :=
  Gin.bnRelu (z1 m c) (Gin.meanOf (Gin.colSum (z1 m c))) (Gin.varK (z1 m c)) (arg m c main_arg7) (arg m c main_arg8)
/-- Layer 2 before normalization: the perceptron of h₁ + A h₁. -/
noncomputable def z2 (c : Dev nD) : Gin.Mat Gin.NN 128 :=
  Gin.mlp (fun i => h1 m c i + aggK128 (edges m c) (h1 m c) i)
    (arg m c main_arg9) (arg m c main_arg10) (arg m c main_arg11) (arg m c main_arg12)
/-- Layer 2's output. -/
noncomputable def h2 (c : Dev nD) : Gin.Mat Gin.NN 128 :=
  Gin.bnRelu (z2 m c) (Gin.meanOf (Gin.colSum (z2 m c))) (Gin.varK (z2 m c)) (arg m c main_arg13) (arg m c main_arg14)
/-- Layer 3 before normalization: the perceptron of h₂ + A h₂. -/
noncomputable def z3 (c : Dev nD) : Gin.Mat Gin.NN 128 :=
  Gin.mlp (fun i => h2 m c i + aggK128 (edges m c) (h2 m c) i)
    (arg m c main_arg15) (arg m c main_arg16) (arg m c main_arg17) (arg m c main_arg18)
/-- Layer 3's output. -/
noncomputable def h3 (c : Dev nD) : Gin.Mat Gin.NN 128 :=
  Gin.bnRelu (z3 m c) (Gin.meanOf (Gin.colSum (z3 m c))) (Gin.varK (z3 m c)) (arg m c main_arg19) (arg m c main_arg20)

/-! ## The first host stretch: the senders, the receivers and the neighbourhood sums of x -/

theorem W1_v1 (c : Dev nD) : W1 (F := Ideal) m ρ c (Proc.devRef .tc main_v1) = aggKSrc (edges m c) := by
  show StableHlo.after hostOps0 (W0 m ρ c) (Proc.devRef .tc main_v1) = _
  after_results_simp
  rfl

theorem W1_v3 (c : Dev nD) : W1 (F := Ideal) m ρ c (Proc.devRef .tc main_v3) = aggKDst (edges m c) := by
  show StableHlo.after hostOps0 (W0 m ρ c) (Proc.devRef .tc main_v3) = _
  after_results_simp
  rfl

theorem W1_v13 (c : Dev nD) :
    W1 (F := Ideal) m ρ c (Proc.devRef .tc main_v13) = aggK64 (edges m c) (arg m c main_arg0) := by
  show StableHlo.after hostOps0 (W0 m ρ c) (Proc.devRef .tc main_v13) = _
  after_results_simp
  rfl

/-! ## Layer 1 -/

/-- Region 0 is entered with x, its neighbourhood sums and the first perceptron's weights. -/
theorem in0 (c : Dev nD) :
    Gin.mlp (inU0 (V1 (F := Ideal) m ρ) c) (V1 m ρ c main_arg3) (V1 m ρ c main_arg4) (V1 m ρ c main_arg5) (V1 m ρ c main_arg6)
      = z1 m c := by
  have e0 : V1 (F := Ideal) m ρ c main_arg0 = arg m c main_arg0 := keep1 m ρ c main_arg0 (by decide)
  have e13 : V1 (F := Ideal) m ρ c main_v13 = aggK64 (edges m c) (arg m c main_arg0) := W1_v13 m ρ c
  have e3 : V1 (F := Ideal) m ρ c main_arg3 = arg m c main_arg3 := keep1 m ρ c main_arg3 (by decide)
  have e4 : V1 (F := Ideal) m ρ c main_arg4 = arg m c main_arg4 := keep1 m ρ c main_arg4 (by decide)
  have e5 : V1 (F := Ideal) m ρ c main_arg5 = arg m c main_arg5 := keep1 m ρ c main_arg5 (by decide)
  have e6 : V1 (F := Ideal) m ρ c main_arg6 = arg m c main_arg6 := keep1 m ρ c main_arg6 (by decide)
  unfold inU0 z1
  rw [e0, e13, e3, e4, e5, e6]

variable (hR : RegionValues)
include hR

theorem W2_v14_0 (c : Dev nD) : W2 (F := Ideal) m ρ c (Proc.devRef .tc main_v14_0) = z1 m c :=
  (W2_arr m ρ c 6).trans ((hR.z0 (V1 m ρ) c).trans (in0 m ρ c))

theorem W2_v14_1 (c : Dev nD) : W2 (F := Ideal) m ρ c (Proc.devRef .tc main_v14_1) = Gin.colSum (z1 m c) :=
  (W2_arr m ρ c 7).trans ((hR.sum0 (V1 m ρ) c).trans (congrArg Gin.colSum (in0 m ρ c)))

theorem W2_v14_2 (c : Dev nD) : W2 (F := Ideal) m ρ c (Proc.devRef .tc main_v14_2) = Gin.colSumSq (z1 m c) :=
  (W2_arr m ρ c 8).trans ((hR.sq0 (V1 m ρ) c).trans (congrArg Gin.colSumSq (in0 m ρ c)))

theorem W3_v14_0 (c : Dev nD) : W3 (F := Ideal) m ρ c (Proc.devRef .tc main_v14_0) = z1 m c :=
  (hk1 m ρ c main_v14_0 (by decide)).trans (W2_v14_0 m ρ hR c)

theorem W3_v16 (c : Dev nD) :
    W3 (F := Ideal) m ρ c (Proc.devRef .tc main_v16) = Gin.meanOf (Gin.colSum (z1 m c)) := by
  show StableHlo.after hostOps1 (W2 m ρ c) (Proc.devRef .tc main_v16) = _
  after_results_simp
  rw [W2_v14_1 m ρ hR c]
  exact hostMean_eq _

theorem W3_v20 (c : Dev nD) : W3 (F := Ideal) m ρ c (Proc.devRef .tc main_v20) = Gin.varK (z1 m c) := by
  show StableHlo.after hostOps1 (W2 m ρ c) (Proc.devRef .tc main_v20) = _
  after_results_simp
  rw [W2_v14_1 m ρ hR c, W2_v14_2 m ρ hR c]
  exact hostVar_eq _ _

theorem W4_v21 (c : Dev nD) : W4 (F := Ideal) m ρ c (Proc.devRef .tc main_v21) = h1 m c := by
  have e0 : V3 (F := Ideal) m ρ c main_v14_0 = z1 m c := W3_v14_0 m ρ hR c
  have e1 : V3 (F := Ideal) m ρ c main_v16 = Gin.meanOf (Gin.colSum (z1 m c)) := W3_v16 m ρ hR c
  have e2 : V3 (F := Ideal) m ρ c main_v20 = Gin.varK (z1 m c) := W3_v20 m ρ hR c
  have e7 : V3 (F := Ideal) m ρ c main_arg7 = arg m c main_arg7 := keep3 m ρ c main_arg7 (by decide)
  have e8 : V3 (F := Ideal) m ρ c main_arg8 = arg m c main_arg8 := keep3 m ρ c main_arg8 (by decide)
  refine (W4_arr m ρ c 5).trans ((hR.out1 (V3 m ρ) c).trans ?_)
  rw [e0, e1, e2, e7, e8]
  rfl

/-! ## Layer 2 -/

theorem W4_v1 (c : Dev nD) : W4 (F := Ideal) m ρ c (Proc.devRef .tc main_v1) = aggKSrc (edges m c) :=
  (keep1_4 m ρ c main_v1 (by decide)).trans (W1_v1 m ρ c)

theorem W4_v3 (c : Dev nD) : W4 (F := Ideal) m ρ c (Proc.devRef .tc main_v3) = aggKDst (edges m c) :=
  (keep1_4 m ρ c main_v3 (by decide)).trans (W1_v3 m ρ c)

theorem W5_v21 (c : Dev nD) : W5 (F := Ideal) m ρ c (Proc.devRef .tc main_v21) = h1 m c :=
  (hk2 m ρ c main_v21 (by decide)).trans (W4_v21 m ρ hR c)

theorem W5_v31 (c : Dev nD) :
    W5 (F := Ideal) m ρ c (Proc.devRef .tc main_v31) = aggK128 (edges m c) (h1 m c) := by
  show StableHlo.after hostOps2 (W4 m ρ c) (Proc.devRef .tc main_v31) = _
  after_results_simp
  rw [W4_v1 m ρ hR c, W4_v3 m ρ hR c, W4_v21 m ρ hR c]
  rfl

/-- Region 2 is entered with h₁, its neighbourhood sums and the second perceptron's weights. -/
theorem in2 (c : Dev nD) :
    Gin.mlp (inU2 (V5 (F := Ideal) m ρ) c) (V5 m ρ c main_arg9) (V5 m ρ c main_arg10) (V5 m ρ c main_arg11) (V5 m ρ c main_arg12)
      = z2 m c := by
  have e0 : V5 (F := Ideal) m ρ c main_v21 = h1 m c := W5_v21 m ρ hR c
  have e1 : V5 (F := Ideal) m ρ c main_v31 = aggK128 (edges m c) (h1 m c) := W5_v31 m ρ hR c
  have e9 : V5 (F := Ideal) m ρ c main_arg9 = arg m c main_arg9 := keep5 m ρ c main_arg9 (by decide)
  have e10 : V5 (F := Ideal) m ρ c main_arg10 = arg m c main_arg10 := keep5 m ρ c main_arg10 (by decide)
  have e11 : V5 (F := Ideal) m ρ c main_arg11 = arg m c main_arg11 := keep5 m ρ c main_arg11 (by decide)
  have e12 : V5 (F := Ideal) m ρ c main_arg12 = arg m c main_arg12 := keep5 m ρ c main_arg12 (by decide)
  unfold inU2 z2
  rw [e0, e1, e9, e10, e11, e12]

theorem W6_v32_0 (c : Dev nD) : W6 (F := Ideal) m ρ c (Proc.devRef .tc main_v32_0) = z2 m c :=
  (W6_arr m ρ c 6).trans ((hR.z2 (V5 m ρ) c).trans (in2 m ρ hR c))

theorem W6_v32_1 (c : Dev nD) : W6 (F := Ideal) m ρ c (Proc.devRef .tc main_v32_1) = Gin.colSum (z2 m c) :=
  (W6_arr m ρ c 7).trans ((hR.sum2 (V5 m ρ) c).trans (congrArg Gin.colSum (in2 m ρ hR c)))

theorem W6_v32_2 (c : Dev nD) : W6 (F := Ideal) m ρ c (Proc.devRef .tc main_v32_2) = Gin.colSumSq (z2 m c) :=
  (W6_arr m ρ c 8).trans ((hR.sq2 (V5 m ρ) c).trans (congrArg Gin.colSumSq (in2 m ρ hR c)))

theorem W7_v32_0 (c : Dev nD) : W7 (F := Ideal) m ρ c (Proc.devRef .tc main_v32_0) = z2 m c :=
  (hk3 m ρ c main_v32_0 (by decide)).trans (W6_v32_0 m ρ hR c)

theorem W7_v34 (c : Dev nD) :
    W7 (F := Ideal) m ρ c (Proc.devRef .tc main_v34) = Gin.meanOf (Gin.colSum (z2 m c)) := by
  show StableHlo.after hostOps3 (W6 m ρ c) (Proc.devRef .tc main_v34) = _
  after_results_simp
  rw [W6_v32_1 m ρ hR c]
  exact hostMean_eq _

theorem W7_v38 (c : Dev nD) : W7 (F := Ideal) m ρ c (Proc.devRef .tc main_v38) = Gin.varK (z2 m c) := by
  show StableHlo.after hostOps3 (W6 m ρ c) (Proc.devRef .tc main_v38) = _
  after_results_simp
  rw [W6_v32_1 m ρ hR c, W6_v32_2 m ρ hR c]
  exact hostVar_eq _ _

theorem W8_v39 (c : Dev nD) : W8 (F := Ideal) m ρ c (Proc.devRef .tc main_v39) = h2 m c := by
  have e0 : V7 (F := Ideal) m ρ c main_v32_0 = z2 m c := W7_v32_0 m ρ hR c
  have e1 : V7 (F := Ideal) m ρ c main_v34 = Gin.meanOf (Gin.colSum (z2 m c)) := W7_v34 m ρ hR c
  have e2 : V7 (F := Ideal) m ρ c main_v38 = Gin.varK (z2 m c) := W7_v38 m ρ hR c
  have e7 : V7 (F := Ideal) m ρ c main_arg13 = arg m c main_arg13 := keep7 m ρ c main_arg13 (by decide)
  have e8 : V7 (F := Ideal) m ρ c main_arg14 = arg m c main_arg14 := keep7 m ρ c main_arg14 (by decide)
  refine (W8_arr m ρ c 5).trans ((hR.out3 (V7 m ρ) c).trans ?_)
  rw [e0, e1, e2, e7, e8]
  rfl

/-! ## Layer 3 -/

theorem W8_v1 (c : Dev nD) : W8 (F := Ideal) m ρ c (Proc.devRef .tc main_v1) = aggKSrc (edges m c) :=
  (keep4_8 m ρ c main_v1 (by decide)).trans (W4_v1 m ρ hR c)

theorem W8_v3 (c : Dev nD) : W8 (F := Ideal) m ρ c (Proc.devRef .tc main_v3) = aggKDst (edges m c) :=
  (keep4_8 m ρ c main_v3 (by decide)).trans (W4_v3 m ρ hR c)

theorem W9_v39 (c : Dev nD) : W9 (F := Ideal) m ρ c (Proc.devRef .tc main_v39) = h2 m c :=
  (hk4 m ρ c main_v39 (by decide)).trans (W8_v39 m ρ hR c)

theorem W9_v49 (c : Dev nD) :
    W9 (F := Ideal) m ρ c (Proc.devRef .tc main_v49) = aggK128 (edges m c) (h2 m c) := by
  show StableHlo.after hostOps4 (W8 m ρ c) (Proc.devRef .tc main_v49) = _
  after_results_simp
  rw [W8_v1 m ρ hR c, W8_v3 m ρ hR c, W8_v39 m ρ hR c]
  rfl

/-- Region 4 is entered with h₂, its neighbourhood sums and the third perceptron's weights. -/
theorem in4 (c : Dev nD) :
    Gin.mlp (inU4 (V9 (F := Ideal) m ρ) c) (V9 m ρ c main_arg15) (V9 m ρ c main_arg16) (V9 m ρ c main_arg17) (V9 m ρ c main_arg18)
      = z3 m c := by
  have e0 : V9 (F := Ideal) m ρ c main_v39 = h2 m c := W9_v39 m ρ hR c
  have e1 : V9 (F := Ideal) m ρ c main_v49 = aggK128 (edges m c) (h2 m c) := W9_v49 m ρ hR c
  have e9 : V9 (F := Ideal) m ρ c main_arg15 = arg m c main_arg15 := keep9 m ρ c main_arg15 (by decide)
  have e10 : V9 (F := Ideal) m ρ c main_arg16 = arg m c main_arg16 := keep9 m ρ c main_arg16 (by decide)
  have e11 : V9 (F := Ideal) m ρ c main_arg17 = arg m c main_arg17 := keep9 m ρ c main_arg17 (by decide)
  have e12 : V9 (F := Ideal) m ρ c main_arg18 = arg m c main_arg18 := keep9 m ρ c main_arg18 (by decide)
  unfold inU4 z3
  rw [e0, e1, e9, e10, e11, e12]

theorem W10_v50_0 (c : Dev nD) : W10 (F := Ideal) m ρ c (Proc.devRef .tc main_v50_0) = z3 m c :=
  (W10_arr m ρ c 6).trans ((hR.z4 (V9 m ρ) c).trans (in4 m ρ hR c))

theorem W10_v50_1 (c : Dev nD) : W10 (F := Ideal) m ρ c (Proc.devRef .tc main_v50_1) = Gin.colSum (z3 m c) :=
  (W10_arr m ρ c 7).trans ((hR.sum4 (V9 m ρ) c).trans (congrArg Gin.colSum (in4 m ρ hR c)))

theorem W10_v50_2 (c : Dev nD) : W10 (F := Ideal) m ρ c (Proc.devRef .tc main_v50_2) = Gin.colSumSq (z3 m c) :=
  (W10_arr m ρ c 8).trans ((hR.sq4 (V9 m ρ) c).trans (congrArg Gin.colSumSq (in4 m ρ hR c)))

theorem W11_v50_0 (c : Dev nD) : W11 (F := Ideal) m ρ c (Proc.devRef .tc main_v50_0) = z3 m c :=
  (hk5 m ρ c main_v50_0 (by decide)).trans (W10_v50_0 m ρ hR c)

theorem W11_v52 (c : Dev nD) :
    W11 (F := Ideal) m ρ c (Proc.devRef .tc main_v52) = Gin.meanOf (Gin.colSum (z3 m c)) := by
  show StableHlo.after hostOps5 (W10 m ρ c) (Proc.devRef .tc main_v52) = _
  after_results_simp
  rw [W10_v50_1 m ρ hR c]
  exact hostMean_eq _

theorem W11_v56 (c : Dev nD) : W11 (F := Ideal) m ρ c (Proc.devRef .tc main_v56) = Gin.varK (z3 m c) := by
  show StableHlo.after hostOps5 (W10 m ρ c) (Proc.devRef .tc main_v56) = _
  after_results_simp
  rw [W10_v50_1 m ρ hR c, W10_v50_2 m ρ hR c]
  exact hostVar_eq _ _

theorem W12_v57 (c : Dev nD) : W12 (F := Ideal) m ρ c (Proc.devRef .tc main_v57) = h3 m c := by
  have e0 : V11 (F := Ideal) m ρ c main_v50_0 = z3 m c := W11_v50_0 m ρ hR c
  have e1 : V11 (F := Ideal) m ρ c main_v52 = Gin.meanOf (Gin.colSum (z3 m c)) := W11_v52 m ρ hR c
  have e2 : V11 (F := Ideal) m ρ c main_v56 = Gin.varK (z3 m c) := W11_v56 m ρ hR c
  have e7 : V11 (F := Ideal) m ρ c main_arg19 = arg m c main_arg19 := keep11 m ρ c main_arg19 (by decide)
  have e8 : V11 (F := Ideal) m ρ c main_arg20 = arg m c main_arg20 := keep11 m ρ c main_arg20 (by decide)
  refine (W12_arr m ρ c 5).trans ((hR.out5 (V11 m ρ) c).trans ?_)
  rw [e0, e1, e2, e7, e8]
  rfl

/-! ## Pooling and the last affine map -/

theorem W13_v57 (c : Dev nD) : W13 (F := Ideal) m ρ c (Proc.devRef .tc main_v57) = h3 m c :=
  (hk6 m ρ c main_v57 (by decide)).trans (W12_v57 m ρ hR c)

/-- The graph numbers the pooling region reads off its column are the argument's. -/
theorem gNo13 (c : Dev nD) : gNo (V13 (F := Ideal) m ρ) c = (show Gin.Wd Gin.NN from arg m c main_arg2) := by
  have e : V13 (F := Ideal) m ρ c main_v58
      = shapeCast S100000x1 (show IVec S100000 32 from arg m c main_arg2) shapeCasts_S100000_S100000x1 := by
    show StableHlo.after hostOps6 (W12 m ρ c) (Proc.devRef .tc main_v58) = _
    after_results_simp
    rw [keep12 m ρ c main_arg2 (by decide)]
    rfl
  unfold gNo
  rw [e]
  exact graphCol_eq _

theorem W14_v59_0 (c : Dev nD) :
    W14 (F := Ideal) m ρ c (Proc.devRef .tc main_v59_0) = Gin.poolSum (h3 m c) (arg m c main_arg2) := by
  have e0 : V13 (F := Ideal) m ρ c main_v57 = h3 m c := W13_v57 m ρ hR c
  refine (W14_arr m ρ c 2).trans ((hR.sum6 (V13 m ρ) c).trans ?_)
  rw [e0, gNo13 m ρ hR c]

theorem W14_v59_1 (c : Dev nD) :
    W14 (F := Ideal) m ρ c (Proc.devRef .tc main_v59_1) = Gin.poolCnt (arg m c main_arg2) := by
  refine (W14_arr m ρ c 3).trans ((hR.cnt6 (V13 m ρ) c).trans ?_)
  rw [gNo13 m ρ hR c]

omit hR

/-- The result buffer at the last boundary of the fold is the network of the launch contents of the arguments. -/
theorem W15_result (hR : RegionValues) (c : Dev nD) :
    W15 (F := Ideal) m ρ c (Proc.devRef .tc main_v68)
      = Gin.net Gin.varK (aggK64 (m ((c.tc : Thread nD τ).loc main_arg1))) (aggK128 (m ((c.tc : Thread nD τ).loc main_arg1)))
          (m ((c.tc : Thread nD τ).loc main_arg0))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22)) := by
  have e : W15 (F := Ideal) m ρ c (Proc.devRef .tc main_v68)
      = Gin.head (Gin.poolSum (h3 m c) (arg m c main_arg2)) (Gin.poolCnt (arg m c main_arg2))
          (arg m c main_arg21) (arg m c main_arg22) := by
    show StableHlo.after hostOps7 (W14 m ρ c) (Proc.devRef .tc main_v68) = _
    after_results_simp
    rw [W14_v59_0 m ρ hR c, W14_v59_1 m ρ hR c, keep14 m ρ c main_arg21 (by decide), keep14 m ρ c main_arg22 (by decide)]
    exact hostHead_eq _ _ _ _
  rw [e]
  rfl

end Cert.KernelIdeal.KVal

end
-- ==== Proof.RAgg.lean ====
/-
  The neighbourhood sums of a feature matrix, as the program's own host operations compute them: the senders and the
  receivers of the edges are the two rows of the edge list; a negative sender is counted from the end; every edge
  takes its sender's row of the matrix (the row number clamped into range), and the rows taken are added up by
  receiver into a zero matrix, an edge whose receiver is no row adding nothing.
-/
import proofs.«423186_j27333171871744_1_alg».proof.ReferenceIdeal
import Idealize.ShloMosaic.PureOps.Ideal

noncomputable section

open Idealize.ShloMosaic

namespace Cert.ReferenceIdeal.RVal

open Cert.ReferenceIdeal

variable [Facts]
open Facts₀ Facts

/-- The senders: row 0 of the edge list, as a vector. -/
def aggRSrc (e : IVec S2x1600000 32) : IVec S1600000 32 :=
  shapeCast S1600000 (extractStridedSlice S1x1600000 ![0, 0] e slices_S2x1600000_S1x1600000_0_0) shapeCasts_S1x1600000_S1600000
/-- The receivers: row 1 of the edge list, as a vector. -/
def aggRDst (e : IVec S2x1600000 32) : IVec S1600000 32 :=
  shapeCast S1600000 (extractStridedSlice S1x1600000 ![1, 0] e slices_S2x1600000_S1x1600000_1_0) shapeCasts_S1x1600000_S1600000
/-- A negative row number is counted from the end: s + 100000 where s < 0, else s. -/
def aggRWrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The neighbourhood sums of a matrix of 64 columns. -/
def aggR64 (e : IVec S2x1600000 32) (h : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (aggRDst e))
    (Host.gather gather_S100000x64_S1600000x1_S1600000x64_1_0_n_n_0_1_164 h
      (broadcastInDim S1600000x1 ![0] bcast_S1600000_S1600000x1_0 (aggRWrap (aggRSrc e))))

/-- The neighbourhood sums of a matrix of 128 columns. -/
def aggR128 (e : IVec S2x1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (aggRDst e))
    (Host.gather gather_S100000x128_S1600000x1_S1600000x128_1_0_n_n_0_1_1128 h
      (broadcastInDim S1600000x1 ![0] bcast_S1600000_S1600000x1_0 (aggRWrap (aggRSrc e))))

end Cert.ReferenceIdeal.RVal

end
-- ==== Proof.RDefs.lean ====
/-
  The reference's result as one term of its argument arrays, in the program's own host operations: a layer adds the
  neighbourhood sums to the features, applies the two affine maps with a clamp at zero between them, normalizes every
  column by its mean and by its variance (the mean of the squared deviations from the mean, guarded by the word for
  1e-5), scales, shifts and clamps; after three layers the rows are added up by graph number, divided by the number of
  rows of each graph (at least one), and sent through a last affine map.
-/
import proofs.«423186_j27333171871744_1_alg».proof.ReferenceIdeal
import proofs.«423186_j27333171871744_1_alg».proof.Proof.RAgg
import Idealize.ShloMosaic.PureOps.Ideal

noncomputable section

open Idealize.ShloMosaic

namespace Cert.ReferenceIdeal.RVal

open Cert.ReferenceIdeal

variable [Facts]
open Facts₀ Facts

/-- The scalar words the program spells: 0.0, 100000.0, 1e-5, 1.0 and the not-a-number word. -/
abbrev zS : FVec Ideal S_ .f32 := constant (F := Ideal) S_ .f32 0x00000000#32
abbrev nS : FVec Ideal S_ .f32 := constant (F := Ideal) S_ .f32 0x47C35000#32
abbrev eS : FVec Ideal S_ .f32 := constant (F := Ideal) S_ .f32 0x3727C5AC#32
abbrev oS : FVec Ideal S_ .f32 := constant (F := Ideal) S_ .f32 0x3F800000#32
abbrev qS : FVec Ideal S_ .f32 := constant (F := Ideal) S_ .f32 0x7FC00000#32

/-- The clamp at zero. -/
def reluR (x : FVec Ideal S100000x128 .f32) : FVec Ideal S100000x128 .f32 :=
  maximumf x (broadcastInDim S100000x128 ![] bcast_S_S100000x128 zS)

/-- A vector of 128 laid along every row of a [100000, 128] matrix. -/
def rowsR (v : FVec Ideal S128 .f32) : FVec Ideal S100000x128 .f32 :=
  broadcastInDim S100000x128 ![0, 1] bcast_S1x128_S100000x128_0_1 (broadcastInDim S1x128 ![1] bcast_S128_S1x128_1 v)

/-- The sum of every column. -/
def sumR (z : FVec Ideal S100000x128 .f32) : FVec Ideal S128 .f32 :=
  Host.reduceAdd z zS reducesTo_S100000x128_S128_d0 h_S_

/-- The mean of every column. -/
def meanR (z : FVec Ideal S100000x128 .f32) : FVec Ideal S128 .f32 :=
  Host.divf (sumR z) (broadcastInDim S128 ![] bcast_S_S128 nS)

/-- The variance of every column: the mean of the squared deviations from the column's mean, kept where the divisor
    100000 − 0 is positive. -/
def varFnR (z : FVec Ideal S100000x128 .f32) : FVec Ideal S128 .f32 :=
  select (broadcastInDim S128 ![] bcast_S_S128 (cmpf .ogt (subf nS (sitofp .f32 (constantI S_ 32 0#32))) zS))
    (Host.divf
      (Host.reduceAdd
        (mulf
          (subf z (broadcastInDim S100000x128 ![0, 1] bcast_S1x128_S100000x128_0_1
            (Host.divf (broadcastInDim S1x128 ![1] bcast_S128_S1x128_1 (sumR z)) (broadcastInDim S1x128 ![] bcast_S_S1x128 nS))))
          (subf z (broadcastInDim S100000x128 ![0, 1] bcast_S1x128_S100000x128_0_1
            (Host.divf (broadcastInDim S1x128 ![1] bcast_S128_S1x128_1 (sumR z)) (broadcastInDim S1x128 ![] bcast_S_S1x128 nS)))))
        zS reducesTo_S100000x128_S128_d0 h_S_)
      (broadcastInDim S128 ![] bcast_S_S128 (subf nS (sitofp .f32 (constantI S_ 32 0#32)))))
    (broadcastInDim S128 ![] bcast_S_S128 qS)

/-- The normalization, scale, shift and clamp of z. -/
def bnR (z : FVec Ideal S100000x128 .f32) (g b : FVec Ideal S128 .f32) : FVec Ideal S100000x128 .f32 :=
  reluR (addf (mulf (mulf (subf z (rowsR (meanR z)))
    (rowsR (Host.rsqrt (addf (varFnR z) (broadcastInDim S128 ![] bcast_S_S128 eS))))) (rowsR g)) (rowsR b))

/-- The two affine maps of the first layer (64 input columns) … -/
def mlpR64 (u : FVec Ideal S100000x64 .f32) (w1 : FVec Ideal S64x128 .f32) (b1 : FVec Ideal S128 .f32)
    (w2 : FVec Ideal S128x128 .f32) (b2 : FVec Ideal S128 .f32) : FVec Ideal S100000x128 .f32 :=
  addf (Host.dotGeneral dot_S100000x128_S128x128_S100000x128_1_0_0_1_n_n none
    (reluR (addf (Host.dotGeneral dot_S100000x64_S64x128_S100000x128_1_0_0_1_n_n none u w1) (rowsR b1))) w2) (rowsR b2)
/-- … and of the other two (128 input columns). -/
def mlpR128 (u : FVec Ideal S100000x128 .f32) (w1 : FVec Ideal S128x128 .f32) (b1 : FVec Ideal S128 .f32)
    (w2 : FVec Ideal S128x128 .f32) (b2 : FVec Ideal S128 .f32) : FVec Ideal S100000x128 .f32 :=
  addf (Host.dotGeneral dot_S100000x128_S128x128_S100000x128_1_0_0_1_n_n none
    (reluR (addf (Host.dotGeneral dot_S100000x128_S128x128_S100000x128_1_0_0_1_n_n none u w1) (rowsR b1))) w2) (rowsR b2)

def layerR64 (e : IVec S2x1600000 32) (h : FVec Ideal S100000x64 .f32) (w1 : FVec Ideal S64x128 .f32)
    (b1 : FVec Ideal S128 .f32) (w2 : FVec Ideal S128x128 .f32) (b2 g b : FVec Ideal S128 .f32) : FVec Ideal S100000x128 .f32 :=
  bnR (mlpR64 (addf h (aggR64 e h)) w1 b1 w2 b2) g b
def layerR128 (e : IVec S2x1600000 32) (h : FVec Ideal S100000x128 .f32) (w1 : FVec Ideal S128x128 .f32)
    (b1 : FVec Ideal S128 .f32) (w2 : FVec Ideal S128x128 .f32) (b2 g b : FVec Ideal S128 .f32) : FVec Ideal S100000x128 .f32 :=
  bnR (mlpR128 (addf h (aggR128 e h)) w1 b1 w2 b2) g b

/-- The graph numbers as a column. -/
def colR (bt : IVec S100000 32) : IVec S100000x1 32 := broadcastInDim S100000x1 ![0] bcast_S100000_S100000x1_0 bt

/-- The pooling and the last affine map. -/
def headR (h : FVec Ideal S100000x128 .f32) (bt : IVec S100000 32) (pw : FVec Ideal S128x128 .f32) (pb : FVec Ideal S128 .f32) :
    FVec Ideal S256x128 .f32 :=
  addf (Host.dotGeneral dot_S256x128_S128x128_S256x128_1_0_0_1_n_n none
    (Host.divf
      (Host.scatterAdd scatter_S256x128_S100000x1_S100000x128_1_0_0_1 (broadcastInDim S256x128 ![] bcast_S_S256x128 zS) (colR bt) h)
      (broadcastInDim S256x128 ![0, 1] bcast_S256x1_S256x128_0_1
        (maximumf
          (Host.scatterAdd scatter_S256x1_S100000x1_S100000x1_1_0_0_1 (broadcastInDim S256x1 ![] bcast_S_S256x1 zS) (colR bt)
            (broadcastInDim S100000x1 ![] bcast_S_S100000x1 oS))
          (broadcastInDim S256x1 ![] bcast_S_S256x1 oS))))
    pw)
    (broadcastInDim S256x128 ![0, 1] bcast_S1x128_S256x128_0_1 (broadcastInDim S1x128 ![1] bcast_S128_S1x128_1 pb))

/-- The reference's result as a term of its 23 argument arrays. -/
def refNet (x : FVec Ideal S100000x64 .f32) (e : IVec S2x1600000 32) (bt : IVec S100000 32)
    (w10 : FVec Ideal S64x128 .f32) (b10 : FVec Ideal S128 .f32) (w20 : FVec Ideal S128x128 .f32) (b20 g0 be0 : FVec Ideal S128 .f32)
    (w11 : FVec Ideal S128x128 .f32) (b11 : FVec Ideal S128 .f32) (w21 : FVec Ideal S128x128 .f32) (b21 g1 be1 : FVec Ideal S128 .f32)
    (w12 : FVec Ideal S128x128 .f32) (b12 : FVec Ideal S128 .f32) (w22 : FVec Ideal S128x128 .f32) (b22 g2 be2 : FVec Ideal S128 .f32)
    (pw : FVec Ideal S128x128 .f32) (pb : FVec Ideal S128 .f32) : FVec Ideal S256x128 .f32 :=
  headR (layerR128 e (layerR128 e (layerR64 e x w10 b10 w20 b20 g0 be0) w11 b11 w21 b21 g1 be1) w12 b12 w22 b22 g2 be2) bt pw pb

end Cert.ReferenceIdeal.RVal

end
-- ==== Proof.RRunOps.lean ====
import proofs.«423186_j27333171871744_1_alg».proof.Proof.Gen.ReferenceIdeal
import Idealize.ShloMosaic.Lib.StableHlo.Run

noncomputable section

open Idealize.ShloMosaic Idealize.ShloMosaic.TcCoe Idealize.SL.Sem

namespace Cert.ReferenceIdeal.RVal.RRun

open Cert.ReferenceIdeal Cert.ReferenceIdeal.Gen Idealize.ShloMosaic.StableHlo

variable {F : FTy → Type} [FloatOps F]

/-- The 85 operations of @main's part 0, in order; a call is its function's operations over that call's own buffers. -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg3 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg4 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    nullary main_call0_cst (constant S_ .f32 0x00000000#32),
    unary main_call0_cst main_call0_v0 ((broadcastInDim S100000x128 ![] bcast_S_S100000x128) : (⟨S_, .f32⟩ : BufTy).Contents (Elt F) → (⟨S100000x128, .f32⟩ : BufTy).Contents (Elt F)),
    binary main_v18 main_call0_v0 main_v19 (maximumf : (⟨S100000x128, .f32⟩ : BufTy).Contents (Elt F) → (⟨S100000x128, .f32⟩ : BufTy).Contents (Elt F) → (⟨S100000x128, .f32⟩ : BufTy).Contents (Elt F)),
    binary main_v19 main_arg5 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v23 main_cst_1 main_v24 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v25 (broadcastInDim S128 ![] bcast_S_S128 : (⟨S_, .f32⟩ : BufTy).Contents (Elt F) → (⟨S128, .f32⟩ : BufTy).Contents (Elt F)),
    binary main_v24 main_v25 main_v26 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    nullary main_call1_cst (constant S_ .f32 0x00000000#32),
    binary main_v23 main_call1_cst main_call1_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call1_v0 main_call1_v1 ((broadcastInDim S1x128 ![1] bcast_S128_S1x128_1) : (⟨S128, .f32⟩ : BufTy).Contents (Elt F) → (⟨S1x128, .f32⟩ : BufTy).Contents (Elt F)),
    nullary main_call1_cst_0 (constant S_ .f32 0x47C35000#32),
    unary main_call1_cst_0 main_call1_v2 ((broadcastInDim S1x128 ![] bcast_S_S1x128) : (⟨S_, .f32⟩ : BufTy).Contents (Elt F) → (⟨S1x128, .f32⟩ : BufTy).Contents (Elt F)),
    binary main_call1_v1 main_call1_v2 main_call1_v3 (Host.divf : (⟨S1x128, .f32⟩ : BufTy).Contents (Elt F) → (⟨S1x128, .f32⟩ : BufTy).Contents (Elt F) → (⟨S1x128, .f32⟩ : BufTy).Contents (Elt F)),
    unary main_call1_v3 main_call1_v4 ((broadcastInDim S100000x128 ![0, 1] bcast_S1x128_S100000x128_0_1) : (⟨S1x128, .f32⟩ : BufTy).Contents (Elt F) → (⟨S100000x128, .f32⟩ : BufTy).Contents (Elt F)),
    binary main_v23 main_call1_v4 main_call1_v5 (subf : (⟨S100000x128, .f32⟩ : BufTy).Contents (Elt F) → (⟨S100000x128, .f32⟩ : BufTy).Contents (Elt F) → (⟨S100000x128, .f32⟩ : BufTy).Contents (Elt F)),
    binary main_call1_v5 main_call1_v5 main_call1_v6 (mulf : (⟨S100000x128, .f32⟩ : BufTy).Contents (Elt F) → (⟨S100000x128, .f32⟩ : BufTy).Contents (Elt F) → (⟨S100000x128, .f32⟩ : BufTy).Contents (Elt F)),
    unary main_c_3 main_call1_v7 ((sitofp .f32) : (⟨S_, .i32⟩ : BufTy).Contents (Elt F) → (⟨S_, .f32⟩ : BufTy).Contents (Elt F)),
    nullary main_call1_cst_1 (constant S_ .f32 0x47C35000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call1_v8 main_call1_v10 ((broadcastInDim S128 ![] bcast_S_S128) : (⟨S_, .f32⟩ : BufTy).Contents (Elt F) → (⟨S128, .f32⟩ : BufTy).Contents (Elt F)),
    binary main_call1_v9 main_call1_v10 main_call1_v11 (Host.divf : (⟨S128, .f32⟩ : BufTy).Contents (Elt F) → (⟨S128, .f32⟩ : BufTy).Contents (Elt F) → (⟨S128, .f32⟩ : BufTy).Contents (Elt F)),
    nullary main_call1_cst_3 (constant S_ .f32 0x00000000#32),
    binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 ((broadcastInDim S128 ![] bcast_S_S128) : (⟨S_, .f32⟩ : BufTy).Contents (Elt F) → (⟨S128, .f32⟩ : BufTy).Contents (Elt F)),
    ternary main_call1_v12 main_call1_v11 main_call1_call0_v1 main_v27 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v26 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v23 main_v29 main_v30 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v31 (broadcastInDim S128 ![] bcast_S_S128 : (⟨S_, .f32⟩ : BufTy).Contents (Elt F) → (⟨S128, .f32⟩ : BufTy).Contents (Elt F)),
    binary main_v27 main_v31 main_v32 (addf : (⟨S128, .f32⟩ : BufTy).Contents (Elt F) → (⟨S128, .f32⟩ : BufTy).Contents (Elt F) → (⟨S128, .f32⟩ : BufTy).Contents (Elt F)),
    unary main_v32 main_v33 (Host.rsqrt : (⟨S128, .f32⟩ : BufTy).Contents (Elt F) → (⟨S128, .f32⟩ : BufTy).Contents (Elt F)),
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v30 main_v35 main_v36 (mulf : (⟨S100000x128, .f32⟩ : BufTy).Contents (Elt F) → (⟨S100000x128, .f32⟩ : BufTy).Contents (Elt F) → (⟨S100000x128, .f32⟩ : BufTy).Contents (Elt F)),
    unary main_arg7 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (mulf : (⟨S100000x128, .f32⟩ : BufTy).Contents (Elt F) → (⟨S100000x128, .f32⟩ : BufTy).Contents (Elt F) → (⟨S100000x128, .f32⟩ : BufTy).Contents (Elt F)),
    unary main_arg8 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (addf : (⟨S100000x128, .f32⟩ : BufTy).Contents (Elt F) → (⟨S100000x128, .f32⟩ : BufTy).Contents (Elt F) → (⟨S100000x128, .f32⟩ : BufTy).Contents (Elt F)),
    nullary main_call2_cst (constant S_ .f32 0x00000000#32),
    unary main_call2_cst main_call2_v0 ((broadcastInDim S100000x128 ![] bcast_S_S100000x128) : (⟨S_, .f32⟩ : BufTy).Contents (Elt F) → (⟨S100000x128, .f32⟩ : BufTy).Contents (Elt F)),
    binary main_v42 main_call2_v0 main_v43 (maximumf : (⟨S100000x128, .f32⟩ : BufTy).Contents (Elt F) → (⟨S100000x128, .f32⟩ : BufTy).Contents (Elt F) → (⟨S100000x128, .f32⟩ : BufTy).Contents (Elt F)),
    nullary main_c_5 (constantI S_ 32 0#32),
    unary main_c_5 main_v44 (broadcastInDim S1600000 ![] bcast_S_S1600000 : (⟨S_, .i32⟩ : BufTy).Contents (Elt F) → (⟨S1600000, .i32⟩ : BufTy).Contents (Elt F)),
    binary main_v1 main_v44 main_v45 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v46 (broadcastInDim S1600000 ![] bcast_S_S1600000 : (⟨S_, .i32⟩ : BufTy).Contents (Elt F) → (⟨S1600000, .i32⟩ : BufTy).Contents (Elt F)),
    binary main_v1 main_v46 main_v47 (addi : (⟨S1600000, .i32⟩ : BufTy).Contents (Elt F) → (⟨S1600000, .i32⟩ : BufTy).Contents (Elt F) → (⟨S1600000, .i32⟩ : BufTy).Contents (Elt F)),
    ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v48 main_v49 (broadcastInDim S1600000x1 ![0] bcast_S1600000_S1600000x1_0 : (⟨S1600000, .i32⟩ : BufTy).Contents (Elt F) → (⟨S1600000x1, .i32⟩ : BufTy).Contents (Elt F)),
    binary main_v43 main_v49 main_v50 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

/-- Every operation of part 0 touches buffers of the TensorCore only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub ..⟩

/-- Every operation of part 0 determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

/-- The 87 operations of @main's part 1, in order; a call is its function's operations over that call's own buffers. -/
abbrev ops1 : List (HloOp τ sig (Elt F)) :=
  [ nullary main_cst_7 (constant S_ .f32 0x00000000#32),
    unary main_cst_7 main_v51 (broadcastInDim S100000x128 ![] bcast_S_S100000x128 : (⟨S_, .f32⟩ : BufTy).Contents (Elt F) → (⟨S100000x128, .f32⟩ : BufTy).Contents (Elt F)),
    unary main_v3 main_v52 (broadcastInDim S1600000x1 ![0] bcast_S1600000_S1600000x1_0 : (⟨S1600000, .i32⟩ : BufTy).Contents (Elt F) → (⟨S1600000x1, .i32⟩ : BufTy).Contents (Elt F)),
    ternary main_v51 main_v52 main_v50 main_v53 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v43 main_v53 main_v54 (addf : (⟨S100000x128, .f32⟩ : BufTy).Contents (Elt F) → (⟨S100000x128, .f32⟩ : BufTy).Contents (Elt F) → (⟨S100000x128, .f32⟩ : BufTy).Contents (Elt F)),
    binary main_v54 main_arg9 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)),
    nullary main_call3_cst (constant S_ .f32 0x00000000#32),
    unary main_call3_cst main_call3_v0 ((broadcastInDim S100000x128 ![] bcast_S_S100000x128) : (⟨S_, .f32⟩ : BufTy).Contents (Elt F) → (⟨S100000x128, .f32⟩ : BufTy).Contents (Elt F)),
    binary main_v58 main_call3_v0 main_v59 (maximumf : (⟨S100000x128, .f32⟩ : BufTy).Contents (Elt F) → (⟨S100000x128, .f32⟩ : BufTy).Contents (Elt F) → (⟨S100000x128, .f32⟩ : BufTy).Contents (Elt F)),
    binary main_v59 main_arg11 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v63 main_cst_8 main_v64 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v65 (broadcastInDim S128 ![] bcast_S_S128 : (⟨S_, .f32⟩ : BufTy).Contents (Elt F) → (⟨S128, .f32⟩ : BufTy).Contents (Elt F)),
    binary main_v64 main_v65 main_v66 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    nullary main_call4_cst (constant S_ .f32 0x00000000#32),
    binary main_v63 main_call4_cst main_call4_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call4_v0 main_call4_v1 ((broadcastInDim S1x128 ![1] bcast_S128_S1x128_1) : (⟨S128, .f32⟩ : BufTy).Contents (Elt F) → (⟨S1x128, .f32⟩ : BufTy).Contents (Elt F)),
    nullary main_call4_cst_0 (constant S_ .f32 0x47C35000#32),
    unary main_call4_cst_0 main_call4_v2 ((broadcastInDim S1x128 ![] bcast_S_S1x128) : (⟨S_, .f32⟩ : BufTy).Contents (Elt F) → (⟨S1x128, .f32⟩ : BufTy).Contents (Elt F)),
    binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    unary main_call4_v3 main_call4_v4 ((broadcastInDim S100000x128 ![0, 1] bcast_S1x128_S100000x128_0_1) : (⟨S1x128, .f32⟩ : BufTy).Contents (Elt F) → (⟨S100000x128, .f32⟩ : BufTy).Contents (Elt F)),
    binary main_v63 main_call4_v4 main_call4_v5 (subf : (⟨S100000x128, .f32⟩ : BufTy).Contents (Elt F) → (⟨S100000x128, .f32⟩ : BufTy).Contents (Elt F) → (⟨S100000x128, .f32⟩ : BufTy).Contents (Elt F)),
    binary main_call4_v5 main_call4_v5 main_call4_v6 (mulf : (⟨S100000x128, .f32⟩ : BufTy).Contents (Elt F) → (⟨S100000x128, .f32⟩ : BufTy).Contents (Elt F) → (⟨S100000x128, .f32⟩ : BufTy).Contents (Elt F)),
    unary main_c_10 main_call4_v7 ((sitofp .f32) : (⟨S_, .i32⟩ : BufTy).Contents (Elt F) → (⟨S_, .f32⟩ : BufTy).Contents (Elt F)),
    nullary main_call4_cst_1 (constant S_ .f32 0x47C35000#32),
    binary main_call4_cst_1 main_call4_v7 main_call4_v8 (subf : (⟨S_, .f32⟩ : BufTy).Contents (Elt F) → (⟨S_, .f32⟩ : BufTy).Contents (Elt F) → (⟨S_, .f32⟩ : BufTy).Contents (Elt F)),
    nullary main_call4_cst_2 (constant S_ .f32 0x00000000#32),
    binary main_call4_v6 main_call4_cst_2 main_call4_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call4_v8 main_call4_v10 ((broadcastInDim S128 ![] bcast_S_S128) : (⟨S_, .f32⟩ : BufTy).Contents (Elt F) → (⟨S128, .f32⟩ : BufTy).Contents (Elt F)),
    binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    nullary main_call4_cst_3 (constant S_ .f32 0x00000000#32),
    binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    nullary main_call4_cst_4 (constant S_ .f32 0x7FC00000#32),
    unary main_call4_cst_4 main_call4_call0_v0 (id : (⟨S_, .f32⟩ : BufTy).Contents (Elt F) → (⟨S_, .f32⟩ : BufTy).Contents (Elt F)),
    unary main_call4_call0_v0 main_call4_call0_v1 ((broadcastInDim S128 ![] bcast_S_S128) : (⟨S_, .f32⟩ : BufTy).Contents (Elt F) → (⟨S128, .f32⟩ : BufTy).Contents (Elt F)),
    ternary main_call4_v12 main_call4_v11 main_call4_call0_v1 main_v67 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v66 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v63 main_v69 main_v70 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v71 (broadcastInDim S128 ![] bcast_S_S128 : (⟨S_, .f32⟩ : BufTy).Contents (Elt F) → (⟨S128, .f32⟩ : BufTy).Contents (Elt F)),
    binary main_v67 main_v71 main_v72 (addf : (⟨S128, .f32⟩ : BufTy).Contents (Elt F) → (⟨S128, .f32⟩ : BufTy).Contents (Elt F) → (⟨S128, .f32⟩ : BufTy).Contents (Elt F)),
    unary main_v72 main_v73 (Host.rsqrt : (⟨S128, .f32⟩ : BufTy).Contents (Elt F) → (⟨S128, .f32⟩ : BufTy).Contents (Elt F)),
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v70 main_v75 main_v76 (mulf : (⟨S100000x128, .f32⟩ : BufTy).Contents (Elt F) → (⟨S100000x128, .f32⟩ : BufTy).Contents (Elt F) → (⟨S100000x128, .f32⟩ : BufTy).Contents (Elt F)),
    unary main_arg13 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (mulf : (⟨S100000x128, .f32⟩ : BufTy).Contents (Elt F) → (⟨S100000x128, .f32⟩ : BufTy).Contents (Elt F) → (⟨S100000x128, .f32⟩ : BufTy).Contents (Elt F)),
    unary main_arg14 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)),
    nullary main_call5_cst (constant S_ .f32 0x00000000#32),
    unary main_call5_cst main_call5_v0 ((broadcastInDim S100000x128 ![] bcast_S_S100000x128) : (⟨S_, .f32⟩ : BufTy).Contents (Elt F) → (⟨S100000x128, .f32⟩ : BufTy).Contents (Elt F)),
    binary main_v82 main_call5_v0 main_v83 (maximumf : (⟨S100000x128, .f32⟩ : BufTy).Contents (Elt F) → (⟨S100000x128, .f32⟩ : BufTy).Contents (Elt F) → (⟨S100000x128, .f32⟩ : BufTy).Contents (Elt F)),
    nullary main_c_12 (constantI S_ 32 0#32),
    unary main_c_12 main_v84 (broadcastInDim S1600000 ![] bcast_S_S1600000 : (⟨S_, .i32⟩ : BufTy).Contents (Elt F) → (⟨S1600000, .i32⟩ : BufTy).Contents (Elt F)),
    binary main_v1 main_v84 main_v85 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v86 (broadcastInDim S1600000 ![] bcast_S_S1600000 : (⟨S_, .i32⟩ : BufTy).Contents (Elt F) → (⟨S1600000, .i32⟩ : BufTy).Contents (Elt F)),
    binary main_v1 main_v86 main_v87 (addi : (⟨S1600000, .i32⟩ : BufTy).Contents (Elt F) → (⟨S1600000, .i32⟩ : BufTy).Contents (Elt F) → (⟨S1600000, .i32⟩ : BufTy).Contents (Elt F)),
    ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v88 main_v89 (broadcastInDim S1600000x1 ![0] bcast_S1600000_S1600000x1_0 : (⟨S1600000, .i32⟩ : BufTy).Contents (Elt F) → (⟨S1600000x1, .i32⟩ : BufTy).Contents (Elt F)),
    binary main_v83 main_v89 main_v90 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v91 (broadcastInDim S100000x128 ![] bcast_S_S100000x128 : (⟨S_, .f32⟩ : BufTy).Contents (Elt F) → (⟨S100000x128, .f32⟩ : BufTy).Contents (Elt F)),
    unary main_v3 main_v92 (broadcastInDim S1600000x1 ![0] bcast_S1600000_S1600000x1_0 : (⟨S1600000, .i32⟩ : BufTy).Contents (Elt F) → (⟨S1600000x1, .i32⟩ : BufTy).Contents (Elt F)),
    ternary main_v91 main_v92 main_v90 main_v93 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v83 main_v93 main_v94 (addf : (⟨S100000x128, .f32⟩ : BufTy).Contents (Elt F) → (⟨S100000x128, .f32⟩ : BufTy).Contents (Elt F) → (⟨S100000x128, .f32⟩ : BufTy).Contents (Elt F)),
    binary main_v94 main_arg15 main_v95 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg16 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v95 main_v97 main_v98 (addf : (⟨S100000x128, .f32⟩ : BufTy).Contents (Elt F) → (⟨S100000x128, .f32⟩ : BufTy).Contents (Elt F) → (⟨S100000x128, .f32⟩ : BufTy).Contents (Elt F)),
    nullary main_call6_cst (constant S_ .f32 0x00000000#32),
    unary main_call6_cst main_call6_v0 ((broadcastInDim S100000x128 ![] bcast_S_S100000x128) : (⟨S_, .f32⟩ : BufTy).Contents (Elt F) → (⟨S100000x128, .f32⟩ : BufTy).Contents (Elt F)),
    binary main_v98 main_call6_v0 main_v99 (maximumf : (⟨S100000x128, .f32⟩ : BufTy).Contents (Elt F) → (⟨S100000x128, .f32⟩ : BufTy).Contents (Elt F) → (⟨S100000x128, .f32⟩ : BufTy).Contents (Elt F)),
    binary main_v99 main_arg17 main_v100 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg18 main_v101 (broadcastInDim S1x128 ![1] bcast_S128_S1x128_1 : (⟨S128, .f32⟩ : BufTy).Contents (Elt F) → (⟨S1x128, .f32⟩ : BufTy).Contents (Elt F)),
    unary main_v101 main_v102 (broadcastInDim S100000x128 ![0, 1] bcast_S1x128_S100000x128_0_1 : (⟨S1x128, .f32⟩ : BufTy).Contents (Elt F) → (⟨S100000x128, .f32⟩ : BufTy).Contents (Elt F)) ]

/-- Every operation of part 1 touches buffers of the TensorCore only. -/
theorem ops1_sub : (ops1 : List (HloOp τ sig (Elt F))).Forall fun op => op.bufs ⊆ tcRefs τ sig :=
  ⟨nullary_bufs_sub .., unary_bufs_sub .., unary_bufs_sub .., ternary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub ..⟩

/-- Every operation of part 1 determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl⟩

/-- The 67 operations of @main's part 2, in order; a call is its function's operations over that call's own buffers. -/
abbrev ops2 : List (HloOp τ sig (Elt F)) :=
  [ binary main_v100 main_v102 main_v103 (addf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x00000000#32),
    binary main_v103 main_cst_15 main_v104 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_16 (constant S_ .f32 0x47C35000#32),
    unary main_cst_16 main_v105 (broadcastInDim S128 ![] bcast_S_S128 : (⟨S_, .f32⟩ : BufTy).Contents (Elt F) → (⟨S128, .f32⟩ : BufTy).Contents (Elt F)),
    binary main_v104 main_v105 main_v106 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    nullary main_call7_cst (constant S_ .f32 0x00000000#32),
    binary main_v103 main_call7_cst main_call7_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call7_v0 main_call7_v1 ((broadcastInDim S1x128 ![1] bcast_S128_S1x128_1) : (⟨S128, .f32⟩ : BufTy).Contents (Elt F) → (⟨S1x128, .f32⟩ : BufTy).Contents (Elt F)),
    nullary main_call7_cst_0 (constant S_ .f32 0x47C35000#32),
    unary main_call7_cst_0 main_call7_v2 ((broadcastInDim S1x128 ![] bcast_S_S1x128) : (⟨S_, .f32⟩ : BufTy).Contents (Elt F) → (⟨S1x128, .f32⟩ : BufTy).Contents (Elt F)),
    binary main_call7_v1 main_call7_v2 main_call7_v3 (Host.divf : (⟨S1x128, .f32⟩ : BufTy).Contents (Elt F) → (⟨S1x128, .f32⟩ : BufTy).Contents (Elt F) → (⟨S1x128, .f32⟩ : BufTy).Contents (Elt F)),
    unary main_call7_v3 main_call7_v4 ((broadcastInDim S100000x128 ![0, 1] bcast_S1x128_S100000x128_0_1) : (⟨S1x128, .f32⟩ : BufTy).Contents (Elt F) → (⟨S100000x128, .f32⟩ : BufTy).Contents (Elt F)),
    binary main_v103 main_call7_v4 main_call7_v5 (subf : (⟨S100000x128, .f32⟩ : BufTy).Contents (Elt F) → (⟨S100000x128, .f32⟩ : BufTy).Contents (Elt F) → (⟨S100000x128, .f32⟩ : BufTy).Contents (Elt F)),
    binary main_call7_v5 main_call7_v5 main_call7_v6 (mulf : (⟨S100000x128, .f32⟩ : BufTy).Contents (Elt F) → (⟨S100000x128, .f32⟩ : BufTy).Contents (Elt F) → (⟨S100000x128, .f32⟩ : BufTy).Contents (Elt F)),
    unary main_c_17 main_call7_v7 ((sitofp .f32) : (⟨S_, .i32⟩ : BufTy).Contents (Elt F) → (⟨S_, .f32⟩ : BufTy).Contents (Elt F)),
    nullary main_call7_cst_1 (constant S_ .f32 0x47C35000#32),
    binary main_call7_cst_1 main_call7_v7 main_call7_v8 (subf : (⟨S_, .f32⟩ : BufTy).Contents (Elt F) → (⟨S_, .f32⟩ : BufTy).Contents (Elt F) → (⟨S_, .f32⟩ : BufTy).Contents (Elt F)),
    nullary main_call7_cst_2 (constant S_ .f32 0x00000000#32),
    binary main_call7_v6 main_call7_cst_2 main_call7_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call7_v8 main_call7_v10 ((broadcastInDim S128 ![] bcast_S_S128) : (⟨S_, .f32⟩ : BufTy).Contents (Elt F) → (⟨S128, .f32⟩ : BufTy).Contents (Elt F)),
    binary main_call7_v9 main_call7_v10 main_call7_v11 (Host.divf : (⟨S128, .f32⟩ : BufTy).Contents (Elt F) → (⟨S128, .f32⟩ : BufTy).Contents (Elt F) → (⟨S128, .f32⟩ : BufTy).Contents (Elt F)),
    nullary main_call7_cst_3 (constant S_ .f32 0x00000000#32),
    binary main_call7_v8 main_call7_cst_3 main_call7_v12 ((cmpf .ogt) : (⟨S_, .f32⟩ : BufTy).Contents (Elt F) → (⟨S_, .f32⟩ : BufTy).Contents (Elt F) → (⟨S_, .i1⟩ : BufTy).Contents (Elt F)),
    nullary main_call7_cst_4 (constant S_ .f32 0x7FC00000#32),
    unary main_call7_cst_4 main_call7_call0_v0 (id : (⟨S_, .f32⟩ : BufTy).Contents (Elt F) → (⟨S_, .f32⟩ : BufTy).Contents (Elt F)),
    unary main_call7_call0_v0 main_call7_call0_v1 ((broadcastInDim S128 ![] bcast_S_S128) : (⟨S_, .f32⟩ : BufTy).Contents (Elt F) → (⟨S128, .f32⟩ : BufTy).Contents (Elt F)),
    ternary main_call7_v12 main_call7_v11 main_call7_call0_v1 main_v107 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v106 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v103 main_v109 main_v110 (subf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v111 (broadcastInDim S128 ![] bcast_S_S128 : (⟨S_, .f32⟩ : BufTy).Contents (Elt F) → (⟨S128, .f32⟩ : BufTy).Contents (Elt F)),
    binary main_v107 main_v111 main_v112 (addf : (⟨S128, .f32⟩ : BufTy).Contents (Elt F) → (⟨S128, .f32⟩ : BufTy).Contents (Elt F) → (⟨S128, .f32⟩ : BufTy).Contents (Elt F)),
    unary main_v112 main_v113 (Host.rsqrt : (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v110 main_v115 main_v116 (mulf : (⟨S100000x128, .f32⟩ : BufTy).Contents (Elt F) → (⟨S100000x128, .f32⟩ : BufTy).Contents (Elt F) → (⟨S100000x128, .f32⟩ : BufTy).Contents (Elt F)),
    unary main_arg19 main_v117 (broadcastInDim S1x128 ![1] bcast_S128_S1x128_1 : (⟨S128, .f32⟩ : BufTy).Contents (Elt F) → (⟨S1x128, .f32⟩ : BufTy).Contents (Elt F)),
    unary main_v117 main_v118 (broadcastInDim S100000x128 ![0, 1] bcast_S1x128_S100000x128_0_1 : (⟨S1x128, .f32⟩ : BufTy).Contents (Elt F) → (⟨S100000x128, .f32⟩ : BufTy).Contents (Elt F)),
    binary main_v116 main_v118 main_v119 (mulf : (⟨S100000x128, .f32⟩ : BufTy).Contents (Elt F) → (⟨S100000x128, .f32⟩ : BufTy).Contents (Elt F) → (⟨S100000x128, .f32⟩ : BufTy).Contents (Elt F)),
    unary main_arg20 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v119 main_v121 main_v122 (addf : (⟨S100000x128, .f32⟩ : BufTy).Contents (Elt F) → (⟨S100000x128, .f32⟩ : BufTy).Contents (Elt F) → (⟨S100000x128, .f32⟩ : BufTy).Contents (Elt F)),
    nullary main_call8_cst (constant S_ .f32 0x00000000#32),
    unary main_call8_cst main_call8_v0 ((broadcastInDim S100000x128 ![] bcast_S_S100000x128) : (⟨S_, .f32⟩ : BufTy).Contents (Elt F) → (⟨S100000x128, .f32⟩ : BufTy).Contents (Elt F)),
    binary main_v122 main_call8_v0 main_v123 (maximumf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    unary main_cst_19 main_v124 (broadcastInDim S256x128 ![] bcast_S_S256x128 : (⟨S_, .f32⟩ : BufTy).Contents (Elt F) → (⟨S256x128, .f32⟩ : BufTy).Contents (Elt F)),
    unary main_arg2 main_v125 (broadcastInDim S100000x1 ![0] bcast_S100000_S100000x1_0 : (⟨S100000, .i32⟩ : BufTy).Contents (Elt F) → (⟨S100000x1, .i32⟩ : BufTy).Contents (Elt F)),
    ternary main_v124 main_v125 main_v123 main_v126 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    nullary main_cst_20 (constant S_ .f32 0x3F800000#32),
    unary main_cst_20 main_v127 (broadcastInDim S100000x1 ![] bcast_S_S100000x1 : (⟨S_, .f32⟩ : BufTy).Contents (Elt F) → (⟨S100000x1, .f32⟩ : BufTy).Contents (Elt F)),
    nullary main_cst_21 (constant S_ .f32 0x00000000#32),
    unary main_cst_21 main_v128 (broadcastInDim S256x1 ![] bcast_S_S256x1 : (⟨S_, .f32⟩ : BufTy).Contents (Elt F) → (⟨S256x1, .f32⟩ : BufTy).Contents (Elt F)),
    unary main_arg2 main_v129 (broadcastInDim S100000x1 ![0] bcast_S100000_S100000x1_0 : (⟨S100000, .i32⟩ : BufTy).Contents (Elt F) → (⟨S100000x1, .i32⟩ : BufTy).Contents (Elt F)),
    ternary main_v128 main_v129 main_v127 main_v130 ((fun x i u => Host.scatterAdd scatter_S256x1_S100000x1_S100000x1_1_0_0_1 x i u) : (⟨S256x1, .f32⟩ : BufTy).Contents (Elt F) → (⟨S100000x1, .i32⟩ : BufTy).Contents (Elt F) → (⟨S100000x1, .f32⟩ : BufTy).Contents (Elt F) → (⟨S256x1, .f32⟩ : BufTy).Contents (Elt F)),
    nullary main_cst_22 (constant S_ .f32 0x3F800000#32),
    unary main_cst_22 main_v131 (broadcastInDim S256x1 ![] bcast_S_S256x1 : (⟨S_, .f32⟩ : BufTy).Contents (Elt F) → (⟨S256x1, .f32⟩ : BufTy).Contents (Elt F)),
    binary main_v130 main_v131 main_v132 (maximumf : (⟨S256x1, .f32⟩ : BufTy).Contents (Elt F) → (⟨S256x1, .f32⟩ : BufTy).Contents (Elt F) → (⟨S256x1, .f32⟩ : BufTy).Contents (Elt F)),
    unary main_v132 main_v133 (broadcastInDim S256x128 ![0, 1] bcast_S256x1_S256x128_0_1 : (⟨S256x1, .f32⟩ : BufTy).Contents (Elt F) → (⟨S256x128, .f32⟩ : BufTy).Contents (Elt F)),
    binary main_v126 main_v133 main_v134 (Host.divf : (⟨S256x128, .f32⟩ : BufTy).Contents (Elt F) → (⟨S256x128, .f32⟩ : BufTy).Contents (Elt F) → (⟨S256x128, .f32⟩ : BufTy).Contents (Elt F)),
    binary main_v134 main_arg21 main_v135 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    unary main_arg22 main_v136 (broadcastInDim S1x128 ![1] bcast_S128_S1x128_1 : (⟨S128, .f32⟩ : BufTy).Contents (Elt F) → (⟨S1x128, .f32⟩ : BufTy).Contents (Elt F)),
    unary main_v136 main_v137 (broadcastInDim S256x128 ![0, 1] bcast_S1x128_S256x128_0_1 : (⟨S1x128, .f32⟩ : BufTy).Contents (Elt F) → (⟨S256x128, .f32⟩ : BufTy).Contents (Elt F)),
    binary main_v135 main_v137 main_v138 (addf : (⟨S256x128, .f32⟩ : BufTy).Contents (Elt F) → (⟨S256x128, .f32⟩ : BufTy).Contents (Elt F) → (⟨S256x128, .f32⟩ : BufTy).Contents (Elt F)) ]

/-- Every operation of part 2 touches buffers of the TensorCore only. -/
theorem ops2_sub : (ops2 : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., binary_bufs_sub .., unary_bufs_sub .., unary_bufs_sub ..,
    binary_bufs_sub ..⟩

/-- Every operation of part 2 determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩

end Cert.ReferenceIdeal.RVal.RRun

end
-- ==== Proof.RRun.lean ====
/-
  The reference's run, read back: @main is a straight line of host operations (its private functions — the clamp at
  zero, the variance and the selection inside it — written out at their call sites over each call's own buffers), so
  every weakly fair execution ends with each buffer at its operation's value of the buffers before it; the result
  buffer then holds the composed term of the 23 argument arrays, and the arguments are as launched.

  @main is printed in three parts run in order; the imported table lists each part's operations (`ops0`, `ops1`,
  `ops2`). Here each part is shown to be its line, the line of the whole program is the three in a row, and the
  final contents are read part by part: a part is read, over any contents before it, at the few buffers a later part
  reads, so that no equation carries more than one layer of the network.
-/
import proofs.«423186_j27333171871744_1_alg».proof.Proof.Gen.ReferenceIdeal
import proofs.«423186_j27333171871744_1_alg».proof.Proof.RDefs
import proofs.«423186_j27333171871744_1_alg».proof.Proof.RRunOps
import Idealize.ShloMosaic.Lib.StableHlo.Run
import Idealize.ShloMosaic.Lib.Tactic

noncomputable section

open Idealize.ShloMosaic Idealize.ShloMosaic.TcCoe Idealize.SL.Sem

namespace Cert.ReferenceIdeal.RVal

open Cert.ReferenceIdeal Cert.ReferenceIdeal.Gen Idealize.ShloMosaic.StableHlo

namespace RRun

/-- The contents after two lines in a row are the second line's after the first's. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-! ## The program as a line of operations -/

section Line

variable {F : FTy → Type} [FloatOps F]

set_option maxRecDepth 8192 in
/-- The first part is its line: with the functions' definitions unfolded at their calls and the sequencing
    reassociated, both sides are one chain of operation steps, a call's record read at its fields. -/
theorem part0_eq (c : Dev nD) : main_part0 (F := F) c = seq ops0 := by
  simp only [main_part0, fn_relu.body, fn_var.body, fn_where.body, seq, bind_assoc, pure_bind]
  rfl

set_option maxRecDepth 8192 in
/-- The second part is its line. -/
theorem part1_eq (c : Dev nD) : main_part1 (F := F) c = seq ops1 := by
  simp only [main_part1, fn_relu.body, fn_var.body, fn_where.body, seq, bind_assoc, pure_bind]
  rfl

set_option maxRecDepth 8192 in
/-- The third part is its line. -/
theorem part2_eq (c : Dev nD) : main_part2 (F := F) c = seq ops2 := by
  simp only [main_part2, fn_relu.body, fn_var.body, fn_where.body, seq, bind_assoc, pure_bind]
  rfl

/-- @main's operations: the three parts' in a row. -/
abbrev ops : List (HloOp τ sig (Elt F)) := ops0 ++ (ops1 ++ ops2)

/-- @main runs its three parts in order, so it is the three lines in a row run as one. -/
theorem main_eq (c : Dev nD) : main (F := F) c = seq ops := by
  rw [seq_append, seq_append, ← part0_eq c, ← part1_eq c, ← part2_eq c]
  rfl

/-- Every operation touches buffers of the TensorCore only. -/
theorem ops_sub : (ops : List (HloOp τ sig (Elt F))).Forall fun op => op.bufs ⊆ tcRefs τ sig :=
  List.forall_append.2 ⟨ops0_sub, List.forall_append.2 ⟨ops1_sub, ops2_sub⟩⟩

/-- Every operation determines what it writes. -/
theorem ops_fresh : ∀ op ∈ (ops : List (HloOp τ sig (Elt F))), op.fresh = ∅ :=
  List.forall_iff_forall_mem.1 (List.forall_append.2 ⟨ops0_fresh, List.forall_append.2 ⟨ops1_fresh, ops2_fresh⟩⟩)

/-- The signature scopes no buffer: a program of tensor values only. -/
theorem scopedRefs_eq : (Finset.univ.filter fun b : Ref sig .tc => b.isScoped) = ∅ := by decide
/-- It scopes no semaphore either. -/
theorem scopedSems_eq : (Finset.univ.filter fun sm : SemLoc sig => sm.isScoped .tc) = ∅ := by decide

end Line

/-! ## The values read back

Each part's line is read at the few buffers a later part (or the result) reads, over ANY contents before it: a buffer
holds its operation's value of the buffers it reads, and a buffer no operation of the line writes holds what it held.
A part's reading closes by unfolding the reference term's definitions: they are the same operations in the same
order. -/

section Read

/-- The contents of every buffer of the device, at the ideal values. -/
local notation "Vals" => Valuation τ sig (Elt Ideal)

/-- The rows the edges take from a matrix of 128 columns: each sender's row, a negative sender counted from the end. -/
def takeR (s : IVec S1600000 32) (h : FVec Ideal S100000x128 .f32) : FVec Ideal S1600000x128 .f32 :=
  Host.gather gather_S100000x128_S1600000x1_S1600000x128_1_0_n_n_0_1_1128 h
    (broadcastInDim S1600000x1 ![0] bcast_S1600000_S1600000x1_0 (aggRWrap s))

/-- The taken rows added up by receiver into a zero matrix. -/
def sumsR (d : IVec S1600000 32) (t : FVec Ideal S1600000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d) t

/-- The two affine maps of a layer of 128 input columns, short of the second bias. -/
def halfR (u : FVec Ideal S100000x128 .f32) (w1 : FVec Ideal S128x128 .f32) (b1 : FVec Ideal S128 .f32)
    (w2 : FVec Ideal S128x128 .f32) : FVec Ideal S100000x128 .f32 :=
  Host.dotGeneral dot_S100000x128_S128x128_S100000x128_1_0_0_1_n_n none
    (reluR (addf (Host.dotGeneral dot_S100000x128_S128x128_S100000x128_1_0_0_1_n_n none u w1) (rowsR b1))) w2

/-- The 23 argument buffers. -/
abbrev argRefs : List (Ref sig .tc) :=
  [main_arg0, main_arg1, main_arg2, main_arg3, main_arg4, main_arg5, main_arg6, main_arg7,
   main_arg8, main_arg9, main_arg10, main_arg11, main_arg12, main_arg13, main_arg14, main_arg15,
   main_arg16, main_arg17, main_arg18, main_arg19, main_arg20, main_arg21, main_arg22]

/-! ### The first part: the edge list's two rows, the first layer, and the rows the second layer takes -/

/-- The senders. -/
theorem p0_v1 (V : Vals) : after ops0 V (main_v1 : DevRef τ sig) = aggRSrc (V (main_arg1 : DevRef τ sig)) := by
  after_results_simp
  rfl

/-- The receivers. -/
theorem p0_v3 (V : Vals) : after ops0 V (main_v3 : DevRef τ sig) = aggRDst (V (main_arg1 : DevRef τ sig)) := by
  after_results_simp
  rfl

set_option maxHeartbeats 1600000 in
/-- The first layer's output. -/
theorem p0_v43 (V : Vals) : after ops0 V (main_v43 : DevRef τ sig)
    = layerR64 (V (main_arg1 : DevRef τ sig)) (V (main_arg0 : DevRef τ sig)) (V (main_arg3 : DevRef τ sig)) (V (main_arg4 : DevRef τ sig))
        (V (main_arg5 : DevRef τ sig)) (V (main_arg6 : DevRef τ sig)) (V (main_arg7 : DevRef τ sig)) (V (main_arg8 : DevRef τ sig)) := by
  after_results_simp
  rfl

set_option maxHeartbeats 1600000 in
/-- The rows the edges take from the first layer's output. -/
theorem p0_v50 (V : Vals) : after ops0 V (main_v50 : DevRef τ sig)
    = takeR (aggRSrc (V (main_arg1 : DevRef τ sig)))
        (layerR64 (V (main_arg1 : DevRef τ sig)) (V (main_arg0 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig))) := by
  after_results_simp
  rfl

set_option maxHeartbeats 8000000 in
/-- No operation of the first part writes an argument. -/
theorem p0_args (V : Vals) : ∀ r ∈ argRefs, after ops0 V (r : DevRef τ sig) = V (r : DevRef τ sig) := by
  intro r hr
  simp only [argRefs, List.mem_cons, List.not_mem_nil, or_false] at hr
  rcases hr with rfl | rfl | rfl | rfl | rfl | rfl | rfl | rfl | rfl | rfl | rfl | rfl
    | rfl | rfl | rfl | rfl | rfl | rfl | rfl | rfl | rfl | rfl | rfl
  all_goals after_results_simp

/-! ### The second part: the second layer, the rows the third takes, and the third layer's two affine maps -/

set_option maxHeartbeats 1600000 in
/-- The second layer's output, from the first layer's, the receivers and the rows taken. -/
theorem p1_v83 (W : Vals) : after ops1 W (main_v83 : DevRef τ sig)
    = bnR (mlpR128 (addf (W (main_v43 : DevRef τ sig)) (sumsR (W (main_v3 : DevRef τ sig)) (W (main_v50 : DevRef τ sig))))
          (W (main_arg9 : DevRef τ sig)) (W (main_arg10 : DevRef τ sig)) (W (main_arg11 : DevRef τ sig)) (W (main_arg12 : DevRef τ sig)))
        (W (main_arg13 : DevRef τ sig)) (W (main_arg14 : DevRef τ sig)) := by
  after_results_simp
  rfl

set_option maxHeartbeats 1600000 in
/-- The rows the edges take from the second layer's output. -/
theorem p1_v90 (W : Vals) : after ops1 W (main_v90 : DevRef τ sig)
    = takeR (W (main_v1 : DevRef τ sig)) (after ops1 W (main_v83 : DevRef τ sig)) := by
  after_results_simp
  rfl

set_option maxHeartbeats 1600000 in
/-- The third layer's two affine maps, short of the second bias. -/
theorem p1_v100 (W : Vals) : after ops1 W (main_v100 : DevRef τ sig)
    = halfR (addf (after ops1 W (main_v83 : DevRef τ sig))
          (sumsR (W (main_v3 : DevRef τ sig)) (after ops1 W (main_v90 : DevRef τ sig))))
        (W (main_arg15 : DevRef τ sig)) (W (main_arg16 : DevRef τ sig)) (W (main_arg17 : DevRef τ sig)) := by
  after_results_simp
  rfl

/-- The third layer's second bias along the rows. -/
theorem p1_v102 (W : Vals) : after ops1 W (main_v102 : DevRef τ sig) = rowsR (W (main_arg18 : DevRef τ sig)) := by
  after_results_simp
  rfl

set_option maxHeartbeats 8000000 in
/-- No operation of the second part writes an argument. -/
theorem p1_args (W : Vals) : ∀ r ∈ argRefs, after ops1 W (r : DevRef τ sig) = W (r : DevRef τ sig) := by
  intro r hr
  simp only [argRefs, List.mem_cons, List.not_mem_nil, or_false] at hr
  rcases hr with rfl | rfl | rfl | rfl | rfl | rfl | rfl | rfl | rfl | rfl | rfl | rfl
    | rfl | rfl | rfl | rfl | rfl | rfl | rfl | rfl | rfl | rfl | rfl
  all_goals after_results_simp

/-! ### The third part: the third layer's normalization, the pooling and the last affine map -/

set_option maxHeartbeats 1600000 in
/-- The result, from the two summands of the third layer's affine maps. -/
theorem p2_v138 (X : Vals) : after ops2 X (main_v138 : DevRef τ sig)
    = headR (bnR (addf (X (main_v100 : DevRef τ sig)) (X (main_v102 : DevRef τ sig)))
          (X (main_arg19 : DevRef τ sig)) (X (main_arg20 : DevRef τ sig)))
        (X (main_arg2 : DevRef τ sig)) (X (main_arg21 : DevRef τ sig)) (X (main_arg22 : DevRef τ sig)) := by
  after_results_simp
  rfl

set_option maxHeartbeats 8000000 in
/-- No operation of the third part writes an argument. -/
theorem p2_args (X : Vals) : ∀ r ∈ argRefs, after ops2 X (r : DevRef τ sig) = X (r : DevRef τ sig) := by
  intro r hr
  simp only [argRefs, List.mem_cons, List.not_mem_nil, or_false] at hr
  rcases hr with rfl | rfl | rfl | rfl | rfl | rfl | rfl | rfl | rfl | rfl | rfl | rfl
    | rfl | rfl | rfl | rfl | rfl | rfl | rfl | rfl | rfl | rfl | rfl
  all_goals after_results_simp

/-! ### The whole line -/

/-- No operation of @main writes an argument. -/
theorem args_eq (V : Vals) (r : Ref sig .tc) (hr : r ∈ argRefs) :
    after ops V (r : DevRef τ sig) = V (r : DevRef τ sig) := by
  rw [after_app, after_app, p2_args _ r hr, p1_args _ r hr, p0_args _ r hr]

/-- The result buffer holds the reference's term of the arguments: the third part's reading at the second's, that at
    the first's, each argument a part reads at what it held at launch; what is left is the reference term with its
    definitions unfolded (a layer's neighbourhood sums are the rows taken by sender added up by receiver, its two affine
    maps the half and the second bias). -/
theorem out_eq (V : Vals) : after ops V (main_v138 : DevRef τ sig)
    = refNet (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) (V (main_arg7 : DevRef τ sig))
        (V (main_arg8 : DevRef τ sig)) (V (main_arg9 : DevRef τ sig)) (V (main_arg10 : DevRef τ sig)) (V (main_arg11 : DevRef τ sig))
        (V (main_arg12 : DevRef τ sig)) (V (main_arg13 : DevRef τ sig)) (V (main_arg14 : DevRef τ sig)) (V (main_arg15 : DevRef τ sig))
        (V (main_arg16 : DevRef τ sig)) (V (main_arg17 : DevRef τ sig)) (V (main_arg18 : DevRef τ sig)) (V (main_arg19 : DevRef τ sig))
        (V (main_arg20 : DevRef τ sig)) (V (main_arg21 : DevRef τ sig)) (V (main_arg22 : DevRef τ sig)) := by
  rw [after_app, after_app, p2_v138, p1_v100, p1_v102, p1_v90, p1_v83,
    p1_args _ main_arg2 (by decide), p1_args _ main_arg19 (by decide), p1_args _ main_arg20 (by decide),
    p1_args _ main_arg21 (by decide), p1_args _ main_arg22 (by decide),
    p0_v43, p0_v50, p0_v3, p0_v1,
    p0_args _ main_arg2 (by decide), p0_args _ main_arg9 (by decide), p0_args _ main_arg10 (by decide),
    p0_args _ main_arg11 (by decide), p0_args _ main_arg12 (by decide), p0_args _ main_arg13 (by decide),
    p0_args _ main_arg14 (by decide), p0_args _ main_arg15 (by decide), p0_args _ main_arg16 (by decide),
    p0_args _ main_arg17 (by decide), p0_args _ main_arg18 (by decide), p0_args _ main_arg19 (by decide),
    p0_args _ main_arg20 (by decide), p0_args _ main_arg21 (by decide), p0_args _ main_arg22 (by decide)]
  rfl

end Read

end RRun

/-- From any memory with zero counters, every weakly fair execution of @main terminates, nothing faulting, with the
    result buffer at the composed term of the launch contents of the arguments, and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v138)
        = refNet
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) := by
  exact (θ_run (defs (F := Ideal)) _ _).mono
    (fun _ h c => ⟨(h c main_v138).trans (RRun.out_eq _),
      (h c main_arg0).trans (RRun.args_eq _ main_arg0 (by decide)),
      (h c main_arg1).trans (RRun.args_eq _ main_arg1 (by decide)),
      (h c main_arg2).trans (RRun.args_eq _ main_arg2 (by decide)),
      (h c main_arg3).trans (RRun.args_eq _ main_arg3 (by decide)),
      (h c main_arg4).trans (RRun.args_eq _ main_arg4 (by decide)),
      (h c main_arg5).trans (RRun.args_eq _ main_arg5 (by decide)),
      (h c main_arg6).trans (RRun.args_eq _ main_arg6 (by decide)),
      (h c main_arg7).trans (RRun.args_eq _ main_arg7 (by decide)),
      (h c main_arg8).trans (RRun.args_eq _ main_arg8 (by decide)),
      (h c main_arg9).trans (RRun.args_eq _ main_arg9 (by decide)),
      (h c main_arg10).trans (RRun.args_eq _ main_arg10 (by decide)),
      (h c main_arg11).trans (RRun.args_eq _ main_arg11 (by decide)),
      (h c main_arg12).trans (RRun.args_eq _ main_arg12 (by decide)),
      (h c main_arg13).trans (RRun.args_eq _ main_arg13 (by decide)),
      (h c main_arg14).trans (RRun.args_eq _ main_arg14 (by decide)),
      (h c main_arg15).trans (RRun.args_eq _ main_arg15 (by decide)),
      (h c main_arg16).trans (RRun.args_eq _ main_arg16 (by decide)),
      (h c main_arg17).trans (RRun.args_eq _ main_arg17 (by decide)),
      (h c main_arg18).trans (RRun.args_eq _ main_arg18 (by decide)),
      (h c main_arg19).trans (RRun.args_eq _ main_arg19 (by decide)),
      (h c main_arg20).trans (RRun.args_eq _ main_arg20 (by decide)),
      (h c main_arg21).trans (RRun.args_eq _ main_arg21 (by decide)),
      (h c main_arg22).trans (RRun.args_eq _ main_arg22 (by decide))⟩)
    (run_seq RRun.scopedRefs_eq RRun.scopedSems_eq defs main (fun _ => RRun.ops) RRun.main_eq (fun _ => RRun.ops_sub) m ρ
      (fun _ => RRun.ops_fresh))

end Cert.ReferenceIdeal.RVal

end
-- ==== Proof.LibRowTake.lean ====
/-
  Rows of a matrix taken and put back through a column of signed row numbers, read at an entry.

  `x[idx]` of a matrix `x : [N, C]` at a column `idx : [R, 1]` of row numbers is the gather whose result row `e` is
  the row of `x` that `idx[e, 0]` names, the number read as a signed integer and CLAMPED into `[0, N − 1]`. The
  accumulating scatter of update rows `u : [R, C]` into `x` through such a column adds to entry `(n, c)` every
  `u[e, c]` whose row number `idx[e, 0]`, read signed and NOT clamped, is exactly `n`; a row number outside
  `[0, N)` names no row, and its update row is dropped. On the extended reals that accumulation is a finite sum, so
  it does not depend on the order in which the update rows arrive.
-/
import Idealize.ShloMosaic.Lib.ValueIdx

noncomputable section

open scoped BigOperators

namespace Idealize.ShloMosaic.RowTake

open Idealize.ShloMosaic Idealize.ShloMosaic.ValueIdx

/-! ## The gather of rows -/

section Gather
variable {α : Type}

/-- The dimension numbers of a gather of whole rows: operand `[N, C]`, start indices `[R, 1]`, result `[R, C]`; the
    row axis collapsed and named by the start index, the column axis an offset axis, slices `1 × C`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result entry `(e, c)` starts, on the row axis, at the row number `idx[e, 0]` read signed and clamped. -/
theorem rowGather_start_row {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 0 = min (idx (ix2 e 0)).toInt.toNat (N - 1) := by
  unfold GatherDims.start
  rw [dif_pos (show (0 : Fin 2) ∈ ([0] : List (Fin 2)) from List.mem_singleton.mpr rfl)]
  have hsi : (rowGatherDims N R C wf).siIdx (ix2 e c) ⟨List.idxOf (0 : Fin 2) (rowGatherDims N R C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and, on the column axis, at `0`: the start index names no column. -/
theorem rowGather_start_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 1 = 0 := by
  unfold GatherDims.start
  rw [dif_neg (show (1 : Fin 2) ∉ ([0] : List (Fin 2)) from by decide)]

/-- Its offset coordinate is `0` on the collapsed row axis … -/
theorem rowGather_off_row {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 0 = 0 :=
  GatherDims.offCoord_eq_zero _ _ _ (fun h => ((GatherDims.mem_sKept _ _).mp h).1 (List.mem_singleton.mpr rfl))

/-- … and its own column on the column axis. -/
theorem rowGather_off_col {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 1 = c.val := by
  unfold GatherDims.offCoord
  rw [dif_pos ((GatherDims.mem_sKept _ _).mpr
    ⟨show (1 : Fin 2) ∉ ([0] : List (Fin 2)) from by decide, List.not_mem_nil⟩)]
  rfl

/-- The gathered entry `(e, c)` is the operand's entry in column `c` of the row `idx[e, 0]` names, that number read
    signed and clamped into `[0, N − 1]`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  show (rowGatherDims N R C wf).start (ix2 e c) idx a + (rowGatherDims N R C wf).batchCoord (ix2 e c) a
    + (rowGatherDims N R C wf).offCoord (ix2 e c) a = _
  rw [GatherDims.batchCoord_eq_zero _ _ _ List.not_mem_nil, Nat.add_zero]
  match a with
  | ⟨0, _⟩ =>
    exact (show (rowGatherDims N R C wf).start (ix2 e c) idx 0 + (rowGatherDims N R C wf).offCoord (ix2 e c) 0
        = min (idx (ix2 e 0)).toInt.toNat (N - 1) by rw [rowGather_start_row, rowGather_off_row, Nat.add_zero])
  | ⟨1, _⟩ =>
    exact (show (rowGatherDims N R C wf).start (ix2 e c) idx 1 + (rowGatherDims N R C wf).offCoord (ix2 e c) 1
        = c.val by rw [rowGather_start_col, rowGather_off_col, Nat.zero_add])

end Gather

/-! ## The accumulating scatter of rows -/

section Scatter

/-- The dimension numbers of a scatter of whole rows: operand `[N, C]`, scatter indices `[R, 1]`, updates `[R, C]`;
    the row axis inserted and named by the scatter index, the column axis the update's window axis. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- Update entry `(e, c)` starts, on the row axis, at the signed row number `idx[e, 0]`. -/
theorem rowScatter_start_row (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ ([0] : List (Fin 2)) from List.mem_singleton.mpr rfl)]
  have hsi : (rowScatterDims N R C wf).siIdx (ix2 e c) ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, on the column axis, at `0`. -/
theorem rowScatter_start_col (idx : IVec ⟨2, ![R, 1]⟩ w) (e : Fin R) (c : Fin C) :
    (rowScatterDims N R C wf).start (ix2 e c) idx 1 = 0 := by
  unfold ScatterDims.start
  rw [dif_neg (show (1 : Fin 2) ∉ ([0] : List (Fin 2)) from by decide)]

/-- The operand's axes that are not inserted: the column axis alone. -/
theorem rowScatter_mem_sKept (a : Fin 2) : a ∈ (rowScatterDims N R C wf).sKept ↔ a ∉ ([0] : List (Fin 2)) := by
  simp [ScatterDims.sKept, Shape.kept, List.mem_filter, List.mem_finRange]

/-- Its window coordinate is `0` on the row axis … -/
theorem rowScatter_window_row (e : Fin R) (c : Fin C) : (rowScatterDims N R C wf).window (ix2 e c) 0 = 0 := by
  unfold ScatterDims.window
  rw [dif_neg (fun h => ((rowScatter_mem_sKept wf 0).mp h) (List.mem_singleton.mpr rfl))]

/-- … and its own column on the column axis. -/
theorem rowScatter_window_col (e : Fin R) (c : Fin C) : (rowScatterDims N R C wf).window (ix2 e c) 1 = c.val := by
  unfold ScatterDims.window
  rw [dif_pos ((rowScatter_mem_sKept wf 1).mpr (by decide))]
  rfl

/-- WHERE AN UPDATE ENTRY LANDS: entry `(e, c)` lands on `(n, c')` exactly when its row number, read signed, is `n`
    and `c = c'`. -/
theorem rowScatter_lands (idx : IVec ⟨2, ![R, 1]⟩ w) (e : Fin R) (c : Fin C) (n : Fin N) (c' : Fin C) :
    (rowScatterDims N R C wf).resultIdx? (ix2 e c) idx = some (ix2 n c')
      ↔ (idx (ix2 e 0)).toInt = (n.val : Int) ∧ c = c' := by
  -- start plus window coordinate, axis by axis: the signed row number on the row axis, the column on the column axis
  have h0 : (rowScatterDims N R C wf).start (ix2 e c) idx 0 + ((rowScatterDims N R C wf).window (ix2 e c) 0 : Nat)
      = (idx (ix2 e 0)).toInt := by
    rw [rowScatter_start_row, rowScatter_window_row, Nat.cast_zero, Int.add_zero]
  have h1 : (rowScatterDims N R C wf).start (ix2 e c) idx 1 + ((rowScatterDims N R C wf).window (ix2 e c) 1 : Nat)
      = (c.val : Int) := by
    rw [rowScatter_start_col, rowScatter_window_col, Int.zero_add]
  have hN : (⟨2, ![N, C]⟩ : Shape).size 0 = N := rfl
  have hC : (⟨2, ![N, C]⟩ : Shape).size 1 = C := rfl
  unfold ScatterDims.resultIdx?
  constructor
  · intro h
    by_cases hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat)
    · rw [dif_pos hall] at h
      have heq := Option.some.inj h
      -- the landed index read on each axis
      have e0 : ((rowScatterDims N R C wf).start (ix2 e c) idx 0
          + ((rowScatterDims N R C wf).window (ix2 e c) 0 : Nat)).toNat = n.val :=
        congrArg (fun f => (f 0).val) heq
      have e1 : ((rowScatterDims N R C wf).start (ix2 e c) idx 1
          + ((rowScatterDims N R C wf).window (ix2 e c) 1 : Nat)).toNat = c'.val :=
        congrArg (fun f => (f 1).val) heq
      have p0 := (hall 0).1
      rw [h0] at e0 p0
      rw [h1] at e1
      refine ⟨by omega, Fin.ext (by omega)⟩
    · rw [dif_neg hall] at h
      exact absurd h (by simp)
  · rintro ⟨hi, rfl⟩
    have hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat) := by
      rw [Fin.forall_fin_two, h0, h1, hN, hC, hi]
      have := n.isLt
      have := c.isLt
      omega
    rw [dif_pos hall]
    congr 1
    funext a
    refine Fin.ext ?_
    match a with
    | ⟨0, _⟩ =>
      exact (show ((rowScatterDims N R C wf).start (ix2 e c) idx 0
          + ((rowScatterDims N R C wf).window (ix2 e c) 0 : Nat)).toNat = n.val by rw [h0, hi]; exact Int.toNat_natCast _)
    | ⟨1, _⟩ =>
      exact (show ((rowScatterDims N R C wf).start (ix2 e c) idx 1
          + ((rowScatterDims N R C wf).window (ix2 e c) 1 : Nat)).toNat = c.val by rw [h1]; exact Int.toNat_natCast _)

/-- THE SCATTER READ AT `(n, c)`, on the extended reals: the operand's entry plus the sum, over the update rows whose
    row number is `n`, of their entries in column `c`. -/
theorem rowScatterAdd_apply (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowScatterDims N R C wf) x idx upd (ix2 n c)
      = x (ix2 n c) + ∑ e : Fin R, if (idx (ix2 e 0)).toInt = (n.val : Int) then upd (ix2 e c) else 0 := by
  unfold Ideal.hostScatterAdd
  congr 1
  -- the filtered sum as a sum of conditionals, over the update's two coordinates
  rw [Finset.sum_filter, sum_idx2]
  refine Finset.sum_congr rfl (fun e _ => ?_)
  -- in update row `e` only column `c` can land on `(n, c)`
  rw [Finset.sum_eq_single c]
  · by_cases hi : (idx (ix2 e 0)).toInt = (n.val : Int)
    · rw [if_pos ((rowScatter_lands wf idx e c n c).mpr ⟨hi, rfl⟩), if_pos hi]
    · rw [if_neg (fun h => hi ((rowScatter_lands wf idx e c n c).mp h).1), if_neg hi]
  · intro b _ hb
    exact if_neg (fun h => hb ((rowScatter_lands wf idx e b n c).mp h).2)
  · intro h
    exact absurd (Finset.mem_univ c) h

end Scatter

end Idealize.ShloMosaic.RowTake

end
-- ==== Proof.RSpec.lean ====
/-
  The reference's composed term is the network of Spec.lean with the variance as the mean of the squared deviations:
  entry by entry, a host matrix product is the sum over the contracted axis, a host column sum is zero plus the sum
  over the rows, a vector laid along the rows is read at its column, the host's quotient and reciprocal square root
  are the extended reals', the divisor 100000 − 0 is positive so the selection keeps the quotient, and the
  accumulating scatter by graph number is zero plus the sum of the rows whose number is that graph's.
-/
import proofs.«423186_j27333171871744_1_alg».proof.Proof.RDefs
import proofs.«423186_j27333171871744_1_alg».proof.Proof.Spec
import proofs.«423186_j27333171871744_1_alg».proof.Proof.Math
import proofs.«423186_j27333171871744_1_alg».proof.Proof.LibRowTake
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RVal

open Cert.ReferenceIdeal

variable [Facts]
open Facts₀ Facts

namespace AtEntry

/-- A scalar laid over any shape reads the scalar. -/
theorem scal_apply {α : Type} {T : Shape} (h : S_.BroadcastsInDim T ![]) (x : S_.Idx → α) (j : T.Idx) :
    broadcastInDim T ![] h x j = x ix0 := by
  unfold broadcastInDim; exact congrArg x (funext fun a => a.elim0)

/-- The clamp at zero, entry by entry. -/
theorem reluR_apply (x : FVec Ideal S100000x128 .f32) (n : Fin 100000) (c : Fin 128) :
    reluR x (ix2 n c) = max (x (ix2 n c)) 0 := by
  unfold reluR
  rw [maximumf_apply, scal_apply]
  show max (x (ix2 n c)) (Ideal.ofBits .f32 0x00000000#32) = _
  rw [Ideal.ofBits_zero_f32]

/-- A vector laid along the rows reads, at (n, c), the vector at c. -/
theorem rowsR_apply (v : FVec Ideal S128 .f32) (n : Fin 100000) (c : Fin 128) :
    rowsR v (ix2 n c) = v (ix1 c) := by
  unfold rowsR
  rw [broadcastInDim_apply ![0, 1] bcast_S1x128_S100000x128_0_1 _ (ix2 n c) (ix2 (0 : Fin 1) c) ?_,
    broadcastInDim_apply ![1] bcast_S128_S1x128_1 v (ix2 (0 : Fin 1) c) (ix1 c) ?_]
  · intro a
    match a with
    | ⟨0, _⟩ => rfl
  · intro a
    match a with
    | ⟨0, _⟩ => rfl
    | ⟨1, _⟩ => rfl

/-- The column axis of a [100000, 128] matrix is what is left when the row axis is summed away. -/
theorem red_rows : S100000x128.Reduces [0] S128 := by decide

/-- The reduced index c with the row n put back is (n, c). -/
theorem red_lift (c : Fin 128) (k : Fin (S100000x128.size 0)) :
    red_rows.lift (ix1 c) k = ix2 (k : Fin 100000) c := by
  funext a
  match a with
  | ⟨0, _⟩ => rfl
  | ⟨1, _⟩ => rfl

/-- A host column sum from zero, at column c: the sum over the 100000 rows. -/
theorem colsum_apply (z : FVec Ideal S100000x128 .f32) (c : Fin 128) :
    Host.reduceAdd z zS reducesTo_S100000x128_S128_d0 h_S_ (ix1 c) = ∑ n : Fin 100000, z (ix2 n c) := by
  unfold Host.reduceAdd
  rw [Ideal.hostReduceAdd_def, Ideal.hostReduceAdd_single reducesTo_S100000x128_S128_d0 red_rows]
  show Ideal.ofBits .f32 0x00000000#32 + _ = _
  rw [Ideal.ofBits_zero_f32, zero_add]
  exact Finset.sum_congr rfl (fun k _ => congrArg z (red_lift c k))

/-- The column sums. -/
theorem sumR_eq (z : FVec Ideal S100000x128 .f32) : sumR z = Gin.colSum z := by
  funext i
  obtain ⟨c, rfl⟩ : ∃ c : Fin 128, i = ix1 c := ⟨i 0, eq_ix1 i⟩
  unfold sumR
  rw [colsum_apply]
  rfl

/-- The host's quotient and reciprocal square root are the extended reals', entry by entry. -/
theorem hdivf_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl

/-- The column means. -/
theorem meanR_eq (z : FVec Ideal S100000x128 .f32) : meanR z = Gin.meanOf (Gin.colSum z) := by
  funext i
  unfold meanR
  rw [hdivf_apply, sumR_eq, scal_apply]
  rfl

/-! ## A matrix product read at an entry -/

section Dot
variable {M K N : Nat} (wf : DotDims.WF ⟨2, ![M, K]⟩ ⟨2, ![K, N]⟩ ⟨2, ![M, N]⟩ [1] [0] [0] [1] [] [])

/-- The dimension numbers of a plain matrix product [M, K] · [K, N]: the left operand's columns contracted with the
    right operand's rows, no batch axis. -/
abbrev mmDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The left operand is read in the result's row … -/
theorem mm_lhs_0 (j : (⟨2, ![M, N]⟩ : Shape).Idx) (k : (mmDims M K N wf).contr.Idx) :
    ((mmDims M K N wf).lhsIdx j k 0).val = (j 0).val := by
  unfold DotDims.lhsIdx
  rw [dif_neg (show ¬ (0 : Fin 2) ∈ ([] : List (Fin 2)) from List.not_mem_nil),
    dif_pos (show (0 : Fin 2) ∈ ([0] : List (Fin 2)) from List.mem_singleton.mpr rfl)]
  rfl

/-- … and in the column the contraction names. -/
theorem mm_lhs_1 (j : (⟨2, ![M, N]⟩ : Shape).Idx) (k : (mmDims M K N wf).contr.Idx) :
    ((mmDims M K N wf).lhsIdx j k 1).val = (k ⟨0, Nat.one_pos⟩).val :=
  (mmDims M K N wf).lhsIdx_val_of_single rfl j k

/-- The right operand is read in the row the contraction names … -/
theorem mm_rhs_0 (j : (⟨2, ![M, N]⟩ : Shape).Idx) (k : (mmDims M K N wf).contr.Idx) :
    ((mmDims M K N wf).rhsIdx j k 0).val = (k ⟨0, Nat.one_pos⟩).val :=
  (mmDims M K N wf).rhsIdx_val_of_single rfl j k

/-- … and in the result's column. -/
theorem mm_rhs_1 (j : (⟨2, ![M, N]⟩ : Shape).Idx) (k : (mmDims M K N wf).contr.Idx) :
    ((mmDims M K N wf).rhsIdx j k 1).val = (j 1).val := by
  unfold DotDims.rhsIdx
  rw [dif_neg (show ¬ (1 : Fin 2) ∈ ([] : List (Fin 2)) from List.not_mem_nil),
    dif_pos (show (1 : Fin 2) ∈ ([1] : List (Fin 2)) from List.mem_singleton.mpr rfl)]
  rfl

/-- THE PRODUCT AT (m, n): the sum over the K shared positions of the left operand's entry in row m times the right
    operand's entry in column n. -/
theorem mm_apply (l : (⟨2, ![M, K]⟩ : Shape).Idx → EReal) (r : (⟨2, ![K, N]⟩ : Shape).Idx → EReal) (m : Fin M) (n : Fin N) :
    FloatOps.dotGeneral (F := Ideal) (φ₁ := .f32) (φ₂ := .f32) (mmDims M K N wf) none .single l r (ix2 m n)
      = ∑ k : Fin K, l (ix2 m k) * r (ix2 k n) := by
  rw [Ideal.dotGeneral_apply, ← Equiv.sum_comp (contrEquiv1 (mmDims M K N wf) K rfl rfl).symm]
  refine Finset.sum_congr rfl (fun k _ => ?_)
  have hl : (mmDims M K N wf).lhsIdx (ix2 m n) ((contrEquiv1 (mmDims M K N wf) K rfl rfl).symm k) = ix2 m k := by
    funext a
    refine Fin.ext ?_
    match a with
    | ⟨0, _⟩ => exact mm_lhs_0 wf _ _
    | ⟨1, _⟩ => exact (mm_lhs_1 wf _ _).trans (contrEquiv1_symm_val _ K rfl rfl k)
  have hr : (mmDims M K N wf).rhsIdx (ix2 m n) ((contrEquiv1 (mmDims M K N wf) K rfl rfl).symm k) = ix2 k n := by
    funext a
    refine Fin.ext ?_
    match a with
    | ⟨0, _⟩ => exact (mm_rhs_0 wf _ _).trans (contrEquiv1_symm_val _ K rfl rfl k)
    | ⟨1, _⟩ => exact mm_rhs_1 wf _ _
  rw [hl, hr]

end Dot

/-! ## The variance -/

/-- The matrix of column means as the variance spells it — the sums laid along one row, divided by 100000, the row laid
    along the rows — reads the column's mean. -/
theorem meanRows_apply (z : FVec Ideal S100000x128 .f32) (n : Fin 100000) (c : Fin 128) :
    broadcastInDim S100000x128 ![0, 1] bcast_S1x128_S100000x128_0_1
      (Host.divf (broadcastInDim S1x128 ![1] bcast_S128_S1x128_1 (sumR z)) (broadcastInDim S1x128 ![] bcast_S_S1x128 nS))
      (ix2 n c) = Gin.meanOf (Gin.colSum z) (ix1 c) := by
  rw [broadcastInDim_apply ![0, 1] bcast_S1x128_S100000x128_0_1 _ (ix2 n c) (ix2 (0 : Fin 1) c) ?_, hdivf_apply,
    broadcastInDim_apply ![1] bcast_S128_S1x128_1 _ (ix2 (0 : Fin 1) c) (ix1 c) ?_, scal_apply, sumR_eq]
  · rfl
  · intro a
    match a with
    | ⟨0, _⟩ => rfl
  · intro a
    match a with
    | ⟨0, _⟩ => rfl
    | ⟨1, _⟩ => rfl

/-- The integer word 0 converted is the real 0, so the divisor 100000 − 0 is 100000. -/
theorem divisor_eq : subf nS (sitofp .f32 (constantI S_ 32 0#32)) ix0 = Gin.cN := by
  show Ideal.ofBits .f32 0x47C35000#32 - (((0#32 : BitVec 32).toInt : ℝ) : EReal) = Gin.cN
  have h0 : (((0#32 : BitVec 32).toInt : ℝ) : EReal) = 0 := by simp
  rw [h0, sub_zero]
  rfl

/-- 100000 − 0 is above zero: the selection's condition is the set bit. -/
theorem guard_eq : cmpf .ogt (subf nS (sitofp .f32 (constantI S_ 32 0#32))) zS ix0 = 1#1 := by
  rw [cmpf_apply, divisor_eq]
  show Ideal.cmp .ogt Gin.cN (Ideal.ofBits .f32 0x00000000#32) = 1#1
  rw [Ideal.ofBits_zero_f32, Gin.cN_eq]
  unfold Ideal.cmp
  have : (0 : EReal) < ((100000 : ℝ) : EReal) := by exact_mod_cast (by norm_num : (0 : ℝ) < 100000)
  simp [this]

/-- The program's variance is the mean of the squared deviations from the column's mean. -/
theorem varFnR_eq (z : FVec Ideal S100000x128 .f32) : varFnR z = Gin.varR z := by
  funext i
  obtain ⟨c, rfl⟩ : ∃ c : Fin 128, i = ix1 c := ⟨i 0, eq_ix1 i⟩
  unfold varFnR
  rw [select_apply, scal_apply, guard_eq, select_one, hdivf_apply, colsum_apply, scal_apply, divisor_eq]
  unfold Gin.varR
  refine congrArg (fun s => Ideal.div s Gin.cN) (Finset.sum_congr rfl (fun n _ => ?_))
  show mulf _ _ (ix2 n c) = (z (ix2 n c) - Gin.meanOf (Gin.colSum z) (ix1 c)) * (z (ix2 n c) - Gin.meanOf (Gin.colSum z) (ix1 c))
  rw [mulf_apply, subf_apply, meanRows_apply]

/-! ## The two affine maps -/

theorem dotA_apply (l : FVec Ideal S100000x64 .f32) (r : FVec Ideal S64x128 .f32) (n : Fin 100000) (c : Fin 128) :
    Host.dotGeneral dot_S100000x64_S64x128_S100000x128_1_0_0_1_n_n none l r (ix2 n c) = ∑ j : Fin 64, l (ix2 n j) * r (ix2 j c) :=
  mm_apply dot_S100000x64_S64x128_S100000x128_1_0_0_1_n_n_wf l r n c

theorem dotB_apply (l : FVec Ideal S100000x128 .f32) (r : FVec Ideal S128x128 .f32) (n : Fin 100000) (c : Fin 128) :
    Host.dotGeneral dot_S100000x128_S128x128_S100000x128_1_0_0_1_n_n none l r (ix2 n c) = ∑ j : Fin 128, l (ix2 n j) * r (ix2 j c) :=
  mm_apply dot_S100000x128_S128x128_S100000x128_1_0_0_1_n_n_wf l r n c

theorem dotC_apply (l : FVec Ideal S256x128 .f32) (r : FVec Ideal S128x128 .f32) (g : Fin 256) (c : Fin 128) :
    Host.dotGeneral dot_S256x128_S128x128_S256x128_1_0_0_1_n_n none l r (ix2 g c) = ∑ j : Fin 128, l (ix2 g j) * r (ix2 j c) :=
  mm_apply dot_S256x128_S128x128_S256x128_1_0_0_1_n_n_wf l r g c

/-- The first layer's two affine maps are the specification's. -/
theorem mlpR64_eq (u : FVec Ideal S100000x64 .f32) (w1 : FVec Ideal S64x128 .f32) (b1 : FVec Ideal S128 .f32)
    (w2 : FVec Ideal S128x128 .f32) (b2 : FVec Ideal S128 .f32) : mlpR64 u w1 b1 w2 b2 = Gin.mlp u w1 b1 w2 b2 := by
  funext i
  obtain ⟨n, c, rfl⟩ : ∃ (n : Fin 100000) (c : Fin 128), i = ix2 n c := ⟨i 0, i 1, eq_ix2 i⟩
  show _ = Gin.mlpAt u w1 b1 w2 b2 n c
  unfold mlpR64 Gin.mlpAt
  rw [addf_apply, dotB_apply, rowsR_apply]
  refine congrArg (fun s => s + b2 (ix1 c)) (Finset.sum_congr rfl (fun k _ => ?_))
  rw [reluR_apply, addf_apply, dotA_apply, rowsR_apply]

/-- … and so are the other layers'. -/
theorem mlpR128_eq (u : FVec Ideal S100000x128 .f32) (w1 : FVec Ideal S128x128 .f32) (b1 : FVec Ideal S128 .f32)
    (w2 : FVec Ideal S128x128 .f32) (b2 : FVec Ideal S128 .f32) : mlpR128 u w1 b1 w2 b2 = Gin.mlp u w1 b1 w2 b2 := by
  funext i
  obtain ⟨n, c, rfl⟩ : ∃ (n : Fin 100000) (c : Fin 128), i = ix2 n c := ⟨i 0, i 1, eq_ix2 i⟩
  show _ = Gin.mlpAt u w1 b1 w2 b2 n c
  unfold mlpR128 Gin.mlpAt
  rw [addf_apply, dotB_apply, rowsR_apply]
  refine congrArg (fun s => s + b2 (ix1 c)) (Finset.sum_congr rfl (fun k _ => ?_))
  rw [reluR_apply, addf_apply, dotB_apply, rowsR_apply]

/-! ## The normalization and a layer -/

theorem bnR_eq (z : FVec Ideal S100000x128 .f32) (g b : FVec Ideal S128 .f32) :
    bnR z g b = Gin.bnRelu z (Gin.meanOf (Gin.colSum z)) (Gin.varR z) g b := by
  funext i
  obtain ⟨n, c, rfl⟩ : ∃ (n : Fin 100000) (c : Fin 128), i = ix2 n c := ⟨i 0, i 1, eq_ix2 i⟩
  show _ = Gin.bnReluAt z (Gin.meanOf (Gin.colSum z)) (Gin.varR z) g b n c
  unfold bnR Gin.bnReluAt
  rw [reluR_apply, addf_apply, mulf_apply, mulf_apply, subf_apply, rowsR_apply, rowsR_apply, rowsR_apply, rowsR_apply,
    hrsqrt_apply, addf_apply, scal_apply, meanR_eq, varFnR_eq]
  rfl

theorem layerR64_eq (e : IVec S2x1600000 32) (h : FVec Ideal S100000x64 .f32) (w1 : FVec Ideal S64x128 .f32)
    (b1 : FVec Ideal S128 .f32) (w2 : FVec Ideal S128x128 .f32) (b2 g b : FVec Ideal S128 .f32) :
    layerR64 e h w1 b1 w2 b2 g b = Gin.layerWith Gin.varR h (aggR64 e h) w1 b1 w2 b2 g b := by
  unfold layerR64 Gin.layerWith
  rw [bnR_eq, mlpR64_eq]
  rfl

theorem layerR128_eq (e : IVec S2x1600000 32) (h : FVec Ideal S100000x128 .f32) (w1 : FVec Ideal S128x128 .f32)
    (b1 : FVec Ideal S128 .f32) (w2 : FVec Ideal S128x128 .f32) (b2 g b : FVec Ideal S128 .f32) :
    layerR128 e h w1 b1 w2 b2 g b = Gin.layerWith Gin.varR h (aggR128 e h) w1 b1 w2 b2 g b := by
  unfold layerR128 Gin.layerWith
  rw [bnR_eq, mlpR128_eq]
  rfl

/-! ## The pooling and the last affine map -/

/-- The words for zero and one. -/
theorem zS_apply : zS ix0 = (0 : EReal) := Ideal.ofBits_zero_f32
theorem oS_apply : oS ix0 = (1 : EReal) := Gin.ofBits_one

/-- The column of graph numbers reads, in row n, the graph number of node n. -/
theorem colR_apply (bt : IVec S100000 32) (n : Fin 100000) : colR bt (ix2 n (0 : Fin 1)) = bt (ix1 n) := by
  unfold colR
  refine broadcastInDim_apply ![0] bcast_S100000_S100000x1_0 bt (ix2 n (0 : Fin 1)) (ix1 n) ?_
  intro a
  match a with
  | ⟨0, _⟩ => rfl

/-- The two accumulating scatters by graph number are scatters of whole rows through a column of row numbers. -/
theorem scatterSum_dims : scatter_S256x128_S100000x1_S100000x128_1_0_0_1
    = RowTake.rowScatterDims 256 100000 128 scatter_S256x128_S100000x1_S100000x128_1_0_0_1_wf := rfl
theorem scatterCnt_dims : scatter_S256x1_S100000x1_S100000x1_1_0_0_1
    = RowTake.rowScatterDims 256 100000 1 scatter_S256x1_S100000x1_S100000x1_1_0_0_1_wf := rfl

/-- The rows added up by graph number into a zero matrix: the specification's pooled sums. -/
theorem poolSumR_apply (h : FVec Ideal S100000x128 .f32) (bt : IVec S100000 32) (g : Fin 256) (k : Fin 128) :
    Host.scatterAdd scatter_S256x128_S100000x1_S100000x128_1_0_0_1 (broadcastInDim S256x128 ![] bcast_S_S256x128 zS) (colR bt) h
      (ix2 g k) = Gin.poolSum h bt (ix2 g k) := by
  rw [Host.scatterAdd, Ideal.hostScatterAdd_def, scatterSum_dims, RowTake.rowScatterAdd_apply, scal_apply, zS_apply, zero_add]
  unfold Gin.poolSum
  refine Finset.sum_congr rfl (fun e _ => ?_)
  show (if (colR bt (ix2 e (0 : Fin 1))).toInt = (g.val : Int) then h (ix2 e k) else 0)
    = (if (bt (ix1 e)).toInt = (g.val : Int) then h (ix2 e k) else 0)
  rw [colR_apply]

/-- Ones added up by graph number into a zero column: the specification's counts. -/
theorem poolCntR_apply (bt : IVec S100000 32) (g : Fin 256) :
    Host.scatterAdd scatter_S256x1_S100000x1_S100000x1_1_0_0_1 (broadcastInDim S256x1 ![] bcast_S_S256x1 zS) (colR bt)
      (broadcastInDim S100000x1 ![] bcast_S_S100000x1 oS) (ix2 g (0 : Fin 1)) = Gin.poolCnt bt (ix1 g) := by
  rw [Host.scatterAdd, Ideal.hostScatterAdd_def, scatterCnt_dims, RowTake.rowScatterAdd_apply, scal_apply, zS_apply, zero_add]
  unfold Gin.poolCnt
  refine Finset.sum_congr rfl (fun e _ => ?_)
  show (if (colR bt (ix2 e (0 : Fin 1))).toInt = (g.val : Int) then
      broadcastInDim S100000x1 ![] bcast_S_S100000x1 oS (ix2 e (0 : Fin 1)) else 0)
    = (if (bt (ix1 e)).toInt = (g.val : Int) then (1 : EReal) else 0)
  rw [colR_apply, scal_apply, oS_apply]

/-- A column of 256 laid along the 128 columns reads, at (g, k), the column at g. -/
theorem cols256_apply (y : FVec Ideal S256x1 .f32) (g : Fin 256) (k : Fin 128) :
    broadcastInDim S256x128 ![0, 1] bcast_S256x1_S256x128_0_1 y (ix2 g k) = y (ix2 g (0 : Fin 1)) := by
  refine broadcastInDim_apply ![0, 1] bcast_S256x1_S256x128_0_1 y (ix2 g k) (ix2 g (0 : Fin 1)) ?_
  intro a
  match a with
  | ⟨0, _⟩ => rfl
  | ⟨1, _⟩ => rfl

/-- A vector of 128 laid along the 256 rows reads, at (g, c), the vector at c. -/
theorem rows256_apply (v : FVec Ideal S128 .f32) (g : Fin 256) (c : Fin 128) :
    broadcastInDim S256x128 ![0, 1] bcast_S1x128_S256x128_0_1 (broadcastInDim S1x128 ![1] bcast_S128_S1x128_1 v) (ix2 g c)
      = v (ix1 c) := by
  rw [broadcastInDim_apply ![0, 1] bcast_S1x128_S256x128_0_1 _ (ix2 g c) (ix2 (0 : Fin 1) c) ?_,
    broadcastInDim_apply ![1] bcast_S128_S1x128_1 v (ix2 (0 : Fin 1) c) (ix1 c) ?_]
  · intro a
    match a with
    | ⟨0, _⟩ => rfl
  · intro a
    match a with
    | ⟨0, _⟩ => rfl
    | ⟨1, _⟩ => rfl

/-- The pooling and the last affine map are the specification's head over the pooled sums and the counts. -/
theorem headR_eq (h : FVec Ideal S100000x128 .f32) (bt : IVec S100000 32) (pw : FVec Ideal S128x128 .f32)
    (pb : FVec Ideal S128 .f32) : headR h bt pw pb = Gin.head (Gin.poolSum h bt) (Gin.poolCnt bt) pw pb := by
  funext i
  obtain ⟨g, c, rfl⟩ : ∃ (g : Fin 256) (c : Fin 128), i = ix2 g c := ⟨i 0, i 1, eq_ix2 i⟩
  show _ = Gin.headAt (Gin.poolSum h bt) (Gin.poolCnt bt) pw pb g c
  unfold headR Gin.headAt
  rw [addf_apply, dotC_apply, rows256_apply]
  refine congrArg (fun s => s + pb (ix1 c)) (Finset.sum_congr rfl (fun k _ => ?_))
  rw [hdivf_apply, poolSumR_apply, cols256_apply, maximumf_apply, poolCntR_apply, scal_apply, oS_apply]

end AtEntry

open AtEntry

/-! ## The network -/

/-- The composed term is the network, the variance taken as the mean of the squared deviations. -/
theorem refNet_eq (x : FVec Ideal S100000x64 .f32) (e : IVec S2x1600000 32) (bt : IVec S100000 32)
    (w10 : FVec Ideal S64x128 .f32) (b10 : FVec Ideal S128 .f32) (w20 : FVec Ideal S128x128 .f32) (b20 g0 be0 : FVec Ideal S128 .f32)
    (w11 : FVec Ideal S128x128 .f32) (b11 : FVec Ideal S128 .f32) (w21 : FVec Ideal S128x128 .f32) (b21 g1 be1 : FVec Ideal S128 .f32)
    (w12 : FVec Ideal S128x128 .f32) (b12 : FVec Ideal S128 .f32) (w22 : FVec Ideal S128x128 .f32) (b22 g2 be2 : FVec Ideal S128 .f32)
    (pw : FVec Ideal S128x128 .f32) (pb : FVec Ideal S128 .f32) :
    refNet x e bt w10 b10 w20 b20 g0 be0 w11 b11 w21 b21 g1 be1 w12 b12 w22 b22 g2 be2 pw pb
      = Gin.net Gin.varR (aggR64 e) (aggR128 e) x bt w10 b10 w20 b20 g0 be0 w11 b11 w21 b21 g1 be1 w12 b12 w22 b22 g2 be2 pw pb := by
  unfold refNet
  rw [layerR64_eq, layerR128_eq, layerR128_eq, headR_eq]
  rfl

end Cert.ReferenceIdeal.RVal

end
-- ==== Proof.Agg.lean ====
/-
  The two programs compute the neighbourhood sums by the same host operations over the same dimension numbers, so
  the two chains are one function; and that function keeps a matrix of real numbers real: a row taken is a row of
  the matrix, and an entry of the result is zero plus a finite sum of entries of rows taken.
-/
import proofs.«423186_j27333171871744_1_alg».proof.Proof.Gen.KernelIdeal
import proofs.«423186_j27333171871744_1_alg».proof.Proof.Gen.ReferenceIdeal
import proofs.«423186_j27333171871744_1_alg».proof.Proof.KAgg
import proofs.«423186_j27333171871744_1_alg».proof.Proof.RAgg
import proofs.«423186_j27333171871744_1_alg».proof.Proof.Spec
import proofs.«423186_j27333171871744_1_alg».proof.Proof.Math
import proofs.«423186_j27333171871744_1_alg».proof.Proof.LibRowTake
import Idealize.ShloMosaic.Lib.ValueIdx
import Idealize.ShloMosaic.PureOps.Ideal.Laws

noncomputable section

open Idealize.ShloMosaic Idealize.ShloMosaic.ValueIdx

namespace Cert.Proof.Agg

/-- Rows of a real matrix taken through any column of row numbers and added up by any column of receivers into a
    real matrix give a real matrix: an entry of the result is the operand's entry plus a finite sum whose every term is
    an entry of a row taken, itself an entry of the matrix, or zero. -/
theorem rowTakeAdd_real {C : Nat}
    (wfg : GatherDims.WF ⟨2, ![100000, C]⟩ ⟨2, ![1600000, 1]⟩ ⟨2, ![1600000, C]⟩ [1] [0] [] [0] [] 1 ![1, C])
    (wfs : ScatterDims.WF ⟨2, ![100000, C]⟩ ⟨2, ![1600000, 1]⟩ ⟨2, ![1600000, C]⟩ [1] [0] [0] 1)
    (x : Gin.Mat 100000 C) (hx : Gin.AllReal x) (h : Gin.Mat 100000 C) (hh : Gin.AllReal h)
    (src dst : IVec ⟨2, ![1600000, 1]⟩ 32) :
    Gin.AllReal (s := ⟨2, ![100000, C]⟩)
      (Ideal.hostScatterAdd (RowTake.rowScatterDims 100000 1600000 C wfs) x dst
        (Host.gather (RowTake.rowGatherDims 100000 1600000 C wfg) h src)) := by
  intro i
  obtain ⟨n, c, rfl⟩ : ∃ n c, i = ix2 n c := ⟨i 0, i 1, eq_ix2 i⟩
  rw [RowTake.rowScatterAdd_apply]
  refine Gin.real_add (hx _) (Gin.real_sum _ _ fun e => ?_)
  split_ifs
  · rw [RowTake.rowGather_apply (by norm_num)]
    exact hh _
  · exact ⟨0, rfl⟩

/-- The zero word spread over a matrix is a matrix of the real number zero. -/
theorem zeroMat_real {t : Shape} (hb : (⟨0, ![]⟩ : Shape).BroadcastsInDim t (![] : Fin 0 → Fin t.rank)) :
    Gin.AllReal (broadcastInDim t ![] hb (constant (F := Ideal) ⟨0, ![]⟩ .f32 0x00000000#32)) := by
  intro i
  exact ⟨0, Ideal.ofBits_zero_f32⟩

/-- The kernel's chain and the reference's are one function, at 64 columns … -/
theorem aggK64_eq (e : IVec Cert.KernelIdeal.S2x1600000 32) (h : Gin.Mat Gin.NN 64) :
    Cert.KernelIdeal.KVal.aggK64 e h = Cert.ReferenceIdeal.RVal.aggR64 e h := by
  rfl
/-- … and at 128. -/
theorem aggK128_eq (e : IVec Cert.KernelIdeal.S2x1600000 32) (h : Gin.Mat Gin.NN 128) :
    Cert.KernelIdeal.KVal.aggK128 e h = Cert.ReferenceIdeal.RVal.aggR128 e h := by
  rfl

/-- The neighbourhood sums of a real matrix are real, at 64 columns … -/
theorem aggR64_real (e : IVec Cert.ReferenceIdeal.S2x1600000 32) (h : Gin.Mat Gin.NN 64) (hh : Gin.AllReal h) :
    Gin.AllReal (s := ⟨2, ![100000, 64]⟩) (Cert.ReferenceIdeal.RVal.aggR64 e h) := by
  exact rowTakeAdd_real _ _ _ (zeroMat_real _) h hh _ _
/-- … and at 128. -/
theorem aggR128_real (e : IVec Cert.ReferenceIdeal.S2x1600000 32) (h : Gin.Mat Gin.NN 128) (hh : Gin.AllReal h) :
    Gin.AllReal (s := ⟨2, ![100000, 128]⟩) (Cert.ReferenceIdeal.RVal.aggR128 e h) := by
  exact rowTakeAdd_real _ _ _ (zeroMat_real _) h hh _ _

end Cert.Proof.Agg

end
-- ==== Proof.PreReal.lean ====
/-
  The precondition read: it says of every float argument that all its entries have absolute value below +∞, as one
  bit; so every entry of every float argument is a real number.
-/
import proofs.«423186_j27333171871744_1_alg».proof.Defs
import proofs.«423186_j27333171871744_1_alg».proof.Proof.Gen.KernelIdeal
import proofs.«423186_j27333171871744_1_alg».proof.Proof.Gen.Pre_finite_inputs
import proofs.«423186_j27333171871744_1_alg».proof.Proof.Spec
import Idealize.ShloMosaic.Lib.ReduceAll
import Idealize.ShloMosaic.Lib.ValueIdx

noncomputable section

open Idealize.ShloMosaic Idealize.ShloMosaic.ValueIdx Idealize.SL.Sem

namespace Cert.Proof.PreReal

open Cert.KernelIdeal

/-- A one-bit word made from a truth value is the set bit only when the value is true. -/
theorem ofBool_one {b : Bool} (h : BitVec.ofBool b = 1#1) : b = true := by
  cases b
  · exact absurd h (by decide)
  · rfl

/-- The float word with all exponent bits set and no fraction bits is +∞. -/
theorem ofBits_inf : Ideal.ofBits .f32 0x7F800000#32 = (⊤ : EReal) := by
  simp [Ideal.ofBits, Ideal.ieee]

/-- An extended real whose absolute value max(x, −x) is below +∞ is neither infinity, so it is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- If the conjunction over all entries of "|x| < +∞" is the set bit, every entry of x is a real number: the
    conjunction being set makes each entry's comparison set, and the comparison is the order of the extended reals. -/
theorem allReal_of_all_lt_inf {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (init : Cert.Pre_finite_inputs.S_.Idx → BitVec 1) (j : Cert.Pre_finite_inputs.S_.Idx)
    (e : Host.reduce IntOp.andi
        (cmpf .olt (Host.absf (F := Ideal) (φ := .f32) x)
          (broadcastInDim s ![] hb (constant (F := Ideal) Cert.Pre_finite_inputs.S_ .f32 0x7F800000#32)))
        init hr hu j = 1#1) : Gin.AllReal x := by
  haveI : Subsingleton Cert.Pre_finite_inputs.S_.Idx := ⟨fun a b => funext fun d => d.elim0⟩
  intro i
  have hi := Host.reduce_andi_all _ init hr hu j e i
  have hi' : BitVec.ofBool (decide (max (x i) (-(x i)) < Ideal.ofBits .f32 0x7F800000#32)) = 1#1 := hi
  rw [ofBits_inf] at hi'
  exact real_of_abs_lt_top (x i) (of_decide_eq_true (ofBool_one hi'))

/-- Under the precondition every entry of the 21 float arguments is a real number. -/
theorem pre_real (m : (ℓ : Loc nD τ sig) → Buf (Elt Ideal) ℓ) (h : Cert.Pre_KernelIdeal m) (c : Dev nD) :
    Gin.AllReal (s := ⟨2, ![100000, 64]⟩) (m ((c.tc : Thread nD τ).loc main_arg0))
      ∧ Gin.AllReal (s := ⟨2, ![64, 128]⟩) (m ((c.tc : Thread nD τ).loc main_arg3))
      ∧ Gin.AllReal (s := ⟨1, ![128]⟩) (m ((c.tc : Thread nD τ).loc main_arg4))
      ∧ Gin.AllReal (s := ⟨2, ![128, 128]⟩) (m ((c.tc : Thread nD τ).loc main_arg5))
      ∧ Gin.AllReal (s := ⟨1, ![128]⟩) (m ((c.tc : Thread nD τ).loc main_arg6))
      ∧ Gin.AllReal (s := ⟨1, ![128]⟩) (m ((c.tc : Thread nD τ).loc main_arg7))
      ∧ Gin.AllReal (s := ⟨1, ![128]⟩) (m ((c.tc : Thread nD τ).loc main_arg8))
      ∧ Gin.AllReal (s := ⟨2, ![128, 128]⟩) (m ((c.tc : Thread nD τ).loc main_arg9))
      ∧ Gin.AllReal (s := ⟨1, ![128]⟩) (m ((c.tc : Thread nD τ).loc main_arg10))
      ∧ Gin.AllReal (s := ⟨2, ![128, 128]⟩) (m ((c.tc : Thread nD τ).loc main_arg11))
      ∧ Gin.AllReal (s := ⟨1, ![128]⟩) (m ((c.tc : Thread nD τ).loc main_arg12))
      ∧ Gin.AllReal (s := ⟨1, ![128]⟩) (m ((c.tc : Thread nD τ).loc main_arg13))
      ∧ Gin.AllReal (s := ⟨1, ![128]⟩) (m ((c.tc : Thread nD τ).loc main_arg14))
      ∧ Gin.AllReal (s := ⟨2, ![128, 128]⟩) (m ((c.tc : Thread nD τ).loc main_arg15))
      ∧ Gin.AllReal (s := ⟨1, ![128]⟩) (m ((c.tc : Thread nD τ).loc main_arg16))
      ∧ Gin.AllReal (s := ⟨2, ![128, 128]⟩) (m ((c.tc : Thread nD τ).loc main_arg17))
      ∧ Gin.AllReal (s := ⟨1, ![128]⟩) (m ((c.tc : Thread nD τ).loc main_arg18))
      ∧ Gin.AllReal (s := ⟨1, ![128]⟩) (m ((c.tc : Thread nD τ).loc main_arg19))
      ∧ Gin.AllReal (s := ⟨1, ![128]⟩) (m ((c.tc : Thread nD τ).loc main_arg20))
      ∧ Gin.AllReal (s := ⟨2, ![128, 128]⟩) (m ((c.tc : Thread nD τ).loc main_arg21))
      ∧ Gin.AllReal (s := ⟨1, ![128]⟩) (m ((c.tc : Thread nD τ).loc main_arg22)) := by
  -- the precondition at the one index of its one-bit result, as the conjunction of the 21 arguments' bits
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, andi] at h0
  simp only [IntOp.andi_eq_one] at h0
  obtain ⟨⟨⟨⟨⟨⟨⟨⟨⟨⟨⟨⟨⟨⟨⟨⟨⟨⟨⟨⟨a0, a3⟩, a4⟩, a5⟩, a6⟩, a7⟩, a8⟩, a9⟩, a10⟩, a11⟩, a12⟩, a13⟩, a14⟩, a15⟩, a16⟩, a17⟩, a18⟩,
    a19⟩, a20⟩, a21⟩, a22⟩ := h0
  exact ⟨allReal_of_all_lt_inf _ _ _ _ _ _ a0, allReal_of_all_lt_inf _ _ _ _ _ _ a3,
    allReal_of_all_lt_inf _ _ _ _ _ _ a4, allReal_of_all_lt_inf _ _ _ _ _ _ a5,
    allReal_of_all_lt_inf _ _ _ _ _ _ a6, allReal_of_all_lt_inf _ _ _ _ _ _ a7,
    allReal_of_all_lt_inf _ _ _ _ _ _ a8, allReal_of_all_lt_inf _ _ _ _ _ _ a9,
    allReal_of_all_lt_inf _ _ _ _ _ _ a10, allReal_of_all_lt_inf _ _ _ _ _ _ a11,
    allReal_of_all_lt_inf _ _ _ _ _ _ a12, allReal_of_all_lt_inf _ _ _ _ _ _ a13,
    allReal_of_all_lt_inf _ _ _ _ _ _ a14, allReal_of_all_lt_inf _ _ _ _ _ _ a15,
    allReal_of_all_lt_inf _ _ _ _ _ _ a16, allReal_of_all_lt_inf _ _ _ _ _ _ a17,
    allReal_of_all_lt_inf _ _ _ _ _ _ a18, allReal_of_all_lt_inf _ _ _ _ _ _ a19,
    allReal_of_all_lt_inf _ _ _ _ _ _ a20, allReal_of_all_lt_inf _ _ _ _ _ _ a21,
    allReal_of_all_lt_inf _ _ _ _ _ _ a22⟩

end Cert.Proof.PreReal

end
-- ==== Proof.lean ====
/-
  The certificate of a three-layer graph network on the TPU against its jnp reference, over the extended reals.

  Both programs take node features x : [100000, 64], an edge list, a graph number per node, and the weights of three
  layers and of a last affine map. A layer adds to each node's features the sum of its in-neighbours' features (the
  same host gather and accumulating scatter in both programs), sends every row through two affine maps with a clamp
  at zero between them, normalizes every column by its mean and variance over the 100000 rows, scales, shifts and
  clamps. The rows of the last layer are then summed by graph number, divided by the number of rows of each graph
  (at least one), and sent through the last affine map.

  The kernel computes a layer in two grid passes over 50 blocks of 2000 rows — the perceptron with running column sums
  of z and of z², then the normalization with mean = Σz / N and variance = Σz² / N − mean² — and pools by comparing
  each row's graph number with 0 … 255 and contracting the comparison with the rows. The reference takes the variance
  as the mean of the squared deviations and pools by an accumulating scatter. The two agree:
    • a matrix product, a column sum and a pooled sum are finite sums on both sides, whatever their order or tiling;
    • a graph number outside 0 … 255 names no graph on either side (the scatter drops it, the comparison never holds);
    • Σz² / N − (Σz / N)² = Σ(z − Σz / N)² / N as soon as every z is a real number and N is the number of rows, which
      is what the precondition gives: real inputs stay real through every layer, the variance being a mean of squares
      and its guard positive.
  The frames of the two kernel programs are the generated ones; the reference's frame is its run with the result
  dropped; the idealization rewrote nothing.
-/
import proofs.«423186_j27333171871744_1_alg».proof.Defs
import proofs.«423186_j27333171871744_1_alg».proof.Proof.Gen.Kernel
import proofs.«423186_j27333171871744_1_alg».proof.Proof.Gen.Kernel.Skeleton
import proofs.«423186_j27333171871744_1_alg».proof.Proof.Gen.Kernel.Launch
import proofs.«423186_j27333171871744_1_alg».proof.Proof.Gen.Kernel.Points
import proofs.«423186_j27333171871744_1_alg».proof.Proof.Gen.Kernel.Frame
import proofs.«423186_j27333171871744_1_alg».proof.Proof.Gen.KernelIdeal
import proofs.«423186_j27333171871744_1_alg».proof.Proof.Gen.KernelIdeal.Skeleton
import proofs.«423186_j27333171871744_1_alg».proof.Proof.Gen.KernelIdeal.Launch
import proofs.«423186_j27333171871744_1_alg».proof.Proof.Gen.KernelIdeal.Points
import proofs.«423186_j27333171871744_1_alg».proof.Proof.Gen.KernelIdeal.Frame
import proofs.«423186_j27333171871744_1_alg».proof.Proof.Gen.ReferenceIdeal
import proofs.«423186_j27333171871744_1_alg».proof.Proof.Gen.Pre_finite_inputs
import proofs.«423186_j27333171871744_1_alg».proof.Proof.Spec
import proofs.«423186_j27333171871744_1_alg».proof.Proof.Math
import proofs.«423186_j27333171871744_1_alg».proof.Proof.KRun
import proofs.«423186_j27333171871744_1_alg».proof.Proof.KRegIface
import proofs.«423186_j27333171871744_1_alg».proof.Proof.KReg0
import proofs.«423186_j27333171871744_1_alg».proof.Proof.KReg1
import proofs.«423186_j27333171871744_1_alg».proof.Proof.KReg2
import proofs.«423186_j27333171871744_1_alg».proof.Proof.KReg3
import proofs.«423186_j27333171871744_1_alg».proof.Proof.KReg4
import proofs.«423186_j27333171871744_1_alg».proof.Proof.KReg5
import proofs.«423186_j27333171871744_1_alg».proof.Proof.KReg6
import proofs.«423186_j27333171871744_1_alg».proof.Proof.KFold
import proofs.«423186_j27333171871744_1_alg».proof.Proof.RRun
import proofs.«423186_j27333171871744_1_alg».proof.Proof.RSpec
import proofs.«423186_j27333171871744_1_alg».proof.Proof.Agg
import proofs.«423186_j27333171871744_1_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RVal.run_term m ρ)

theorem preserves : Cert.preserves_Kernel_KernelIdeal := trivial

/-- What the seven regions leave in their arrays, from the region modules. -/
theorem regionValues : Cert.KernelIdeal.KVal.RegionValues where
  z0 := Cert.KernelIdeal.KVal.Reg0.reg0_z
  sum0 := Cert.KernelIdeal.KVal.Reg0.reg0_sum
  sq0 := Cert.KernelIdeal.KVal.Reg0.reg0_sumsq
  out1 := Cert.KernelIdeal.KVal.Reg1.reg1_out
  z2 := Cert.KernelIdeal.KVal.Reg2.reg2_z
  sum2 := Cert.KernelIdeal.KVal.Reg2.reg2_sum
  sq2 := Cert.KernelIdeal.KVal.Reg2.reg2_sumsq
  out3 := Cert.KernelIdeal.KVal.Reg3.reg3_out
  z4 := Cert.KernelIdeal.KVal.Reg4.reg4_z
  sum4 := Cert.KernelIdeal.KVal.Reg4.reg4_sum
  sq4 := Cert.KernelIdeal.KVal.Reg4.reg4_sumsq
  out5 := Cert.KernelIdeal.KVal.Reg5.reg5_out
  sum6 := Cert.KernelIdeal.KVal.Reg6.reg6_sum
  cnt6 := Cert.KernelIdeal.KVal.Reg6.reg6_cnt

/-- The two results as one equation over the argument arrays: the reference's composed term of arrays that agree with
    the kernel's is the network of the kernel's arrays with the kernel's form of the variance — the composed term is the
    network with the reference's form, the two programs' neighbourhood sums are one function that keeps real matrices
    real, and with real inputs the variance may be taken either way. -/
theorem bridge (x x' : Gin.Mat Gin.NN 64) (e e' : IVec Cert.KernelIdeal.S2x1600000 32) (bt bt' : Gin.Wd Gin.NN) (w10 w10' : Gin.Mat 64 128) (b10 b10' : Gin.Vc 128) (w20 w20' : Gin.Mat 128 128) (b20 b20' : Gin.Vc 128) (g0 g0' : Gin.Vc 128) (be0 be0' : Gin.Vc 128) (w11 w11' : Gin.Mat 128 128) (b11 b11' : Gin.Vc 128) (w21 w21' : Gin.Mat 128 128) (b21 b21' : Gin.Vc 128) (g1 g1' : Gin.Vc 128) (be1 be1' : Gin.Vc 128) (w12 w12' : Gin.Mat 128 128) (b12 b12' : Gin.Vc 128) (w22 w22' : Gin.Mat 128 128) (b22 b22' : Gin.Vc 128) (g2 g2' : Gin.Vc 128) (be2 be2' : Gin.Vc 128) (pw pw' : Gin.Mat 128 128) (pb pb' : Gin.Vc 128)
    (h0 : x' = x) (h1 : e' = e) (h2 : bt' = bt) (h3 : w10' = w10) (h4 : b10' = b10) (h5 : w20' = w20) (h6 : b20' = b20) (h7 : g0' = g0) (h8 : be0' = be0) (h9 : w11' = w11) (h10 : b11' = b11) (h11 : w21' = w21) (h12 : b21' = b21) (h13 : g1' = g1) (h14 : be1' = be1) (h15 : w12' = w12) (h16 : b12' = b12) (h17 : w22' = w22) (h18 : b22' = b22) (h19 : g2' = g2) (h20 : be2' = be2) (h21 : pw' = pw) (h22 : pb' = pb)
    (r0 : Gin.AllReal x) (r3 : Gin.AllReal w10) (r4 : Gin.AllReal b10) (r5 : Gin.AllReal w20) (r6 : Gin.AllReal b20) (r7 : Gin.AllReal g0) (r8 : Gin.AllReal be0) (r9 : Gin.AllReal w11) (r10 : Gin.AllReal b11) (r11 : Gin.AllReal w21) (r12 : Gin.AllReal b21) (r13 : Gin.AllReal g1) (r14 : Gin.AllReal be1) (r15 : Gin.AllReal w12) (r16 : Gin.AllReal b12) (r17 : Gin.AllReal w22) (r18 : Gin.AllReal b22) :
    Cert.ReferenceIdeal.RVal.refNet x' e' bt' w10' b10' w20' b20' g0' be0' w11' b11' w21' b21' g1' be1' w12' b12' w22' b22' g2' be2' pw' pb'
      = Gin.net Gin.varK (Cert.KernelIdeal.KVal.aggK64 e) (Cert.KernelIdeal.KVal.aggK128 e) x bt w10 b10 w20 b20 g0 be0 w11 b11 w21 b21 g1 be1 w12 b12 w22 b22 g2 be2 pw pb := by
  subst h0 h1 h2 h3 h4 h5 h6 h7 h8 h9 h10 h11 h12 h13 h14 h15 h16 h17 h18 h19 h20 h21 h22
  rw [Cert.ReferenceIdeal.RVal.refNet_eq,
    show Cert.KernelIdeal.KVal.aggK64 e' = Cert.ReferenceIdeal.RVal.aggR64 e' from funext fun h => Cert.Proof.Agg.aggK64_eq _ h,
    show Cert.KernelIdeal.KVal.aggK128 e' = Cert.ReferenceIdeal.RVal.aggR128 e' from funext fun h => Cert.Proof.Agg.aggK128_eq _ h]
  exact (Gin.net_var_eq _ _ (fun h hh => Cert.Proof.Agg.aggR64_real _ h hh) (fun h hh => Cert.Proof.Agg.aggR128_real _ h hh)
    _ _ _ _ _ _ _ _ _ _ _ _ _ _ _ _ _ _ _ _ _ _ r0 r3 r4 r5 r6 r7 r8 r9 r10 r11 r12 r13 r14 r15 r16 r17 r18).symm

/-- The common value of the two results: the network of the kernel's arguments, the variance taken either way. -/
theorem algebraic : Cert.algebraic_KernelIdeal_ReferenceIdeal := by
  intro m ρ m' ρ' hpre hagree
  refine ⟨fun c => Gin.net Gin.varK (Cert.KernelIdeal.KVal.aggK64 (m ((c.tc : Thread Cert.KernelIdeal.nD Cert.KernelIdeal.τ).loc Cert.KernelIdeal.main_arg1))) (Cert.KernelIdeal.KVal.aggK128 (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22)), ?_, ?_⟩
  · exact (θ_run Cert.KernelIdeal.defs _ _).mono
      (fun _ h c => ⟨(h c).1.trans (Cert.KernelIdeal.KVal.W15_result m ρ regionValues c), (h c).2⟩)
      (Cert.KernelIdeal.KVal.run_W (F := Ideal) m ρ)
  · refine (θ_run Cert.ReferenceIdeal.defs _ _).mono (fun _ h c => ⟨(h c).1.trans ?_, (h c).2⟩)
      (Cert.ReferenceIdeal.RVal.run_term m' ρ')
    obtain ⟨a0, a1, a2, a3, a4, a5, a6, a7, a8, a9, a10, a11, a12, a13, a14, a15, a16, a17, a18, a19, a20, a21, a22⟩ := hagree c
    obtain ⟨r0, r3, r4, r5, r6, r7, r8, r9, r10, r11, r12, r13, r14, r15, r16, r17, r18, r19, r20, r21, r22⟩ := Cert.Proof.PreReal.pre_real m hpre c
    exact bridge _ _ _ _ _ _ _ _ _ _ _ _ _ _ _ _ _ _ _ _ _ _ _ _ _ _ _ _ _ _ _ _ _ _ _ _ _ _ _ _ _ _ _ _ _ _ a0 a1 a2 a3 a4 a5 a6 a7 a8 a9 a10 a11 a12 a13 a14 a15 a16 a17 a18 a19 a20 a21 a22 r0 r3 r4 r5 r6 r7 r8 r9 r10 r11 r12 r13 r14 r15 r16 r17 r18

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
